-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x16x256 : Shape := ⟨3, ![256, 16, 256]⟩
abbrev S256x16 : Shape := ⟨2, ![256, 16]⟩
abbrev S_ : Shape := ⟨0, ![]⟩

class Facts : Prop where
  bcast_S_S256x16x256 : S_.BroadcastsInDim S256x16x256 (![] : Fin 0 → Fin S256x16x256.rank)
  reducesTo_S256x16x256_S_d0_1_2 : S256x16x256.ReducesTo [0, 1, 2] S_
  h_S_ : 0 < S_.numel
  reducesTo_S256x16x256_S256x16_d2 : S256x16x256.ReducesTo [2] S256x16
  bcast_S_S256x16 : S_.BroadcastsInDim S256x16 (![] : Fin 0 → Fin S256x16.rank)
  reducesTo_S256x16_S_d0_1 : S256x16.ReducesTo [0, 1] S_

variable [Facts]

def fn_part2 {F : FTy → Type} [FloatOps F] (main_arg3 : FVec F S256x16x256 .f32) (main_v30 : IVec S_ 1) (main_v32 : FVec F S256x16 .f32) : IVec S_ 1 :=
  let main_cst_13 : FVec F S_ .f32 := constant S_ .f32 0x00000000#32
  let main_v33 : FVec F S256x16 .f32 := broadcastInDim S256x16 ![] bcast_S_S256x16 main_cst_13
  let main_v34 : IVec S256x16 1 := cmpf .ogt main_v32 main_v33
  let main_c_14 : IVec S_ 1 := constantI S_ 1 1#1
  let main_v35 : IVec S_ 1 := (fun x v => Host.reduce IntOp.andi x v reducesTo_S256x16_S_d0_1 h_S_) main_v34 main_c_14
  let main_v36 : IVec S_ 1 := andi main_v30 main_v35
  let main_v37 : FVec F S256x16x256 .f32 := mulf main_arg3 main_arg3
  let main_cst_15 : FVec F S_ .f32 := constant S_ .f32 0x00000000#32
  let main_v38 : FVec F S256x16 .f32 := (fun x v => Host.reduceAdd x v reducesTo_S256x16x256_S256x16_d2 h_S_) main_v37 main_cst_15
  let main_cst_16 : FVec F S_ .f32 := constant S_ .f32 0x00000000#32
  let main_v39 : FVec F S256x16 .f32 := broadcastInDim S256x16 ![] bcast_S_S256x16 main_cst_16
  let main_v40 : IVec S256x16 1 := cmpf .ogt main_v38 main_v39
  let main_c_17 : IVec S_ 1 := constantI S_ 1 1#1
  let main_v41 : IVec S_ 1 := (fun x v => Host.reduce IntOp.andi x v reducesTo_S256x16_S_d0_1 h_S_) main_v40 main_c_17
  let main_v42 : IVec S_ 1 := andi main_v36 main_v41
  main_v42

def fn_part1 {F : FTy → Type} [FloatOps F] (main_arg0 : FVec F S256x16x256 .f32) (main_arg1 : FVec F S256x16x256 .f32) (main_arg2 : FVec F S256x16x256 .f32) (main_arg3 : FVec F S256x16x256 .f32) (main_v13 : IVec S_ 1) (main_v16 : IVec S256x16x256 1) : IVec S_ 1 :=
  let main_c_5 : IVec S_ 1 := constantI S_ 1 1#1
  let main_v17 : IVec S_ 1 := (fun x v => Host.reduce IntOp.andi x v reducesTo_S256x16x256_S_d0_1_2 h_S_) main_v16 main_c_5
  let main_v18 : IVec S_ 1 := andi main_v13 main_v17
  let main_v19 : FVec F S256x16x256 .f32 := mulf main_arg0 main_arg0
  let main_cst_6 : FVec F S_ .f32 := constant S_ .f32 0x00000000#32
  let main_v20 : FVec F S256x16 .f32 := (fun x v => Host.reduceAdd x v reducesTo_S256x16x256_S256x16_d2 h_S_) main_v19 main_cst_6
  let main_cst_7 : FVec F S_ .f32 := constant S_ .f32 0x00000000#32
  let main_v21 : FVec F S256x16 .f32 := broadcastInDim S256x16 ![] bcast_S_S256x16 main_cst_7
  let main_v22 : IVec S256x16 1 := cmpf .ogt main_v20 main_v21
  let main_c_8 : IVec S_ 1 := constantI S_ 1 1#1
  let main_v23 : IVec S_ 1 := (fun x v => Host.reduce IntOp.andi x v reducesTo_S256x16_S_d0_1 h_S_) main_v22 main_c_8
  let main_v24 : IVec S_ 1 := andi main_v18 main_v23
  let main_v25 : FVec F S256x16x256 .f32 := mulf main_arg1 main_arg1
  let main_cst_9 : FVec F S_ .f32 := constant S_ .f32 0x00000000#32
  let main_v26 : FVec F S256x16 .f32 := (fun x v => Host.reduceAdd x v reducesTo_S256x16x256_S256x16_d2 h_S_) main_v25 main_cst_9
  let main_cst_10 : FVec F S_ .f32 := constant S_ .f32 0x00000000#32
  let main_v27 : FVec F S256x16 .f32 := broadcastInDim S256x16 ![] bcast_S_S256x16 main_cst_10
  let main_v28 : IVec S256x16 1 := cmpf .ogt main_v26 main_v27
  let main_c_11 : IVec S_ 1 := constantI S_ 1 1#1
  let main_v29 : IVec S_ 1 := (fun x v => Host.reduce IntOp.andi x v reducesTo_S256x16_S_d0_1 h_S_) main_v28 main_c_11
  let main_v30 : IVec S_ 1 := andi main_v24 main_v29
  let main_v31 : FVec F S256x16x256 .f32 := mulf main_arg2 main_arg2
  let main_cst_12 : FVec F S_ .f32 := constant S_ .f32 0x00000000#32
  let main_v32 : FVec F S256x16 .f32 := (fun x v => Host.reduceAdd x v reducesTo_S256x16x256_S256x16_d2 h_S_) main_v31 main_cst_12
  fn_part2 (F := F) main_arg3 main_v30 main_v32

def fn {F : FTy → Type} [FloatOps F] (main_arg0 : FVec F S256x16x256 .f32) (main_arg1 : FVec F S256x16x256 .f32) (main_arg2 : FVec F S256x16x256 .f32) (main_arg3 : FVec F S256x16x256 .f32) (main_arg4 : IVec S256x16 32) (main_arg5 : IVec S256x16 32) (main_arg6 : IVec S256x16 32) (main_arg7 : IVec S256x16 32) : IVec S_ 1 :=
  let main_v0 : FVec F S256x16x256 .f32 := Host.absf main_arg0
  let main_cst : FVec F S_ .f32 := constant S_ .f32 0x7F800000#32
  let main_v1 : FVec F S256x16x256 .f32 := broadcastInDim S256x16x256 ![] bcast_S_S256x16x256 main_cst
  let main_v2 : IVec S256x16x256 1 := cmpf .olt main_v0 main_v1
  let main_c : IVec S_ 1 := constantI S_ 1 1#1
  let main_v3 : IVec S_ 1 := (fun x v => Host.reduce IntOp.andi x v reducesTo_S256x16x256_S_d0_1_2 h_S_) main_v2 main_c
  let main_v4 : FVec F S256x16x256 .f32 := Host.absf main_arg1
  let main_cst_0 : FVec F S_ .f32 := constant S_ .f32 0x7F800000#32
  let main_v5 : FVec F S256x16x256 .f32 := broadcastInDim S256x16x256 ![] bcast_S_S256x16x256 main_cst_0
  let main_v6 : IVec S256x16x256 1 := cmpf .olt main_v4 main_v5
  let main_c_1 : IVec S_ 1 := constantI S_ 1 1#1
  let main_v7 : IVec S_ 1 := (fun x v => Host.reduce IntOp.andi x v reducesTo_S256x16x256_S_d0_1_2 h_S_) main_v6 main_c_1
  let main_v8 : IVec S_ 1 := andi main_v3 main_v7
  let main_v9 : FVec F S256x16x256 .f32 := Host.absf main_arg2
  let main_cst_2 : FVec F S_ .f32 := constant S_ .f32 0x7F800000#32
  let main_v10 : FVec F S256x16x256 .f32 := broadcastInDim S256x16x256 ![] bcast_S_S256x16x256 main_cst_2
  let main_v11 : IVec S256x16x256 1 := cmpf .olt main_v9 main_v10
  let main_c_3 : IVec S_ 1 := constantI S_ 1 1#1
  let main_v12 : IVec S_ 1 := (fun x v => Host.reduce IntOp.andi x v reducesTo_S256x16x256_S_d0_1_2 h_S_) main_v11 main_c_3
  let main_v13 : IVec S_ 1 := andi main_v8 main_v12
  let main_v14 : FVec F S256x16x256 .f32 := Host.absf main_arg3
  let main_cst_4 : FVec F S_ .f32 := constant S_ .f32 0x7F800000#32
  let main_v15 : FVec F S256x16x256 .f32 := broadcastInDim S256x16x256 ![] bcast_S_S256x16x256 main_cst_4
  let main_v16 : IVec S256x16x256 1 := cmpf .olt main_v14 main_v15
  fn_part1 (F := F) main_arg0 main_arg1 main_arg2 main_arg3 main_v13 main_v16
-- ==== Kernel.lean ====
abbrev S256x16x256 : Shape := ⟨3, ![256, 16, 256]⟩
abbrev S256x16 : Shape := ⟨2, ![256, 16]⟩
abbrev S_ : Shape := ⟨0, ![]⟩
abbrev S256x16x1 : Shape := ⟨3, ![256, 16, 1]⟩
abbrev S4096x256 : Shape := ⟨2, ![4096, 256]⟩
abbrev S4096 : Shape := ⟨1, ![4096]⟩
abbrev S4096x1 : Shape := ⟨2, ![4096, 1]⟩
abbrev S1x4096 : Shape := ⟨2, ![1, 4096]⟩
abbrev S512x256 : Shape := ⟨2, ![512, 256]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 65
  | .vmem => 34
  | .smem => 0
  | _ => 0

abbrev bufTy : (tb : Table) → Fin (tcTables nBuf tb) → BufTy
  | .hbm, ⟨0, _⟩ => ⟨S256x16x256, .f32⟩
  | .hbm, ⟨1, _⟩ => ⟨S256x16x256, .f32⟩
  | .hbm, ⟨2, _⟩ => ⟨S256x16x256, .f32⟩
  | .hbm, ⟨3, _⟩ => ⟨S256x16x256, .f32⟩
  | .hbm, ⟨4, _⟩ => ⟨S256x16, .i32⟩
  | .hbm, ⟨5, _⟩ => ⟨S256x16, .i32⟩
  | .hbm, ⟨6, _⟩ => ⟨S256x16, .i32⟩
  | .hbm, ⟨7, _⟩ => ⟨S256x16, .i32⟩
  | .hbm, ⟨8, _⟩ => ⟨S256x16x256, .f32⟩
  | .hbm, ⟨9, _⟩ => ⟨S_, .f32⟩
  | .hbm, ⟨10, _⟩ => ⟨S256x16, .f32⟩
  | .hbm, ⟨11, _⟩ => ⟨S256x16x1, .f32⟩
  | .hbm, ⟨12, _⟩ => ⟨S256x16x1, .f32⟩
  | .hbm, ⟨13, _⟩ => ⟨S256x16x256, .f32⟩
  | .hbm, ⟨14, _⟩ => ⟨S256x16x256, .f32⟩
  | .hbm, ⟨15, _⟩ => ⟨S4096x256, .f32⟩
  | .hbm, ⟨16, _⟩ => ⟨S4096x256, .bf16⟩
  | .hbm, ⟨17, _⟩ => ⟨S256x16x256, .f32⟩
  | .hbm, ⟨18, _⟩ => ⟨S_, .f32⟩
  | .hbm, ⟨19, _⟩ => ⟨S256x16, .f32⟩
  | .hbm, ⟨20, _⟩ => ⟨S256x16x1, .f32⟩
  | .hbm, ⟨21, _⟩ => ⟨S256x16x1, .f32⟩
  | .hbm, ⟨22, _⟩ => ⟨S256x16x256, .f32⟩
  | .hbm, ⟨23, _⟩ => ⟨S256x16x256, .f32⟩
  | .hbm, ⟨24, _⟩ => ⟨S4096x256, .f32⟩
  | .hbm, ⟨25, _⟩ => ⟨S4096x256, .bf16⟩
  | .hbm, ⟨26, _⟩ => ⟨S256x16x256, .f32⟩
  | .hbm, ⟨27, _⟩ => ⟨S_, .f32⟩
  | .hbm, ⟨28, _⟩ => ⟨S256x16, .f32⟩
  | .hbm, ⟨29, _⟩ => ⟨S256x16x1, .f32⟩
  | .hbm, ⟨30, _⟩ => ⟨S256x16x1, .f32⟩
  | .hbm, ⟨31, _⟩ => ⟨S256x16x256, .f32⟩
  | .hbm, ⟨32, _⟩ => ⟨S256x16x256, .f32⟩
  | .hbm, ⟨33, _⟩ => ⟨S4096x256, .f32⟩
  | .hbm, ⟨34, _⟩ => ⟨S4096x256, .bf16⟩
  | .hbm, ⟨35, _⟩ => ⟨S256x16x256, .f32⟩
  | .hbm, ⟨36, _⟩ => ⟨S_, .f32⟩
  | .hbm, ⟨37, _⟩ => ⟨S256x16, .f32⟩
  | .hbm, ⟨38, _⟩ => ⟨S256x16x1, .f32⟩
  | .hbm, ⟨39, _⟩ => ⟨S256x16x1, .f32⟩
  | .hbm, ⟨40, _⟩ => ⟨S256x16x256, .f32⟩
  | .hbm, ⟨41, _⟩ => ⟨S256x16x256, .f32⟩
  | .hbm, ⟨42, _⟩ => ⟨S4096x256, .f32⟩
  | .hbm, ⟨43, _⟩ => ⟨S4096x256, .bf16⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096, .i32⟩
  | .hbm, ⟨48, _⟩ => ⟨S4096x1, .i32⟩
  | .hbm, ⟨49, _⟩ => ⟨S4096x1, .i32⟩
  | .hbm, ⟨50, _⟩ => ⟨S1x4096, .i32⟩
  | .hbm, ⟨51, _⟩ => ⟨S1x4096, .i32⟩
  | .hbm, ⟨52, _⟩ => ⟨S1x4096, .i32⟩
  | .hbm, ⟨53, _⟩ => ⟨S1x4096, .i32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1, .i32⟩
  | .local _ .vmem, ⟨9, _⟩ => ⟨S512x1, .i32⟩
  | .local _ .vmem, ⟨10, _⟩ => ⟨S512x1, .i32⟩
  | .local _ .vmem, ⟨11, _⟩ => ⟨S512x1, .i32⟩
  | .local _ .vmem, ⟨12, _⟩ => ⟨S1x512, .i32⟩
  | .local _ .vmem, ⟨13, _⟩ => ⟨S1x512, .i32⟩
  | .local _ .vmem, ⟨14, _⟩ => ⟨S1x512, .i32⟩
  | .local _ .vmem, ⟨15, _⟩ => ⟨S1x512, .i32⟩
  | .local _ .vmem, ⟨16, _⟩ => ⟨S1x512, .i32⟩
  | .local _ .vmem, ⟨17, _⟩ => ⟨S1x512, .i32⟩
  | .local _ .vmem, ⟨18, _⟩ => ⟨S1x512, .i32⟩
  | .local _ .vmem, ⟨19, _⟩ => ⟨S1x512, .i32⟩
  | .local _ .vmem, ⟨20, _⟩ => ⟨S512x1, .f32⟩
  | .local _ .vmem, ⟨21, _⟩ => ⟨S512x1, .f32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | _, _ => ⟨S256x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_call2_v2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call3_v0 : Ref sig .tc := ⟨.hbm, 35, rfl⟩
abbrev main_call3_cst : Ref sig .tc := ⟨.hbm, 36, rfl⟩
abbrev main_call3_v1 : Ref sig .tc := ⟨.hbm, 37, rfl⟩
abbrev main_call3_v2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30_0 : Ref sig .tc := ⟨.hbm, 54, rfl⟩
abbrev main_v30_1 : Ref sig .tc := ⟨.hbm, 55, rfl⟩
abbrev main_cst : Ref sig .tc := ⟨.hbm, 56, rfl⟩
abbrev main_v31 : Ref sig .tc := ⟨.hbm, 57, rfl⟩
abbrev main_cst_0 : Ref sig .tc := ⟨.hbm, 58, rfl⟩
abbrev main_v32 : Ref sig .tc := ⟨.hbm, 59, rfl⟩
abbrev main_cst_1 : Ref sig .tc := ⟨.hbm, 60, rfl⟩
abbrev main_v33 : Ref sig .tc := ⟨.hbm, 61, rfl⟩
abbrev main_cst_2 : Ref sig .tc := ⟨.hbm, 62, rfl⟩
abbrev main_v34 : Ref sig .tc := ⟨.hbm, 63, rfl⟩
abbrev main_v35 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v242 : BitVec 1 := Scalar.cmpi .eq arg1 c7_i32
  let v243 : BitVec 32 := Scalar.extui v242
  let c0_i32_100 : BitVec 32 := 0#32
  let v244 : BitVec 1 := Scalar.cmpi .ne v243 c0_i32_100
  v244

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

class Facts₀ : Prop where
  reducesTo_S256x16x256_S256x16_d2 : S256x16x256.ReducesTo [2] S256x16
  h_S_ : 0 < S_.numel
  bcast_S256x16_S256x16x1_0_1 : S256x16.BroadcastsInDim S256x16x1 (![0, 1] : Fin 2 → Fin S256x16x1.rank)
  bcast_S256x16x1_S256x16x256_0_1_2 : S256x16x1.BroadcastsInDim S256x16x256 (![0, 1, 2] : Fin 3 → Fin S256x16x256.rank)
  shapeCasts_S256x16x256_S4096x256 : S256x16x256.ShapeCasts S4096x256
  bitsLt_bf16_f32 : FTy.bits .bf16 < FTy.bits .f32
  shapeCasts_S256x16_S4096 : S256x16.ShapeCasts S4096
  shapeCasts_S4096_S4096x1 : S4096.ShapeCasts S4096x1
  shapeCasts_S4096_S1x4096 : S4096.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  iota_S512x1_d0_w32 : S512x1.Iotas .tc 32 [0]
  iota_S1x512_d1_w32 : S1x512.Iotas .tc 32 [1]
  natLt_1_32 : 1 < 32
  broadcasts_S512x1_S512x512 : S512x1.Broadcasts S512x512
  broadcasts_S1x512_S512x512 : S1x512.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S512x512_S512 : S512x512.Reduces [1] S512
  shapeCasts_S512_S512x1 : S512.ShapeCasts S512x1
  reducesTo_S4096x1_S_d0_1 : S4096x1.ReducesTo [0, 1] S_
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .bf16 = 32 ∨ (Rect.block (s := S4096x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x256.size a
  hwx0_1 : ∀ i : grid0.Coords, EltTy.bits .bf16 = 32 ∨ (Rect.block (s := S4096x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S4096x256.size a
  hwx0_3 : ∀ i : grid0.Coords, EltTy.bits .bf16 = 32 ∨ (Rect.block (s := S4096x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .i32 = 32 ∨ (Rect.block (s := S4096x1) S512x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .i32 = 32 ∨ (Rect.block (s := S4096x1) S512x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x4096.size a
  hwx0_6 : ∀ i : grid0.Coords, EltTy.bits .i32 = 32 ∨ (Rect.block (s := S1x4096) S1x512.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4096.size a
  hwx0_7 : ∀ i : grid0.Coords, EltTy.bits .i32 = 32 ∨ (Rect.block (s := S1x4096) S1x512.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x4096.size a
  hwx0_8 : ∀ i : grid0.Coords, EltTy.bits .i32 = 32 ∨ (Rect.block (s := S1x4096) S1x512.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4096.size a
  hwx0_9 : ∀ i : grid0.Coords, EltTy.bits .i32 = 32 ∨ (Rect.block (s := S1x4096) S1x512.size (cc0_transform_9 i) (hinb0_9 i)).WholeWords (EltTy.packing .i32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x1.size a ≤ S4096x1.size a
  hwx0_11 : ∀ i : grid0.Coords, EltTy.bits .f32 = 32 ∨ (Rect.block (s := S4096x1) S512x1.size (cc0_transform_11 i) (hinb0_11 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_v4) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S512x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_0) S512x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v30_1) S512x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

class Facts : Prop extends Facts₀ where

variable [Facts]
-- ==== ReferenceIdeal.lean ====
abbrev S256x16x256 : Shape := ⟨3, ![256, 16, 256]⟩
abbrev S256x16 : Shape := ⟨2, ![256, 16]⟩
abbrev S256x16x1 : Shape := ⟨3, ![256, 16, 1]⟩
abbrev S256x1x16 : Shape := ⟨3, ![256, 1, 16]⟩
abbrev S256x16x16 : Shape := ⟨3, ![256, 16, 16]⟩
abbrev S256x16x1x16 : Shape := ⟨4, ![256, 16, 1, 16]⟩
abbrev S_ : Shape := ⟨0, ![]⟩
abbrev S256x256 : Shape := ⟨2, ![256, 256]⟩
abbrev S256x1x256x1 : Shape := ⟨4, ![256, 1, 256, 1]⟩
abbrev S256x16x256x16 : Shape := ⟨4, ![256, 16, 256, 16]⟩
abbrev S256x16x512x16 : Shape := ⟨4, ![256, 16, 512, 16]⟩
abbrev S256x16x8192 : Shape := ⟨3, ![256, 16, 8192]⟩

abbrev nBuf : Space → Nat
  | .hbm => 213
  | .vmem => 0
  | .smem => 0
  | _ => 0

abbrev hbmTy0_0 (i : Nat) : BufTy := match i % 128 with
  | 0 => ⟨S256x16x256, .f32⟩
  | 1 => ⟨S256x16x256, .f32⟩
  | 2 => ⟨S256x16x256, .f32⟩
  | 3 => ⟨S256x16x256, .f32⟩
  | 4 => ⟨S256x16, .i32⟩
  | 5 => ⟨S256x16, .i32⟩
  | 6 => ⟨S256x16, .i32⟩
  | 7 => ⟨S256x16, .i32⟩
  | 8 => ⟨S256x16x1, .i32⟩
  | 9 => ⟨S256x1x16, .i32⟩
  | 10 => ⟨S256x16x16, .i32⟩
  | 11 => ⟨S256x16x16, .i32⟩
  | 12 => ⟨S256x16x16, .i1⟩
  | 13 => ⟨S256x16x16, .f32⟩
  | 14 => ⟨S256x16x1x16, .f32⟩
  | 15 => ⟨S256x16x1, .i32⟩
  | 16 => ⟨S256x1x16, .i32⟩
  | 17 => ⟨S256x16x16, .i32⟩
  | 18 => ⟨S256x16x16, .i32⟩
  | 19 => ⟨S256x16x16, .i1⟩
  | 20 => ⟨S256x16x16, .f32⟩
  | 21 => ⟨S256x16x1x16, .f32⟩
  | 22 => ⟨S256x16x1, .i32⟩
  | 23 => ⟨S256x1x16, .i32⟩
  | 24 => ⟨S256x16x16, .i32⟩
  | 25 => ⟨S256x16x16, .i32⟩
  | 26 => ⟨S256x16x16, .i1⟩
  | 27 => ⟨S256x16x16, .f32⟩
  | 28 => ⟨S256x16x1x16, .f32⟩
  | 29 => ⟨S256x16x1, .i32⟩
  | 30 => ⟨S256x1x16, .i32⟩
  | 31 => ⟨S256x16x16, .i32⟩
  | 32 => ⟨S256x16x16, .i32⟩
  | 33 => ⟨S256x16x16, .i1⟩
  | 34 => ⟨S256x16x16, .f32⟩
  | 35 => ⟨S256x16x1x16, .f32⟩
  | 36 => ⟨S256x16x256, .f32⟩
  | 37 => ⟨S_, .f32⟩
  | 38 => ⟨S256x16, .f32⟩
  | 39 => ⟨S256x16x1, .f32⟩
  | 40 => ⟨S256x16x1, .f32⟩
  | 41 => ⟨S256x16x256, .f32⟩
  | 42 => ⟨S256x16x256, .f32⟩
  | 43 => ⟨S256x16x256, .f32⟩
  | 44 => ⟨S_, .f32⟩
  | 45 => ⟨S256x16, .f32⟩
  | 46 => ⟨S256x16x1, .f32⟩
  | 47 => ⟨S256x16x1, .f32⟩
  | 48 => ⟨S256x16x256, .f32⟩
  | 49 => ⟨S256x16x256, .f32⟩
  | 50 => ⟨S256x16x256, .f32⟩
  | 51 => ⟨S_, .f32⟩
  | 52 => ⟨S256x16, .f32⟩
  | 53 => ⟨S256x16x1, .f32⟩
  | 54 => ⟨S256x16x1, .f32⟩
  | 55 => ⟨S256x16x256, .f32⟩
  | 56 => ⟨S256x16x256, .f32⟩
  | 57 => ⟨S256x16x256, .f32⟩
  | 58 => ⟨S_, .f32⟩
  | 59 => ⟨S256x16, .f32⟩
  | 60 => ⟨S256x16x1, .f32⟩
  | 61 => ⟨S256x16x1, .f32⟩
  | 62 => ⟨S256x16x256, .f32⟩
  | 63 => ⟨S256x16x256, .f32⟩
  | 64 => ⟨S256x256, .i32⟩
  | 65 => ⟨S256x256, .i32⟩
  | 66 => ⟨S_, .i32⟩
  | 67 => ⟨S256x256, .i32⟩
  | 68 => ⟨S256x256, .i32⟩
  | 69 => ⟨S256x256, .i1⟩
  | 70 => ⟨S256x256, .f32⟩
  | 71 => ⟨S256x1x256x1, .f32⟩
  | 72 => ⟨S256x16x256x16, .f32⟩
  | 73 => ⟨S_, .f32⟩
  | 74 => ⟨S256x16x256x16, .f32⟩
  | 75 => ⟨S256x16x256x16, .f32⟩
  | 76 => ⟨S256x16x256x16, .f32⟩
  | 77 => ⟨S_, .f32⟩
  | 78 => ⟨S256x16x256x16, .f32⟩
  | 79 => ⟨S256x16x256x16, .f32⟩
  | 80 => ⟨S256x16x256x16, .f32⟩
  | 81 => ⟨S_, .f32⟩
  | 82 => ⟨S256x16x256x16, .f32⟩
  | 83 => ⟨S256x16x256x16, .f32⟩
  | 84 => ⟨S256x16x256x16, .f32⟩
  | 85 => ⟨S_, .f32⟩
  | 86 => ⟨S256x16x256x16, .f32⟩
  | 87 => ⟨S256x16x256x16, .f32⟩
  | 88 => ⟨S256x16x256x16, .f32⟩
  | 89 => ⟨S256x16x256x16, .f32⟩
  | 90 => ⟨S256x16x256x16, .f32⟩
  | 91 => ⟨S256x16x256x16, .f32⟩
  | 92 => ⟨S256x16x256x16, .f32⟩
  | 93 => ⟨S256x16x256x16, .f32⟩
  | 94 => ⟨S_, .f32⟩
  | 95 => ⟨S256x16x256x16, .f32⟩
  | 96 => ⟨S_, .f32⟩
  | 97 => ⟨S256x1x256x1, .f32⟩
  | 98 => ⟨S256x1x256x1, .f32⟩
  | 99 => ⟨S256x16x256x16, .f32⟩
  | 100 => ⟨S256x16x256x16, .f32⟩
  | 101 => ⟨S256x16x256x16, .f32⟩
  | 102 => ⟨S256x16x256x16, .f32⟩
  | 103 => ⟨S_, .f32⟩
  | 104 => ⟨S256x1x256x1, .f32⟩
  | 105 => ⟨S256x1x256x1, .f32⟩
  | 106 => ⟨S256x16x256x16, .f32⟩
  | 107 => ⟨S256x16x256x16, .f32⟩
  | 108 => ⟨S256x16x256x16, .f32⟩
  | 109 => ⟨S256x16x256x16, .f32⟩
  | 110 => ⟨S256x16x512x16, .f32⟩
  | 111 => ⟨S256x16x8192, .f32⟩
  | 112 => ⟨S256x16x512x16, .f32⟩
  | 113 => ⟨S256x16x8192, .f32⟩
  | 114 => ⟨S_, .f32⟩
  | 115 => ⟨S256x16, .f32⟩
  | 116 => ⟨S256x16x1, .f32⟩
  | 117 => ⟨S_, .f32⟩
  | 118 => ⟨S256x16, .f32⟩
  | 119 => ⟨S256x16x1, .f32⟩
  | 120 => ⟨S_, .f32⟩
  | 121 => ⟨S256x16x1, .f32⟩
  | 122 => ⟨S256x16x1, .f32⟩
  | 123 => ⟨S256x16x8192, .f32⟩
  | 124 => ⟨S256x16x8192, .f32⟩
  | 125 => ⟨S_, .f32⟩
  | 126 => ⟨S256x16x1, .f32⟩
  | 127 => ⟨S256x16x1, .f32⟩
  | _ => ⟨S256x16x256, .f32⟩

abbrev hbmTy0_1 (i : Nat) : BufTy := match i % 128 with
  | 0 => ⟨S256x16x8192, .f32⟩
  | 1 => ⟨S256x16x8192, .f32⟩
  | 2 => ⟨S256x16x1, .i32⟩
  | 3 => ⟨S256x1x16, .i32⟩
  | 4 => ⟨S256x16x16, .i32⟩
  | 5 => ⟨S256x16x16, .i32⟩
  | 6 => ⟨S256x16x16, .i1⟩
  | 7 => ⟨S256x16x16, .f32⟩
  | 8 => ⟨S256x16x1x16, .f32⟩
  | 9 => ⟨S_, .f32⟩
  | 10 => ⟨S256x16, .f32⟩
  | 11 => ⟨S256x16x1, .i32⟩
  | 12 => ⟨S256x1x16, .i32⟩
  | 13 => ⟨S256x16x16, .i32⟩
  | 14 => ⟨S256x16x16, .i32⟩
  | 15 => ⟨S256x16x16, .i1⟩
  | 16 => ⟨S256x16x16, .f32⟩
  | 17 => ⟨S256x16x1x16, .f32⟩
  | 18 => ⟨S_, .f32⟩
  | 19 => ⟨S256x16, .f32⟩
  | 20 => ⟨S256x16, .f32⟩
  | 21 => ⟨S_, .f32⟩
  | 22 => ⟨S256x16, .f32⟩
  | 23 => ⟨S256x16, .i1⟩
  | 24 => ⟨S256x16, .f32⟩
  | 25 => ⟨S256x16, .f32⟩
  | 26 => ⟨S256x16, .f32⟩
  | 27 => ⟨S_, .f32⟩
  | 28 => ⟨S256x16, .f32⟩
  | 29 => ⟨S256x16, .i1⟩
  | 30 => ⟨S256x16, .f32⟩
  | 31 => ⟨S256x16, .f32⟩
  | 32 => ⟨S256x16x512x16, .f32⟩
  | 33 => ⟨S256x16x8192, .f32⟩
  | 34 => ⟨S256x16x512x16, .f32⟩
  | 35 => ⟨S256x16x8192, .f32⟩
  | 36 => ⟨S256x16, .f32⟩
  | 37 => ⟨S_, .f32⟩
  | 38 => ⟨S256x16, .f32⟩
  | 39 => ⟨S_, .f32⟩
  | 40 => ⟨S256x16, .f32⟩
  | 41 => ⟨S256x16, .f32⟩
  | 42 => ⟨S256x16x1, .f32⟩
  | 43 => ⟨S256x16x8192, .f32⟩
  | 44 => ⟨S256x16x8192, .f32⟩
  | 45 => ⟨S256x16x8192, .f32⟩
  | 46 => ⟨S_, .f32⟩
  | 47 => ⟨S256x16, .f32⟩
  | 48 => ⟨S256x16x1, .f32⟩
  | 49 => ⟨S256x16x1, .f32⟩
  | 50 => ⟨S256x16x8192, .f32⟩
  | 51 => ⟨S256x16x8192, .f32⟩
  | 52 => ⟨S256x16x8192, .f32⟩
  | 53 => ⟨S_, .f32⟩
  | 54 => ⟨S256x16, .f32⟩
  | 55 => ⟨S256x16, .f32⟩
  | 56 => ⟨S256x16, .f32⟩
  | 57 => ⟨S_, .f32⟩
  | 58 => ⟨S256x16, .f32⟩
  | 59 => ⟨S_, .f32⟩
  | 60 => ⟨S256x16, .f32⟩
  | 61 => ⟨S256x16, .f32⟩
  | 62 => ⟨S256x16x1, .f32⟩
  | 63 => ⟨S256x16x8192, .f32⟩
  | 64 => ⟨S256x16x8192, .f32⟩
  | 65 => ⟨S256x16x8192, .f32⟩
  | 66 => ⟨S_, .f32⟩
  | 67 => ⟨S256x16, .f32⟩
  | 68 => ⟨S256x16x1, .f32⟩
  | 69 => ⟨S256x16x1, .f32⟩
  | 70 => ⟨S256x16x8192, .f32⟩
  | 71 => ⟨S256x16x8192, .f32⟩
  | 72 => ⟨S256x16x8192, .f32⟩
  | 73 => ⟨S_, .f32⟩
  | 74 => ⟨S256x16, .f32⟩
  | 75 => ⟨S256x16, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | _ => ⟨S256x16x256, .f32⟩

abbrev hbmTy (i : Nat) : BufTy := match i / 128 with
  | 0 => hbmTy0_0 i
  | 1 => hbmTy0_1 i
  | _ => ⟨S256x16x256, .f32⟩

abbrev bufTy : (tb : Table) → Fin (tcTables nBuf tb) → BufTy
  | .hbm, ⟨i, _⟩ => hbmTy i
  | _, _ => ⟨S256x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_cst : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_call1_v2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_call2_v0 : Ref sig .tc := ⟨.hbm, 50, rfl⟩
abbrev main_call2_cst : Ref sig .tc := ⟨.hbm, 51, rfl⟩
abbrev main_call2_v1 : Ref sig .tc := ⟨.hbm, 52, rfl⟩
abbrev main_call2_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_1 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_2 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_3 : Ref sig .tc := ⟨.hbm, 94, rfl⟩
abbrev main_v65 : Ref sig .tc := ⟨.hbm, 95, rfl⟩
abbrev main_cst_4 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_6 : Ref sig .tc := ⟨.hbm, 114, rfl⟩
abbrev main_v82 : Ref sig .tc := ⟨.hbm, 115, rfl⟩
abbrev main_v83 : Ref sig .tc := ⟨.hbm, 116, rfl⟩
abbrev main_cst_7 : Ref sig .tc := ⟨.hbm, 117, rfl⟩
abbrev main_v84 : Ref sig .tc := ⟨.hbm, 118, rfl⟩
abbrev main_v85 : Ref sig .tc := ⟨.hbm, 119, rfl⟩
abbrev main_cst_8 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_9 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_10 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_11 : Ref sig .tc := ⟨.hbm, 146, rfl⟩
abbrev main_v109 : Ref sig .tc := ⟨.hbm, 147, rfl⟩
abbrev main_v110 : Ref sig .tc := ⟨.hbm, 148, rfl⟩
abbrev main_cst_12 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_13 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_call4_cst : Ref sig .tc := ⟨.hbm, 165, rfl⟩
abbrev main_call4_v0 : Ref sig .tc := ⟨.hbm, 166, rfl⟩
abbrev main_call4_cst_0 : Ref sig .tc := ⟨.hbm, 167, rfl⟩
abbrev main_call4_v1 : Ref sig .tc := ⟨.hbm, 168, rfl⟩
abbrev main_call4_v2 : Ref sig .tc := ⟨.hbm, 169, rfl⟩
abbrev main_call4_v3 : Ref sig .tc := ⟨.hbm, 170, rfl⟩
abbrev main_call4_v4 : Ref sig .tc := ⟨.hbm, 171, rfl⟩
abbrev main_call4_v5 : Ref sig .tc := ⟨.hbm, 172, rfl⟩
abbrev main_call4_v6 : Ref sig .tc := ⟨.hbm, 173, rfl⟩
abbrev main_call4_cst_1 : Ref sig .tc := ⟨.hbm, 174, rfl⟩
abbrev main_call4_v7 : Ref sig .tc := ⟨.hbm, 175, rfl⟩
abbrev main_call4_v8 : Ref sig .tc := ⟨.hbm, 176, rfl⟩
abbrev main_call4_v9 : Ref sig .tc := ⟨.hbm, 177, rfl⟩
abbrev main_call4_v10 : Ref sig .tc := ⟨.hbm, 178, rfl⟩
abbrev main_v125 : Ref sig .tc := ⟨.hbm, 179, rfl⟩
abbrev main_v126 : Ref sig .tc := ⟨.hbm, 180, rfl⟩
abbrev main_cst_14 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_call5_cst : Ref sig .tc := ⟨.hbm, 185, rfl⟩
abbrev main_call5_v0 : Ref sig .tc := ⟨.hbm, 186, rfl⟩
abbrev main_call5_cst_0 : Ref sig .tc := ⟨.hbm, 187, rfl⟩
abbrev main_call5_v1 : Ref sig .tc := ⟨.hbm, 188, rfl⟩
abbrev main_call5_v2 : Ref sig .tc := ⟨.hbm, 189, rfl⟩
abbrev main_call5_v3 : Ref sig .tc := ⟨.hbm, 190, rfl⟩
abbrev main_call5_v4 : Ref sig .tc := ⟨.hbm, 191, rfl⟩
abbrev main_call5_v5 : Ref sig .tc := ⟨.hbm, 192, rfl⟩
abbrev main_call5_v6 : Ref sig .tc := ⟨.hbm, 193, rfl⟩
abbrev main_call5_cst_1 : Ref sig .tc := ⟨.hbm, 194, rfl⟩
abbrev main_call5_v7 : Ref sig .tc := ⟨.hbm, 195, rfl⟩
abbrev main_call5_v8 : Ref sig .tc := ⟨.hbm, 196, rfl⟩
abbrev main_call5_v9 : Ref sig .tc := ⟨.hbm, 197, rfl⟩
abbrev main_call5_v10 : Ref sig .tc := ⟨.hbm, 198, rfl⟩
abbrev main_v130 : Ref sig .tc := ⟨.hbm, 199, rfl⟩
abbrev main_v131 : Ref sig .tc := ⟨.hbm, 200, rfl⟩
abbrev main_cst_15 : Ref sig .tc := ⟨.hbm, 201, rfl⟩
abbrev main_v132 : Ref sig .tc := ⟨.hbm, 202, rfl⟩
abbrev main_v133 : Ref sig .tc := ⟨.hbm, 203, rfl⟩
abbrev main_cst_16 : Ref sig .tc := ⟨.hbm, 204, rfl⟩
abbrev main_v134 : Ref sig .tc := ⟨.hbm, 205, rfl⟩
abbrev main_cst_17 : Ref sig .tc := ⟨.hbm, 206, rfl⟩
abbrev main_v135 : Ref sig .tc := ⟨.hbm, 207, rfl⟩
abbrev main_cst_18 : Ref sig .tc := ⟨.hbm, 208, rfl⟩
abbrev main_v136 : Ref sig .tc := ⟨.hbm, 209, rfl⟩
abbrev main_cst_19 : Ref sig .tc := ⟨.hbm, 210, rfl⟩
abbrev main_v137 : Ref sig .tc := ⟨.hbm, 211, rfl⟩
abbrev main_v138 : Ref sig .tc := ⟨.hbm, 212, rfl⟩

abbrev nD : Nat := 1
abbrev τ : Topo := Topo.v7x

variable {F : FTy → Type} [FloatOps F]

class Facts₀ : Prop where
  bcast_S256x16_S256x16x1_0_1 : S256x16.BroadcastsInDim S256x16x1 (![0, 1] : Fin 2 → Fin S256x16x1.rank)
  bcast_S256x16_S256x1x16_0_2 : S256x16.BroadcastsInDim S256x1x16 (![0, 2] : Fin 2 → Fin S256x1x16.rank)
  bcast_S256x16x1_S256x16x16_0_1_2 : S256x16x1.BroadcastsInDim S256x16x16 (![0, 1, 2] : Fin 3 → Fin S256x16x16.rank)
  bcast_S256x1x16_S256x16x16_0_1_2 : S256x1x16.BroadcastsInDim S256x16x16 (![0, 1, 2] : Fin 3 → Fin S256x16x16.rank)
  bcast_S256x16x16_S256x16x1x16_0_1_3 : S256x16x16.BroadcastsInDim S256x16x1x16 (![0, 1, 3] : Fin 3 → Fin S256x16x1x16.rank)
  reducesTo_S256x16x256_S256x16_d2 : S256x16x256.ReducesTo [2] S256x16
  h_S_ : 0 < S_.numel
  bcast_S256x16x1_S256x16x256_0_1_2 : S256x16x1.BroadcastsInDim S256x16x256 (![0, 1, 2] : Fin 3 → Fin S256x16x256.rank)
  bcast_S_S256x256 : S_.BroadcastsInDim S256x256 (![] : Fin 0 → Fin S256x256.rank)
  bcast_S256x256_S256x1x256x1_0_2 : S256x256.BroadcastsInDim S256x1x256x1 (![0, 2] : Fin 2 → Fin S256x1x256x1.rank)
  bcast_S_S256x16x256x16 : S_.BroadcastsInDim S256x16x256x16 (![] : Fin 0 → Fin S256x16x256x16.rank)
  bcast_S256x1x256x1_S256x16x256x16_0_1_2_3 : S256x1x256x1.BroadcastsInDim S256x16x256x16 (![0, 1, 2, 3] : Fin 4 → Fin S256x16x256x16.rank)
  bcast_S256x16x1x16_S256x16x256x16_0_1_2_3 : S256x16x1x16.BroadcastsInDim S256x16x256x16 (![0, 1, 2, 3] : Fin 4 → Fin S256x16x256x16.rank)
  bcast_S_S256x1x256x1 : S_.BroadcastsInDim S256x1x256x1 (![] : Fin 0 → Fin S256x1x256x1.rank)
  concatenates_S256x16x256x16_S256x16x256x16_S256x16x512x16_d2 : Shape.Concatenates [S256x16x256x16, S256x16x256x16] S256x16x512x16 2
  shapeCasts_S256x16x512x16_S256x16x8192 : S256x16x512x16.ShapeCasts S256x16x8192
  reducesTo_S256x16x8192_S256x16_d2 : S256x16x8192.ReducesTo [2] S256x16
  bcast_S_S256x16x1 : S_.BroadcastsInDim S256x16x1 (![] : Fin 0 → Fin S256x16x1.rank)
  bcast_S256x16x1_S256x16x8192_0_1_2 : S256x16x1.BroadcastsInDim S256x16x8192 (![0, 1, 2] : Fin 3 → Fin S256x16x8192.rank)
  reducesTo_S256x16x1x16_S256x16_d2_3 : S256x16x1x16.ReducesTo [2, 3] S256x16
  shapeCasts_S256x16x1_S256x16 : S256x16x1.ShapeCasts S256x16
  bcast_S_S256x16 : S_.BroadcastsInDim S256x16 (![] : Fin 0 → Fin S256x16.rank)
  reducesTo_S256x16_S_d0_1 : S256x16.ReducesTo [0, 1] S_
  dot_S256x16x256_S256x16x256_S256x16x256x16_2_2_01_01_n_n_wf : DotDims.WF S256x16x256 S256x16x256 S256x16x256x16 [2] [2] [0, 1] [0, 1] [] []

variable [Facts₀]

def dot_S256x16x256_S256x16x256_S256x16x256x16_2_2_01_01_n_n : DotDims S256x16x256 S256x16x256 S256x16x256x16 where
  lhsContracting := [2]
  rhsContracting := [2]
  lhsNonContracting := [0, 1]
  rhsNonContracting := [0, 1]
  lhsBatch := []
  rhsBatch := []
  wf := dot_S256x16x256_S256x16x256_S256x16x256x16_2_2_01_01_n_n_wf

class Facts : Prop extends Facts₀ where

variable [Facts]
-- ==== Proof.RefOps.lean ====
/-
  The reference's 205 host operations in program order, cut into eight stretches (the id masks; the four normalisations;
  the identity matrix and the four scaled dot products; the label products and the masked negatives; the label vectors and
  their counts; the areas and the weights; channel 0's logits, log-softmax and row losses; channel 1's, the two means and
  their sum), and, for each cut, what holds of the buffer contents there: the arguments are untouched, and each buffer
  that a later stretch still reads holds its stage's value (the stage functions of the read-at-an-index module) of the
  arguments. A stretch is proved to carry the facts of the cut before it to the cut after it; chained, they give the run.
-/
import proofs.«168933_j69020124447445_1_alg».proof.Proof.RefRead
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The operation list, in eight stretches -/

/-- Stretch 1: operations 0 to 27 of the program's list. -/
abbrev ops1 : List (HloOp τ sig (Elt F)) :=
  [
    unary main_arg4 main_v0 (broadcastInDim S256x16x1 ![0, 1] bcast_S256x16_S256x16x1_0_1 : (⟨S256x16, .i32⟩ : BufTy).Contents (Elt F) → (⟨S256x16x1, .i32⟩ : BufTy).Contents (Elt F)),
    unary main_arg6 main_v1 (broadcastInDim S256x1x16 ![0, 2] bcast_S256x16_S256x1x16_0_2 : (⟨S256x16, .i32⟩ : BufTy).Contents (Elt F) → (⟨S256x1x16, .i32⟩ : BufTy).Contents (Elt F)),
    unary main_v0 main_v2 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v1 main_v3 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v2 main_v3 main_v4 (cmpi .eq : (⟨S256x16x16, .i32⟩ : BufTy).Contents (Elt F) → (⟨S256x16x16, .i32⟩ : BufTy).Contents (Elt F) → (⟨S256x16x16, .i1⟩ : BufTy).Contents (Elt F)),
    unary main_v4 main_v5 (uitofp .f32 : (⟨S256x16x16, .i1⟩ : BufTy).Contents (Elt F) → (⟨S256x16x16, .f32⟩ : BufTy).Contents (Elt F)),
    unary main_v5 main_v6 (broadcastInDim S256x16x1x16 ![0, 1, 3] bcast_S256x16x16_S256x16x1x16_0_1_3 : (⟨S256x16x16, .f32⟩ : BufTy).Contents (Elt F) → (⟨S256x16x1x16, .f32⟩ : BufTy).Contents (Elt F)),
    unary main_arg4 main_v7 (broadcastInDim S256x16x1 ![0, 1] bcast_S256x16_S256x16x1_0_1 : (⟨S256x16, .i32⟩ : BufTy).Contents (Elt F) → (⟨S256x16x1, .i32⟩ : BufTy).Contents (Elt F)),
    unary main_arg7 main_v8 (broadcastInDim S256x1x16 ![0, 2] bcast_S256x16_S256x1x16_0_2 : (⟨S256x16, .i32⟩ : BufTy).Contents (Elt F) → (⟨S256x1x16, .i32⟩ : BufTy).Contents (Elt F)),
    unary main_v7 main_v9 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v8 main_v10 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v9 main_v10 main_v11 (cmpi .eq : (⟨S256x16x16, .i32⟩ : BufTy).Contents (Elt F) → (⟨S256x16x16, .i32⟩ : BufTy).Contents (Elt F) → (⟨S256x16x16, .i1⟩ : BufTy).Contents (Elt F)),
    unary main_v11 main_v12 (uitofp .f32 : (⟨S256x16x16, .i1⟩ : BufTy).Contents (Elt F) → (⟨S256x16x16, .f32⟩ : BufTy).Contents (Elt F)),
    unary main_v12 main_v13 (broadcastInDim S256x16x1x16 ![0, 1, 3] bcast_S256x16x16_S256x16x1x16_0_1_3 : (⟨S256x16x16, .f32⟩ : BufTy).Contents (Elt F) → (⟨S256x16x1x16, .f32⟩ : BufTy).Contents (Elt F)),
    unary main_arg5 main_v14 (broadcastInDim S256x16x1 ![0, 1] bcast_S256x16_S256x16x1_0_1 : (⟨S256x16, .i32⟩ : BufTy).Contents (Elt F) → (⟨S256x16x1, .i32⟩ : BufTy).Contents (Elt F)),
    unary main_arg6 main_v15 (broadcastInDim S256x1x16 ![0, 2] bcast_S256x16_S256x1x16_0_2 : (⟨S256x16, .i32⟩ : BufTy).Contents (Elt F) → (⟨S256x1x16, .i32⟩ : BufTy).Contents (Elt F)),
    unary main_v14 main_v16 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v15 main_v17 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v16 main_v17 main_v18 (cmpi .eq : (⟨S256x16x16, .i32⟩ : BufTy).Contents (Elt F) → (⟨S256x16x16, .i32⟩ : BufTy).Contents (Elt F) → (⟨S256x16x16, .i1⟩ : BufTy).Contents (Elt F)),
    unary main_v18 main_v19 (uitofp .f32 : (⟨S256x16x16, .i1⟩ : BufTy).Contents (Elt F) → (⟨S256x16x16, .f32⟩ : BufTy).Contents (Elt F)),
    unary main_v19 main_v20 (broadcastInDim S256x16x1x16 ![0, 1, 3] bcast_S256x16x16_S256x16x1x16_0_1_3 : (⟨S256x16x16, .f32⟩ : BufTy).Contents (Elt F) → (⟨S256x16x1x16, .f32⟩ : BufTy).Contents (Elt F)),
    unary main_arg5 main_v21 (broadcastInDim S256x16x1 ![0, 1] bcast_S256x16_S256x16x1_0_1 : (⟨S256x16, .i32⟩ : BufTy).Contents (Elt F) → (⟨S256x16x1, .i32⟩ : BufTy).Contents (Elt F)),
    unary main_arg7 main_v22 (broadcastInDim S256x1x16 ![0, 2] bcast_S256x16_S256x1x16_0_2 : (⟨S256x16, .i32⟩ : BufTy).Contents (Elt F) → (⟨S256x1x16, .i32⟩ : BufTy).Contents (Elt F)),
    unary main_v21 main_v23 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v22 main_v24 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v23 main_v24 main_v25 (cmpi .eq : (⟨S256x16x16, .i32⟩ : BufTy).Contents (Elt F) → (⟨S256x16x16, .i32⟩ : BufTy).Contents (Elt F) → (⟨S256x16x16, .i1⟩ : BufTy).Contents (Elt F)),
    unary main_v25 main_v26 (uitofp .f32 : (⟨S256x16x16, .i1⟩ : BufTy).Contents (Elt F) → (⟨S256x16x16, .f32⟩ : BufTy).Contents (Elt F)),
    unary main_v26 main_v27 (broadcastInDim S256x16x1x16 ![0, 1, 3] bcast_S256x16x16_S256x16x1x16_0_1_3 : (⟨S256x16x16, .f32⟩ : BufTy).Contents (Elt F) → (⟨S256x16x1x16, .f32⟩ : BufTy).Contents (Elt F)) ]

/-- Stretch 2: operations 28 to 55 of the program's list. -/
abbrev ops2 : List (HloOp τ sig (Elt F)) :=
  [
    TRef.binary (TRef.of (T := ⟨S256x16x256, .f32⟩) main_arg0) (TRef.of (T := ⟨S256x16x256, .f32⟩) main_arg0) (TRef.of (T := ⟨S256x16x256, .f32⟩) main_call0_v0) mulf,
    TRef.nullary (TRef.of (T := ⟨S_, .f32⟩) main_call0_cst) (constant S_ .f32 0x00000000#32),
    TRef.binary (TRef.of (T := ⟨S256x16x256, .f32⟩) main_call0_v0) (TRef.of (T := ⟨S_, .f32⟩) main_call0_cst) (TRef.of (T := ⟨S256x16, .f32⟩) main_call0_v1) (fun x v => Host.reduceAdd x v reducesTo_S256x16x256_S256x16_d2 h_S_),
    TRef.unary (TRef.of (T := ⟨S256x16, .f32⟩) main_call0_v1) (TRef.of (T := ⟨S256x16x1, .f32⟩) main_call0_v2) (broadcastInDim S256x16x1 ![0, 1] bcast_S256x16_S256x16x1_0_1),
    TRef.unary (TRef.of (T := ⟨S256x16x1, .f32⟩) main_call0_v2) (TRef.of (T := ⟨S256x16x1, .f32⟩) main_v28) Host.sqrt,
    unary main_v28 main_v29 (broadcastInDim S256x16x256 ![0, 1, 2] bcast_S256x16x1_S256x16x256_0_1_2 : (⟨S256x16x1, .f32⟩ : BufTy).Contents (Elt F) → (⟨S256x16x256, .f32⟩ : BufTy).Contents (Elt F)),
    binary main_arg0 main_v29 main_v30 (Host.divf : (⟨S256x16x256, .f32⟩ : BufTy).Contents (Elt F) → (⟨S256x16x256, .f32⟩ : BufTy).Contents (Elt F) → (⟨S256x16x256, .f32⟩ : BufTy).Contents (Elt F)),
    TRef.binary (TRef.of (T := ⟨S256x16x256, .f32⟩) main_arg1) (TRef.of (T := ⟨S256x16x256, .f32⟩) main_arg1) (TRef.of (T := ⟨S256x16x256, .f32⟩) main_call1_v0) mulf,
    TRef.nullary (TRef.of (T := ⟨S_, .f32⟩) main_call1_cst) (constant S_ .f32 0x00000000#32),
    TRef.binary (TRef.of (T := ⟨S256x16x256, .f32⟩) main_call1_v0) (TRef.of (T := ⟨S_, .f32⟩) main_call1_cst) (TRef.of (T := ⟨S256x16, .f32⟩) main_call1_v1) (fun x v => Host.reduceAdd x v reducesTo_S256x16x256_S256x16_d2 h_S_),
    TRef.unary (TRef.of (T := ⟨S256x16, .f32⟩) main_call1_v1) (TRef.of (T := ⟨S256x16x1, .f32⟩) main_call1_v2) (broadcastInDim S256x16x1 ![0, 1] bcast_S256x16_S256x16x1_0_1),
    TRef.unary (TRef.of (T := ⟨S256x16x1, .f32⟩) main_call1_v2) (TRef.of (T := ⟨S256x16x1, .f32⟩) main_v31) Host.sqrt,
    unary main_v31 main_v32 (broadcastInDim S256x16x256 ![0, 1, 2] bcast_S256x16x1_S256x16x256_0_1_2 : (⟨S256x16x1, .f32⟩ : BufTy).Contents (Elt F) → (⟨S256x16x256, .f32⟩ : BufTy).Contents (Elt F)),
    binary main_arg1 main_v32 main_v33 (Host.divf : (⟨S256x16x256, .f32⟩ : BufTy).Contents (Elt F) → (⟨S256x16x256, .f32⟩ : BufTy).Contents (Elt F) → (⟨S256x16x256, .f32⟩ : BufTy).Contents (Elt F)),
    TRef.binary (TRef.of (T := ⟨S256x16x256, .f32⟩) main_arg2) (TRef.of (T := ⟨S256x16x256, .f32⟩) main_arg2) (TRef.of (T := ⟨S256x16x256, .f32⟩) main_call2_v0) mulf,
    TRef.nullary (TRef.of (T := ⟨S_, .f32⟩) main_call2_cst) (constant S_ .f32 0x00000000#32),
    TRef.binary (TRef.of (T := ⟨S256x16x256, .f32⟩) main_call2_v0) (TRef.of (T := ⟨S_, .f32⟩) main_call2_cst) (TRef.of (T := ⟨S256x16, .f32⟩) main_call2_v1) (fun x v => Host.reduceAdd x v reducesTo_S256x16x256_S256x16_d2 h_S_),
    TRef.unary (TRef.of (T := ⟨S256x16, .f32⟩) main_call2_v1) (TRef.of (T := ⟨S256x16x1, .f32⟩) main_call2_v2) (broadcastInDim S256x16x1 ![0, 1] bcast_S256x16_S256x16x1_0_1),
    TRef.unary (TRef.of (T := ⟨S256x16x1, .f32⟩) main_call2_v2) (TRef.of (T := ⟨S256x16x1, .f32⟩) main_v34) Host.sqrt,
    unary main_v34 main_v35 (broadcastInDim S256x16x256 ![0, 1, 2] bcast_S256x16x1_S256x16x256_0_1_2 : (⟨S256x16x1, .f32⟩ : BufTy).Contents (Elt F) → (⟨S256x16x256, .f32⟩ : BufTy).Contents (Elt F)),
    binary main_arg2 main_v35 main_v36 (Host.divf : (⟨S256x16x256, .f32⟩ : BufTy).Contents (Elt F) → (⟨S256x16x256, .f32⟩ : BufTy).Contents (Elt F) → (⟨S256x16x256, .f32⟩ : BufTy).Contents (Elt F)),
    TRef.binary (TRef.of (T := ⟨S256x16x256, .f32⟩) main_arg3) (TRef.of (T := ⟨S256x16x256, .f32⟩) main_arg3) (TRef.of (T := ⟨S256x16x256, .f32⟩) main_call3_v0) mulf,
    TRef.nullary (TRef.of (T := ⟨S_, .f32⟩) main_call3_cst) (constant S_ .f32 0x00000000#32),
    TRef.binary (TRef.of (T := ⟨S256x16x256, .f32⟩) main_call3_v0) (TRef.of (T := ⟨S_, .f32⟩) main_call3_cst) (TRef.of (T := ⟨S256x16, .f32⟩) main_call3_v1) (fun x v => Host.reduceAdd x v reducesTo_S256x16x256_S256x16_d2 h_S_),
    TRef.unary (TRef.of (T := ⟨S256x16, .f32⟩) main_call3_v1) (TRef.of (T := ⟨S256x16x1, .f32⟩) main_call3_v2) (broadcastInDim S256x16x1 ![0, 1] bcast_S256x16_S256x16x1_0_1),
    TRef.unary (TRef.of (T := ⟨S256x16x1, .f32⟩) main_call3_v2) (TRef.of (T := ⟨S256x16x1, .f32⟩) main_v37) Host.sqrt,
    unary main_v37 main_v38 (broadcastInDim S256x16x256 ![0, 1, 2] bcast_S256x16x1_S256x16x256_0_1_2 : (⟨S256x16x1, .f32⟩ : BufTy).Contents (Elt F) → (⟨S256x16x256, .f32⟩ : BufTy).Contents (Elt F)),
    binary main_arg3 main_v38 main_v39 (Host.divf : (⟨S256x16x256, .f32⟩ : BufTy).Contents (Elt F) → (⟨S256x16x256, .f32⟩ : BufTy).Contents (Elt F) → (⟨S256x16x256, .f32⟩ : BufTy).Contents (Elt F)) ]

/-- Stretch 3: operations 56 to 79 of the program's list. -/
abbrev ops3 : List (HloOp τ sig (Elt F)) :=
  [
    nullary main_v40 (iotaInDim S256x256 32 0),
    nullary main_v41 (iotaInDim S256x256 32 1),
    nullary main_c (constantI S_ 32 0#32),
    unary main_c main_v42 (broadcastInDim S256x256 ![] bcast_S_S256x256 : (⟨S_, .i32⟩ : BufTy).Contents (Elt F) → (⟨S256x256, .i32⟩ : BufTy).Contents (Elt F)),
    binary main_v40 main_v42 main_v43 (addi : (⟨S256x256, .i32⟩ : BufTy).Contents (Elt F) → (⟨S256x256, .i32⟩ : BufTy).Contents (Elt F) → (⟨S256x256, .i32⟩ : BufTy).Contents (Elt F)),
    binary main_v43 main_v41 main_v44 (cmpi .eq : (⟨S256x256, .i32⟩ : BufTy).Contents (Elt F) → (⟨S256x256, .i32⟩ : BufTy).Contents (Elt F) → (⟨S256x256, .i1⟩ : BufTy).Contents (Elt F)),
    unary main_v44 main_v45 (uitofp .f32 : (⟨S256x256, .i1⟩ : BufTy).Contents (Elt F) → (⟨S256x256, .f32⟩ : BufTy).Contents (Elt F)),
    unary main_v45 main_v46 (broadcastInDim S256x1x256x1 ![0, 2] bcast_S256x256_S256x1x256x1_0_2 : (⟨S256x256, .f32⟩ : BufTy).Contents (Elt F) → (⟨S256x1x256x1, .f32⟩ : BufTy).Contents (Elt F)),
    binary main_v30 main_v36 main_v47 ((fun l r => Host.dotGeneral dot_S256x16x256_S256x16x256_S256x16x256x16_2_2_01_01_n_n none l r) : (⟨S256x16x256, .f32⟩ : BufTy).Contents (Elt F) → (⟨S256x16x256, .f32⟩ : BufTy).Contents (Elt F) → (⟨S256x16x256x16, .f32⟩ : BufTy).Contents (Elt F)),
    nullary main_cst (constant S_ .f32 0x41200000#32),
    unary main_cst main_v48 (broadcastInDim S256x16x256x16 ![] bcast_S_S256x16x256x16 : (⟨S_, .f32⟩ : BufTy).Contents (Elt F) → (⟨S256x16x256x16, .f32⟩ : BufTy).Contents (Elt F)),
    binary main_v47 main_v48 main_v49 (mulf : (⟨S256x16x256x16, .f32⟩ : BufTy).Contents (Elt F) → (⟨S256x16x256x16, .f32⟩ : BufTy).Contents (Elt F) → (⟨S256x16x256x16, .f32⟩ : BufTy).Contents (Elt F)),
    binary main_v33 main_v39 main_v50 ((fun l r => Host.dotGeneral dot_S256x16x256_S256x16x256_S256x16x256x16_2_2_01_01_n_n none l r) : (⟨S256x16x256, .f32⟩ : BufTy).Contents (Elt F) → (⟨S256x16x256, .f32⟩ : BufTy).Contents (Elt F) → (⟨S256x16x256x16, .f32⟩ : BufTy).Contents (Elt F)),
    nullary main_cst_0 (constant S_ .f32 0x41200000#32),
    unary main_cst_0 main_v51 (broadcastInDim S256x16x256x16 ![] bcast_S_S256x16x256x16 : (⟨S_, .f32⟩ : BufTy).Contents (Elt F) → (⟨S256x16x256x16, .f32⟩ : BufTy).Contents (Elt F)),
    binary main_v50 main_v51 main_v52 (mulf : (⟨S256x16x256x16, .f32⟩ : BufTy).Contents (Elt F) → (⟨S256x16x256x16, .f32⟩ : BufTy).Contents (Elt F) → (⟨S256x16x256x16, .f32⟩ : BufTy).Contents (Elt F)),
    binary main_v30 main_v39 main_v53 ((fun l r => Host.dotGeneral dot_S256x16x256_S256x16x256_S256x16x256x16_2_2_01_01_n_n none l r) : (⟨S256x16x256, .f32⟩ : BufTy).Contents (Elt F) → (⟨S256x16x256, .f32⟩ : BufTy).Contents (Elt F) → (⟨S256x16x256x16, .f32⟩ : BufTy).Contents (Elt F)),
    nullary main_cst_1 (constant S_ .f32 0x41200000#32),
    unary main_cst_1 main_v54 (broadcastInDim S256x16x256x16 ![] bcast_S_S256x16x256x16 : (⟨S_, .f32⟩ : BufTy).Contents (Elt F) → (⟨S256x16x256x16, .f32⟩ : BufTy).Contents (Elt F)),
    binary main_v53 main_v54 main_v55 (mulf : (⟨S256x16x256x16, .f32⟩ : BufTy).Contents (Elt F) → (⟨S256x16x256x16, .f32⟩ : BufTy).Contents (Elt F) → (⟨S256x16x256x16, .f32⟩ : BufTy).Contents (Elt F)),
    binary main_v33 main_v36 main_v56 ((fun l r => Host.dotGeneral dot_S256x16x256_S256x16x256_S256x16x256x16_2_2_01_01_n_n none l r) : (⟨S256x16x256, .f32⟩ : BufTy).Contents (Elt F) → (⟨S256x16x256, .f32⟩ : BufTy).Contents (Elt F) → (⟨S256x16x256x16, .f32⟩ : BufTy).Contents (Elt F)),
    nullary main_cst_2 (constant S_ .f32 0x41200000#32),
    unary main_cst_2 main_v57 (broadcastInDim S256x16x256x16 ![] bcast_S_S256x16x256x16 : (⟨S_, .f32⟩ : BufTy).Contents (Elt F) → (⟨S256x16x256x16, .f32⟩ : BufTy).Contents (Elt F)),
    binary main_v56 main_v57 main_v58 (mulf : (⟨S256x16x256x16, .f32⟩ : BufTy).Contents (Elt F) → (⟨S256x16x256x16, .f32⟩ : BufTy).Contents (Elt F) → (⟨S256x16x256x16, .f32⟩ : BufTy).Contents (Elt F)) ]

/-- Stretch 4: operations 80 to 101 of the program's list. -/
abbrev ops4 : List (HloOp τ sig (Elt F)) :=
  [
    unary main_v46 main_v59 (broadcastInDim S256x16x256x16 ![0, 1, 2, 3] bcast_S256x1x256x1_S256x16x256x16_0_1_2_3 : (⟨S256x1x256x1, .f32⟩ : BufTy).Contents (Elt F) → (⟨S256x16x256x16, .f32⟩ : BufTy).Contents (Elt F)),
    unary main_v13 main_v60 (broadcastInDim S256x16x256x16 ![0, 1, 2, 3] bcast_S256x16x1x16_S256x16x256x16_0_1_2_3 : (⟨S256x16x1x16, .f32⟩ : BufTy).Contents (Elt F) → (⟨S256x16x256x16, .f32⟩ : BufTy).Contents (Elt F)),
    binary main_v59 main_v60 main_v61 (mulf : (⟨S256x16x256x16, .f32⟩ : BufTy).Contents (Elt F) → (⟨S256x16x256x16, .f32⟩ : BufTy).Contents (Elt F) → (⟨S256x16x256x16, .f32⟩ : BufTy).Contents (Elt F)),
    unary main_v46 main_v62 (broadcastInDim S256x16x256x16 ![0, 1, 2, 3] bcast_S256x1x256x1_S256x16x256x16_0_1_2_3 : (⟨S256x1x256x1, .f32⟩ : BufTy).Contents (Elt F) → (⟨S256x16x256x16, .f32⟩ : BufTy).Contents (Elt F)),
    unary main_v20 main_v63 (broadcastInDim S256x16x256x16 ![0, 1, 2, 3] bcast_S256x16x1x16_S256x16x256x16_0_1_2_3 : (⟨S256x16x1x16, .f32⟩ : BufTy).Contents (Elt F) → (⟨S256x16x256x16, .f32⟩ : BufTy).Contents (Elt F)),
    binary main_v62 main_v63 main_v64 (mulf : (⟨S256x16x256x16, .f32⟩ : BufTy).Contents (Elt F) → (⟨S256x16x256x16, .f32⟩ : BufTy).Contents (Elt F) → (⟨S256x16x256x16, .f32⟩ : BufTy).Contents (Elt F)),
    nullary main_cst_3 (constant S_ .f32 0x00000000#32),
    unary main_cst_3 main_v65 (broadcastInDim S256x16x256x16 ![] bcast_S_S256x16x256x16 : (⟨S_, .f32⟩ : BufTy).Contents (Elt F) → (⟨S256x16x256x16, .f32⟩ : BufTy).Contents (Elt F)),
    nullary main_cst_4 (constant S_ .f32 0x4E6E6B28#32),
    unary main_cst_4 main_v66 (broadcastInDim S256x1x256x1 ![] bcast_S_S256x1x256x1 : (⟨S_, .f32⟩ : BufTy).Contents (Elt F) → (⟨S256x1x256x1, .f32⟩ : BufTy).Contents (Elt F)),
    binary main_v66 main_v46 main_v67 (mulf : (⟨S256x1x256x1, .f32⟩ : BufTy).Contents (Elt F) → (⟨S256x1x256x1, .f32⟩ : BufTy).Contents (Elt F) → (⟨S256x1x256x1, .f32⟩ : BufTy).Contents (Elt F)),
    unary main_v67 main_v68 (broadcastInDim S256x16x256x16 ![0, 1, 2, 3] bcast_S256x1x256x1_S256x16x256x16_0_1_2_3 : (⟨S256x1x256x1, .f32⟩ : BufTy).Contents (Elt F) → (⟨S256x16x256x16, .f32⟩ : BufTy).Contents (Elt F)),
    unary main_v6 main_v69 (broadcastInDim S256x16x256x16 ![0, 1, 2, 3] bcast_S256x16x1x16_S256x16x256x16_0_1_2_3 : (⟨S256x16x1x16, .f32⟩ : BufTy).Contents (Elt F) → (⟨S256x16x256x16, .f32⟩ : BufTy).Contents (Elt F)),
    binary main_v68 main_v69 main_v70 (mulf : (⟨S256x16x256x16, .f32⟩ : BufTy).Contents (Elt F) → (⟨S256x16x256x16, .f32⟩ : BufTy).Contents (Elt F) → (⟨S256x16x256x16, .f32⟩ : BufTy).Contents (Elt F)),
    binary main_v49 main_v70 main_v71 (subf : (⟨S256x16x256x16, .f32⟩ : BufTy).Contents (Elt F) → (⟨S256x16x256x16, .f32⟩ : BufTy).Contents (Elt F) → (⟨S256x16x256x16, .f32⟩ : BufTy).Contents (Elt F)),
    nullary main_cst_5 (constant S_ .f32 0x4E6E6B28#32),
    unary main_cst_5 main_v72 (broadcastInDim S256x1x256x1 ![] bcast_S_S256x1x256x1 : (⟨S_, .f32⟩ : BufTy).Contents (Elt F) → (⟨S256x1x256x1, .f32⟩ : BufTy).Contents (Elt F)),
    binary main_v72 main_v46 main_v73 (mulf : (⟨S256x1x256x1, .f32⟩ : BufTy).Contents (Elt F) → (⟨S256x1x256x1, .f32⟩ : BufTy).Contents (Elt F) → (⟨S256x1x256x1, .f32⟩ : BufTy).Contents (Elt F)),
    unary main_v73 main_v74 (broadcastInDim S256x16x256x16 ![0, 1, 2, 3] bcast_S256x1x256x1_S256x16x256x16_0_1_2_3 : (⟨S256x1x256x1, .f32⟩ : BufTy).Contents (Elt F) → (⟨S256x16x256x16, .f32⟩ : BufTy).Contents (Elt F)),
    unary main_v27 main_v75 (broadcastInDim S256x16x256x16 ![0, 1, 2, 3] bcast_S256x16x1x16_S256x16x256x16_0_1_2_3 : (⟨S256x16x1x16, .f32⟩ : BufTy).Contents (Elt F) → (⟨S256x16x256x16, .f32⟩ : BufTy).Contents (Elt F)),
    binary main_v74 main_v75 main_v76 (mulf : (⟨S256x16x256x16, .f32⟩ : BufTy).Contents (Elt F) → (⟨S256x16x256x16, .f32⟩ : BufTy).Contents (Elt F) → (⟨S256x16x256x16, .f32⟩ : BufTy).Contents (Elt F)),
    binary main_v52 main_v76 main_v77 (subf : (⟨S256x16x256x16, .f32⟩ : BufTy).Contents (Elt F) → (⟨S256x16x256x16, .f32⟩ : BufTy).Contents (Elt F) → (⟨S256x16x256x16, .f32⟩ : BufTy).Contents (Elt F)) ]

/-- Stretch 5: operations 102 to 121 of the program's list. -/
abbrev ops5 : List (HloOp τ sig (Elt F)) :=
  [
    binary main_v61 main_v65 main_v78 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v78 main_v79 rfl shapeCasts_S256x16x512x16_S256x16x8192,
    binary main_v64 main_v65 main_v80 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v80 main_v81 rfl shapeCasts_S256x16x512x16_S256x16x8192,
    nullary main_cst_6 (constant S_ .f32 0x00000000#32),
    binary main_v79 main_cst_6 main_v82 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    unary main_v82 main_v83 (broadcastInDim S256x16x1 ![0, 1] bcast_S256x16_S256x16x1_0_1 : (⟨S256x16, .f32⟩ : BufTy).Contents (Elt F) → (⟨S256x16x1, .f32⟩ : BufTy).Contents (Elt F)),
    nullary main_cst_7 (constant S_ .f32 0x00000000#32),
    binary main_v81 main_cst_7 main_v84 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    unary main_v84 main_v85 (broadcastInDim S256x16x1 ![0, 1] bcast_S256x16_S256x16x1_0_1 : (⟨S256x16, .f32⟩ : BufTy).Contents (Elt F) → (⟨S256x16x1, .f32⟩ : BufTy).Contents (Elt F)),
    nullary main_cst_8 (constant S_ .f32 0x3F800000#32),
    unary main_cst_8 main_v86 (broadcastInDim S256x16x1 ![] bcast_S_S256x16x1 : (⟨S_, .f32⟩ : BufTy).Contents (Elt F) → (⟨S256x16x1, .f32⟩ : BufTy).Contents (Elt F)),
    binary main_v83 main_v86 main_v87 (maximumf : (⟨S256x16x1, .f32⟩ : BufTy).Contents (Elt F) → (⟨S256x16x1, .f32⟩ : BufTy).Contents (Elt F) → (⟨S256x16x1, .f32⟩ : BufTy).Contents (Elt F)),
    unary main_v87 main_v88 (broadcastInDim S256x16x8192 ![0, 1, 2] bcast_S256x16x1_S256x16x8192_0_1_2 : (⟨S256x16x1, .f32⟩ : BufTy).Contents (Elt F) → (⟨S256x16x8192, .f32⟩ : BufTy).Contents (Elt F)),
    binary main_v79 main_v88 main_v89 (Host.divf : (⟨S256x16x8192, .f32⟩ : BufTy).Contents (Elt F) → (⟨S256x16x8192, .f32⟩ : BufTy).Contents (Elt F) → (⟨S256x16x8192, .f32⟩ : BufTy).Contents (Elt F)),
    nullary main_cst_9 (constant S_ .f32 0x3F800000#32),
    unary main_cst_9 main_v90 (broadcastInDim S256x16x1 ![] bcast_S_S256x16x1 : (⟨S_, .f32⟩ : BufTy).Contents (Elt F) → (⟨S256x16x1, .f32⟩ : BufTy).Contents (Elt F)),
    binary main_v85 main_v90 main_v91 (maximumf : (⟨S256x16x1, .f32⟩ : BufTy).Contents (Elt F) → (⟨S256x16x1, .f32⟩ : BufTy).Contents (Elt F) → (⟨S256x16x1, .f32⟩ : BufTy).Contents (Elt F)),
    unary main_v91 main_v92 (broadcastInDim S256x16x8192 ![0, 1, 2] bcast_S256x16x1_S256x16x8192_0_1_2 : (⟨S256x16x1, .f32⟩ : BufTy).Contents (Elt F) → (⟨S256x16x8192, .f32⟩ : BufTy).Contents (Elt F)),
    binary main_v81 main_v92 main_v93 (Host.divf : (⟨S256x16x8192, .f32⟩ : BufTy).Contents (Elt F) → (⟨S256x16x8192, .f32⟩ : BufTy).Contents (Elt F) → (⟨S256x16x8192, .f32⟩ : BufTy).Contents (Elt F)) ]

/-- Stretch 6: operations 122 to 151 of the program's list. -/
abbrev ops6 : List (HloOp τ sig (Elt F)) :=
  [
    unary main_arg4 main_v94 (broadcastInDim S256x16x1 ![0, 1] bcast_S256x16_S256x16x1_0_1 : (⟨S256x16, .i32⟩ : BufTy).Contents (Elt F) → (⟨S256x16x1, .i32⟩ : BufTy).Contents (Elt F)),
    unary main_arg4 main_v95 (broadcastInDim S256x1x16 ![0, 2] bcast_S256x16_S256x1x16_0_2 : (⟨S256x16, .i32⟩ : BufTy).Contents (Elt F) → (⟨S256x1x16, .i32⟩ : BufTy).Contents (Elt F)),
    unary main_v94 main_v96 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v95 main_v97 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v96 main_v97 main_v98 (cmpi .eq : (⟨S256x16x16, .i32⟩ : BufTy).Contents (Elt F) → (⟨S256x16x16, .i32⟩ : BufTy).Contents (Elt F) → (⟨S256x16x16, .i1⟩ : BufTy).Contents (Elt F)),
    unary main_v98 main_v99 (uitofp .f32 : (⟨S256x16x16, .i1⟩ : BufTy).Contents (Elt F) → (⟨S256x16x16, .f32⟩ : BufTy).Contents (Elt F)),
    unary main_v99 main_v100 (broadcastInDim S256x16x1x16 ![0, 1, 3] bcast_S256x16x16_S256x16x1x16_0_1_3 : (⟨S256x16x16, .f32⟩ : BufTy).Contents (Elt F) → (⟨S256x16x1x16, .f32⟩ : BufTy).Contents (Elt F)),
    nullary main_cst_10 (constant S_ .f32 0x00000000#32),
    binary main_v100 main_cst_10 main_v101 ((fun x v => Host.reduceAdd x v reducesTo_S256x16x1x16_S256x16_d2_3 h_S_) : (⟨S256x16x1x16, .f32⟩ : BufTy).Contents (Elt F) → (⟨S_, .f32⟩ : BufTy).Contents (Elt F) → (⟨S256x16, .f32⟩ : BufTy).Contents (Elt F)),
    unary main_arg5 main_v102 (broadcastInDim S256x16x1 ![0, 1] bcast_S256x16_S256x16x1_0_1 : (⟨S256x16, .i32⟩ : BufTy).Contents (Elt F) → (⟨S256x16x1, .i32⟩ : BufTy).Contents (Elt F)),
    unary main_arg5 main_v103 (broadcastInDim S256x1x16 ![0, 2] bcast_S256x16_S256x1x16_0_2 : (⟨S256x16, .i32⟩ : BufTy).Contents (Elt F) → (⟨S256x1x16, .i32⟩ : BufTy).Contents (Elt F)),
    unary main_v102 main_v104 (broadcastInDim S256x16x16 ![0, 1, 2] bcast_S256x16x1_S256x16x16_0_1_2 : (⟨S256x16x1, .i32⟩ : BufTy).Contents (Elt F) → (⟨S256x16x16, .i32⟩ : BufTy).Contents (Elt F)),
    unary main_v103 main_v105 (broadcastInDim S256x16x16 ![0, 1, 2] bcast_S256x1x16_S256x16x16_0_1_2 : (⟨S256x1x16, .i32⟩ : BufTy).Contents (Elt F) → (⟨S256x16x16, .i32⟩ : BufTy).Contents (Elt F)),
    binary main_v104 main_v105 main_v106 (cmpi .eq : (⟨S256x16x16, .i32⟩ : BufTy).Contents (Elt F) → (⟨S256x16x16, .i32⟩ : BufTy).Contents (Elt F) → (⟨S256x16x16, .i1⟩ : BufTy).Contents (Elt F)),
    unary main_v106 main_v107 (uitofp .f32 : (⟨S256x16x16, .i1⟩ : BufTy).Contents (Elt F) → (⟨S256x16x16, .f32⟩ : BufTy).Contents (Elt F)),
    unary main_v107 main_v108 (broadcastInDim S256x16x1x16 ![0, 1, 3] bcast_S256x16x16_S256x16x1x16_0_1_3 : (⟨S256x16x16, .f32⟩ : BufTy).Contents (Elt F) → (⟨S256x16x1x16, .f32⟩ : BufTy).Contents (Elt F)),
    nullary main_cst_11 (constant S_ .f32 0x00000000#32),
    binary main_v108 main_cst_11 main_v109 ((fun x v => Host.reduceAdd x v reducesTo_S256x16x1x16_S256x16_d2_3 h_S_) : (⟨S256x16x1x16, .f32⟩ : BufTy).Contents (Elt F) → (⟨S_, .f32⟩ : BufTy).Contents (Elt F) → (⟨S256x16, .f32⟩ : BufTy).Contents (Elt F)),
    reshape main_v83 main_v110 rfl shapeCasts_S256x16x1_S256x16,
    nullary main_cst_12 (constant S_ .f32 0x3A83126F#32),
    unary main_cst_12 main_v111 (broadcastInDim S256x16 ![] bcast_S_S256x16 : (⟨S_, .f32⟩ : BufTy).Contents (Elt F) → (⟨S256x16, .f32⟩ : BufTy).Contents (Elt F)),
    binary main_v110 main_v111 main_v112 (cmpf .ogt : (⟨S256x16, .f32⟩ : BufTy).Contents (Elt F) → (⟨S256x16, .f32⟩ : BufTy).Contents (Elt F) → (⟨S256x16, .i1⟩ : BufTy).Contents (Elt F)),
    unary main_v112 main_v113 (uitofp .f32 : (⟨S256x16, .i1⟩ : BufTy).Contents (Elt F) → (⟨S256x16, .f32⟩ : BufTy).Contents (Elt F)),
    binary main_v113 main_v101 main_v114 (Host.divf : (⟨S256x16, .f32⟩ : BufTy).Contents (Elt F) → (⟨S256x16, .f32⟩ : BufTy).Contents (Elt F) → (⟨S256x16, .f32⟩ : BufTy).Contents (Elt F)),
    reshape main_v85 main_v115 rfl shapeCasts_S256x16x1_S256x16,
    nullary main_cst_13 (constant S_ .f32 0x3A83126F#32),
    unary main_cst_13 main_v116 (broadcastInDim S256x16 ![] bcast_S_S256x16 : (⟨S_, .f32⟩ : BufTy).Contents (Elt F) → (⟨S256x16, .f32⟩ : BufTy).Contents (Elt F)),
    binary main_v115 main_v116 main_v117 (cmpf .ogt : (⟨S256x16, .f32⟩ : BufTy).Contents (Elt F) → (⟨S256x16, .f32⟩ : BufTy).Contents (Elt F) → (⟨S256x16, .i1⟩ : BufTy).Contents (Elt F)),
    unary main_v117 main_v118 (uitofp .f32 : (⟨S256x16, .i1⟩ : BufTy).Contents (Elt F) → (⟨S256x16, .f32⟩ : BufTy).Contents (Elt F)),
    binary main_v118 main_v109 main_v119 (Host.divf : (⟨S256x16, .f32⟩ : BufTy).Contents (Elt F) → (⟨S256x16, .f32⟩ : BufTy).Contents (Elt F) → (⟨S256x16, .f32⟩ : BufTy).Contents (Elt F)) ]

/-- Stretch 7: operations 152 to 175 of the program's list. -/
abbrev ops7 : List (HloOp τ sig (Elt F)) :=
  [
    binary main_v55 main_v71 main_v120 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v120 main_v121 rfl shapeCasts_S256x16x512x16_S256x16x8192,
    binary main_v58 main_v77 main_v122 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v122 main_v123 rfl shapeCasts_S256x16x512x16_S256x16x8192,
    unary main_v114 main_v124 (Host.negf : (⟨S256x16, .f32⟩ : BufTy).Contents (Elt F) → (⟨S256x16, .f32⟩ : BufTy).Contents (Elt F)),
    TRef.nullary (TRef.of (T := ⟨S_, .f32⟩) main_call4_cst) (constant S_ .f32 0xFF800000#32),
    TRef.binary (TRef.of (T := ⟨S256x16x8192, .f32⟩) main_v121) (TRef.of (T := ⟨S_, .f32⟩) main_call4_cst) (TRef.of (T := ⟨S256x16, .f32⟩) main_call4_v0) (fun x v => Host.reduce FloatOps.maximumf x v reducesTo_S256x16x8192_S256x16_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S256x16, .f32⟩) main_call4_v1) (broadcastInDim S256x16 ![] bcast_S_S256x16),
    TRef.binary (TRef.of (T := ⟨S256x16, .f32⟩) main_call4_v1) (TRef.of (T := ⟨S256x16, .f32⟩) main_call4_v0) (TRef.of (T := ⟨S256x16, .f32⟩) main_call4_v2) maximumf,
    TRef.unary (TRef.of (T := ⟨S256x16, .f32⟩) main_call4_v2) (TRef.of (T := ⟨S256x16x1, .f32⟩) main_call4_v3) (broadcastInDim S256x16x1 ![0, 1] bcast_S256x16_S256x16x1_0_1),
    TRef.unary (TRef.of (T := ⟨S256x16x1, .f32⟩) main_call4_v3) (TRef.of (T := ⟨S256x16x8192, .f32⟩) main_call4_v4) (broadcastInDim S256x16x8192 ![0, 1, 2] bcast_S256x16x1_S256x16x8192_0_1_2),
    TRef.binary (TRef.of (T := ⟨S256x16x8192, .f32⟩) main_v121) (TRef.of (T := ⟨S256x16x8192, .f32⟩) main_call4_v4) (TRef.of (T := ⟨S256x16x8192, .f32⟩) main_call4_v5) subf,
    TRef.unary (TRef.of (T := ⟨S256x16x8192, .f32⟩) main_call4_v5) (TRef.of (T := ⟨S256x16x8192, .f32⟩) main_call4_v6) Host.exp,
    TRef.nullary (TRef.of (T := ⟨S_, .f32⟩) main_call4_cst_1) (constant S_ .f32 0x00000000#32),
    TRef.binary (TRef.of (T := ⟨S256x16x8192, .f32⟩) main_call4_v6) (TRef.of (T := ⟨S_, .f32⟩) main_call4_cst_1) (TRef.of (T := ⟨S256x16, .f32⟩) main_call4_v7) (fun x v => Host.reduceAdd x v reducesTo_S256x16x8192_S256x16_d2 h_S_),
    TRef.unary (TRef.of (T := ⟨S256x16, .f32⟩) main_call4_v7) (TRef.of (T := ⟨S256x16x1, .f32⟩) main_call4_v8) (broadcastInDim S256x16x1 ![0, 1] bcast_S256x16_S256x16x1_0_1),
    TRef.unary (TRef.of (T := ⟨S256x16x1, .f32⟩) main_call4_v8) (TRef.of (T := ⟨S256x16x1, .f32⟩) main_call4_v9) Host.log,
    TRef.unary (TRef.of (T := ⟨S256x16x1, .f32⟩) main_call4_v9) (TRef.of (T := ⟨S256x16x8192, .f32⟩) main_call4_v10) (broadcastInDim S256x16x8192 ![0, 1, 2] bcast_S256x16x1_S256x16x8192_0_1_2),
    TRef.binary (TRef.of (T := ⟨S256x16x8192, .f32⟩) main_call4_v5) (TRef.of (T := ⟨S256x16x8192, .f32⟩) main_call4_v10) (TRef.of (T := ⟨S256x16x8192, .f32⟩) main_v125) subf,
    binary main_v89 main_v125 main_v126 (mulf : (⟨S256x16x8192, .f32⟩ : BufTy).Contents (Elt F) → (⟨S256x16x8192, .f32⟩ : BufTy).Contents (Elt F) → (⟨S256x16x8192, .f32⟩ : BufTy).Contents (Elt F)),
    nullary main_cst_14 (constant S_ .f32 0x00000000#32),
    binary main_v126 main_cst_14 main_v127 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    binary main_v124 main_v127 main_v128 (mulf : (⟨S256x16, .f32⟩ : BufTy).Contents (Elt F) → (⟨S256x16, .f32⟩ : BufTy).Contents (Elt F) → (⟨S256x16, .f32⟩ : BufTy).Contents (Elt F)) ]

/-- Stretch 8: operations 176 to 204 of the program's list. -/
abbrev ops8 : List (HloOp τ sig (Elt F)) :=
  [
    unary main_v119 main_v129 (Host.negf : (⟨S256x16, .f32⟩ : BufTy).Contents (Elt F) → (⟨S256x16, .f32⟩ : BufTy).Contents (Elt F)),
    TRef.nullary (TRef.of (T := ⟨S_, .f32⟩) main_call5_cst) (constant S_ .f32 0xFF800000#32),
    TRef.binary (TRef.of (T := ⟨S256x16x8192, .f32⟩) main_v123) (TRef.of (T := ⟨S_, .f32⟩) main_call5_cst) (TRef.of (T := ⟨S256x16, .f32⟩) main_call5_v0) (fun x v => Host.reduce FloatOps.maximumf x v reducesTo_S256x16x8192_S256x16_d2 h_S_),
    TRef.nullary (TRef.of (T := ⟨S_, .f32⟩) main_call5_cst_0) (constant S_ .f32 0xFF800000#32),
    TRef.unary (TRef.of (T := ⟨S_, .f32⟩) main_call5_cst_0) (TRef.of (T := ⟨S256x16, .f32⟩) main_call5_v1) (broadcastInDim S256x16 ![] bcast_S_S256x16),
    TRef.binary (TRef.of (T := ⟨S256x16, .f32⟩) main_call5_v1) (TRef.of (T := ⟨S256x16, .f32⟩) main_call5_v0) (TRef.of (T := ⟨S256x16, .f32⟩) main_call5_v2) maximumf,
    TRef.unary (TRef.of (T := ⟨S256x16, .f32⟩) main_call5_v2) (TRef.of (T := ⟨S256x16x1, .f32⟩) main_call5_v3) (broadcastInDim S256x16x1 ![0, 1] bcast_S256x16_S256x16x1_0_1),
    TRef.unary (TRef.of (T := ⟨S256x16x1, .f32⟩) main_call5_v3) (TRef.of (T := ⟨S256x16x8192, .f32⟩) main_call5_v4) (broadcastInDim S256x16x8192 ![0, 1, 2] bcast_S256x16x1_S256x16x8192_0_1_2),
    TRef.binary (TRef.of (T := ⟨S256x16x8192, .f32⟩) main_v123) (TRef.of (T := ⟨S256x16x8192, .f32⟩) main_call5_v4) (TRef.of (T := ⟨S256x16x8192, .f32⟩) main_call5_v5) subf,
    TRef.unary (TRef.of (T := ⟨S256x16x8192, .f32⟩) main_call5_v5) (TRef.of (T := ⟨S256x16x8192, .f32⟩) main_call5_v6) Host.exp,
    TRef.nullary (TRef.of (T := ⟨S_, .f32⟩) main_call5_cst_1) (constant S_ .f32 0x00000000#32),
    TRef.binary (TRef.of (T := ⟨S256x16x8192, .f32⟩) main_call5_v6) (TRef.of (T := ⟨S_, .f32⟩) main_call5_cst_1) (TRef.of (T := ⟨S256x16, .f32⟩) main_call5_v7) (fun x v => Host.reduceAdd x v reducesTo_S256x16x8192_S256x16_d2 h_S_),
    TRef.unary (TRef.of (T := ⟨S256x16, .f32⟩) main_call5_v7) (TRef.of (T := ⟨S256x16x1, .f32⟩) main_call5_v8) (broadcastInDim S256x16x1 ![0, 1] bcast_S256x16_S256x16x1_0_1),
    TRef.unary (TRef.of (T := ⟨S256x16x1, .f32⟩) main_call5_v8) (TRef.of (T := ⟨S256x16x1, .f32⟩) main_call5_v9) Host.log,
    TRef.unary (TRef.of (T := ⟨S256x16x1, .f32⟩) main_call5_v9) (TRef.of (T := ⟨S256x16x8192, .f32⟩) main_call5_v10) (broadcastInDim S256x16x8192 ![0, 1, 2] bcast_S256x16x1_S256x16x8192_0_1_2),
    TRef.binary (TRef.of (T := ⟨S256x16x8192, .f32⟩) main_call5_v5) (TRef.of (T := ⟨S256x16x8192, .f32⟩) main_call5_v10) (TRef.of (T := ⟨S256x16x8192, .f32⟩) main_v130) subf,
    binary main_v93 main_v130 main_v131 (mulf : (⟨S256x16x8192, .f32⟩ : BufTy).Contents (Elt F) → (⟨S256x16x8192, .f32⟩ : BufTy).Contents (Elt F) → (⟨S256x16x8192, .f32⟩ : BufTy).Contents (Elt F)),
    nullary main_cst_15 (constant S_ .f32 0x00000000#32),
    binary main_v131 main_cst_15 main_v132 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    binary main_v129 main_v132 main_v133 (mulf : (⟨S256x16, .f32⟩ : BufTy).Contents (Elt F) → (⟨S256x16, .f32⟩ : BufTy).Contents (Elt F) → (⟨S256x16, .f32⟩ : BufTy).Contents (Elt F)),
    nullary main_cst_16 (constant S_ .f32 0x00000000#32),
    binary main_v128 main_cst_16 main_v134 ((fun x v => Host.reduceAdd x v reducesTo_S256x16_S_d0_1 h_S_) : (⟨S256x16, .f32⟩ : BufTy).Contents (Elt F) → (⟨S_, .f32⟩ : BufTy).Contents (Elt F) → (⟨S_, .f32⟩ : BufTy).Contents (Elt F)),
    nullary main_cst_17 (constant S_ .f32 0x45800000#32),
    binary main_v134 main_cst_17 main_v135 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v133 main_cst_18 main_v136 ((fun x v => Host.reduceAdd x v reducesTo_S256x16_S_d0_1 h_S_) : (⟨S256x16, .f32⟩ : BufTy).Contents (Elt F) → (⟨S_, .f32⟩ : BufTy).Contents (Elt F) → (⟨S_, .f32⟩ : BufTy).Contents (Elt F)),
    nullary main_cst_19 (constant S_ .f32 0x45800000#32),
    binary main_v136 main_cst_19 main_v137 (Host.divf : (⟨S_, .f32⟩ : BufTy).Contents (Elt F) → (⟨S_, .f32⟩ : BufTy).Contents (Elt F) → (⟨S_, .f32⟩ : BufTy).Contents (Elt F)),
    binary main_v135 main_v137 main_v138 (addf : (⟨S_, .f32⟩ : BufTy).Contents (Elt F) → (⟨S_, .f32⟩ : BufTy).Contents (Elt F) → (⟨S_, .f32⟩ : BufTy).Contents (Elt F)) ]

/-- The whole program: the eight stretches one after the other. -/
abbrev ops : List (HloOp τ sig (Elt F)) := ops1 ++ (ops2 ++ (ops3 ++ (ops4 ++ (ops5 ++ (ops6 ++ (ops7 ++ ops8))))))

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## What holds at each cut -/

/-- Before the first operation: the eight arguments hold the launch values. -/
structure Inv0 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7

/-- After stretch 1: the eight arguments still hold the launch values, and every buffer a later stretch reads holds its stage's value of them. -/
structure Inv1 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v6 : V (Proc.devRef .tc main_v6) = val_main_v6 (F := F) x4 x6
  v13 : V (Proc.devRef .tc main_v13) = val_main_v13 (F := F) x4 x7
  v20 : V (Proc.devRef .tc main_v20) = val_main_v20 (F := F) x5 x6
  v27 : V (Proc.devRef .tc main_v27) = val_main_v27 (F := F) x5 x7

/-- After stretch 2: the eight arguments still hold the launch values, and every buffer a later stretch reads holds its stage's value of them. -/
structure Inv2 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v6 : V (Proc.devRef .tc main_v6) = val_main_v6 (F := F) x4 x6
  v13 : V (Proc.devRef .tc main_v13) = val_main_v13 (F := F) x4 x7
  v20 : V (Proc.devRef .tc main_v20) = val_main_v20 (F := F) x5 x6
  v27 : V (Proc.devRef .tc main_v27) = val_main_v27 (F := F) x5 x7
  v30 : V (Proc.devRef .tc main_v30) = val_main_v30 (F := F) x0
  v33 : V (Proc.devRef .tc main_v33) = val_main_v33 (F := F) x1
  v36 : V (Proc.devRef .tc main_v36) = val_main_v36 (F := F) x2
  v39 : V (Proc.devRef .tc main_v39) = val_main_v39 (F := F) x3

/-- After stretch 3: the eight arguments still hold the launch values, and every buffer a later stretch reads holds its stage's value of them. -/
structure Inv3 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v6 : V (Proc.devRef .tc main_v6) = val_main_v6 (F := F) x4 x6
  v13 : V (Proc.devRef .tc main_v13) = val_main_v13 (F := F) x4 x7
  v20 : V (Proc.devRef .tc main_v20) = val_main_v20 (F := F) x5 x6
  v27 : V (Proc.devRef .tc main_v27) = val_main_v27 (F := F) x5 x7
  v46 : V (Proc.devRef .tc main_v46) = val_main_v46 (F := F)
  v49 : V (Proc.devRef .tc main_v49) = val_main_v49 (F := F) x0 x2
  v52 : V (Proc.devRef .tc main_v52) = val_main_v52 (F := F) x1 x3
  v55 : V (Proc.devRef .tc main_v55) = val_main_v55 (F := F) x0 x3
  v58 : V (Proc.devRef .tc main_v58) = val_main_v58 (F := F) x1 x2

/-- After stretch 4: the eight arguments still hold the launch values, and every buffer a later stretch reads holds its stage's value of them. -/
structure Inv4 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v61 : V (Proc.devRef .tc main_v61) = val_main_v61 (F := F) x4 x7
  v64 : V (Proc.devRef .tc main_v64) = val_main_v64 (F := F) x5 x6
  v65 : V (Proc.devRef .tc main_v65) = val_main_v65 (F := F)
  v55 : V (Proc.devRef .tc main_v55) = val_main_v55 (F := F) x0 x3
  v58 : V (Proc.devRef .tc main_v58) = val_main_v58 (F := F) x1 x2
  v71 : V (Proc.devRef .tc main_v71) = val_main_v71 (F := F) x0 x2 x4 x6
  v77 : V (Proc.devRef .tc main_v77) = val_main_v77 (F := F) x1 x3 x5 x7

/-- After stretch 5: the eight arguments still hold the launch values, and every buffer a later stretch reads holds its stage's value of them. -/
structure Inv5 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v83 : V (Proc.devRef .tc main_v83) = val_main_v83 (F := F) x4 x7
  v85 : V (Proc.devRef .tc main_v85) = val_main_v85 (F := F) x5 x6
  v89 : V (Proc.devRef .tc main_v89) = val_main_v89 (F := F) x4 x7
  v93 : V (Proc.devRef .tc main_v93) = val_main_v93 (F := F) x5 x6
  v55 : V (Proc.devRef .tc main_v55) = val_main_v55 (F := F) x0 x3
  v58 : V (Proc.devRef .tc main_v58) = val_main_v58 (F := F) x1 x2
  v71 : V (Proc.devRef .tc main_v71) = val_main_v71 (F := F) x0 x2 x4 x6
  v77 : V (Proc.devRef .tc main_v77) = val_main_v77 (F := F) x1 x3 x5 x7

/-- After stretch 6: the eight arguments still hold the launch values, and every buffer a later stretch reads holds its stage's value of them. -/
structure Inv6 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v89 : V (Proc.devRef .tc main_v89) = val_main_v89 (F := F) x4 x7
  v93 : V (Proc.devRef .tc main_v93) = val_main_v93 (F := F) x5 x6
  v114 : V (Proc.devRef .tc main_v114) = val_main_v114 (F := F) x4 x7
  v119 : V (Proc.devRef .tc main_v119) = val_main_v119 (F := F) x5 x6
  v55 : V (Proc.devRef .tc main_v55) = val_main_v55 (F := F) x0 x3
  v58 : V (Proc.devRef .tc main_v58) = val_main_v58 (F := F) x1 x2
  v71 : V (Proc.devRef .tc main_v71) = val_main_v71 (F := F) x0 x2 x4 x6
  v77 : V (Proc.devRef .tc main_v77) = val_main_v77 (F := F) x1 x3 x5 x7

/-- After stretch 7: the eight arguments still hold the launch values, and every buffer a later stretch reads holds its stage's value of them. -/
structure Inv7 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v93 : V (Proc.devRef .tc main_v93) = val_main_v93 (F := F) x5 x6
  v119 : V (Proc.devRef .tc main_v119) = val_main_v119 (F := F) x5 x6
  v123 : V (Proc.devRef .tc main_v123) = val_main_v123 (F := F) x1 x2 x3 x5 x7
  v128 : V (Proc.devRef .tc main_v128) = val_main_v128 (F := F) x0 x2 x3 x4 x6 x7

/-- After stretch 8: the eight arguments still hold the launch values, and every buffer a later stretch reads holds its stage's value of them. -/
structure Inv8 (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v138 : V (Proc.devRef .tc main_v138) = val_main_v138 (F := F) x0 x1 x2 x3 x4 x5 x6 x7

end Cert.ReferenceIdeal.RunHand
end
-- ==== Proof.RefStretch1.lean ====
/-
  Stretch 1 of the reference's operation list (operations 0 to 27): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 1 writes, in order. -/
def W1 : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27]

/-- Every operation of stretch 1 writes one buffer of that list. -/
theorem ops1_writes :
    (ops1 : List (HloOp τ sig (Elt F))).Forall fun op => op.writes ⊆ (W1.map (Proc.devRef (τ := τ) .tc)).toFinset := by
  simp only [List.Forall, unary_writes, binary_writes, nullary_writes, reshape_writes, Finset.singleton_subset_iff, List.mem_toFinset,
    List.mem_map]
  exact ⟨⟨main_v0, by decide, rfl⟩, ⟨main_v1, by decide, rfl⟩, ⟨main_v2, by decide, rfl⟩, ⟨main_v3, by decide, rfl⟩, ⟨main_v4, by decide, rfl⟩, ⟨main_v5, by decide, rfl⟩, ⟨main_v6, by decide, rfl⟩, ⟨main_v7, by decide, rfl⟩, ⟨main_v8, by decide, rfl⟩, ⟨main_v9, by decide, rfl⟩, ⟨main_v10, by decide, rfl⟩, ⟨main_v11, by decide, rfl⟩, ⟨main_v12, by decide, rfl⟩, ⟨main_v13, by decide, rfl⟩, ⟨main_v14, by decide, rfl⟩, ⟨main_v15, by decide, rfl⟩, ⟨main_v16, by decide, rfl⟩, ⟨main_v17, by decide, rfl⟩, ⟨main_v18, by decide, rfl⟩, ⟨main_v19, by decide, rfl⟩, ⟨main_v20, by decide, rfl⟩, ⟨main_v21, by decide, rfl⟩, ⟨main_v22, by decide, rfl⟩, ⟨main_v23, by decide, rfl⟩, ⟨main_v24, by decide, rfl⟩, ⟨main_v25, by decide, rfl⟩, ⟨main_v26, by decide, rfl⟩, ⟨main_v27, by decide, rfl⟩⟩

set_option maxHeartbeats 4000000 in
/-- Stretch 1 carries the facts of the cut before it to the cut after it: a buffer the stretch writes is its
    operations' term of the stretch's inputs, which is its stage's value once the inputs are replaced by theirs; every
    other buffer is not among those the stretch writes, so it keeps its contents. -/
theorem stretch1 (V : Valuation τ sig (Elt F)) (x0 x1 x2 x3 : (⟨S256x16x256, .f32⟩ : BufTy).Contents (Elt F)) (x4 x5 x6 x7 : (⟨S256x16, .i32⟩ : BufTy).Contents (Elt F))
    (h : Inv0 V x0 x1 x2 x3 x4 x5 x6 x7) : Inv1 (after ops1 V) x0 x1 x2 x3 x4 x5 x6 x7 where
  a0 := (after_of_writes_sub ops1 V ops1_writes (by decide)).trans h.a0
  a1 := (after_of_writes_sub ops1 V ops1_writes (by decide)).trans h.a1
  a2 := (after_of_writes_sub ops1 V ops1_writes (by decide)).trans h.a2
  a3 := (after_of_writes_sub ops1 V ops1_writes (by decide)).trans h.a3
  a4 := (after_of_writes_sub ops1 V ops1_writes (by decide)).trans h.a4
  a5 := (after_of_writes_sub ops1 V ops1_writes (by decide)).trans h.a5
  a6 := (after_of_writes_sub ops1 V ops1_writes (by decide)).trans h.a6
  a7 := (after_of_writes_sub ops1 V ops1_writes (by decide)).trans h.a7
  v6 := by
    show after ops1 V (Proc.devRef .tc main_v6) = _
    after_results_simp
    (try simp only [StableHlo.TRef.ofBuf, StableHlo.TRef.toBuf, cast_eq])
    (try simp only [h.a0, h.a1, h.a2, h.a3, h.a4, h.a5, h.a6, h.a7])
    rfl
  v13 := by
    show after ops1 V (Proc.devRef .tc main_v13) = _
    after_results_simp
    (try simp only [StableHlo.TRef.ofBuf, StableHlo.TRef.toBuf, cast_eq])
    (try simp only [h.a0, h.a1, h.a2, h.a3, h.a4, h.a5, h.a6, h.a7])
    rfl
  v20 := by
    show after ops1 V (Proc.devRef .tc main_v20) = _
    after_results_simp
    (try simp only [StableHlo.TRef.ofBuf, StableHlo.TRef.toBuf, cast_eq])
    (try simp only [h.a0, h.a1, h.a2, h.a3, h.a4, h.a5, h.a6, h.a7])
    rfl
  v27 := by
    show after ops1 V (Proc.devRef .tc main_v27) = _
    after_results_simp
    (try simp only [StableHlo.TRef.ofBuf, StableHlo.TRef.toBuf, cast_eq])
    (try simp only [h.a0, h.a1, h.a2, h.a3, h.a4, h.a5, h.a6, h.a7])
    rfl

end Cert.ReferenceIdeal.RunHand
end
-- ==== Proof.RefStretch2.lean ====
/-
  Stretch 2 of the reference's operation list (operations 28 to 55): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 2 writes, in order. -/
def W2 : List (Ref sig .tc) :=
  [main_call0_v0, main_call0_cst, main_call0_v1, main_call0_v2, main_v28, main_v29, main_v30, main_call1_v0, main_call1_cst, main_call1_v1, main_call1_v2, main_v31, main_v32, main_v33, main_call2_v0, main_call2_cst, main_call2_v1, main_call2_v2, main_v34, main_v35, main_v36, main_call3_v0, main_call3_cst, main_call3_v1, main_call3_v2, main_v37, main_v38, main_v39]

/-- Every operation of stretch 2 writes one buffer of that list. -/
theorem ops2_writes :
    (ops2 : List (HloOp τ sig (Elt F))).Forall fun op => op.writes ⊆ (W2.map (Proc.devRef (τ := τ) .tc)).toFinset := by
  simp only [List.Forall, unary_writes, binary_writes, nullary_writes, reshape_writes, Finset.singleton_subset_iff, List.mem_toFinset,
    List.mem_map]
  exact ⟨⟨main_call0_v0, by decide, rfl⟩, ⟨main_call0_cst, by decide, rfl⟩, ⟨main_call0_v1, by decide, rfl⟩, ⟨main_call0_v2, by decide, rfl⟩, ⟨main_v28, by decide, rfl⟩, ⟨main_v29, by decide, rfl⟩, ⟨main_v30, by decide, rfl⟩, ⟨main_call1_v0, by decide, rfl⟩, ⟨main_call1_cst, by decide, rfl⟩, ⟨main_call1_v1, by decide, rfl⟩, ⟨main_call1_v2, by decide, rfl⟩, ⟨main_v31, by decide, rfl⟩, ⟨main_v32, by decide, rfl⟩, ⟨main_v33, by decide, rfl⟩, ⟨main_call2_v0, by decide, rfl⟩, ⟨main_call2_cst, by decide, rfl⟩, ⟨main_call2_v1, by decide, rfl⟩, ⟨main_call2_v2, by decide, rfl⟩, ⟨main_v34, by decide, rfl⟩, ⟨main_v35, by decide, rfl⟩, ⟨main_v36, by decide, rfl⟩, ⟨main_call3_v0, by decide, rfl⟩, ⟨main_call3_cst, by decide, rfl⟩, ⟨main_call3_v1, by decide, rfl⟩, ⟨main_call3_v2, by decide, rfl⟩, ⟨main_v37, by decide, rfl⟩, ⟨main_v38, by decide, rfl⟩, ⟨main_v39, by decide, rfl⟩⟩

set_option maxHeartbeats 4000000 in
/-- Stretch 2 carries the facts of the cut before it to the cut after it: a buffer the stretch writes is its
    operations' term of the stretch's inputs, which is its stage's value once the inputs are replaced by theirs; every
    other buffer is not among those the stretch writes, so it keeps its contents. -/
theorem stretch2 (V : Valuation τ sig (Elt F)) (x0 x1 x2 x3 : (⟨S256x16x256, .f32⟩ : BufTy).Contents (Elt F)) (x4 x5 x6 x7 : (⟨S256x16, .i32⟩ : BufTy).Contents (Elt F))
    (h : Inv1 V x0 x1 x2 x3 x4 x5 x6 x7) : Inv2 (after ops2 V) x0 x1 x2 x3 x4 x5 x6 x7 where
  a0 := (after_of_writes_sub ops2 V ops2_writes (by decide)).trans h.a0
  a1 := (after_of_writes_sub ops2 V ops2_writes (by decide)).trans h.a1
  a2 := (after_of_writes_sub ops2 V ops2_writes (by decide)).trans h.a2
  a3 := (after_of_writes_sub ops2 V ops2_writes (by decide)).trans h.a3
  a4 := (after_of_writes_sub ops2 V ops2_writes (by decide)).trans h.a4
  a5 := (after_of_writes_sub ops2 V ops2_writes (by decide)).trans h.a5
  a6 := (after_of_writes_sub ops2 V ops2_writes (by decide)).trans h.a6
  a7 := (after_of_writes_sub ops2 V ops2_writes (by decide)).trans h.a7
  v6 := (after_of_writes_sub ops2 V ops2_writes (by decide)).trans h.v6
  v13 := (after_of_writes_sub ops2 V ops2_writes (by decide)).trans h.v13
  v20 := (after_of_writes_sub ops2 V ops2_writes (by decide)).trans h.v20
  v27 := (after_of_writes_sub ops2 V ops2_writes (by decide)).trans h.v27
  v30 := by
    show after ops2 V (Proc.devRef .tc main_v30) = _
    after_results_simp
    (try simp only [StableHlo.TRef.ofBuf, StableHlo.TRef.toBuf, cast_eq])
    (try simp only [h.a0, h.a1, h.a2, h.a3, h.a4, h.a5, h.a6, h.a7, h.v6, h.v13, h.v20, h.v27])
    rfl
  v33 := by
    show after ops2 V (Proc.devRef .tc main_v33) = _
    after_results_simp
    (try simp only [StableHlo.TRef.ofBuf, StableHlo.TRef.toBuf, cast_eq])
    (try simp only [h.a0, h.a1, h.a2, h.a3, h.a4, h.a5, h.a6, h.a7, h.v6, h.v13, h.v20, h.v27])
    rfl
  v36 := by
    show after ops2 V (Proc.devRef .tc main_v36) = _
    after_results_simp
    (try simp only [StableHlo.TRef.ofBuf, StableHlo.TRef.toBuf, cast_eq])
    (try simp only [h.a0, h.a1, h.a2, h.a3, h.a4, h.a5, h.a6, h.a7, h.v6, h.v13, h.v20, h.v27])
    rfl
  v39 := by
    show after ops2 V (Proc.devRef .tc main_v39) = _
    after_results_simp
    (try simp only [StableHlo.TRef.ofBuf, StableHlo.TRef.toBuf, cast_eq])
    (try simp only [h.a0, h.a1, h.a2, h.a3, h.a4, h.a5, h.a6, h.a7, h.v6, h.v13, h.v20, h.v27])
    rfl

end Cert.ReferenceIdeal.RunHand
end
-- ==== Proof.RefStretch3.lean ====
/-
  Stretch 3 of the reference's operation list (operations 56 to 79): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 3 writes, in order. -/
def W3 : List (Ref sig .tc) :=
  [main_v40, main_v41, main_c, main_v42, main_v43, main_v44, main_v45, main_v46, main_v47, main_cst, main_v48, main_v49, main_v50, main_cst_0, main_v51, main_v52, main_v53, main_cst_1, main_v54, main_v55, main_v56, main_cst_2, main_v57, main_v58]

/-- Every operation of stretch 3 writes one buffer of that list. -/
theorem ops3_writes :
    (ops3 : List (HloOp τ sig (Elt F))).Forall fun op => op.writes ⊆ (W3.map (Proc.devRef (τ := τ) .tc)).toFinset := by
  simp only [List.Forall, unary_writes, binary_writes, nullary_writes, reshape_writes, Finset.singleton_subset_iff, List.mem_toFinset,
    List.mem_map]
  exact ⟨⟨main_v40, by decide, rfl⟩, ⟨main_v41, by decide, rfl⟩, ⟨main_c, by decide, rfl⟩, ⟨main_v42, by decide, rfl⟩, ⟨main_v43, by decide, rfl⟩, ⟨main_v44, by decide, rfl⟩, ⟨main_v45, by decide, rfl⟩, ⟨main_v46, by decide, rfl⟩, ⟨main_v47, by decide, rfl⟩, ⟨main_cst, by decide, rfl⟩, ⟨main_v48, by decide, rfl⟩, ⟨main_v49, by decide, rfl⟩, ⟨main_v50, by decide, rfl⟩, ⟨main_cst_0, by decide, rfl⟩, ⟨main_v51, by decide, rfl⟩, ⟨main_v52, by decide, rfl⟩, ⟨main_v53, by decide, rfl⟩, ⟨main_cst_1, by decide, rfl⟩, ⟨main_v54, by decide, rfl⟩, ⟨main_v55, by decide, rfl⟩, ⟨main_v56, by decide, rfl⟩, ⟨main_cst_2, by decide, rfl⟩, ⟨main_v57, by decide, rfl⟩, ⟨main_v58, by decide, rfl⟩⟩

set_option maxHeartbeats 4000000 in
/-- Stretch 3 carries the facts of the cut before it to the cut after it: a buffer the stretch writes is its
    operations' term of the stretch's inputs, which is its stage's value once the inputs are replaced by theirs; every
    other buffer is not among those the stretch writes, so it keeps its contents. -/
theorem stretch3 (V : Valuation τ sig (Elt F)) (x0 x1 x2 x3 : (⟨S256x16x256, .f32⟩ : BufTy).Contents (Elt F)) (x4 x5 x6 x7 : (⟨S256x16, .i32⟩ : BufTy).Contents (Elt F))
    (h : Inv2 V x0 x1 x2 x3 x4 x5 x6 x7) : Inv3 (after ops3 V) x0 x1 x2 x3 x4 x5 x6 x7 where
  a0 := (after_of_writes_sub ops3 V ops3_writes (by decide)).trans h.a0
  a1 := (after_of_writes_sub ops3 V ops3_writes (by decide)).trans h.a1
  a2 := (after_of_writes_sub ops3 V ops3_writes (by decide)).trans h.a2
  a3 := (after_of_writes_sub ops3 V ops3_writes (by decide)).trans h.a3
  a4 := (after_of_writes_sub ops3 V ops3_writes (by decide)).trans h.a4
  a5 := (after_of_writes_sub ops3 V ops3_writes (by decide)).trans h.a5
  a6 := (after_of_writes_sub ops3 V ops3_writes (by decide)).trans h.a6
  a7 := (after_of_writes_sub ops3 V ops3_writes (by decide)).trans h.a7
  v6 := (after_of_writes_sub ops3 V ops3_writes (by decide)).trans h.v6
  v13 := (after_of_writes_sub ops3 V ops3_writes (by decide)).trans h.v13
  v20 := (after_of_writes_sub ops3 V ops3_writes (by decide)).trans h.v20
  v27 := (after_of_writes_sub ops3 V ops3_writes (by decide)).trans h.v27
  v46 := by
    show after ops3 V (Proc.devRef .tc main_v46) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v30, h.v33, h.v36, h.v39])
    rfl
  v49 := by
    show after ops3 V (Proc.devRef .tc main_v49) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v30, h.v33, h.v36, h.v39])
    rfl
  v52 := by
    show after ops3 V (Proc.devRef .tc main_v52) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v30, h.v33, h.v36, h.v39])
    rfl
  v55 := by
    show after ops3 V (Proc.devRef .tc main_v55) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v30, h.v33, h.v36, h.v39])
    rfl
  v58 := by
    show after ops3 V (Proc.devRef .tc main_v58) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v30, h.v33, h.v36, h.v39])
    rfl

end Cert.ReferenceIdeal.RunHand
end
-- ==== Proof.RefStretch4.lean ====
/-
  Stretch 4 of the reference's operation list (operations 80 to 101): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 4 writes, in order. -/
def W4 : List (Ref sig .tc) :=
  [main_v59, main_v60, main_v61, main_v62, main_v63, main_v64, main_cst_3, main_v65, main_cst_4, main_v66, main_v67, main_v68, main_v69, main_v70, main_v71, main_cst_5, main_v72, main_v73, main_v74, main_v75, main_v76, main_v77]

/-- Every operation of stretch 4 writes one buffer of that list. -/
theorem ops4_writes :
    (ops4 : List (HloOp τ sig (Elt F))).Forall fun op => op.writes ⊆ (W4.map (Proc.devRef (τ := τ) .tc)).toFinset := by
  simp only [List.Forall, unary_writes, binary_writes, nullary_writes, reshape_writes, Finset.singleton_subset_iff, List.mem_toFinset,
    List.mem_map]
  exact ⟨⟨main_v59, by decide, rfl⟩, ⟨main_v60, by decide, rfl⟩, ⟨main_v61, by decide, rfl⟩, ⟨main_v62, by decide, rfl⟩, ⟨main_v63, by decide, rfl⟩, ⟨main_v64, by decide, rfl⟩, ⟨main_cst_3, by decide, rfl⟩, ⟨main_v65, by decide, rfl⟩, ⟨main_cst_4, by decide, rfl⟩, ⟨main_v66, by decide, rfl⟩, ⟨main_v67, by decide, rfl⟩, ⟨main_v68, by decide, rfl⟩, ⟨main_v69, by decide, rfl⟩, ⟨main_v70, by decide, rfl⟩, ⟨main_v71, by decide, rfl⟩, ⟨main_cst_5, by decide, rfl⟩, ⟨main_v72, by decide, rfl⟩, ⟨main_v73, by decide, rfl⟩, ⟨main_v74, by decide, rfl⟩, ⟨main_v75, by decide, rfl⟩, ⟨main_v76, by decide, rfl⟩, ⟨main_v77, by decide, rfl⟩⟩

set_option maxHeartbeats 4000000 in
/-- Stretch 4 carries the facts of the cut before it to the cut after it: a buffer the stretch writes is its
    operations' term of the stretch's inputs, which is its stage's value once the inputs are replaced by theirs; every
    other buffer is not among those the stretch writes, so it keeps its contents. -/
theorem stretch4 (V : Valuation τ sig (Elt F)) (x0 x1 x2 x3 : (⟨S256x16x256, .f32⟩ : BufTy).Contents (Elt F)) (x4 x5 x6 x7 : (⟨S256x16, .i32⟩ : BufTy).Contents (Elt F))
    (h : Inv3 V x0 x1 x2 x3 x4 x5 x6 x7) : Inv4 (after ops4 V) x0 x1 x2 x3 x4 x5 x6 x7 where
  a0 := (after_of_writes_sub ops4 V ops4_writes (by decide)).trans h.a0
  a1 := (after_of_writes_sub ops4 V ops4_writes (by decide)).trans h.a1
  a2 := (after_of_writes_sub ops4 V ops4_writes (by decide)).trans h.a2
  a3 := (after_of_writes_sub ops4 V ops4_writes (by decide)).trans h.a3
  a4 := (after_of_writes_sub ops4 V ops4_writes (by decide)).trans h.a4
  a5 := (after_of_writes_sub ops4 V ops4_writes (by decide)).trans h.a5
  a6 := (after_of_writes_sub ops4 V ops4_writes (by decide)).trans h.a6
  a7 := (after_of_writes_sub ops4 V ops4_writes (by decide)).trans h.a7
  v61 := by
    show after ops4 V (Proc.devRef .tc main_v61) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v46, h.v49, h.v52, h.v55, h.v58])
    rfl
  v64 := by
    show after ops4 V (Proc.devRef .tc main_v64) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v46, h.v49, h.v52, h.v55, h.v58])
    rfl
  v65 := by
    show after ops4 V (Proc.devRef .tc main_v65) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v46, h.v49, h.v52, h.v55, h.v58])
    rfl
  v55 := (after_of_writes_sub ops4 V ops4_writes (by decide)).trans h.v55
  v58 := (after_of_writes_sub ops4 V ops4_writes (by decide)).trans h.v58
  v71 := by
    show after ops4 V (Proc.devRef .tc main_v71) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v46, h.v49, h.v52, h.v55, h.v58])
    rfl
  v77 := by
    show after ops4 V (Proc.devRef .tc main_v77) = _
    after_results_simp
    (try simp only [StableHlo.TRef.ofBuf, StableHlo.TRef.toBuf, cast_eq])
    (try simp only [h.a0, h.a1, h.a2, h.a3, h.a4, h.a5, h.a6, h.a7, h.v6, h.v13, h.v20, h.v27, h.v46, h.v49, h.v52, h.v55, h.v58])
    rfl

end Cert.ReferenceIdeal.RunHand
end
-- ==== Proof.RefStretch5.lean ====
/-
  Stretch 5 of the reference's operation list (operations 102 to 121): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 5 writes, in order. -/
def W5 : List (Ref sig .tc) :=
  [main_v78, main_v79, main_v80, main_v81, main_cst_6, main_v82, main_v83, main_cst_7, main_v84, main_v85, main_cst_8, main_v86, main_v87, main_v88, main_v89, main_cst_9, main_v90, main_v91, main_v92, main_v93]

/-- Every operation of stretch 5 writes one buffer of that list. -/
theorem ops5_writes :
    (ops5 : List (HloOp τ sig (Elt F))).Forall fun op => op.writes ⊆ (W5.map (Proc.devRef (τ := τ) .tc)).toFinset := by
  simp only [List.Forall, unary_writes, binary_writes, nullary_writes, reshape_writes, Finset.singleton_subset_iff, List.mem_toFinset,
    List.mem_map]
  exact ⟨⟨main_v78, by decide, rfl⟩, ⟨main_v79, by decide, rfl⟩, ⟨main_v80, by decide, rfl⟩, ⟨main_v81, by decide, rfl⟩, ⟨main_cst_6, by decide, rfl⟩, ⟨main_v82, by decide, rfl⟩, ⟨main_v83, by decide, rfl⟩, ⟨main_cst_7, by decide, rfl⟩, ⟨main_v84, by decide, rfl⟩, ⟨main_v85, by decide, rfl⟩, ⟨main_cst_8, by decide, rfl⟩, ⟨main_v86, by decide, rfl⟩, ⟨main_v87, by decide, rfl⟩, ⟨main_v88, by decide, rfl⟩, ⟨main_v89, by decide, rfl⟩, ⟨main_cst_9, by decide, rfl⟩, ⟨main_v90, by decide, rfl⟩, ⟨main_v91, by decide, rfl⟩, ⟨main_v92, by decide, rfl⟩, ⟨main_v93, by decide, rfl⟩⟩

set_option maxHeartbeats 4000000 in
/-- Stretch 5 carries the facts of the cut before it to the cut after it: a buffer the stretch writes is its
    operations' term of the stretch's inputs, which is its stage's value once the inputs are replaced by theirs; every
    other buffer is not among those the stretch writes, so it keeps its contents. -/
theorem stretch5 (V : Valuation τ sig (Elt F)) (x0 x1 x2 x3 : (⟨S256x16x256, .f32⟩ : BufTy).Contents (Elt F)) (x4 x5 x6 x7 : (⟨S256x16, .i32⟩ : BufTy).Contents (Elt F))
    (h : Inv4 V x0 x1 x2 x3 x4 x5 x6 x7) : Inv5 (after ops5 V) x0 x1 x2 x3 x4 x5 x6 x7 where
  a0 := (after_of_writes_sub ops5 V ops5_writes (by decide)).trans h.a0
  a1 := (after_of_writes_sub ops5 V ops5_writes (by decide)).trans h.a1
  a2 := (after_of_writes_sub ops5 V ops5_writes (by decide)).trans h.a2
  a3 := (after_of_writes_sub ops5 V ops5_writes (by decide)).trans h.a3
  a4 := (after_of_writes_sub ops5 V ops5_writes (by decide)).trans h.a4
  a5 := (after_of_writes_sub ops5 V ops5_writes (by decide)).trans h.a5
  a6 := (after_of_writes_sub ops5 V ops5_writes (by decide)).trans h.a6
  a7 := (after_of_writes_sub ops5 V ops5_writes (by decide)).trans h.a7
  v83 := by
    show after ops5 V (Proc.devRef .tc main_v83) = _
    after_results_simp
    rw [h.v61, h.v65]
    rfl
  v85 := by
    show after ops5 V (Proc.devRef .tc main_v85) = _
    after_results_simp
    repeat (first
      | (rw [reshape_result_ne]; rotate_left; decide)
      | (rw [binary_result_ne]; rotate_left; decide))
    rw [h.v64, h.v65]
    rfl
  v89 := by
    show after ops5 V (Proc.devRef .tc main_v89) = _
    after_results_simp
    rw [h.v61, h.v65]
    rfl
  v93 := by
    show after ops5 V (Proc.devRef .tc main_v93) = _
    after_results_simp
    repeat (first
      | (rw [reshape_result_ne]; rotate_left; decide)
      | (rw [binary_result_ne]; rotate_left; decide))
    rw [h.v64, h.v65]
    rfl
  v55 := (after_of_writes_sub ops5 V ops5_writes (by decide)).trans h.v55
  v58 := (after_of_writes_sub ops5 V ops5_writes (by decide)).trans h.v58
  v71 := (after_of_writes_sub ops5 V ops5_writes (by decide)).trans h.v71
  v77 := (after_of_writes_sub ops5 V ops5_writes (by decide)).trans h.v77

end Cert.ReferenceIdeal.RunHand
end
-- ==== Proof.RefStretch6.lean ====
/-
  Stretch 6 of the reference's operation list (operations 122 to 151): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The buffers stretch 6 writes, in order. -/
def W6 : List (Ref sig .tc) :=
  [main_v94, main_v95, main_v96, main_v97, main_v98, main_v99, main_v100, main_cst_10, main_v101, main_v102, main_v103, main_v104, main_v105, main_v106, main_v107, main_v108, main_cst_11, main_v109, main_v110, main_cst_12, main_v111, main_v112, main_v113, main_v114, main_v115, main_cst_13, main_v116, main_v117, main_v118, main_v119]

/-- Every operation of stretch 6 writes one buffer of that list. -/
theorem ops6_writes :
    (ops6 : List (HloOp τ sig (Elt F))).Forall fun op => op.writes ⊆ (W6.map (Proc.devRef (τ := τ) .tc)).toFinset := by
  simp only [List.Forall, unary_writes, binary_writes, nullary_writes, reshape_writes, Finset.singleton_subset_iff, List.mem_toFinset,
    List.mem_map]
  exact ⟨⟨main_v94, by decide, rfl⟩, ⟨main_v95, by decide, rfl⟩, ⟨main_v96, by decide, rfl⟩, ⟨main_v97, by decide, rfl⟩, ⟨main_v98, by decide, rfl⟩, ⟨main_v99, by decide, rfl⟩, ⟨main_v100, by decide, rfl⟩, ⟨main_cst_10, by decide, rfl⟩, ⟨main_v101, by decide, rfl⟩, ⟨main_v102, by decide, rfl⟩, ⟨main_v103, by decide, rfl⟩, ⟨main_v104, by decide, rfl⟩, ⟨main_v105, by decide, rfl⟩, ⟨main_v106, by decide, rfl⟩, ⟨main_v107, by decide, rfl⟩, ⟨main_v108, by decide, rfl⟩, ⟨main_cst_11, by decide, rfl⟩, ⟨main_v109, by decide, rfl⟩, ⟨main_v110, by decide, rfl⟩, ⟨main_cst_12, by decide, rfl⟩, ⟨main_v111, by decide, rfl⟩, ⟨main_v112, by decide, rfl⟩, ⟨main_v113, by decide, rfl⟩, ⟨main_v114, by decide, rfl⟩, ⟨main_v115, by decide, rfl⟩, ⟨main_cst_13, by decide, rfl⟩, ⟨main_v116, by decide, rfl⟩, ⟨main_v117, by decide, rfl⟩, ⟨main_v118, by decide, rfl⟩, ⟨main_v119, by decide, rfl⟩⟩

set_option maxHeartbeats 4000000 in
/-- Stretch 6 carries the facts of the cut before it to the cut after it: a buffer the stretch writes is its
    operations' term of the stretch's inputs, which is its stage's value once the inputs are replaced by theirs; every
    other buffer is not among those the stretch writes, so it keeps its contents. -/
theorem stretch6 (V : Valuation τ sig (Elt F)) (x0 x1 x2 x3 : (⟨S256x16x256, .f32⟩ : BufTy).Contents (Elt F)) (x4 x5 x6 x7 : (⟨S256x16, .i32⟩ : BufTy).Contents (Elt F))
    (h : Inv5 V x0 x1 x2 x3 x4 x5 x6 x7) : Inv6 (after ops6 V) x0 x1 x2 x3 x4 x5 x6 x7 where
  a0 := (after_of_writes_sub ops6 V ops6_writes (by decide)).trans h.a0
  a1 := (after_of_writes_sub ops6 V ops6_writes (by decide)).trans h.a1
  a2 := (after_of_writes_sub ops6 V ops6_writes (by decide)).trans h.a2
  a3 := (after_of_writes_sub ops6 V ops6_writes (by decide)).trans h.a3
  a4 := (after_of_writes_sub ops6 V ops6_writes (by decide)).trans h.a4
  a5 := (after_of_writes_sub ops6 V ops6_writes (by decide)).trans h.a5
  a6 := (after_of_writes_sub ops6 V ops6_writes (by decide)).trans h.a6
  a7 := (after_of_writes_sub ops6 V ops6_writes (by decide)).trans h.a7
  v89 := (after_of_writes_sub ops6 V ops6_writes (by decide)).trans h.v89
  v93 := (after_of_writes_sub ops6 V ops6_writes (by decide)).trans h.v93
  v114 := by
    show after ops6 V (Proc.devRef .tc main_v114) = _
    after_results_simp
    (try simp only [StableHlo.TRef.ofBuf, StableHlo.TRef.toBuf, cast_eq])
    (try simp only [h.a0, h.a1, h.a2, h.a3, h.a4, h.a5, h.a6, h.a7, h.v83, h.v85, h.v89, h.v93, h.v55, h.v58, h.v71, h.v77])
    rfl
  v119 := by
    show after ops6 V (Proc.devRef .tc main_v119) = _
    after_results_simp
    (try simp only [StableHlo.TRef.ofBuf, StableHlo.TRef.toBuf, cast_eq])
    (try simp only [h.a0, h.a1, h.a2, h.a3, h.a4, h.a5, h.a6, h.a7, h.v83, h.v85, h.v89, h.v93, h.v55, h.v58, h.v71, h.v77])
    rfl
  v55 := (after_of_writes_sub ops6 V ops6_writes (by decide)).trans h.v55
  v58 := (after_of_writes_sub ops6 V ops6_writes (by decide)).trans h.v58
  v71 := (after_of_writes_sub ops6 V ops6_writes (by decide)).trans h.v71
  v77 := (after_of_writes_sub ops6 V ops6_writes (by decide)).trans h.v77

end Cert.ReferenceIdeal.RunHand
end
-- ==== Proof.RefStretch7.lean ====
/-
  Stretch 7 of the reference's operation list (operations 152 to 175): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Part a of stretch 7: operations 152 to 156. -/
abbrev ops7a : List (HloOp τ sig (Elt F)) :=
  [
    binary main_v55 main_v71 main_v120 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v120 main_v121 rfl shapeCasts_S256x16x512x16_S256x16x8192,
    binary main_v58 main_v77 main_v122 ((fun a b => concatenate S256x16x512x16 2 [⟨S256x16x256x16, a⟩, ⟨S256x16x256x16, b⟩] concatenates_S256x16x256x16_S256x16x256x16_S256x16x512x16_d2) : (⟨S256x16x256x16, .f32⟩ : BufTy).Contents (Elt F) → (⟨S256x16x256x16, .f32⟩ : BufTy).Contents (Elt F) → (⟨S256x16x512x16, .f32⟩ : BufTy).Contents (Elt F)),
    reshape main_v122 main_v123 rfl shapeCasts_S256x16x512x16_S256x16x8192,
    unary main_v114 main_v124 (Host.negf : (⟨S256x16, .f32⟩ : BufTy).Contents (Elt F) → (⟨S256x16, .f32⟩ : BufTy).Contents (Elt F)) ]

/-- Part b of stretch 7: operations 157 to 165. -/
abbrev ops7b : List (HloOp τ sig (Elt F)) :=
  [
    TRef.nullary (TRef.of (T := ⟨S_, .f32⟩) main_call4_cst) (constant S_ .f32 0xFF800000#32),
    TRef.binary (TRef.of (T := ⟨S256x16x8192, .f32⟩) main_v121) (TRef.of (T := ⟨S_, .f32⟩) main_call4_cst) (TRef.of (T := ⟨S256x16, .f32⟩) main_call4_v0) (fun x v => Host.reduce FloatOps.maximumf x v reducesTo_S256x16x8192_S256x16_d2 h_S_),
    TRef.nullary (TRef.of (T := ⟨S_, .f32⟩) main_call4_cst_0) (constant S_ .f32 0xFF800000#32),
    TRef.unary (TRef.of (T := ⟨S_, .f32⟩) main_call4_cst_0) (TRef.of (T := ⟨S256x16, .f32⟩) main_call4_v1) (broadcastInDim S256x16 ![] bcast_S_S256x16),
    TRef.binary (TRef.of (T := ⟨S256x16, .f32⟩) main_call4_v1) (TRef.of (T := ⟨S256x16, .f32⟩) main_call4_v0) (TRef.of (T := ⟨S256x16, .f32⟩) main_call4_v2) maximumf,
    TRef.unary (TRef.of (T := ⟨S256x16, .f32⟩) main_call4_v2) (TRef.of (T := ⟨S256x16x1, .f32⟩) main_call4_v3) (broadcastInDim S256x16x1 ![0, 1] bcast_S256x16_S256x16x1_0_1),
    TRef.unary (TRef.of (T := ⟨S256x16x1, .f32⟩) main_call4_v3) (TRef.of (T := ⟨S256x16x8192, .f32⟩) main_call4_v4) (broadcastInDim S256x16x8192 ![0, 1, 2] bcast_S256x16x1_S256x16x8192_0_1_2),
    TRef.binary (TRef.of (T := ⟨S256x16x8192, .f32⟩) main_v121) (TRef.of (T := ⟨S256x16x8192, .f32⟩) main_call4_v4) (TRef.of (T := ⟨S256x16x8192, .f32⟩) main_call4_v5) subf,
    TRef.unary (TRef.of (T := ⟨S256x16x8192, .f32⟩) main_call4_v5) (TRef.of (T := ⟨S256x16x8192, .f32⟩) main_call4_v6) Host.exp ]

/-- Part c of stretch 7: operations 166 to 175. -/
abbrev ops7c : List (HloOp τ sig (Elt F)) :=
  [
    TRef.nullary (TRef.of (T := ⟨S_, .f32⟩) main_call4_cst_1) (constant S_ .f32 0x00000000#32),
    TRef.binary (TRef.of (T := ⟨S256x16x8192, .f32⟩) main_call4_v6) (TRef.of (T := ⟨S_, .f32⟩) main_call4_cst_1) (TRef.of (T := ⟨S256x16, .f32⟩) main_call4_v7) (fun x v => Host.reduceAdd x v reducesTo_S256x16x8192_S256x16_d2 h_S_),
    TRef.unary (TRef.of (T := ⟨S256x16, .f32⟩) main_call4_v7) (TRef.of (T := ⟨S256x16x1, .f32⟩) main_call4_v8) (broadcastInDim S256x16x1 ![0, 1] bcast_S256x16_S256x16x1_0_1),
    TRef.unary (TRef.of (T := ⟨S256x16x1, .f32⟩) main_call4_v8) (TRef.of (T := ⟨S256x16x1, .f32⟩) main_call4_v9) Host.log,
    TRef.unary (TRef.of (T := ⟨S256x16x1, .f32⟩) main_call4_v9) (TRef.of (T := ⟨S256x16x8192, .f32⟩) main_call4_v10) (broadcastInDim S256x16x8192 ![0, 1, 2] bcast_S256x16x1_S256x16x8192_0_1_2),
    TRef.binary (TRef.of (T := ⟨S256x16x8192, .f32⟩) main_call4_v5) (TRef.of (T := ⟨S256x16x8192, .f32⟩) main_call4_v10) (TRef.of (T := ⟨S256x16x8192, .f32⟩) main_v125) subf,
    binary main_v89 main_v125 main_v126 (mulf : (⟨S256x16x8192, .f32⟩ : BufTy).Contents (Elt F) → (⟨S256x16x8192, .f32⟩ : BufTy).Contents (Elt F) → (⟨S256x16x8192, .f32⟩ : BufTy).Contents (Elt F)),
    nullary main_cst_14 (constant S_ .f32 0x00000000#32),
    binary main_v126 main_cst_14 main_v127 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    binary main_v124 main_v127 main_v128 (mulf : (⟨S256x16, .f32⟩ : BufTy).Contents (Elt F) → (⟨S256x16, .f32⟩ : BufTy).Contents (Elt F) → (⟨S256x16, .f32⟩ : BufTy).Contents (Elt F)) ]

/-- Stretch 7 is its parts one after the other. -/
theorem ops7_eq : (ops7 : List (HloOp τ sig (Elt F))) = ops7a ++ (ops7b ++ (ops7c)) := rfl

/-- After part a of stretch 7: the arguments hold the launch values, and every buffer a later operation reads holds its stage's value of them. -/
structure Inv7a (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v89 : V (Proc.devRef .tc main_v89) = val_main_v89 (F := F) x4 x7
  v93 : V (Proc.devRef .tc main_v93) = val_main_v93 (F := F) x5 x6
  v119 : V (Proc.devRef .tc main_v119) = val_main_v119 (F := F) x5 x6
  v121 : V (Proc.devRef .tc main_v121) = val_main_v121 (F := F) x0 x2 x3 x4 x6
  v123 : V (Proc.devRef .tc main_v123) = val_main_v123 (F := F) x1 x2 x3 x5 x7
  v124 : V (Proc.devRef .tc main_v124) = val_main_v124 (F := F) x4 x7

/-- After part b of stretch 7: the arguments hold the launch values, and every buffer a later operation reads holds its stage's value of them. -/
structure Inv7b (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v89 : V (Proc.devRef .tc main_v89) = val_main_v89 (F := F) x4 x7
  v93 : V (Proc.devRef .tc main_v93) = val_main_v93 (F := F) x5 x6
  v119 : V (Proc.devRef .tc main_v119) = val_main_v119 (F := F) x5 x6
  v123 : V (Proc.devRef .tc main_v123) = val_main_v123 (F := F) x1 x2 x3 x5 x7
  v124 : V (Proc.devRef .tc main_v124) = val_main_v124 (F := F) x4 x7
  c4v5 : V (Proc.devRef .tc main_call4_v5) = val_main_call4_v5 (F := F) x0 x2 x3 x4 x6
  c4v6 : V (Proc.devRef .tc main_call4_v6) = val_main_call4_v6 (F := F) x0 x2 x3 x4 x6

/-- The buffers part a writes, in order. -/
def W7a : List (Ref sig .tc) :=
  [main_v120, main_v121, main_v122, main_v123, main_v124]

/-- Every operation of part a writes one buffer of that list. -/
theorem ops7a_writes :
    (ops7a : List (HloOp τ sig (Elt F))).Forall fun op => op.writes ⊆ (W7a.map (Proc.devRef (τ := τ) .tc)).toFinset := by
  simp only [List.Forall, unary_writes, binary_writes, nullary_writes, reshape_writes, Finset.singleton_subset_iff, List.mem_toFinset,
    List.mem_map]
  exact ⟨⟨main_v120, by decide, rfl⟩, ⟨main_v121, by decide, rfl⟩, ⟨main_v122, by decide, rfl⟩, ⟨main_v123, by decide, rfl⟩, ⟨main_v124, by decide, rfl⟩⟩

/-- Part a carries the facts before it to the facts after it: a buffer it writes is its operations' term of the
    part's inputs, which is its stage's value once the inputs are replaced by theirs; every other buffer is not among
    those the part writes, so it keeps its contents. -/
theorem part7a (V : Valuation τ sig (Elt F)) (x0 x1 x2 x3 : (⟨S256x16x256, .f32⟩ : BufTy).Contents (Elt F)) (x4 x5 x6 x7 : (⟨S256x16, .i32⟩ : BufTy).Contents (Elt F))
    (h : Inv6 V x0 x1 x2 x3 x4 x5 x6 x7) : Inv7a (after ops7a V) x0 x1 x2 x3 x4 x5 x6 x7 where
  a0 := (after_of_writes_sub ops7a V ops7a_writes (by decide)).trans h.a0
  a1 := (after_of_writes_sub ops7a V ops7a_writes (by decide)).trans h.a1
  a2 := (after_of_writes_sub ops7a V ops7a_writes (by decide)).trans h.a2
  a3 := (after_of_writes_sub ops7a V ops7a_writes (by decide)).trans h.a3
  a4 := (after_of_writes_sub ops7a V ops7a_writes (by decide)).trans h.a4
  a5 := (after_of_writes_sub ops7a V ops7a_writes (by decide)).trans h.a5
  a6 := (after_of_writes_sub ops7a V ops7a_writes (by decide)).trans h.a6
  a7 := (after_of_writes_sub ops7a V ops7a_writes (by decide)).trans h.a7
  v89 := (after_of_writes_sub ops7a V ops7a_writes (by decide)).trans h.v89
  v93 := (after_of_writes_sub ops7a V ops7a_writes (by decide)).trans h.v93
  v119 := (after_of_writes_sub ops7a V ops7a_writes (by decide)).trans h.v119
  v121 := by
    show after ops7a V (Proc.devRef .tc main_v121) = _
    after_results_simp
    rw [h.v55, h.v71]
    rfl
  v123 := by
    show after ops7a V (Proc.devRef .tc main_v123) = _
    after_results_simp
    repeat (first | (rw [reshape_result_ne]; rotate_left; decide) | (rw [binary_result_ne]; rotate_left; decide) | (rw [unary_result_ne]; rotate_left; decide) | (rw [nullary_result_ne]; rotate_left; decide))
    rw [h.v58, h.v77]
    rfl
  v124 := by
    show after ops7a V (Proc.devRef .tc main_v124) = _
    after_results_simp
    (try simp only [StableHlo.TRef.ofBuf, StableHlo.TRef.toBuf, cast_eq])
    (try simp only [h.a0, h.a1, h.a2, h.a3, h.a4, h.a5, h.a6, h.a7, h.v89, h.v93, h.v114, h.v119, h.v55, h.v58, h.v71, h.v77])
    rfl

/-- The buffers part b writes, in order. -/
def W7b : List (Ref sig .tc) :=
  [main_call4_cst, main_call4_v0, main_call4_cst_0, main_call4_v1, main_call4_v2, main_call4_v3, main_call4_v4, main_call4_v5, main_call4_v6]

/-- Every operation of part b writes one buffer of that list. -/
theorem ops7b_writes :
    (ops7b : List (HloOp τ sig (Elt F))).Forall fun op => op.writes ⊆ (W7b.map (Proc.devRef (τ := τ) .tc)).toFinset := by
  simp only [List.Forall, unary_writes, binary_writes, nullary_writes, reshape_writes, Finset.singleton_subset_iff, List.mem_toFinset,
    List.mem_map]
  exact ⟨⟨main_call4_cst, by decide, rfl⟩, ⟨main_call4_v0, by decide, rfl⟩, ⟨main_call4_cst_0, by decide, rfl⟩, ⟨main_call4_v1, by decide, rfl⟩, ⟨main_call4_v2, by decide, rfl⟩, ⟨main_call4_v3, by decide, rfl⟩, ⟨main_call4_v4, by decide, rfl⟩, ⟨main_call4_v5, by decide, rfl⟩, ⟨main_call4_v6, by decide, rfl⟩⟩

/-- Contents moved to a buffer's own type and back are unchanged. -/
theorem ofBuf_toBuf7 {T : BufTy} (x : TRef sig T) (v : T.Contents (Elt F)) : x.ofBuf (x.toBuf v) = v := by
  obtain ⟨r, e, hd, hs⟩ := x; subst e; rfl
theorem ofBuf_v121 (w : (⟨S256x16x8192, .f32⟩ : BufTy).Contents (Elt F)) : (TRef.of (sig := sig) (T := ⟨S256x16x8192, .f32⟩) main_v121).ofBuf w = w := cast_eq _ w
theorem toBuf_c4v5 (w : (⟨S256x16x8192, .f32⟩ : BufTy).Contents (Elt F)) : (TRef.of (sig := sig) (T := ⟨S256x16x8192, .f32⟩) main_call4_v5).toBuf w = w := cast_eq _ w
theorem toBuf_c4v6 (w : (⟨S256x16x8192, .f32⟩ : BufTy).Contents (Elt F)) : (TRef.of (sig := sig) (T := ⟨S256x16x8192, .f32⟩) main_call4_v6).toBuf w = w := cast_eq _ w

set_option maxHeartbeats 4000000 in
/-- Part b carries the facts before it to the facts after it: the shifted logits and their exponentials are the
    operations' terms of the logits, which are their stages' values once the logits are replaced by theirs; every other
    buffer is not among those the part writes, so it keeps its contents. -/
theorem part7b (V : Valuation τ sig (Elt F)) (x0 x1 x2 x3 : (⟨S256x16x256, .f32⟩ : BufTy).Contents (Elt F)) (x4 x5 x6 x7 : (⟨S256x16, .i32⟩ : BufTy).Contents (Elt F))
    (h : Inv7a V x0 x1 x2 x3 x4 x5 x6 x7) : Inv7b (after ops7b V) x0 x1 x2 x3 x4 x5 x6 x7 where
  a0 := (after_of_writes_sub ops7b V ops7b_writes (by decide)).trans h.a0
  a1 := (after_of_writes_sub ops7b V ops7b_writes (by decide)).trans h.a1
  a2 := (after_of_writes_sub ops7b V ops7b_writes (by decide)).trans h.a2
  a3 := (after_of_writes_sub ops7b V ops7b_writes (by decide)).trans h.a3
  a4 := (after_of_writes_sub ops7b V ops7b_writes (by decide)).trans h.a4
  a5 := (after_of_writes_sub ops7b V ops7b_writes (by decide)).trans h.a5
  a6 := (after_of_writes_sub ops7b V ops7b_writes (by decide)).trans h.a6
  a7 := (after_of_writes_sub ops7b V ops7b_writes (by decide)).trans h.a7
  v89 := (after_of_writes_sub ops7b V ops7b_writes (by decide)).trans h.v89
  v93 := (after_of_writes_sub ops7b V ops7b_writes (by decide)).trans h.v93
  v119 := (after_of_writes_sub ops7b V ops7b_writes (by decide)).trans h.v119
  v123 := (after_of_writes_sub ops7b V ops7b_writes (by decide)).trans h.v123
  v124 := (after_of_writes_sub ops7b V ops7b_writes (by decide)).trans h.v124
  c4v5 := by
    show after ops7b V (Proc.devRef .tc main_call4_v5) = _
    after_results_simp
    repeat rw [ofBuf_toBuf7]
    rw [h.v121, toBuf_c4v5, ofBuf_v121]
    unfold val_main_call4_v5 val_main_call4_v4 val_main_call4_v3 val_main_call4_v2 val_main_call4_v1 val_main_call4_v0 val_main_call4_cst val_main_call4_cst_0
    rfl
  c4v6 := by
    show after ops7b V (Proc.devRef .tc main_call4_v6) = _
    after_results_simp
    repeat rw [ofBuf_toBuf7]
    rw [h.v121, toBuf_c4v6, ofBuf_v121]
    unfold val_main_call4_v6 val_main_call4_v5 val_main_call4_v4 val_main_call4_v3 val_main_call4_v2 val_main_call4_v1 val_main_call4_v0 val_main_call4_cst val_main_call4_cst_0
    rfl

/-- The buffers part c writes, in order. -/
def W7c : List (Ref sig .tc) :=
  [main_call4_cst_1, main_call4_v7, main_call4_v8, main_call4_v9, main_call4_v10, main_v125, main_v126, main_cst_14, main_v127, main_v128]

/-- Every operation of part c writes one buffer of that list. -/
theorem ops7c_writes :
    (ops7c : List (HloOp τ sig (Elt F))).Forall fun op => op.writes ⊆ (W7c.map (Proc.devRef (τ := τ) .tc)).toFinset := by
  simp only [List.Forall, unary_writes, binary_writes, nullary_writes, reshape_writes, Finset.singleton_subset_iff, List.mem_toFinset,
    List.mem_map]
  exact ⟨⟨main_call4_cst_1, by decide, rfl⟩, ⟨main_call4_v7, by decide, rfl⟩, ⟨main_call4_v8, by decide, rfl⟩, ⟨main_call4_v9, by decide, rfl⟩, ⟨main_call4_v10, by decide, rfl⟩, ⟨main_v125, by decide, rfl⟩, ⟨main_v126, by decide, rfl⟩, ⟨main_cst_14, by decide, rfl⟩, ⟨main_v127, by decide, rfl⟩, ⟨main_v128, by decide, rfl⟩⟩

/-- Part c carries the facts before it to the facts after it: a buffer it writes is its operations' term of the
    part's inputs, which is its stage's value once the inputs are replaced by theirs; every other buffer is not among
    those the part writes, so it keeps its contents. -/
theorem part7c (V : Valuation τ sig (Elt F)) (x0 x1 x2 x3 : (⟨S256x16x256, .f32⟩ : BufTy).Contents (Elt F)) (x4 x5 x6 x7 : (⟨S256x16, .i32⟩ : BufTy).Contents (Elt F))
    (h : Inv7b V x0 x1 x2 x3 x4 x5 x6 x7) : Inv7 (after ops7c V) x0 x1 x2 x3 x4 x5 x6 x7 where
  a0 := (after_of_writes_sub ops7c V ops7c_writes (by decide)).trans h.a0
  a1 := (after_of_writes_sub ops7c V ops7c_writes (by decide)).trans h.a1
  a2 := (after_of_writes_sub ops7c V ops7c_writes (by decide)).trans h.a2
  a3 := (after_of_writes_sub ops7c V ops7c_writes (by decide)).trans h.a3
  a4 := (after_of_writes_sub ops7c V ops7c_writes (by decide)).trans h.a4
  a5 := (after_of_writes_sub ops7c V ops7c_writes (by decide)).trans h.a5
  a6 := (after_of_writes_sub ops7c V ops7c_writes (by decide)).trans h.a6
  a7 := (after_of_writes_sub ops7c V ops7c_writes (by decide)).trans h.a7
  v93 := (after_of_writes_sub ops7c V ops7c_writes (by decide)).trans h.v93
  v119 := (after_of_writes_sub ops7c V ops7c_writes (by decide)).trans h.v119
  v123 := (after_of_writes_sub ops7c V ops7c_writes (by decide)).trans h.v123
  v128 := by
    show after ops7c V (Proc.devRef .tc main_v128) = _
    after_results_simp
    (try simp only [StableHlo.TRef.ofBuf, StableHlo.TRef.toBuf, cast_eq])
    (try simp only [h.a0, h.a1, h.a2, h.a3, h.a4, h.a5, h.a6, h.a7, h.v89, h.v93, h.v119, h.v123, h.v124, h.c4v5, h.c4v6])
    rfl

/-- Stretch 7 carries the facts of the cut before it to the cut after it: its parts chained. -/
theorem stretch7 (V : Valuation τ sig (Elt F)) (x0 x1 x2 x3 : (⟨S256x16x256, .f32⟩ : BufTy).Contents (Elt F)) (x4 x5 x6 x7 : (⟨S256x16, .i32⟩ : BufTy).Contents (Elt F))
    (h : Inv6 V x0 x1 x2 x3 x4 x5 x6 x7) : Inv7 (after ops7 V) x0 x1 x2 x3 x4 x5 x6 x7 := by
  have e : after ops7 V = after ops7c (after ops7b (after ops7a (V))) := by
    rw [ops7_eq]; simp only [after_append]
  rw [e]
  exact part7c _ x0 x1 x2 x3 x4 x5 x6 x7 (part7b _ x0 x1 x2 x3 x4 x5 x6 x7 (part7a V x0 x1 x2 x3 x4 x5 x6 x7 h))

end Cert.ReferenceIdeal.RunHand
end
-- ==== Proof.RefStretch8.lean ====
/-
  Stretch 8 of the reference's operation list (operations 176 to 204): what holds of the buffers before it
  still holds, of the buffers it leaves alone, after it, and each buffer it writes that a later stretch reads holds its
  stage's value of the arguments.
-/
import proofs.«168933_j69020124447445_1_alg».proof.Proof.RefOps
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- Part a of stretch 8: operations 176 to 185. -/
abbrev ops8a : List (HloOp τ sig (Elt F)) :=
  [
    unary main_v119 main_v129 (Host.negf : (⟨S256x16, .f32⟩ : BufTy).Contents (Elt F) → (⟨S256x16, .f32⟩ : BufTy).Contents (Elt F)),
    TRef.nullary (TRef.of (T := ⟨S_, .f32⟩) main_call5_cst) (constant S_ .f32 0xFF800000#32),
    TRef.binary (TRef.of (T := ⟨S256x16x8192, .f32⟩) main_v123) (TRef.of (T := ⟨S_, .f32⟩) main_call5_cst) (TRef.of (T := ⟨S256x16, .f32⟩) main_call5_v0) (fun x v => Host.reduce FloatOps.maximumf x v reducesTo_S256x16x8192_S256x16_d2 h_S_),
    TRef.nullary (TRef.of (T := ⟨S_, .f32⟩) main_call5_cst_0) (constant S_ .f32 0xFF800000#32),
    TRef.unary (TRef.of (T := ⟨S_, .f32⟩) main_call5_cst_0) (TRef.of (T := ⟨S256x16, .f32⟩) main_call5_v1) (broadcastInDim S256x16 ![] bcast_S_S256x16),
    TRef.binary (TRef.of (T := ⟨S256x16, .f32⟩) main_call5_v1) (TRef.of (T := ⟨S256x16, .f32⟩) main_call5_v0) (TRef.of (T := ⟨S256x16, .f32⟩) main_call5_v2) maximumf,
    TRef.unary (TRef.of (T := ⟨S256x16, .f32⟩) main_call5_v2) (TRef.of (T := ⟨S256x16x1, .f32⟩) main_call5_v3) (broadcastInDim S256x16x1 ![0, 1] bcast_S256x16_S256x16x1_0_1),
    TRef.unary (TRef.of (T := ⟨S256x16x1, .f32⟩) main_call5_v3) (TRef.of (T := ⟨S256x16x8192, .f32⟩) main_call5_v4) (broadcastInDim S256x16x8192 ![0, 1, 2] bcast_S256x16x1_S256x16x8192_0_1_2),
    TRef.binary (TRef.of (T := ⟨S256x16x8192, .f32⟩) main_v123) (TRef.of (T := ⟨S256x16x8192, .f32⟩) main_call5_v4) (TRef.of (T := ⟨S256x16x8192, .f32⟩) main_call5_v5) subf,
    TRef.unary (TRef.of (T := ⟨S256x16x8192, .f32⟩) main_call5_v5) (TRef.of (T := ⟨S256x16x8192, .f32⟩) main_call5_v6) Host.exp ]

/-- Part b of stretch 8: operations 186 to 195. -/
abbrev ops8b : List (HloOp τ sig (Elt F)) :=
  [
    TRef.nullary (TRef.of (T := ⟨S_, .f32⟩) main_call5_cst_1) (constant S_ .f32 0x00000000#32),
    TRef.binary (TRef.of (T := ⟨S256x16x8192, .f32⟩) main_call5_v6) (TRef.of (T := ⟨S_, .f32⟩) main_call5_cst_1) (TRef.of (T := ⟨S256x16, .f32⟩) main_call5_v7) (fun x v => Host.reduceAdd x v reducesTo_S256x16x8192_S256x16_d2 h_S_),
    TRef.unary (TRef.of (T := ⟨S256x16, .f32⟩) main_call5_v7) (TRef.of (T := ⟨S256x16x1, .f32⟩) main_call5_v8) (broadcastInDim S256x16x1 ![0, 1] bcast_S256x16_S256x16x1_0_1),
    TRef.unary (TRef.of (T := ⟨S256x16x1, .f32⟩) main_call5_v8) (TRef.of (T := ⟨S256x16x1, .f32⟩) main_call5_v9) Host.log,
    TRef.unary (TRef.of (T := ⟨S256x16x1, .f32⟩) main_call5_v9) (TRef.of (T := ⟨S256x16x8192, .f32⟩) main_call5_v10) (broadcastInDim S256x16x8192 ![0, 1, 2] bcast_S256x16x1_S256x16x8192_0_1_2),
    TRef.binary (TRef.of (T := ⟨S256x16x8192, .f32⟩) main_call5_v5) (TRef.of (T := ⟨S256x16x8192, .f32⟩) main_call5_v10) (TRef.of (T := ⟨S256x16x8192, .f32⟩) main_v130) subf,
    binary main_v93 main_v130 main_v131 (mulf : (⟨S256x16x8192, .f32⟩ : BufTy).Contents (Elt F) → (⟨S256x16x8192, .f32⟩ : BufTy).Contents (Elt F) → (⟨S256x16x8192, .f32⟩ : BufTy).Contents (Elt F)),
    nullary main_cst_15 (constant S_ .f32 0x00000000#32),
    binary main_v131 main_cst_15 main_v132 ((fun x v => Host.reduceAdd x v reducesTo_S256x16x8192_S256x16_d2 h_S_) : (⟨S256x16x8192, .f32⟩ : BufTy).Contents (Elt F) → (⟨S_, .f32⟩ : BufTy).Contents (Elt F) → (⟨S256x16, .f32⟩ : BufTy).Contents (Elt F)),
    binary main_v129 main_v132 main_v133 (mulf : (⟨S256x16, .f32⟩ : BufTy).Contents (Elt F) → (⟨S256x16, .f32⟩ : BufTy).Contents (Elt F) → (⟨S256x16, .f32⟩ : BufTy).Contents (Elt F)) ]

/-- Part c of stretch 8: operations 196 to 204. -/
abbrev ops8c : List (HloOp τ sig (Elt F)) :=
  [
    nullary main_cst_16 (constant S_ .f32 0x00000000#32),
    binary main_v128 main_cst_16 main_v134 ((fun x v => Host.reduceAdd x v reducesTo_S256x16_S_d0_1 h_S_) : (⟨S256x16, .f32⟩ : BufTy).Contents (Elt F) → (⟨S_, .f32⟩ : BufTy).Contents (Elt F) → (⟨S_, .f32⟩ : BufTy).Contents (Elt F)),
    nullary main_cst_17 (constant S_ .f32 0x45800000#32),
    binary main_v134 main_cst_17 main_v135 (Host.divf : (⟨S_, .f32⟩ : BufTy).Contents (Elt F) → (⟨S_, .f32⟩ : BufTy).Contents (Elt F) → (⟨S_, .f32⟩ : BufTy).Contents (Elt F)),
    nullary main_cst_18 (constant S_ .f32 0x00000000#32),
    binary main_v133 main_cst_18 main_v136 ((fun x v => Host.reduceAdd x v reducesTo_S256x16_S_d0_1 h_S_) : (⟨S256x16, .f32⟩ : BufTy).Contents (Elt F) → (⟨S_, .f32⟩ : BufTy).Contents (Elt F) → (⟨S_, .f32⟩ : BufTy).Contents (Elt F)),
    nullary main_cst_19 (constant S_ .f32 0x45800000#32),
    binary main_v136 main_cst_19 main_v137 (Host.divf : (⟨S_, .f32⟩ : BufTy).Contents (Elt F) → (⟨S_, .f32⟩ : BufTy).Contents (Elt F) → (⟨S_, .f32⟩ : BufTy).Contents (Elt F)),
    binary main_v135 main_v137 main_v138 (addf : (⟨S_, .f32⟩ : BufTy).Contents (Elt F) → (⟨S_, .f32⟩ : BufTy).Contents (Elt F) → (⟨S_, .f32⟩ : BufTy).Contents (Elt F)) ]

/-- Stretch 8 is its parts one after the other. -/
theorem ops8_eq : (ops8 : List (HloOp τ sig (Elt F))) = ops8a ++ (ops8b ++ (ops8c)) := rfl

/-- After part a of stretch 8: the arguments hold the launch values, and every buffer a later operation reads holds its stage's value of them. -/
structure Inv8a (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v93 : V (Proc.devRef .tc main_v93) = val_main_v93 (F := F) x5 x6
  v128 : V (Proc.devRef .tc main_v128) = val_main_v128 (F := F) x0 x2 x3 x4 x6 x7
  v129 : V (Proc.devRef .tc main_v129) = val_main_v129 (F := F) x5 x6
  c5v5 : V (Proc.devRef .tc main_call5_v5) = val_main_call5_v5 (F := F) x1 x2 x3 x5 x7
  c5v6 : V (Proc.devRef .tc main_call5_v6) = val_main_call5_v6 (F := F) x1 x2 x3 x5 x7

/-- After part b of stretch 8: the arguments hold the launch values, and every buffer a later operation reads holds its stage's value of them. -/
structure Inv8b (V : Valuation τ sig (Elt F)) (x0 x1 x2 x3 : (⟨S256x16x256, .f32⟩ : BufTy).Contents (Elt F)) (x4 x5 x6 x7 : (⟨S256x16, .i32⟩ : BufTy).Contents (Elt F)) : Prop where
  a0 : V (Proc.devRef .tc main_arg0) = x0
  a1 : V (Proc.devRef .tc main_arg1) = x1
  a2 : V (Proc.devRef .tc main_arg2) = x2
  a3 : V (Proc.devRef .tc main_arg3) = x3
  a4 : V (Proc.devRef .tc main_arg4) = x4
  a5 : V (Proc.devRef .tc main_arg5) = x5
  a6 : V (Proc.devRef .tc main_arg6) = x6
  a7 : V (Proc.devRef .tc main_arg7) = x7
  v128 : V (Proc.devRef .tc main_v128) = val_main_v128 (F := F) x0 x2 x3 x4 x6 x7
  v133 : V (Proc.devRef .tc main_v133) = val_main_v133 (F := F) x1 x2 x3 x5 x6 x7

/-- The buffers part a writes, in order. -/
def W8a : List (Ref sig .tc) :=
  [main_v129, main_call5_cst, main_call5_v0, main_call5_cst_0, main_call5_v1, main_call5_v2, main_call5_v3, main_call5_v4, main_call5_v5, main_call5_v6]

/-- Every operation of part a writes one buffer of that list. -/
theorem ops8a_writes :
    (ops8a : List (HloOp τ sig (Elt F))).Forall fun op => op.writes ⊆ (W8a.map (Proc.devRef (τ := τ) .tc)).toFinset := by
  simp only [List.Forall, unary_writes, binary_writes, nullary_writes, reshape_writes, Finset.singleton_subset_iff, List.mem_toFinset,
    List.mem_map]
  exact ⟨⟨main_v129, by decide, rfl⟩, ⟨main_call5_cst, by decide, rfl⟩, ⟨main_call5_v0, by decide, rfl⟩, ⟨main_call5_cst_0, by decide, rfl⟩, ⟨main_call5_v1, by decide, rfl⟩, ⟨main_call5_v2, by decide, rfl⟩, ⟨main_call5_v3, by decide, rfl⟩, ⟨main_call5_v4, by decide, rfl⟩, ⟨main_call5_v5, by decide, rfl⟩, ⟨main_call5_v6, by decide, rfl⟩⟩

/-- Reading a buffer's contents at its value's type after writing them at it is the identity: the two transports are
    inverse to each other. -/
theorem ofBuf_toBuf {T : BufTy} (x : TRef sig T) (v : T.Contents (Elt F)) : x.ofBuf (x.toBuf v) = v := by
  obtain ⟨r, e, hd, hs⟩ := x
  subst e
  rfl

/-- At a literal buffer whose type is the value's, the transport is the identity. -/
theorem ofBuf_v123 (w : (⟨S256x16x8192, .f32⟩ : BufTy).Contents (Elt F)) :
    (TRef.of (sig := sig) (T := ⟨S256x16x8192, .f32⟩) main_v123).ofBuf w = w := cast_eq _ w
theorem toBuf_c5v5 (w : (⟨S256x16x8192, .f32⟩ : BufTy).Contents (Elt F)) :
    (TRef.of (sig := sig) (T := ⟨S256x16x8192, .f32⟩) main_call5_v5).toBuf w = w := cast_eq _ w
theorem toBuf_c5v6 (w : (⟨S256x16x8192, .f32⟩ : BufTy).Contents (Elt F)) :
    (TRef.of (sig := sig) (T := ⟨S256x16x8192, .f32⟩) main_call5_v6).toBuf w = w := cast_eq _ w

set_option maxHeartbeats 4000000 in
/-- The negated weight of channel 1 after part a. -/
theorem p8a_v129 (V : Valuation τ sig (Elt F)) (x0 x1 x2 x3 : (⟨S256x16x256, .f32⟩ : BufTy).Contents (Elt F)) (x4 x5 x6 x7 : (⟨S256x16, .i32⟩ : BufTy).Contents (Elt F))
    (h : Inv7 V x0 x1 x2 x3 x4 x5 x6 x7) :
    after ops8a V (Proc.devRef .tc main_v129) = val_main_v129 (F := F) x5 x6 := by
  after_results_simp
  rw [h.v119]
  rfl

set_option maxHeartbeats 4000000 in
/-- Channel 1's logits less their row maximum after part a: compared as terms (the transports of the inlined call's
    typed buffers cancel, the stage's definition is opened down to the part's inputs), the maximum never evaluated. -/
theorem p8a_c5v5 (V : Valuation τ sig (Elt F)) (x0 x1 x2 x3 : (⟨S256x16x256, .f32⟩ : BufTy).Contents (Elt F)) (x4 x5 x6 x7 : (⟨S256x16, .i32⟩ : BufTy).Contents (Elt F))
    (h : Inv7 V x0 x1 x2 x3 x4 x5 x6 x7) :
    after ops8a V (Proc.devRef .tc main_call5_v5) = val_main_call5_v5 (F := F) x1 x2 x3 x5 x7 := by
  after_results_simp
  repeat rw [ofBuf_toBuf]
  rw [h.v123, toBuf_c5v5, ofBuf_v123]
  unfold val_main_call5_v5 val_main_call5_v4 val_main_call5_v3 val_main_call5_v2 val_main_call5_v1 val_main_call5_v0
    val_main_call5_cst val_main_call5_cst_0
  rfl

set_option maxHeartbeats 4000000 in
/-- … and their exponentials, likewise. -/
theorem p8a_c5v6 (V : Valuation τ sig (Elt F)) (x0 x1 x2 x3 : (⟨S256x16x256, .f32⟩ : BufTy).Contents (Elt F)) (x4 x5 x6 x7 : (⟨S256x16, .i32⟩ : BufTy).Contents (Elt F))
    (h : Inv7 V x0 x1 x2 x3 x4 x5 x6 x7) :
    after ops8a V (Proc.devRef .tc main_call5_v6) = val_main_call5_v6 (F := F) x1 x2 x3 x5 x7 := by
  after_results_simp
  repeat rw [ofBuf_toBuf]
  rw [h.v123, toBuf_c5v6, ofBuf_v123]
  unfold val_main_call5_v6 val_main_call5_v5 val_main_call5_v4 val_main_call5_v3 val_main_call5_v2 val_main_call5_v1
    val_main_call5_v0 val_main_call5_cst val_main_call5_cst_0
  rfl

/-- Part a carries the facts before it to the facts after it: a buffer it writes is its operations' term of the
    part's inputs, which is its stage's value once the inputs are replaced by theirs; every other buffer is not among
    those the part writes, so it keeps its contents. -/
theorem part8a (V : Valuation τ sig (Elt F)) (x0 x1 x2 x3 : (⟨S256x16x256, .f32⟩ : BufTy).Contents (Elt F)) (x4 x5 x6 x7 : (⟨S256x16, .i32⟩ : BufTy).Contents (Elt F))
    (h : Inv7 V x0 x1 x2 x3 x4 x5 x6 x7) : Inv8a (after ops8a V) x0 x1 x2 x3 x4 x5 x6 x7 where
  a0 := (after_of_writes_sub ops8a V ops8a_writes (by decide)).trans h.a0
  a1 := (after_of_writes_sub ops8a V ops8a_writes (by decide)).trans h.a1
  a2 := (after_of_writes_sub ops8a V ops8a_writes (by decide)).trans h.a2
  a3 := (after_of_writes_sub ops8a V ops8a_writes (by decide)).trans h.a3
  a4 := (after_of_writes_sub ops8a V ops8a_writes (by decide)).trans h.a4
  a5 := (after_of_writes_sub ops8a V ops8a_writes (by decide)).trans h.a5
  a6 := (after_of_writes_sub ops8a V ops8a_writes (by decide)).trans h.a6
  a7 := (after_of_writes_sub ops8a V ops8a_writes (by decide)).trans h.a7
  v93 := (after_of_writes_sub ops8a V ops8a_writes (by decide)).trans h.v93
  v128 := (after_of_writes_sub ops8a V ops8a_writes (by decide)).trans h.v128
  v129 := p8a_v129 V x0 x1 x2 x3 x4 x5 x6 x7 h
  c5v5 := p8a_c5v5 V x0 x1 x2 x3 x4 x5 x6 x7 h
  c5v6 := p8a_c5v6 V x0 x1 x2 x3 x4 x5 x6 x7 h

/-- The buffers part b writes, in order. -/
def W8b : List (Ref sig .tc) :=
  [main_call5_cst_1, main_call5_v7, main_call5_v8, main_call5_v9, main_call5_v10, main_v130, main_v131, main_cst_15, main_v132, main_v133]

/-- Every operation of part b writes one buffer of that list. -/
theorem ops8b_writes :
    (ops8b : List (HloOp τ sig (Elt F))).Forall fun op => op.writes ⊆ (W8b.map (Proc.devRef (τ := τ) .tc)).toFinset := by
  simp only [List.Forall, unary_writes, binary_writes, nullary_writes, reshape_writes, Finset.singleton_subset_iff, List.mem_toFinset,
    List.mem_map]
  exact ⟨⟨main_call5_cst_1, by decide, rfl⟩, ⟨main_call5_v7, by decide, rfl⟩, ⟨main_call5_v8, by decide, rfl⟩, ⟨main_call5_v9, by decide, rfl⟩, ⟨main_call5_v10, by decide, rfl⟩, ⟨main_v130, by decide, rfl⟩, ⟨main_v131, by decide, rfl⟩, ⟨main_cst_15, by decide, rfl⟩, ⟨main_v132, by decide, rfl⟩, ⟨main_v133, by decide, rfl⟩⟩

set_option maxHeartbeats 4000000 in
/-- Part b carries the facts before it to the facts after it: a buffer it writes is its operations' term of the
    part's inputs, which is its stage's value once the inputs are replaced by theirs; every other buffer is not among
    those the part writes, so it keeps its contents. -/
theorem part8b (V : Valuation τ sig (Elt F)) (x0 x1 x2 x3 : (⟨S256x16x256, .f32⟩ : BufTy).Contents (Elt F)) (x4 x5 x6 x7 : (⟨S256x16, .i32⟩ : BufTy).Contents (Elt F))
    (h : Inv8a V x0 x1 x2 x3 x4 x5 x6 x7) : Inv8b (after ops8b V) x0 x1 x2 x3 x4 x5 x6 x7 where
  a0 := (after_of_writes_sub ops8b V ops8b_writes (by decide)).trans h.a0
  a1 := (after_of_writes_sub ops8b V ops8b_writes (by decide)).trans h.a1
  a2 := (after_of_writes_sub ops8b V ops8b_writes (by decide)).trans h.a2
  a3 := (after_of_writes_sub ops8b V ops8b_writes (by decide)).trans h.a3
  a4 := (after_of_writes_sub ops8b V ops8b_writes (by decide)).trans h.a4
  a5 := (after_of_writes_sub ops8b V ops8b_writes (by decide)).trans h.a5
  a6 := (after_of_writes_sub ops8b V ops8b_writes (by decide)).trans h.a6
  a7 := (after_of_writes_sub ops8b V ops8b_writes (by decide)).trans h.a7
  v128 := (after_of_writes_sub ops8b V ops8b_writes (by decide)).trans h.v128
  v133 := by
    show after ops8b V (Proc.devRef .tc main_v133) = _
    after_results_simp
    (try simp only [StableHlo.TRef.ofBuf, StableHlo.TRef.toBuf, cast_eq])
    (try simp only [h.a0, h.a1, h.a2, h.a3, h.a4, h.a5, h.a6, h.a7, h.v93, h.v128, h.v129, h.c5v5, h.c5v6])
    rfl

/-- The buffers part c writes, in order. -/
def W8c : List (Ref sig .tc) :=
  [main_cst_16, main_v134, main_cst_17, main_v135, main_cst_18, main_v136, main_cst_19, main_v137, main_v138]

/-- Every operation of part c writes one buffer of that list. -/
theorem ops8c_writes :
    (ops8c : List (HloOp τ sig (Elt F))).Forall fun op => op.writes ⊆ (W8c.map (Proc.devRef (τ := τ) .tc)).toFinset := by
  simp only [List.Forall, unary_writes, binary_writes, nullary_writes, reshape_writes, Finset.singleton_subset_iff, List.mem_toFinset,
    List.mem_map]
  exact ⟨⟨main_cst_16, by decide, rfl⟩, ⟨main_v134, by decide, rfl⟩, ⟨main_cst_17, by decide, rfl⟩, ⟨main_v135, by decide, rfl⟩, ⟨main_cst_18, by decide, rfl⟩, ⟨main_v136, by decide, rfl⟩, ⟨main_cst_19, by decide, rfl⟩, ⟨main_v137, by decide, rfl⟩, ⟨main_v138, by decide, rfl⟩⟩

set_option maxHeartbeats 4000000 in
/-- Part c carries the facts before it to the facts after it: a buffer it writes is its operations' term of the
    part's inputs, which is its stage's value once the inputs are replaced by theirs; every other buffer is not among
    those the part writes, so it keeps its contents. -/
theorem part8c (V : Valuation τ sig (Elt F)) (x0 x1 x2 x3 : (⟨S256x16x256, .f32⟩ : BufTy).Contents (Elt F)) (x4 x5 x6 x7 : (⟨S256x16, .i32⟩ : BufTy).Contents (Elt F))
    (h : Inv8b V x0 x1 x2 x3 x4 x5 x6 x7) : Inv8 (after ops8c V) x0 x1 x2 x3 x4 x5 x6 x7 where
  a0 := (after_of_writes_sub ops8c V ops8c_writes (by decide)).trans h.a0
  a1 := (after_of_writes_sub ops8c V ops8c_writes (by decide)).trans h.a1
  a2 := (after_of_writes_sub ops8c V ops8c_writes (by decide)).trans h.a2
  a3 := (after_of_writes_sub ops8c V ops8c_writes (by decide)).trans h.a3
  a4 := (after_of_writes_sub ops8c V ops8c_writes (by decide)).trans h.a4
  a5 := (after_of_writes_sub ops8c V ops8c_writes (by decide)).trans h.a5
  a6 := (after_of_writes_sub ops8c V ops8c_writes (by decide)).trans h.a6
  a7 := (after_of_writes_sub ops8c V ops8c_writes (by decide)).trans h.a7
  v138 := by
    show after ops8c V (Proc.devRef .tc main_v138) = _
    after_results_simp
    (try simp only [StableHlo.TRef.ofBuf, StableHlo.TRef.toBuf, cast_eq])
    (try simp only [h.a0, h.a1, h.a2, h.a3, h.a4, h.a5, h.a6, h.a7, h.v128, h.v133])
    rfl

/-- Stretch 8 carries the facts of the cut before it to the cut after it: its parts chained. -/
theorem stretch8 (V : Valuation τ sig (Elt F)) (x0 x1 x2 x3 : (⟨S256x16x256, .f32⟩ : BufTy).Contents (Elt F)) (x4 x5 x6 x7 : (⟨S256x16, .i32⟩ : BufTy).Contents (Elt F))
    (h : Inv7 V x0 x1 x2 x3 x4 x5 x6 x7) : Inv8 (after ops8 V) x0 x1 x2 x3 x4 x5 x6 x7 := by
  have e : after ops8 V = after ops8c (after ops8b (after ops8a (V))) := by
    rw [ops8_eq]; simp only [after_append]
  rw [e]
  exact part8c _ x0 x1 x2 x3 x4 x5 x6 x7 (part8b _ x0 x1 x2 x3 x4 x5 x6 x7 (part8a V x0 x1 x2 x3 x4 x5 x6 x7 h))

end Cert.ReferenceIdeal.RunHand
end
-- ==== Proof.RefRunHand.lean ====
/-
  The reference's run, stated over its stages: every weakly fair execution of the reference's @main terminates with the
  result at the last stage's value of the eight arguments, and the arguments unchanged. The 205 host operations are cut
  into stretches; after each stretch the buffers later stretches read hold their stages' values of the arguments. Here
  the stretches are chained: the program is the concatenated list; each operation touches TensorCore buffers only and
  allocates nothing, so the list's fold over the launch contents gives the final contents; and the fold of a
  concatenation is the second fold over the first.
-/
import proofs.«168933_j69020124447445_1_alg».proof.Proof.RefStretch1
import proofs.«168933_j69020124447445_1_alg».proof.Proof.RefStretch2
import proofs.«168933_j69020124447445_1_alg».proof.Proof.RefStretch3
import proofs.«168933_j69020124447445_1_alg».proof.Proof.RefStretch4
import proofs.«168933_j69020124447445_1_alg».proof.Proof.RefStretch5
import proofs.«168933_j69020124447445_1_alg».proof.Proof.RefStretch6
import proofs.«168933_j69020124447445_1_alg».proof.Proof.RefStretch7
import proofs.«168933_j69020124447445_1_alg».proof.Proof.RefStretch8
noncomputable section
namespace Cert.ReferenceIdeal.RunHand
open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The program is the operation list -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore buffers only and allocates nothing, stretch by stretch -/

theorem ops1_sub : (ops1 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub ..⟩
theorem ops1_fresh : ∀ op ∈ (ops1 : List (HloOp τ sig (Elt F))), op.fresh = ∅ := by
  intro _ h; (repeat (cases h with | head => rfl | tail _ h => ?_)); exact nomatch h

theorem ops2_sub : (ops2 : List (HloOp τ sig (Elt F))).Forall fun op => op.bufs ⊆ tcRefs τ sig :=
  ⟨binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., unary_bufs_sub .., binary_bufs_sub ..⟩
theorem ops2_fresh : ∀ op ∈ (ops2 : List (HloOp τ sig (Elt F))), op.fresh = ∅ := by
  intro _ h; (repeat (cases h with | head => rfl | tail _ h => ?_)); exact nomatch h

theorem ops3_sub : (ops3 : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub ..⟩
theorem ops3_fresh : ∀ op ∈ (ops3 : List (HloOp τ sig (Elt F))), op.fresh = ∅ := by
  intro _ h; (repeat (cases h with | head => rfl | tail _ h => ?_)); exact nomatch h

theorem ops4_sub : (ops4 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., nullary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., binary_bufs_sub ..⟩
theorem ops4_fresh : ∀ op ∈ (ops4 : List (HloOp τ sig (Elt F))), op.fresh = ∅ := by
  intro _ h; (repeat (cases h with | head => rfl | tail _ h => ?_)); exact nomatch h

theorem ops5_sub : (ops5 : List (HloOp τ sig (Elt F))).Forall fun op => op.bufs ⊆ tcRefs τ sig :=
  ⟨binary_bufs_sub .., reshape_bufs_sub .., binary_bufs_sub .., reshape_bufs_sub .., nullary_bufs_sub .., binary_bufs_sub .., unary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub ..⟩
theorem ops5_fresh : ∀ op ∈ (ops5 : List (HloOp τ sig (Elt F))), op.fresh = ∅ := by
  intro _ h; (repeat (cases h with | head => rfl | tail _ h => ?_)); exact nomatch h

theorem ops6_sub : (ops6 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub .., binary_bufs_sub .., unary_bufs_sub .., unary_bufs_sub .., unary_bufs_sub .., unary_bufs_sub .., binary_bufs_sub .., unary_bufs_sub .., unary_bufs_sub .., nullary_bufs_sub .., binary_bufs_sub .., reshape_bufs_sub .., nullary_bufs_sub .., unary_bufs_sub .., binary_bufs_sub .., unary_bufs_sub .., binary_bufs_sub .., reshape_bufs_sub .., nullary_bufs_sub .., unary_bufs_sub .., binary_bufs_sub .., unary_bufs_sub .., binary_bufs_sub ..⟩
theorem ops6_fresh : ∀ op ∈ (ops6 : List (HloOp τ sig (Elt F))), op.fresh = ∅ := by
  intro _ h; (repeat (cases h with | head => rfl | tail _ h => ?_)); exact nomatch h

theorem ops7_sub : (ops7 : List (HloOp τ sig (Elt F))).Forall fun op => op.bufs ⊆ tcRefs τ sig :=
  ⟨binary_bufs_sub .., reshape_bufs_sub .., binary_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., binary_bufs_sub ..⟩
theorem ops7_fresh : ∀ op ∈ (ops7 : List (HloOp τ sig (Elt F))), op.fresh = ∅ := by
  intro _ h; (repeat (cases h with | head => rfl | tail _ h => ?_)); exact nomatch h

theorem ops8_sub : (ops8 : List (HloOp τ sig (Elt F))).Forall fun op => op.bufs ⊆ tcRefs τ sig :=
  ⟨unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., binary_bufs_sub ..⟩
theorem ops8_fresh : ∀ op ∈ (ops8 : List (HloOp τ sig (Elt F))), op.fresh = ∅ := by
  intro _ h; (repeat (cases h with | head => rfl | tail _ h => ?_)); exact nomatch h

/-- Membership in the whole list is membership in one of the eight stretches. -/
theorem mem_ops {op : HloOp τ sig (Elt F)} (h : op ∈ (ops : List (HloOp τ sig (Elt F)))) :
    op ∈ (ops1 : List (HloOp τ sig (Elt F))) ∨ op ∈ (ops2 : List (HloOp τ sig (Elt F))) ∨ op ∈ (ops3 : List (HloOp τ sig (Elt F)))
      ∨ op ∈ (ops4 : List (HloOp τ sig (Elt F))) ∨ op ∈ (ops5 : List (HloOp τ sig (Elt F))) ∨ op ∈ (ops6 : List (HloOp τ sig (Elt F)))
      ∨ op ∈ (ops7 : List (HloOp τ sig (Elt F))) ∨ op ∈ (ops8 : List (HloOp τ sig (Elt F))) := by
  unfold ops at h
  simpa only [List.mem_append] using h

theorem ops_sub : (ops : List (HloOp τ sig (Elt F))).Forall fun op => op.bufs ⊆ tcRefs τ sig := by
  rw [List.forall_iff_forall_mem]
  intro op hop
  rcases mem_ops hop with h | h | h | h | h | h | h | h
  · exact List.forall_iff_forall_mem.mp ops1_sub op h
  · exact List.forall_iff_forall_mem.mp ops2_sub op h
  · exact List.forall_iff_forall_mem.mp ops3_sub op h
  · exact List.forall_iff_forall_mem.mp ops4_sub op h
  · exact List.forall_iff_forall_mem.mp ops5_sub op h
  · exact List.forall_iff_forall_mem.mp ops6_sub op h
  · exact List.forall_iff_forall_mem.mp ops7_sub op h
  · exact List.forall_iff_forall_mem.mp ops8_sub op h

theorem ops_fresh : ∀ op ∈ (ops : List (HloOp τ sig (Elt F))), op.fresh = ∅ := by
  intro op hop
  rcases mem_ops hop with h | h | h | h | h | h | h | h
  · exact ops1_fresh op h
  · exact ops2_fresh op h
  · exact ops3_fresh op h
  · exact ops4_fresh op h
  · exact ops5_fresh op h
  · exact ops6_fresh op h
  · exact ops7_fresh op h
  · exact ops8_fresh op h

/-- The contents after the whole list are the eight stretches' folds, one over the other. -/
theorem after_ops (V : Valuation τ sig (Elt F)) :
    after ops V = after ops8 (after ops7 (after ops6 (after ops5 (after ops4 (after ops3 (after ops2 (after ops1 V))))))) := by
  unfold ops
  simp only [after_append]

/-! ## The run -/

/-- After the whole list, from contents where the arguments hold x0 … x7: the result holds the last stage's value of
    them and the arguments are untouched (the eight stretches chained). -/
theorem inv_ops (V : Valuation τ sig (Elt F)) (x0 x1 x2 x3 : (⟨S256x16x256, .f32⟩ : BufTy).Contents (Elt F)) (x4 x5 x6 x7 : (⟨S256x16, .i32⟩ : BufTy).Contents (Elt F))
    (h : Inv0 V x0 x1 x2 x3 x4 x5 x6 x7) : Inv8 (after ops V) x0 x1 x2 x3 x4 x5 x6 x7 := by
  rw [after_ops]
  exact stretch8 _ x0 x1 x2 x3 x4 x5 x6 x7 (stretch7 _ x0 x1 x2 x3 x4 x5 x6 x7 (stretch6 _ x0 x1 x2 x3 x4 x5 x6 x7 (stretch5 _ x0 x1 x2 x3 x4 x5 x6 x7
    (stretch4 _ x0 x1 x2 x3 x4 x5 x6 x7 (stretch3 _ x0 x1 x2 x3 x4 x5 x6 x7 (stretch2 _ x0 x1 x2 x3 x4 x5 x6 x7 (stretch1 V x0 x1 x2 x3 x4 x5 x6 x7 h)))))))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
      have hI := inv_ops (F := F) (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        ⟨rfl, rfl, rfl, rfl, rfl, rfl, rfl, rfl⟩
      exact ⟨(h c main_v138).trans hI.v138, (h c main_arg0).trans hI.a0, (h c main_arg1).trans hI.a1, (h c main_arg2).trans hI.a2,
        (h c main_arg3).trans hI.a3, (h c main_arg4).trans hI.a4, (h c main_arg5).trans hI.a5, (h c main_arg6).trans hI.a6,
        (h c main_arg7).trans hI.a7⟩)
    (run_seq scopedRefs_eq scopedSems_eq defs main (fun _ => ops) main_eq (fun _ => ops_sub) m ρ (fun _ => ops_fresh))

end Cert.ReferenceIdeal.RunHand
end
-- ==== Proof.RefGathered.lean ====
/-
  The reference's run and its read-at-an-index lemmas, gathered so that the modules which compare the reference with the
  kernel import one file.
-/
import proofs.«168933_j69020124447445_1_alg».proof.Proof.RefRead
import proofs.«168933_j69020124447445_1_alg».proof.Proof.RefRunHand
-- ==== Proof.Spec.lean ====
/-
  One row of the contrastive loss, as both programs compute it on the extended reals.

  Fix a query row. Its logits against the 4096 key rows come in two families: the "positive" family `xp` (query against the
  other view's keys) and the "negative" family `xn` (query against the same view's keys, with 1e9 subtracted where key and
  query belong to the same object of the same image). A 0/1 label `lb` marks the positive keys, and a 0/1 mask `pp` the keys
  of the query's own object; their sums are the number of positives and the object's area. The row's loss is

      -(w) * ( (sum of lb * xp) / max(n, 1)  -  logsumexp(xp ++ xn) ),     w = [n > 0.001] / area,

  with n the number of positives.

  The kernel reaches the log-sum-exp by an ONLINE recurrence over eight tiles of 512 keys: it keeps a running maximum `m`
  and the sum `l` of exp(x - m) over the keys seen so far, rescaling `l` by exp(m_old - m_new) whenever the maximum moves
  (`Acc.step`), and at the end takes m + log l (`Acc.loss`). The reference concatenates the two families into one vector of
  8192 logits and applies log-softmax to it: x - M - log (sum of exp (x - M)) with M the vector's maximum, then contracts
  with the labels divided by max(n, 1) (`refRow`).

  This module only DEFINES the two shapes, spelled exactly as each program's operations read at the extended reals
  (literals kept as the words the programs print); that they agree on real data is proved elsewhere.
-/
import Idealize.ShloMosaic.PureOps.Ideal

noncomputable section

namespace Cert.RowLoss

open Idealize.ShloMosaic

/-! ## The literals both programs print -/

/-- `+0.0`: every sum's initial value, and the minuend of the kernel's negation `0 - w`. -/
abbrev zeroW : EReal := Ideal.ofBits .f32 0x00000000#32
/-- `-inf`: the initial value of every maximum. -/
abbrev ninfW : EReal := Ideal.ofBits .f32 0xFF800000#32
/-- `1.0`: the floor of the number of positives in the divisor `max(n, 1)`. -/
abbrev oneW : EReal := Ideal.ofBits .f32 0x3F800000#32
/-- `0.001` (as f32): the threshold the number of positives is compared with. -/
abbrev thrW : EReal := Ideal.ofBits .f32 0x3A83126F#32
/-- `10.0`: the inverse temperature `1 / (0.1 + 1e-11)` as f32. -/
abbrev tenW : EReal := Ideal.ofBits .f32 0x41200000#32
/-- `1e9`: what is subtracted from a negative logit whose key lies in the query's own object. -/
abbrev bigW : EReal := Ideal.ofBits .f32 0x4E6E6B28#32
/-- `4096.0`: the number of rows the mean divides by. -/
abbrev rowsW : EReal := Ideal.ofBits .f32 0x45800000#32

/-- A truth value as the extended real 0 or 1. -/
def ind (p : Prop) [Decidable p] : EReal := if p then 1 else 0

/-! ## The kernel's shape: an online recurrence over tiles of 512 keys -/

/-- What one tile of 512 keys contributes to a row: its positive and negative logits, its labels, its own-object mask. -/
structure Tile where
  xp : Fin 512 → EReal
  xn : Fin 512 → EReal
  lb : Fin 512 → EReal
  pp : Fin 512 → EReal

/-- The five running quantities of a row: maximum, sum of exponentials relative to it, sum of positive logits, number of
    positives, object area. -/
structure Acc where
  m : EReal
  l : EReal
  s : EReal
  n : EReal
  a : EReal

/-- Before the first tile: the maximum at `-inf`, the sums at zero. -/
def Acc.init : Acc := ⟨ninfW, zeroW, zeroW, zeroW, zeroW⟩

/-- The larger of a tile's two row maxima, each a fold of `max` from `-inf`. -/
def Tile.top (t : Tile) : EReal :=
  max ((Finset.univ : Finset (Fin 512)).fold max ninfW t.xp) ((Finset.univ : Finset (Fin 512)).fold max ninfW t.xn)

/-- One tile folded in: the maximum moves to `m'`, the old sum of exponentials is rescaled by `exp (m - m')` and the tile's
    exponentials, taken relative to `m'`, are added; the three plain sums just grow. -/
def Acc.step (st : Acc) (t : Tile) : Acc :=
  { m := max st.m t.top
    l := (Ideal.exp (st.m - max st.m t.top) * st.l + ∑ x : Fin 512, Ideal.exp (t.xp x - max st.m t.top))
           + ∑ x : Fin 512, Ideal.exp (t.xn x - max st.m t.top)
    s := st.s + ∑ x : Fin 512, t.lb x * t.xp x
    n := st.n + ∑ x : Fin 512, t.lb x
    a := st.a + ∑ x : Fin 512, t.pp x }

/-- The accumulators after tiles `0 … c`. -/
def Acc.upto (T : Fin 8 → Tile) : (c : ℕ) → c < 8 → Acc
  | 0, h => Acc.init.step (T ⟨0, h⟩)
  | c + 1, h => (Acc.upto T c (Nat.lt_of_succ_lt h)).step (T ⟨c + 1, h⟩)

/-- The row's loss from the final accumulators. -/
def Acc.loss (st : Acc) : EReal :=
  (zeroW - Ideal.div (ind (thrW < st.n)) st.a) * (Ideal.div st.s (max st.n oneW) - (st.m + Ideal.log st.l))

/-- The kernel's value of a row. -/
def kerRow (T : Fin 8 → Tile) : EReal := (Acc.upto T 7 (by decide)).loss

/-! ## The reference's shape: log-softmax of the 8192 concatenated logits -/

/-- The reference's value of a row, from its 8192 logits `x`, its 8192 labels `lb` (the second half zeros) and the area. -/
def refRow (x lb : Fin 8192 → EReal) (area : EReal) : EReal :=
  let n : EReal := zeroW + ∑ q : Fin 8192, lb q
  let M : EReal := max ninfW ((Finset.univ : Finset (Fin 8192)).fold max ninfW x)
  let L : EReal := zeroW + ∑ q : Fin 8192, Ideal.exp (x q - M)
  (-(Ideal.div (ind (thrW < n)) area))
    * (zeroW + ∑ q : Fin 8192, Ideal.div (lb q) (max n oneW) * ((x q - M) - Ideal.log L))

/-- The mean over the 4096 rows, as both programs take it: the sum from zero, divided by 4096. -/
def meanOf {ι : Type} [Fintype ι] (f : ι → EReal) : EReal := Ideal.div (zeroW + ∑ i : ι, f i) rowsW

end Cert.RowLoss

end
-- ==== Proof.RowData.lean ====
/-
  The data of one row of the loss as functions of the eight argument arrays — four float arrays of shape (256 images,
  16 regions, 256 features) and four arrays of object ids of shape (256, 16) — in the two arrangements the programs use.

  Both programs first divide every feature vector by its Euclidean norm (`nrmAt`). The KERNEL flattens (image, region) to
  one of 4096 rows (`row i = (i / 16, i % 16)`), and for a query row `i` meets the keys tile by tile, tile `c` holding keys
  `512 c … 512 c + 511` (`tileOf`): logits are scaled dot products of normalised rows, "same image" is `i / 16 = j / 16`,
  and "same object" compares the two ids. The REFERENCE keeps (image, region) apart: for a query (b, n) its logits against
  key (u, m) form a (256, 16) table per family, the two families are concatenated along `u` and flattened, so entry
  `q` of the 8192 is key `(q / 16, q % 16)` of the positive family when `q / 16 < 256` and key `(q / 16 - 256, q % 16)` of
  the negative family otherwise (`refX`, `refLb`); its "same image" factor is an identity matrix on (b, u), and its
  "same object" compares the query's id with the id of region `m` of the QUERY's image `b` (which is the key's image
  exactly when the identity factor is 1).
-/
import proofs.«168933_j69020124447445_1_alg».proof.Proof.Spec
import Idealize.ShloMosaic.Lib.ValueIdx

noncomputable section

namespace Cert.RowLoss

open Idealize.ShloMosaic Idealize.ShloMosaic.ValueIdx

/-- A float argument: (image, region, feature) ↦ extended real. -/
abbrev Feat : Type := (⟨3, ![256, 16, 256]⟩ : Shape).Idx → EReal
/-- An id argument: (image, region) ↦ 32-bit word. -/
abbrev Ids : Type := (⟨2, ![256, 16]⟩ : Shape).Idx → BitVec 32

/-- Feature `k` of region `n` of image `b`, divided by the Euclidean norm of that region's feature vector, as both
    programs spell it: the quotient by the square root of the sum (from zero) of the squares. -/
def nrmAt (A : Feat) (b : Fin 256) (n : Fin 16) (k : Fin 256) : EReal :=
  Ideal.div (A (ix3 b n k)) (Ideal.sqrt (zeroW + ∑ k' : Fin 256, A (ix3 b n k') * A (ix3 b n k')))

/-- The image of a flattened row. -/
def imgOf (i : Fin 4096) : Fin 256 := ⟨i.val / 16, by have := i.isLt; omega⟩
/-- The region of a flattened row. -/
def roiOf (i : Fin 4096) : Fin 16 := ⟨i.val % 16, by omega⟩
/-- The flattened row of (image, region). -/
def rowOf (b : Fin 256) (n : Fin 16) : Fin 4096 := ⟨b.val * 16 + n.val, by have := b.isLt; have := n.isLt; omega⟩

/-- Normalised feature `k` of flattened row `i`. -/
def rowAt (A : Feat) (i : Fin 4096) (k : Fin 256) : EReal := nrmAt A (imgOf i) (roiOf i) k
/-- The id of flattened row `i`. -/
def idAt (I : Ids) (i : Fin 4096) : BitVec 32 := I (ix2 (imgOf i) (roiOf i))

/-- The scaled dot product of query row `i` of `Q` and key row `j` of `K`. -/
def logit (Q K : Feat) (i j : Fin 4096) : EReal := (∑ k : Fin 256, rowAt Q i k * rowAt K j k) * tenW

/-- 1 when the two rows belong to the same image, else 0. -/
def sameImg (i j : Fin 4096) : EReal := ind (i.val / 16 = j.val / 16)
/-- 1 when the two ids are equal, else 0. -/
def sameId (u v : BitVec 32) : EReal := ind (u = v)

/-- The key row at lane `x` of tile `c`. -/
def keyOf (c : Fin 8) (x : Fin 512) : Fin 4096 := ⟨c.val * 512 + x.val, by have := c.isLt; have := x.isLt; omega⟩

/-- Tile `c` of query row `i`: `Q` the queries, `Kp` / `Kn` the keys of the positive / negative family, `qi` the queries'
    ids, `kp` / `kn` / `ks` the key ids that decide the labels / the negative family's mask / the object area. -/
def tileOf (Q Kp Kn : Feat) (qi kp kn ks : Ids) (i : Fin 4096) (c : Fin 8) : Tile where
  xp := fun x => logit Q Kp i (keyOf c x)
  xn := fun x => logit Q Kn i (keyOf c x) - bigW * (sameImg i (keyOf c x) * sameId (idAt qi i) (idAt kn (keyOf c x)))
  lb := fun x => sameImg i (keyOf c x) * sameId (idAt qi i) (idAt kp (keyOf c x))
  pp := fun x => sameImg i (keyOf c x) * sameId (idAt qi i) (idAt ks (keyOf c x))

/-- The kernel's result: the mean over the 4096 rows of each channel's row loss, added. Channel 0 queries with `pred1`
    against `target2` (positive) and `target1` (negative); channel 1 with `pred2` against `target1` and `target2`. -/
def kerVal (A0 A1 A2 A3 : Feat) (I4 I5 I6 I7 : Ids) : EReal :=
  meanOf (fun y : (⟨2, ![4096, 1]⟩ : Shape).Idx => kerRow (tileOf A0 A3 A2 I4 I7 I6 I4 ⟨(y 0).val, idx2_lt0 y⟩))
    + meanOf (fun y : (⟨2, ![4096, 1]⟩ : Shape).Idx => kerRow (tileOf A1 A2 A3 I5 I6 I7 I5 ⟨(y 0).val, idx2_lt0 y⟩))

/-- The region part `q % 16` of one of the reference's 8192 entries. -/
def roiQ (q : Fin 8192) : Fin 16 := ⟨q.val % 16, by omega⟩

/-- Entry `q` of the reference's 8192 logits for query (b, n). -/
def refX (Q Kp Kn : Feat) (qi kn : Ids) (b : Fin 256) (n : Fin 16) (q : Fin 8192) : EReal :=
  if h : q.val / 16 < 256 then
    (∑ k : Fin 256, nrmAt Q b n k * nrmAt Kp ⟨q.val / 16, h⟩ (roiQ q) k) * tenW
  else
    (∑ k : Fin 256, nrmAt Q b n k * nrmAt Kn ⟨q.val / 16 - 256, by have := q.isLt; omega⟩ (roiQ q) k) * tenW
      - (bigW * ind (b.val = q.val / 16 - 256)) * sameId (qi (ix2 b n)) (kn (ix2 b (roiQ q)))

/-- Entry `q` of the reference's 8192 labels for query (b, n), before the division by the number of positives. -/
def refLb (qi kp : Ids) (b : Fin 256) (n : Fin 16) (q : Fin 8192) : EReal :=
  if q.val / 16 < 256 then ind (b.val = q.val / 16) * sameId (qi (ix2 b n)) (kp (ix2 b (roiQ q))) else zeroW

/-- The reference's object area of query (b, n): how many regions of image `b` carry its id. -/
def refArea (qi : Ids) (b : Fin 256) (n : Fin 16) : EReal :=
  zeroW + ∑ m : Fin 16, sameId (qi (ix2 b n)) (qi (ix2 b m))

/-- The reference's result, channel by channel as `kerVal`. -/
def refVal (A0 A1 A2 A3 : Feat) (I4 I5 I6 I7 : Ids) : EReal :=
  meanOf (fun y : (⟨2, ![256, 16]⟩ : Shape).Idx =>
      refRow (refX A0 A3 A2 I4 I6 ⟨(y 0).val, idx2_lt0 y⟩ ⟨(y 1).val, idx2_lt1 y⟩)
        (refLb I4 I7 ⟨(y 0).val, idx2_lt0 y⟩ ⟨(y 1).val, idx2_lt1 y⟩) (refArea I4 ⟨(y 0).val, idx2_lt0 y⟩ ⟨(y 1).val, idx2_lt1 y⟩))
    + meanOf (fun y : (⟨2, ![256, 16]⟩ : Shape).Idx =>
      refRow (refX A1 A2 A3 I5 I7 ⟨(y 0).val, idx2_lt0 y⟩ ⟨(y 1).val, idx2_lt1 y⟩)
        (refLb I5 I6 ⟨(y 0).val, idx2_lt0 y⟩ ⟨(y 1).val, idx2_lt1 y⟩) (refArea I5 ⟨(y 0).val, idx2_lt0 y⟩ ⟨(y 1).val, idx2_lt1 y⟩))

/-- What the precondition gives: every entry of a float argument is a real number, and no feature vector is zero. -/
structure Good (A : Feat) : Prop where
  real : ∀ y, ∃ r : ℝ, A y = (r : EReal)
  nonzero : ∀ (b : Fin 256) (n : Fin 16), (0 : EReal) < zeroW + ∑ k : Fin 256, A (ix3 b n k) * A (ix3 b n k)

end Cert.RowLoss

end
-- ==== Proof.KDefs.lean ====
/-
  The kernel body as three pure functions of what it loads, written over the generated payloads.

  At a grid point the body loads ten input blocks — the query rows' normalised features for the two views (`p1`, `p2`),
  the key rows' for the two views (`t1`, `t2`), the query rows' object ids as columns (`r1`, `r2`), and four rows of key
  ids (`c1` … `c4`: own-view ids of view 1 and 2, then the other view's ids `tind1`, `tind2`) — and carries ten
  per-row accumulators between the points of one row tile: for each of the two channels a running maximum `m`, a running
  sum of exponentials `l`, the sum `s` of positive logits, the number `n` of positives, the object area `a`.
  `step` is one column tile folded into the accumulators; `reset` is what the first column tile starts from; `ce0` /
  `ce1` are the two losses the last column tile stores. Every right-hand side is the payload the corresponding
  `tpu.vector_store` writes, with each load replaced by what the buffer holds at that moment.
-/
import proofs.«168933_j69020124447445_1_alg».proof.Proof.RowData
import proofs.«168933_j69020124447445_1_alg».proof.Proof.Gen.KernelIdeal.Skeleton

noncomputable section

namespace Cert.KernelIdeal.KValue

open Cert.KernelIdeal Cert.KernelIdeal.Gen Idealize.ShloMosaic Idealize.SL.Sem

/-- The ten input blocks of a grid point. -/
structure Blocks (F : FTy → Type) [FloatOps F] where
  p1 : Vec F S512x256 .bf16
  p2 : Vec F S512x256 .bf16
  t1 : Vec F S512x256 .bf16
  t2 : Vec F S512x256 .bf16
  r1 : Vec F S512x1 .i32
  r2 : Vec F S512x1 .i32
  c1 : Vec F S1x512 .i32
  c2 : Vec F S1x512 .i32
  c3 : Vec F S1x512 .i32
  c4 : Vec F S1x512 .i32

/-- The ten carried accumulators. -/
structure Scr (F : FTy → Type) [FloatOps F] where
  m0 : Vec F S512x1 .f32
  l0 : Vec F S512x1 .f32
  s0 : Vec F S512x1 .f32
  n0 : Vec F S512x1 .f32
  a0 : Vec F S512x1 .f32
  m1 : Vec F S512x1 .f32
  l1 : Vec F S512x1 .f32
  s1 : Vec F S512x1 .f32
  n1 : Vec F S512x1 .f32
  a1 : Vec F S512x1 .f32

variable {F : FTy → Type} [FloatOps F]

/-- "Query row and key row lie in the same image", as the 0/1 words the body computes from the grid position. -/
def sameB (i : grid0.Coords) : IVec S512x512 32 :=
  k0_pay28 (k0_pay24 i) (k0_pay25 i) 16#32 (k0_pay26 i) (k0_pay27 i)

/-- "Same image" of local query row `y` and local key `x` at grid point `i` = (row tile, column tile), as 0 or 1: the
    query is row `512·(i 0) + y`, the key is row `512·(i 1) + x`, and 16 consecutive rows form an image. -/
def sameImgB (i : grid0.Coords) (y x : Fin 512) : EReal :=
  Cert.RowLoss.ind (((i 0).val * 512 + y.val) / 16 = ((i 1).val * 512 + x.val) / 16)

/-- One column tile folded into the accumulators. -/
def step (i : grid0.Coords) (X : Blocks F) (S : Scr F) : Scr F where
  m0 := k0_pay45 (k0_pay20 X.p1 X.t2) (k0_pay21 X.p1 X.t1) (k0_pay36 (sameB i) X.r1 X.c3) S.m0
  l0 := k0_pay44 (k0_pay20 X.p1 X.t2) (k0_pay21 X.p1 X.t1) (k0_pay36 (sameB i) X.r1 X.c3) S.m0 S.m0 S.l0
  s0 := k0_pay47 S.s0 (k0_pay46 (k0_pay20 X.p1 X.t2) (k0_pay34 (sameB i) X.r1 X.c4))
  n0 := k0_pay48 (k0_pay34 (sameB i) X.r1 X.c4) S.n0
  a0 := k0_pay49 (k0_pay38 (sameB i) X.r1 X.c1) S.a0
  m1 := k0_pay55 (k0_pay50 (k0_pay22 X.p2 X.t1) (k0_pay42 (k0_pay23 X.p2 X.t2) (k0_pay37 (sameB i) X.r2 X.c4)) S.m1)
  l1 := k0_pay54 (k0_pay51 (k0_pay22 X.p2 X.t1) (k0_pay42 (k0_pay23 X.p2 X.t2) (k0_pay37 (sameB i) X.r2 X.c4)) S.m1 S.m1)
          (k0_pay52 (k0_pay22 X.p2 X.t1) (k0_pay42 (k0_pay23 X.p2 X.t2) (k0_pay37 (sameB i) X.r2 X.c4)) S.m1)
          (k0_pay53 (k0_pay22 X.p2 X.t1) (k0_pay42 (k0_pay23 X.p2 X.t2) (k0_pay37 (sameB i) X.r2 X.c4)) S.m1) S.l1
  s1 := k0_pay56 (k0_pay22 X.p2 X.t1) (k0_pay35 (sameB i) X.r2 X.c3) S.s1
  n1 := k0_pay57 (k0_pay35 (sameB i) X.r2 X.c3) S.n1
  a1 := k0_pay58 (k0_pay40 (k0_pay29 (sameB i)) (k0_pay39 X.r2 X.c2)) S.a1

/-- What the first column tile of a row tile starts from: the maxima at `-inf`, the sums at zero. -/
def reset : Scr F where
  m0 := k0_pay2
  l0 := k0_pay3
  s0 := k0_pay4
  n0 := k0_pay5
  a0 := k0_pay6
  m1 := k0_pay7
  l1 := k0_pay8
  s1 := k0_pay13 k0_pay9
  n1 := k0_pay14
  a1 := k0_pay15

/-- Channel 0's loss of each row, from the accumulators after the last column tile. -/
def ce0 (S : Scr F) : Vec F S512x1 .f32 := k0_pay12 S.m0 S.l0 S.n0 S.a0 S.s0 S.n0
/-- Channel 1's loss of each row. -/
def ce1 (S : Scr F) : Vec F S512x1 .f32 :=
  k0_pay1 (k0_pay10 S.m1 S.l1) (k0_pay11 S.n1 S.a1) (Scalar.ofBits .f32 0x00000000#32) S.s1 S.n1

end Cert.KernelIdeal.KValue

end
-- ==== Proof.KHost.lean ====
/-
  What the region finds in its ten operand arrays, as functions of @main's arguments: the four feature arrays
  normalised and flattened to 4096 rows, and the id arrays flattened to a column or a row of 4096.

  Each float argument goes through the same chain of host operations — the squares summed along the feature axis from
  zero, the square root of that sum, the quotient of every feature by it, the (256, 16, 256) array flattened row-major to
  (4096, 256), and a conversion that is the identity on extended reals — so one lemma over an arbitrary argument reads the
  chain at (row, feature): row `i` is region `i % 16` of image `i / 16`. Each id argument is flattened row-major to 4096
  entries and then viewed as a column or as a row; the same arithmetic reads it at `i`.
-/
import proofs.«168933_j69020124447445_1_alg».proof.Proof.KDefs
import proofs.«168933_j69020124447445_1_alg».proof.Proof.Gen.KernelIdeal.Frame.Runs
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.IdealHost
noncomputable section
namespace Cert.KernelIdeal.KValue
open Cert.KernelIdeal Cert.KernelIdeal.Gen Cert.RowLoss Idealize.ShloMosaic Idealize.ShloMosaic.TcCoe Idealize.SL.Sem Idealize.ShloMosaic.ValueIdx

/-- One float argument through the host's chain: squares summed along the feature axis from zero, the square root,
    the quotient, the rows flattened. -/
def hostNorm (A : Feat) : S4096x256.Idx → EReal :=
  truncf (F := Ideal) (φ := .f32) .bf16
    (shapeCast S4096x256
      (Host.divf (F := Ideal) (φ := .f32) A
        (broadcastInDim S256x16x256 ![0, 1, 2] bcast_S256x16x1_S256x16x256_0_1_2
          (Host.sqrt (F := Ideal) (φ := .f32)
            (broadcastInDim S256x16x1 ![0, 1] bcast_S256x16_S256x16x1_0_1
              (Host.reduceAdd (F := Ideal) (φ := .f32) (mulf (F := Ideal) (φ := .f32) A A) (constant (F := Ideal) S_ .f32 0x00000000#32)
                reducesTo_S256x16x256_S256x16_d2 h_S_)))))
      shapeCasts_S256x16x256_S4096x256)
    bitsLt_bf16_f32

/-- The reduction along the feature axis, read at (image, region): zero plus the sum of the squares. -/
theorem sumSq_at (A : Feat) (b : Fin 256) (n : Fin 16) :
    Host.reduceAdd (F := Ideal) (φ := .f32) (mulf (F := Ideal) (φ := .f32) A A) (constant (F := Ideal) S_ .f32 0x00000000#32)
        reducesTo_S256x16x256_S256x16_d2 h_S_ (ix2 b n)
      = zeroW + ∑ k' : Fin 256, A (ix3 b n k') * A (ix3 b n k') := by
  have hr : S256x16x256.Reduces [2] S256x16 := by decide
  rw [hostReduceAdd_apply]
  rw [Ideal.hostReduceAdd_single reducesTo_S256x16x256_S256x16_d2 hr]
  have e : ∀ k' : Fin 256, hr.lift (ix2 b n) k' = ix3 b n k' := by
    intro k'
    funext a
    match a with
    | ⟨0, _⟩ => exact Fin.ext rfl
    | ⟨1, _⟩ => exact Fin.ext rfl
    | ⟨2, _⟩ => exact Fin.ext rfl
  exact congrArg (zeroW + ·) (Finset.sum_congr rfl fun k' _ => by rw [mulf_apply, e k'])

/-- The chain read at (row, feature): the feature of region `i % 16` of image `i / 16`, divided by the square root of the
    sum (from zero) of that region's squared features. The flattening keeps row-major positions, and
    `(i / 16 * 16 + i % 16) * 256 + k = i * 256 + k`; the two broadcasts repeat the norm along the feature axis. -/
theorem hostNorm_at (A : Feat) (i : Fin 4096) (k : Fin 256) : hostNorm A (ix2 i k) = rowAt A i k := by
  unfold hostNorm
  rw [truncf_apply]
  rw [shapeCast_apply (k := ix3 (imgOf i) (roiOf i) k)]
  · rw [hostDivf_apply]
    rw [broadcastInDim_apply (k := ix3 (imgOf i) (roiOf i) (0 : Fin 1))]
    · rw [show ∀ (x : FVec Ideal S256x16x1 .f32) (j : S256x16x1.Idx), Host.sqrt (F := Ideal) x j = Ideal.sqrt (x j) from fun _ _ => rfl]
      rw [broadcastInDim_apply (k := ix2 (imgOf i) (roiOf i))]
      · rw [sumSq_at]
        rfl
      · intro a
        match a with
        | ⟨0, _⟩ => rfl
        | ⟨1, _⟩ => rfl
    · intro a
      match a with
      | ⟨0, _⟩ => rfl
      | ⟨1, _⟩ => rfl
      | ⟨2, _⟩ => rfl
  · rw [Shape.rowMajor_val_three, Shape.rowMajor_val_two]
    show ((i.val / 16) * 16 + i.val % 16) * 256 + k.val = i.val * 256 + k.val
    omega

/-- An id argument flattened to a column of 4096. -/
def hostCol (I : Ids) : S4096x1.Idx → BitVec 32 :=
  shapeCast S4096x1 (shapeCast S4096 I shapeCasts_S256x16_S4096) shapeCasts_S4096_S4096x1
/-- An id argument flattened to a row of 4096. -/
def hostRow (I : Ids) : S1x4096.Idx → BitVec 32 :=
  shapeCast S1x4096 (shapeCast S4096 I shapeCasts_S256x16_S4096) shapeCasts_S4096_S1x4096

/-- Row-major flattening of (256, 16): position `i` holds the id of region `i % 16` of image `i / 16`. -/
theorem hostFlat_at (I : Ids) (i : Fin 4096) : shapeCast S4096 I shapeCasts_S256x16_S4096 (ix1 i) = idAt I i := by
  rw [shapeCast_apply (k := ix2 (imgOf i) (roiOf i))]
  · rfl
  · rw [Shape.rowMajor_val_two, Shape.rowMajor_val_one]
    show (i.val / 16) * 16 + i.val % 16 = i.val
    omega

theorem hostCol_at (I : Ids) (i : Fin 4096) : hostCol I (ix2 i (0 : Fin 1)) = idAt I i := by
  unfold hostCol
  rw [shapeCast_apply (k := ix1 i)]
  · exact hostFlat_at I i
  · rw [Shape.rowMajor_val_one, Shape.rowMajor_val_two]
    show i.val = i.val * 1 + 0
    omega

theorem hostRow_at (I : Ids) (j : Fin 4096) : hostRow I (ix2 (0 : Fin 1) j) = idAt I j := by
  unfold hostRow
  rw [shapeCast_apply (k := ix1 j)]
  · exact hostFlat_at I j
  · rw [Shape.rowMajor_val_one, Shape.rowMajor_val_two]
    show j.val = 0 * 4096 + j.val
    omega

variable (m : (ℓ : Loc nD τ sig) → Buf (Elt Ideal) ℓ)

/-- @main's float arguments on core `c`. -/
abbrev A0 (c : Dev nD) : Feat := m ((c.tc : Thread nD τ).loc main_arg0)
abbrev A1 (c : Dev nD) : Feat := m ((c.tc : Thread nD τ).loc main_arg1)
abbrev A2 (c : Dev nD) : Feat := m ((c.tc : Thread nD τ).loc main_arg2)
abbrev A3 (c : Dev nD) : Feat := m ((c.tc : Thread nD τ).loc main_arg3)
/-- @main's id arguments on core `c`. -/
abbrev I4 (c : Dev nD) : Ids := m ((c.tc : Thread nD τ).loc main_arg4)
abbrev I5 (c : Dev nD) : Ids := m ((c.tc : Thread nD τ).loc main_arg5)
abbrev I6 (c : Dev nD) : Ids := m ((c.tc : Thread nD τ).loc main_arg6)
abbrev I7 (c : Dev nD) : Ids := m ((c.tc : Thread nD τ).loc main_arg7)

/-! ## The ten arrays

Each array the region finds is the corresponding chain applied to the launch contents of one argument: the fold of the
host operations, read at the array's buffer, is the chain's term (every other operation writes elsewhere). -/

theorem V_p1_eq (c : Dev nD) : (V m c main_v4 : S4096x256.Idx → EReal) = hostNorm (A0 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  (try simp only [StableHlo.TRef.ofBuf, StableHlo.TRef.toBuf, cast_eq])
  rfl
theorem V_p1 (c : Dev nD) (i : Fin 4096) (k : Fin 256) : (V m c main_v4 : S4096x256.Idx → EReal) (ix2 i k) = rowAt (A0 m c) i k :=
  (congrFun (V_p1_eq m c) (ix2 i k)).trans (hostNorm_at _ i k)

theorem V_p2_eq (c : Dev nD) : (V m c main_v9 : S4096x256.Idx → EReal) = hostNorm (A1 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  (try simp only [StableHlo.TRef.ofBuf, StableHlo.TRef.toBuf, cast_eq])
  rfl
theorem V_p2 (c : Dev nD) (i : Fin 4096) (k : Fin 256) : (V m c main_v9 : S4096x256.Idx → EReal) (ix2 i k) = rowAt (A1 m c) i k :=
  (congrFun (V_p2_eq m c) (ix2 i k)).trans (hostNorm_at _ i k)

theorem V_t1_eq (c : Dev nD) : (V m c main_v14 : S4096x256.Idx → EReal) = hostNorm (A2 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  (try simp only [StableHlo.TRef.ofBuf, StableHlo.TRef.toBuf, cast_eq])
  rfl
theorem V_t1 (c : Dev nD) (i : Fin 4096) (k : Fin 256) : (V m c main_v14 : S4096x256.Idx → EReal) (ix2 i k) = rowAt (A2 m c) i k :=
  (congrFun (V_t1_eq m c) (ix2 i k)).trans (hostNorm_at _ i k)

theorem V_t2_eq (c : Dev nD) : (V m c main_v19 : S4096x256.Idx → EReal) = hostNorm (A3 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  (try simp only [StableHlo.TRef.ofBuf, StableHlo.TRef.toBuf, cast_eq])
  rfl
theorem V_t2 (c : Dev nD) (i : Fin 4096) (k : Fin 256) : (V m c main_v19 : S4096x256.Idx → EReal) (ix2 i k) = rowAt (A3 m c) i k :=
  (congrFun (V_t2_eq m c) (ix2 i k)).trans (hostNorm_at _ i k)

theorem V_r1_eq (c : Dev nD) : (V m c main_v24 : S4096x1.Idx → BitVec 32) = hostCol (I4 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_r1 (c : Dev nD) (i : Fin 4096) : (V m c main_v24 : S4096x1.Idx → BitVec 32) (ix2 i 0) = idAt (I4 m c) i :=
  (congrFun (V_r1_eq m c) (ix2 i 0)).trans (hostCol_at _ i)

theorem V_r2_eq (c : Dev nD) : (V m c main_v25 : S4096x1.Idx → BitVec 32) = hostCol (I5 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_r2 (c : Dev nD) (i : Fin 4096) : (V m c main_v25 : S4096x1.Idx → BitVec 32) (ix2 i 0) = idAt (I5 m c) i :=
  (congrFun (V_r2_eq m c) (ix2 i 0)).trans (hostCol_at _ i)

theorem V_c1_eq (c : Dev nD) : (V m c main_v26 : S1x4096.Idx → BitVec 32) = hostRow (I4 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_c1 (c : Dev nD) (j : Fin 4096) : (V m c main_v26 : S1x4096.Idx → BitVec 32) (ix2 0 j) = idAt (I4 m c) j :=
  (congrFun (V_c1_eq m c) (ix2 0 j)).trans (hostRow_at _ j)

theorem V_c2_eq (c : Dev nD) : (V m c main_v27 : S1x4096.Idx → BitVec 32) = hostRow (I5 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_c2 (c : Dev nD) (j : Fin 4096) : (V m c main_v27 : S1x4096.Idx → BitVec 32) (ix2 0 j) = idAt (I5 m c) j :=
  (congrFun (V_c2_eq m c) (ix2 0 j)).trans (hostRow_at _ j)

theorem V_c3_eq (c : Dev nD) : (V m c main_v28 : S1x4096.Idx → BitVec 32) = hostRow (I6 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_c3 (c : Dev nD) (j : Fin 4096) : (V m c main_v28 : S1x4096.Idx → BitVec 32) (ix2 0 j) = idAt (I6 m c) j :=
  (congrFun (V_c3_eq m c) (ix2 0 j)).trans (hostRow_at _ j)

theorem V_c4_eq (c : Dev nD) : (V m c main_v29 : S1x4096.Idx → BitVec 32) = hostRow (I7 m c) := by
  dsimp only [Gen.V, Gen.V0]
  simp only [Gen.hostOps0, Gen.hostOps0_1, Gen.hostOps0_2, Gen.hostOps0_3, Gen.hostOps0_4, Gen.hostOps0_5, Gen.hostOps0_6, Gen.hostOps0_7, List.flatten_cons, List.flatten_nil, List.append_nil, List.cons_append, List.nil_append]
  after_results
  rfl
theorem V_c4 (c : Dev nD) (j : Fin 4096) : (V m c main_v29 : S1x4096.Idx → BitVec 32) (ix2 0 j) = idAt (I7 m c) j :=
  (congrFun (V_c4_eq m c) (ix2 0 j)).trans (hostRow_at _ j)

end Cert.KernelIdeal.KValue
end
-- ==== Proof.KPieces.lean ====
/-
  What the kernel body leaves in its carried accumulators and in its two outputs at each grid point, as the pure
  functions of KDefs: at a point of column tile 0 the accumulators are one step from the reset values, at any other
  point one step from what the point before left, and at a point of column tile 7 the two outputs are the losses of the
  accumulators just stored.
-/
import proofs.«168933_j69020124447445_1_alg».proof.Proof.KDefs
import proofs.«168933_j69020124447445_1_alg».proof.Proof.KIFrame0
import Idealize.ShloMosaic.Lib.Pipeline.Value
import Idealize.ShloMosaic.Lib.Tactic
set_option maxRecDepth 16384
noncomputable section
namespace Cert.KernelIdeal.KValue
open Cert.KernelIdeal Cert.KernelIdeal.Gen Cert.KernelIdeal.GenP Idealize.ShloMosaic Idealize.ShloMosaic.TcCoe Idealize.SL.Sem
open Idealize.ShloMosaic.Pipeline (Dat)

variable {F : FTy → Type} [FloatOps F]

namespace Pieces
/-- The zero offsets of a load or store of a whole two-axis buffer. -/
theorem hz : (![0, 0] : Fin 2 → Nat) = fun _ => 0 := funext fun a => by fin_cases a <;> rfl

/-! ## The found pieces, case by case -/
/-- Column tile 0, the running maximum of channel 0: the body first stores the reset value, then one covering store of the update whose load of
    the accumulator reads that reset value back; what is left is field `m0` of one step from the reset values. -/
theorem sA0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).m0 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the running sum of exponentials of channel 0: the body first stores the reset value, then one covering store of the update whose load of
    the accumulator reads that reset value back; what is left is field `l0` of one step from the reset values. -/
theorem sA1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).l0 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the sum of positive logits of channel 0: the body first stores the reset value, then one covering store of the update whose load of
    the accumulator reads that reset value back; what is left is field `s0` of one step from the reset values. -/
theorem sA2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).s0 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the number of positives of channel 0: the body first stores the reset value, then one covering store of the update whose load of
    the accumulator reads that reset value back; what is left is field `n0` of one step from the reset values. -/
theorem sA3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).n0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the object area of channel 0: the body first stores the reset value, then one covering store of the update whose load of
    the accumulator reads that reset value back; what is left is field `a0` of one step from the reset values. -/
theorem sA4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).a0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the running maximum of channel 1: the body first stores the reset value, then one covering store of the update whose load of
    the accumulator reads that reset value back; what is left is field `m1` of one step from the reset values. -/
theorem sA5 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).m1 := by
  unfold sout0_A_5
  rw [View.read_writes_eq_canon _ _ _ (scover0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the running sum of exponentials of channel 1: the body first stores the reset value, then one covering store of the update whose load of
    the accumulator reads that reset value back; what is left is field `l1` of one step from the reset values. -/
theorem sA6 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).l1 := by
  unfold sout0_A_6
  rw [View.read_writes_eq_canon _ _ _ (scover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the sum of positive logits of channel 1: the body first stores the reset value, then one covering store of the update whose load of
    the accumulator reads that reset value back; what is left is field `s1` of one step from the reset values. -/
theorem sA7 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).s1 := by
  unfold sout0_A_7
  rw [View.read_writes_eq_canon _ _ _ (scover0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the number of positives of channel 1: the body first stores the reset value, then one covering store of the update whose load of
    the accumulator reads that reset value back; what is left is field `n1` of one step from the reset values. -/
theorem sA8 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).n1 := by
  unfold sout0_A_8
  rw [View.read_writes_eq_canon _ _ _ (scover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 0, the object area of channel 1: the body first stores the reset value, then one covering store of the update whose load of
    the accumulator reads that reset value back; what is left is field `a1` of one step from the reset values. -/
theorem sA9 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 = (step i (⟨x0, x1, x2, x3, x4, x5, x6, x7, x8, x9⟩ : Blocks F) (reset : Scr F)).a1 := by
  unfold sout0_A_9
  rw [View.read_writes_eq_canon _ _ _ (scover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the running maximum of channel 0: one covering store, whose loads read the whole input blocks and the accumulators as
    the point before left them; what is left is field `m0` of one step from those. -/
theorem sB0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).m0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the running sum of exponentials of channel 0: one covering store, whose loads read the whole input blocks and the accumulators as
    the point before left them; what is left is field `l0` of one step from those. -/
theorem sB1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).l0 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the sum of positive logits of channel 0: one covering store, whose loads read the whole input blocks and the accumulators as
    the point before left them; what is left is field `s0` of one step from those. -/
theorem sB2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).s0 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the number of positives of channel 0: one covering store, whose loads read the whole input blocks and the accumulators as
    the point before left them; what is left is field `n0` of one step from those. -/
theorem sB3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).n0 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the object area of channel 0: one covering store, whose loads read the whole input blocks and the accumulators as
    the point before left them; what is left is field `a0` of one step from those. -/
theorem sB4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).a0 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the running maximum of channel 1: one covering store, whose loads read the whole input blocks and the accumulators as
    the point before left them; what is left is field `m1` of one step from those. -/
theorem sB5 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).m1 := by
  unfold sout0_B_5
  rw [View.read_writes_eq_canon _ _ _ (scover0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the running sum of exponentials of channel 1: one covering store, whose loads read the whole input blocks and the accumulators as
    the point before left them; what is left is field `l1` of one step from those. -/
theorem sB6 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).l1 := by
  unfold sout0_B_6
  rw [View.read_writes_eq_canon _ _ _ (scover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the sum of positive logits of channel 1: one covering store, whose loads read the whole input blocks and the accumulators as
    the point before left them; what is left is field `s1` of one step from those. -/
theorem sB7 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).s1 := by
  unfold sout0_B_7
  rw [View.read_writes_eq_canon _ _ _ (scover0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the number of positives of channel 1: one covering store, whose loads read the whole input blocks and the accumulators as
    the point before left them; what is left is field `n1` of one step from those. -/
theorem sB8 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).n1 := by
  unfold sout0_B_8
  rw [View.read_writes_eq_canon _ _ _ (scover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tiles 1 to 6, the object area of channel 1: one covering store, whose loads read the whole input blocks and the accumulators as
    the point before left them; what is left is field `a1` of one step from those. -/
theorem sB9 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).a1 := by
  unfold sout0_B_9
  rw [View.read_writes_eq_canon _ _ _ (scover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_B
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the running maximum of channel 0: as at column tiles 1 to 6. -/
theorem sC0 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).m0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the running sum of exponentials of channel 0: as at column tiles 1 to 6. -/
theorem sC1 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).l0 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the sum of positive logits of channel 0: as at column tiles 1 to 6. -/
theorem sC2 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).s0 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the number of positives of channel 0: as at column tiles 1 to 6. -/
theorem sC3 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).n0 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the object area of channel 0: as at column tiles 1 to 6. -/
theorem sC4 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).a0 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the running maximum of channel 1: as at column tiles 1 to 6. -/
theorem sC5 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).m1 := by
  unfold sout0_C_5
  rw [View.read_writes_eq_canon _ _ _ (scover0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the running sum of exponentials of channel 1: as at column tiles 1 to 6. -/
theorem sC6 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).l1 := by
  unfold sout0_C_6
  rw [View.read_writes_eq_canon _ _ _ (scover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the sum of positive logits of channel 1: as at column tiles 1 to 6. -/
theorem sC7 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).s1 := by
  unfold sout0_C_7
  rw [View.read_writes_eq_canon _ _ _ (scover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the number of positives of channel 1: as at column tiles 1 to 6. -/
theorem sC8 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).n1 := by
  unfold sout0_C_8
  rw [View.read_writes_eq_canon _ _ _ (scover0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, the object area of channel 1: as at column tiles 1 to 6. -/
theorem sC9 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    sout0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = (step i (⟨x0, x1, x2, x3, x4, x5, x6, x7, x8, x9⟩ : Blocks F) (⟨xs0, xs1, xs2, xs3, xs4, xs5, xs6, xs7, xs8, xs9⟩ : Scr F)).a1 := by
  unfold sout0_C_9
  rw [View.read_writes_eq_canon _ _ _ (scover0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, channel 0's losses: the finalisation loads the accumulators after the step's stores, so the one covering
    store of output window 10 writes the loss of the accumulators just stored. -/
theorem oC10 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = ce0 (step i (⟨x0, x1, x2, x3, x4, x5, x6, x7, x8, x9⟩ : Blocks F) (⟨xs0, xs1, xs2, xs3, xs4, xs5, xs6, xs7, xs8, xs9⟩ : Scr F)) := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

/-- Column tile 7, channel 1's losses: the same for output window 11. -/
theorem oC11 (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (xs0 : Vec F S512x1 .f32) (xs1 : Vec F S512x1 .f32) (xs2 : Vec F S512x1 .f32) (xs3 : Vec F S512x1 .f32) (xs4 : Vec F S512x1 .f32) (xs5 : Vec F S512x1 .f32) (xs6 : Vec F S512x1 .f32) (xs7 : Vec F S512x1 .f32) (xs8 : Vec F S512x1 .f32) (xs9 : Vec F S512x1 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9 = ce1 (step i (⟨x0, x1, x2, x3, x4, x5, x6, x7, x8, x9⟩ : Blocks F) (⟨xs0, xs1, xs2, xs3, xs4, xs5, xs6, xs7, xs8, xs9⟩ : Scr F)) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 xs0 xs1 xs2 xs3 xs4 xs5 xs6 xs7 xs8 xs9)]
  unfold kernelRun0_C
  dsimp only
  sl_unfold_words
  rw [View.canon_unit_zero hz]
  simp only [View.readAt_eq_ld, harg14.read_unread, harg15.read_unread, harg16.read_unread, harg17.read_unread, harg18.read_unread, harg19.read_unread, harg20.read_unread, harg21.read_unread, harg22.read_unread, harg23.read_unread, harg2.read_unread, harg3.read_unread, harg4.read_unread, harg5.read_unread, harg6.read_unread, harg7.read_unread, harg8.read_unread, harg9.read_unread, harg10.read_unread, harg11.read_unread, View.ld_unit_zero (S := S512x1) hz, View.ld_unit_zero (S := S512x256) hz, View.ld_unit_zero (S := S1x512) hz, View.readCov_unit_zero (S := S512x1) _ hz]
  rfl

end Pieces

variable (m : (ℓ : Loc nD τ sig) → Buf (Elt F) ℓ)

/-- The ten input blocks of grid point `t`, read off the arrays as the region finds them. -/
def blocksAt (c : Dev nD) (t : Fin cfg0.N) : Blocks F where
  p1 := iblk m c 0 t
  p2 := iblk m c 1 t
  t1 := iblk m c 2 t
  t2 := iblk m c 3 t
  r1 := iblk m c 4 t
  r2 := iblk m c 5 t
  c1 := iblk m c 6 t
  c2 := iblk m c 7 t
  c3 := iblk m c 8 t
  c4 := iblk m c 9 t

/-- The carried accumulators after grid point `n`: one step from the reset values at a point of column tile 0, one step
    from the point before otherwise. -/
def scrAt (c : Dev nD) : (n : ℕ) → n < cfg0.N → Scr F
  | 0, h => step (grid0.coords ⟨0, h⟩) (blocksAt m c ⟨0, h⟩) reset
  | n + 1, h =>
    if (n + 1) % 8 = 0 then step (grid0.coords ⟨n + 1, h⟩) (blocksAt m c ⟨n + 1, h⟩) reset
    else step (grid0.coords ⟨n + 1, h⟩) (blocksAt m c ⟨n + 1, h⟩) (scrAt c n (Nat.lt_of_succ_lt h))

/-- The accumulators as the tuple the generated recursion carries. -/
def Scr.tuple (S : Scr F) := (S.m0, S.l0, S.s0, S.n0, S.a0, S.m1, S.l1, S.s1, S.n1, S.a1)

namespace Pieces

/-- The twelve components the recursion carries: the two outputs' staging contents, then the ten accumulators. -/
abbrev Outs (F : FTy → Type) [FloatOps F] := Vec F S512x1 .f32 × Vec F S512x1 .f32 × Vec F S512x1 .f32 × Vec F S512x1 .f32 × Vec F S512x1 .f32 × Vec F S512x1 .f32 × Vec F S512x1 .f32 × Vec F S512x1 .f32 × Vec F S512x1 .f32 × Vec F S512x1 .f32 × Vec F S512x1 .f32 × Vec F S512x1 .f32

/-- Column tile 0: the ten accumulators the body leaves are one step from the reset values. -/
theorem tuple_A (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) :
    (sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9)
      = (step i (⟨x0, x1, x2, x3, x4, x5, x6, x7, x8, x9⟩ : Blocks F) (reset : Scr F)).tuple := by
  rw [sA0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9, sA9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9]
  rfl

/-- Column tiles 1 to 6: the ten accumulators the body leaves are one step from what it found, read off the components
    the recursion carries. -/
theorem tuple_B (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : ¬cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (P : Outs F) (S : Scr F) (hP : P.2.2 = S.tuple) :
    (sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2)
      = (step i (⟨x0, x1, x2, x3, x4, x5, x6, x7, x8, x9⟩ : Blocks F) S).tuple := by
  obtain ⟨o10, o11, T⟩ := P
  obtain ⟨m0, l0, s0, n0, a0, m1, l1, s1, n1, a1⟩ := S
  dsimp only at hP
  subst hP
  dsimp only [Scr.tuple]
  rw [sB0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sB9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1]

/-- Column tile 7: the same for the accumulators, -/
theorem tuple_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (P : Outs F) (S : Scr F) (hP : P.2.2 = S.tuple) :
    (sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2, sout0_C_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2)
      = (step i (⟨x0, x1, x2, x3, x4, x5, x6, x7, x8, x9⟩ : Blocks F) S).tuple := by
  obtain ⟨o10, o11, T⟩ := P
  obtain ⟨m0, l0, s0, n0, a0, m1, l1, s1, n1, a1⟩ := S
  dsimp only at hP
  subst hP
  dsimp only [Scr.tuple]
  rw [sC0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1, sC9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1]

/-- and the two stored losses are those of the accumulators just stored. -/
theorem out10_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (P : Outs F) (S : Scr F) (hP : P.2.2 = S.tuple) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2 = ce0 (step i (⟨x0, x1, x2, x3, x4, x5, x6, x7, x8, x9⟩ : Blocks F) S) := by
  obtain ⟨o10, o11, T⟩ := P
  obtain ⟨m0, l0, s0, n0, a0, m1, l1, s1, n1, a1⟩ := S
  dsimp only at hP
  subst hP
  dsimp only [Scr.tuple]
  exact oC10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1
theorem out11_C (c : Dev nD) (i : grid0.Coords) (arg2 : Memref sig .tc .vmem S512x256 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S512x256 .bf16) (harg5 : arg5.IsWhole) (arg6 : Memref sig .tc .vmem S512x1 .i32) (harg6 : arg6.IsWhole) (arg7 : Memref sig .tc .vmem S512x1 .i32) (harg7 : arg7.IsWhole) (arg8 : Memref sig .tc .vmem S1x512 .i32) (harg8 : arg8.IsWhole) (arg9 : Memref sig .tc .vmem S1x512 .i32) (harg9 : arg9.IsWhole) (arg10 : Memref sig .tc .vmem S1x512 .i32) (harg10 : arg10.IsWhole) (arg11 : Memref sig .tc .vmem S1x512 .i32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole) (arg17 : Memref sig .tc .vmem S512x1 .f32) (harg17 : arg17.IsWhole) (arg18 : Memref sig .tc .vmem S512x1 .f32) (harg18 : arg18.IsWhole) (arg19 : Memref sig .tc .vmem S512x1 .f32) (harg19 : arg19.IsWhole) (arg20 : Memref sig .tc .vmem S512x1 .f32) (harg20 : arg20.IsWhole) (arg21 : Memref sig .tc .vmem S512x1 .f32) (harg21 : arg21.IsWhole) (arg22 : Memref sig .tc .vmem S512x1 .f32) (harg22 : arg22.IsWhole) (arg23 : Memref sig .tc .vmem S512x1 .f32) (harg23 : arg23.IsWhole) (hc0 : ¬cond0_0 i) (hc1 : cond0_1 i) (x0 : Vec F S512x256 .bf16) (x1 : Vec F S512x256 .bf16) (x2 : Vec F S512x256 .bf16) (x3 : Vec F S512x256 .bf16) (x4 : Vec F S512x1 .i32) (x5 : Vec F S512x1 .i32) (x6 : Vec F S1x512 .i32) (x7 : Vec F S1x512 .i32) (x8 : Vec F S1x512 .i32) (x9 : Vec F S1x512 .i32) (P : Outs F) (S : Scr F) (hP : P.2.2 = S.tuple) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 P.2.2.1 P.2.2.2.1 P.2.2.2.2.1 P.2.2.2.2.2.1 P.2.2.2.2.2.2.1 P.2.2.2.2.2.2.2.1 P.2.2.2.2.2.2.2.2.1 P.2.2.2.2.2.2.2.2.2.1 P.2.2.2.2.2.2.2.2.2.2.1 P.2.2.2.2.2.2.2.2.2.2.2 = ce1 (step i (⟨x0, x1, x2, x3, x4, x5, x6, x7, x8, x9⟩ : Blocks F) S) := by
  obtain ⟨o10, o11, T⟩ := P
  obtain ⟨m0, l0, s0, n0, a0, m1, l1, s1, n1, a1⟩ := S
  dsimp only at hP
  subst hP
  dsimp only [Scr.tuple]
  exact oC11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 m0 l0 s0 n0 a0 m1 l1 s1 n1 a1

/-- At a point of column tile 0 the accumulators are one step from the reset values. -/
theorem scrAt_A (c : Dev nD) (t : Fin cfg0.N) (h0 : t.val % 8 = 0) :
    scrAt m c t.val t.isLt = step (grid0.coords t) (blocksAt m c t) reset := by
  obtain ⟨n, hn⟩ := t
  cases n with
  | zero => rfl
  | succ n => exact if_pos h0

/-- At any other point they are one step from those of the point before. -/
theorem scrAt_B (c : Dev nD) (t : Fin cfg0.N) (h0 : ¬t.val % 8 = 0) :
    scrAt m c t.val t.isLt
      = step (grid0.coords t) (blocksAt m c t) (scrAt m c (t.val - 1) (Nat.lt_of_le_of_lt (Nat.sub_le _ _) t.isLt)) := by
  obtain ⟨n, hn⟩ := t
  cases n with
  | zero => exact absurd (Nat.zero_mod 8) h0
  | succ n => exact if_neg h0

end Pieces

/-- The generated recursion's ten scratch components after point `n` are `scrAt`. -/
theorem outsAt_scr (c : Dev nD) (n : ℕ) (hn : n < cfg0.N) : (outsAt0 m c n hn).2.2 = (scrAt m c n hn).tuple := by
  induction n using Nat.strong_induction_on with
  | _ n ih =>
    have hlt : n - 1 < cfg0.N := Nat.lt_of_le_of_lt (Nat.sub_le _ _) hn
    by_cases h0 : n % 8 = 0
    · have h1 : ¬n % 8 = 7 := by omega
      rw [outsAt0_A m c ⟨n, hn⟩ h0 h1, Pieces.scrAt_A m c ⟨n, hn⟩ h0]
      dsimp only
      exact Pieces.tuple_A c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩)
    · have hpos : n - 1 < n := by omega
      by_cases h1 : n % 8 = 7
      · rw [outsAt0_C m c ⟨n, hn⟩ h0 h1, Pieces.scrAt_B m c ⟨n, hn⟩ h0]
        dsimp only
        exact Pieces.tuple_C c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n, hn⟩).mp h)) ((hcond0_1 ⟨n, hn⟩).mpr h1) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (outsAt0 m c (n - 1) hlt) (scrAt m c (n - 1) hlt) (ih (n - 1) hpos hlt)
      · rw [outsAt0_B m c ⟨n, hn⟩ h0 h1, Pieces.scrAt_B m c ⟨n, hn⟩ h0]
        dsimp only
        exact Pieces.tuple_B c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 ⟨n, hn⟩).mp h)) (fun h => h1 ((hcond0_1 ⟨n, hn⟩).mp h)) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (outsAt0 m c (n - 1) hlt) (scrAt m c (n - 1) hlt) (ih (n - 1) hpos hlt)
/-- At a point of column tile 7 output window 10's staging buffer holds channel 0's losses. -/
theorem outsAt_out10 (c : Dev nD) (t : Fin cfg0.N) (h7 : t.val % 8 = 7) : (outsAt0 m c t.val t.isLt).1 = ce0 (scrAt m c t.val t.isLt) := by
  have h0 : ¬t.val % 8 = 0 := by omega
  have hlt : t.val - 1 < cfg0.N := Nat.lt_of_le_of_lt (Nat.sub_le _ _) t.isLt
  rw [outsAt0_C m c t h0 h7, Pieces.scrAt_B m c t h0]
  dsimp only
  exact Pieces.out10_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) hlt) (scrAt m c (t.val - 1) hlt) (outsAt_scr m c (t.val - 1) hlt)
/-- … and window 11's channel 1's. -/
theorem outsAt_out11 (c : Dev nD) (t : Fin cfg0.N) (h7 : t.val % 8 = 7) : (outsAt0 m c t.val t.isLt).2.1 = ce1 (scrAt m c t.val t.isLt) := by
  have h0 : ¬t.val % 8 = 0 := by omega
  have hlt : t.val - 1 < cfg0.N := Nat.lt_of_le_of_lt (Nat.sub_le _ _) t.isLt
  rw [outsAt0_C m c t h0 h7, Pieces.scrAt_B m c t h0]
  dsimp only
  exact Pieces.out11_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) hlt) (scrAt m c (t.val - 1) hlt) (outsAt_scr m c (t.val - 1) hlt)

end Cert.KernelIdeal.KValue
end
-- ==== Proof.KMasks.lean ====
/-
  The kernel body's 0/1 masks read at the extended reals: "same image" from the grid position (a floor division by 16
  of the row and column numbers, spelled on 32-bit words), and "same object id" from a column of query ids and a row
  of key ids.
-/
import proofs.«168933_j69020124447445_1_alg».proof.Proof.KDefs
import Idealize.ShloMosaic.Lib.ValueIdx
import Idealize.ShloMosaic.Lib.Pipeline.Value
import Idealize.ShloMosaic.PureOps.Ideal.Laws
noncomputable section
namespace Cert.KernelIdeal.KValue
open Cert.KernelIdeal Cert.KernelIdeal.Gen Cert.RowLoss Idealize.ShloMosaic Idealize.SL.Sem Idealize.ShloMosaic.ValueIdx

/-! ## Broadcasts of a column and of a row at (y, x) -/

private theorem bcast_col_ix {α : Type} (v : S512x1.Idx → α) (y x : Fin 512) :
    broadcastTo S512x512 v broadcasts_S512x1_S512x512 (ix2 y x) = v (ix2 y 0) := by
  refine broadcastTo_apply v broadcasts_S512x1_S512x512 (ix2 y x) (ix2 y 0) (fun a => ?_)
  match a with
  | ⟨0, _⟩ => show y.val = if (512 : ℕ) = 1 then 0 else y.val; rw [if_neg (by decide)]
  | ⟨1, _⟩ => show (0 : ℕ) = if (1 : ℕ) = 1 then 0 else x.val; rw [if_pos rfl]
private theorem bcast_row_ix {α : Type} (v : S1x512.Idx → α) (y x : Fin 512) :
    broadcastTo S512x512 v broadcasts_S1x512_S512x512 (ix2 y x) = v (ix2 0 x) := by
  refine broadcastTo_apply v broadcasts_S1x512_S512x512 (ix2 y x) (ix2 0 x) (fun a => ?_)
  match a with
  | ⟨0, _⟩ => show (0 : ℕ) = if (1 : ℕ) = 1 then 0 else y.val; rw [if_pos rfl]
  | ⟨1, _⟩ => show x.val = if (512 : ℕ) = 1 then 0 else x.val; rw [if_neg (by decide)]

/-! ## Floor division by 16 as the body spells it on 32-bit words -/

/-- The body's floor division by 16 of one word: the truncated quotient, less one when the signs of dividend and divisor
    differ and the remainder is not zero. -/
private def fdw (v : BitVec 32) : BitVec 32 :=
  Scalar.select
    (IntOp.andi
      (IntOp.cmpi .ne (IntOp.subi ((IntOp.cmpi .sgt v 0#32).setWidth 32) ((IntOp.cmpi .slt v 0#32).setWidth 32))
        (Scalar.subi (Scalar.extui (Scalar.cmpi .sgt 16#32 0#32)) (Scalar.extui (Scalar.cmpi .slt 16#32 0#32))))
      (IntOp.cmpi .ne (IntOp.remsi .vector v 16#32) 0#32))
    (IntOp.subi (IntOp.divsi .vector v 16#32) 1#32)
    (IntOp.divsi .vector v 16#32)

/-- On the words below 4096 it is the natural-number quotient. -/
private theorem fdw_small : ∀ t : Fin 4096, fdw (BitVec.ofNat 32 t.val) = BitVec.ofNat 32 (t.val / 16) := by decide +kernel

private theorem sameB_ix (i : grid0.Coords) (y x : Fin 512) :
    sameB i (ix2 y x) = (IntOp.cmpi .eq (fdw (k0_pay24 i (ix2 y 0))) (fdw (k0_pay25 i (ix2 0 x)))).setWidth 32 := by
  unfold sameB k0_pay28
  show (IntOp.cmpi .eq (broadcastTo S512x512 _ broadcasts_S512x1_S512x512 (ix2 y x)) (broadcastTo S512x512 _ broadcasts_S1x512_S512x512 (ix2 y x))).setWidth 32 = _
  rw [bcast_col_ix, bcast_row_ix]
  rfl

/-- The row ids of a grid point's query block. -/
private theorem pay24_ix (i : grid0.Coords) (y : Fin 512) :
    k0_pay24 i (ix2 y 0) = BitVec.ofNat 32 ((i 0).val * 512 + y.val) := by
  unfold k0_pay24
  show IntOp.addi (Scalar.muli (BitVec.ofNat 32 (i 0).val) 512#32) (iota .tc S512x1 32 [0] iota_S512x1_d0_w32 (ix2 y 0)) = _
  rw [iota_single_apply]
  show BitVec.ofNat 32 (i 0).val * BitVec.ofNat 32 512 + BitVec.ofNat 32 y.val = _
  rw [← BitVec.ofNat_mul, ← BitVec.ofNat_add]
/-- The key ids of a grid point's key block. -/
private theorem pay25_ix (i : grid0.Coords) (x : Fin 512) :
    k0_pay25 i (ix2 0 x) = BitVec.ofNat 32 ((i 1).val * 512 + x.val) := by
  unfold k0_pay25
  show IntOp.addi (Scalar.muli (BitVec.ofNat 32 (i 1).val) 512#32) (iota .tc S1x512 32 [1] iota_S1x512_d1_w32 (ix2 0 x)) = _
  rw [iota_single_apply]
  show BitVec.ofNat 32 (i 1).val * BitVec.ofNat 32 512 + BitVec.ofNat 32 x.val = _
  rw [← BitVec.ofNat_mul, ← BitVec.ofNat_add]

/-! ## A 0/1 word read as an extended real -/

private theorem ind_congr {p q : Prop} [Decidable p] [Decidable q] (h : p ↔ q) : ind p = ind q := by
  unfold ind
  by_cases hp : p
  · rw [if_pos hp, if_pos (h.mp hp)]
  · rw [if_neg hp, if_neg (fun hq => hp (h.mpr hq))]

/-- The widened bit of an equality of words, converted as a signed integer, is the indicator of the equality. -/
private theorem sitofp_eq_word (a b : BitVec 32) :
    FloatOps.sitofp (F := Ideal) .f32 ((IntOp.cmpi .eq a b).setWidth 32) = ind (a = b) := by
  show ((((BitVec.ofBool (a == b)).setWidth 32).toInt : ℝ) : EReal) = _
  unfold ind
  by_cases h : a = b
  · have hb : (a == b) = true := by simpa using h
    rw [if_pos h, hb]
    have e : ((BitVec.ofBool true).setWidth 32).toInt = 1 := by decide
    rw [e]; norm_num
  · have hb : (a == b) = false := by simpa using h
    rw [if_neg h, hb]
    have e : ((BitVec.ofBool false).setWidth 32).toInt = 0 := by decide
    rw [e]; norm_num

private theorem ofNat32_inj {p q : ℕ} (hp : p < 4096) (hq : q < 4096) : BitVec.ofNat 32 p = BitVec.ofNat 32 q ↔ p = q := by
  constructor
  · intro h
    have := congrArg BitVec.toNat h
    rw [BitVec.toNat_ofNat, BitVec.toNat_ofNat, Nat.mod_eq_of_lt (by omega), Nat.mod_eq_of_lt (by omega)] at this
    exact this
  · intro h; rw [h]

/-- The body's "same image" words, converted to float, are `sameImgB`. -/
theorem sameB_apply (i : grid0.Coords) (y x : Fin 512) :
    (k0_pay29 (F := Ideal) (sameB i)) (ix2 y x) = sameImgB i y x := by
  have h0 : (i 0).val < 8 := (i 0).isLt
  have h1 : (i 1).val < 8 := (i 1).isLt
  have hy := y.isLt
  have hx := x.isLt
  unfold k0_pay29
  show FloatOps.sitofp (F := Ideal) .f32 (sameB i (ix2 y x)) = _
  rw [sameB_ix, sitofp_eq_word, pay24_ix, pay25_ix,
    fdw_small ⟨(i 0).val * 512 + y.val, by omega⟩, fdw_small ⟨(i 1).val * 512 + x.val, by omega⟩]
  unfold sameImgB
  exact ind_congr (ofNat32_inj (by omega) (by omega))

/-! ## "Query id = key id" at (y, x) -/

/-- A shape cast to the same shape reads the same index (same row-major position). -/
private theorem shapeCast_col_ix {α : Type} (v : S512x1.Idx → α) (j : S512x1.Idx) :
    shapeCast S512x1 v shapeCasts_S512x1_S512x1 j = v j := shapeCast_apply v _ j j rfl
private theorem shapeCast_row_ix {α : Type} (v : S1x512.Idx → α) (j : S1x512.Idx) :
    shapeCast S1x512 v shapeCasts_S1x512_S1x512 j = v j := shapeCast_apply v _ j j rfl

/-- The column of query ids and the row of key ids, each broadcast to the square and compared: at (y, x) the
    converted bit is the indicator that query y's id is key x's id. -/
private theorem idmask_ix (R : IVec S512x1 32) (C : IVec S1x512 32) (y x : Fin 512) :
    (sitofp (F := Ideal) .f32 (extui 32 (cmpi .eq
        (broadcastTo S512x512 (shapeCast S512x1 R shapeCasts_S512x1_S512x1) broadcasts_S512x1_S512x512)
        (broadcastTo S512x512 (shapeCast S1x512 C shapeCasts_S1x512_S1x512) broadcasts_S1x512_S512x512)) natLt_1_32))
      (ix2 y x) = sameId (R (ix2 y 0)) (C (ix2 0 x)) := by
  show FloatOps.sitofp (F := Ideal) .f32 ((IntOp.cmpi .eq
      (broadcastTo S512x512 (shapeCast S512x1 R shapeCasts_S512x1_S512x1) broadcasts_S512x1_S512x512 (ix2 y x))
      (broadcastTo S512x512 (shapeCast S1x512 C shapeCasts_S1x512_S1x512) broadcasts_S1x512_S512x512 (ix2 y x))).setWidth 32) = _
  rw [bcast_col_ix, bcast_row_ix, shapeCast_col_ix, shapeCast_row_ix, sitofp_eq_word]
  rfl

/-- "Same image" times "query id = key id": the five masks that multiply the two. -/
theorem pay34_apply (v82 : IVec S512x512 32) (R : Vec Ideal S512x1 .i32) (C : Vec Ideal S1x512 .i32) (y x : Fin 512) :
    (k0_pay34 (F := Ideal) v82 R C) (ix2 y x) = (k0_pay29 (F := Ideal) v82) (ix2 y x) * sameId (R (ix2 y 0)) (C (ix2 0 x)) :=
  congrArg (fun t => (k0_pay29 (F := Ideal) v82) (ix2 y x) * t) (idmask_ix R C y x)
theorem pay35_apply (v82 : IVec S512x512 32) (R : Vec Ideal S512x1 .i32) (C : Vec Ideal S1x512 .i32) (y x : Fin 512) :
    (k0_pay35 (F := Ideal) v82 R C) (ix2 y x) = (k0_pay29 (F := Ideal) v82) (ix2 y x) * sameId (R (ix2 y 0)) (C (ix2 0 x)) :=
  congrArg (fun t => (k0_pay29 (F := Ideal) v82) (ix2 y x) * t) (idmask_ix R C y x)
theorem pay36_apply (v82 : IVec S512x512 32) (R : Vec Ideal S512x1 .i32) (C : Vec Ideal S1x512 .i32) (y x : Fin 512) :
    (k0_pay36 (F := Ideal) v82 R C) (ix2 y x) = (k0_pay29 (F := Ideal) v82) (ix2 y x) * sameId (R (ix2 y 0)) (C (ix2 0 x)) :=
  congrArg (fun t => (k0_pay29 (F := Ideal) v82) (ix2 y x) * t) (idmask_ix R C y x)
theorem pay37_apply (v82 : IVec S512x512 32) (R : Vec Ideal S512x1 .i32) (C : Vec Ideal S1x512 .i32) (y x : Fin 512) :
    (k0_pay37 (F := Ideal) v82 R C) (ix2 y x) = (k0_pay29 (F := Ideal) v82) (ix2 y x) * sameId (R (ix2 y 0)) (C (ix2 0 x)) :=
  congrArg (fun t => (k0_pay29 (F := Ideal) v82) (ix2 y x) * t) (idmask_ix R C y x)
theorem pay38_apply (v82 : IVec S512x512 32) (R : Vec Ideal S512x1 .i32) (C : Vec Ideal S1x512 .i32) (y x : Fin 512) :
    (k0_pay38 (F := Ideal) v82 R C) (ix2 y x) = (k0_pay29 (F := Ideal) v82) (ix2 y x) * sameId (R (ix2 y 0)) (C (ix2 0 x)) :=
  congrArg (fun t => (k0_pay29 (F := Ideal) v82) (ix2 y x) * t) (idmask_ix R C y x)
/-- The sixth is formed in two payloads: the id comparison alone, then its product with "same image". -/
theorem pay39_apply (R : Vec Ideal S512x1 .i32) (C : Vec Ideal S1x512 .i32) (y x : Fin 512) :
    (k0_pay39 (F := Ideal) R C) (ix2 y x) = sameId (R (ix2 y 0)) (C (ix2 0 x)) := idmask_ix R C y x
theorem pay40_apply (v83 v130 : FVec Ideal S512x512 .f32) (y x : Fin 512) :
    (k0_pay40 (F := Ideal) v83 v130) (ix2 y x) = v83 (ix2 y x) * v130 (ix2 y x) := rfl

end Cert.KernelIdeal.KValue
end
-- ==== Proof.KStep.lean ====
/-
  The kernel body's step read at the extended reals: at local query row `y` the ten accumulators after a column tile are
  `Acc.step` of the accumulators before it and of the tile's data, and the stored losses are `Acc.loss`.
-/
import proofs.«168933_j69020124447445_1_alg».proof.Proof.KDefs
import proofs.«168933_j69020124447445_1_alg».proof.Proof.KMasks
import Idealize.ShloMosaic.Lib.ValueIdx
import Idealize.ShloMosaic.Lib.Pipeline.Value
import Idealize.ShloMosaic.PureOps.Ideal.Laws
noncomputable section
namespace Cert.KernelIdeal.KValue
open Cert.KernelIdeal Cert.KernelIdeal.Gen Cert.RowLoss Idealize.ShloMosaic Idealize.SL.Sem Idealize.ShloMosaic.ValueIdx

/-- Channel 0's accumulators of local row `y`. -/
def accOf0 (S : Scr Ideal) (y : Fin 512) : Acc :=
  ⟨S.m0 (ix2 y 0), S.l0 (ix2 y 0), S.s0 (ix2 y 0), S.n0 (ix2 y 0), S.a0 (ix2 y 0)⟩
/-- Channel 1's accumulators of local row `y`. -/
def accOf1 (S : Scr Ideal) (y : Fin 512) : Acc :=
  ⟨S.m1 (ix2 y 0), S.l1 (ix2 y 0), S.s1 (ix2 y 0), S.n1 (ix2 y 0), S.a1 (ix2 y 0)⟩

/-- Channel 0's tile data of local query row `y`, from the blocks: queries `p1`, positive keys `t2`, negative keys `t1`,
    query ids `r1`, label ids `c4`, mask ids `c3`, area ids `c1`. -/
def blkTile0 (i : grid0.Coords) (X : Blocks Ideal) (y : Fin 512) : Tile where
  xp := fun x => (∑ k : Fin 256, (X.p1 (ix2 y k) : EReal) * (X.t2 (ix2 x k) : EReal)) * tenW
  xn := fun x => (∑ k : Fin 256, (X.p1 (ix2 y k) : EReal) * (X.t1 (ix2 x k) : EReal)) * tenW
      - bigW * (sameImgB i y x * sameId (X.r1 (ix2 y 0)) (X.c3 (ix2 0 x)))
  lb := fun x => sameImgB i y x * sameId (X.r1 (ix2 y 0)) (X.c4 (ix2 0 x))
  pp := fun x => sameImgB i y x * sameId (X.r1 (ix2 y 0)) (X.c1 (ix2 0 x))

/-- Channel 1's: queries `p2`, positive keys `t1`, negative keys `t2`, query ids `r2`, label ids `c3`, mask ids `c4`,
    area ids `c2`. -/
def blkTile1 (i : grid0.Coords) (X : Blocks Ideal) (y : Fin 512) : Tile where
  xp := fun x => (∑ k : Fin 256, (X.p2 (ix2 y k) : EReal) * (X.t1 (ix2 x k) : EReal)) * tenW
  xn := fun x => (∑ k : Fin 256, (X.p2 (ix2 y k) : EReal) * (X.t2 (ix2 x k) : EReal)) * tenW
      - bigW * (sameImgB i y x * sameId (X.r2 (ix2 y 0)) (X.c4 (ix2 0 x)))
  lb := fun x => sameImgB i y x * sameId (X.r2 (ix2 y 0)) (X.c3 (ix2 0 x))
  pp := fun x => sameImgB i y x * sameId (X.r2 (ix2 y 0)) (X.c2 (ix2 0 x))

namespace StepAux
/-! ## The matmul at an index -/

theorem mm_lhs_0 (i : S512x512.Idx) (q : dot_S512x256_S512x256_S512x512_1_1_0_0_n_n.contr.Idx) :
    (dot_S512x256_S512x256_S512x512_1_1_0_0_n_n.lhsIdx i q 0).val = (i 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem mm_lhs_1 (i : S512x512.Idx) (q : dot_S512x256_S512x256_S512x512_1_1_0_0_n_n.contr.Idx) :
    (dot_S512x256_S512x256_S512x512_1_1_0_0_n_n.lhsIdx i q 1).val = (q ⟨0, by decide⟩).val :=
  dot_S512x256_S512x256_S512x512_1_1_0_0_n_n.lhsIdx_val_of_single rfl i q
theorem mm_rhs_0 (i : S512x512.Idx) (q : dot_S512x256_S512x256_S512x512_1_1_0_0_n_n.contr.Idx) :
    (dot_S512x256_S512x256_S512x512_1_1_0_0_n_n.rhsIdx i q 0).val = (i 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem mm_rhs_1 (i : S512x512.Idx) (q : dot_S512x256_S512x256_S512x512_1_1_0_0_n_n.contr.Idx) :
    (dot_S512x256_S512x256_S512x512_1_1_0_0_n_n.rhsIdx i q 1).val = (q ⟨0, by decide⟩).val :=
  dot_S512x256_S512x256_S512x512_1_1_0_0_n_n.rhsIdx_val_of_single rfl i q

/-- The product of a (512, 256) block with the transpose of another, accumulated into zero, at (y, x): the dot product of
    row y of the first with row x of the second. -/
theorem matmul_ix (P T : FVec Ideal S512x256 .bf16) (y x : Fin 512) :
    (matmul dot_S512x256_S512x256_S512x512_1_1_0_0_n_n none P T (constant (F := Ideal) S512x512 .f32 0x00000000#32)) (ix2 y x)
      = ∑ k : Fin 256, P (ix2 y k) * T (ix2 x k) := by
  show FloatOps.matmul dot_S512x256_S512x256_S512x512_1_1_0_0_n_n none P T (constant (F := Ideal) S512x512 .f32 0x00000000#32) (ix2 y x) = _
  rw [Ideal.matmul_constant_zero_apply, ← Equiv.sum_comp (ValueIdx.contrEquiv1 dot_S512x256_S512x256_S512x512_1_1_0_0_n_n 256 rfl rfl).symm]
  refine Finset.sum_congr rfl fun k _ => ?_
  have hk := ValueIdx.contrEquiv1_symm_val dot_S512x256_S512x256_S512x512_1_1_0_0_n_n 256 rfl rfl k
  have el : dot_S512x256_S512x256_S512x512_1_1_0_0_n_n.lhsIdx (ix2 y x) ((ValueIdx.contrEquiv1 dot_S512x256_S512x256_S512x512_1_1_0_0_n_n 256 rfl rfl).symm k) = ix2 y k := funext fun a => Fin.ext (by
    match a with
    | ⟨0, _⟩ => exact mm_lhs_0 _ _
    | ⟨1, _⟩ => exact (mm_lhs_1 _ _).trans hk)
  have er : dot_S512x256_S512x256_S512x512_1_1_0_0_n_n.rhsIdx (ix2 y x) ((ValueIdx.contrEquiv1 dot_S512x256_S512x256_S512x512_1_1_0_0_n_n 256 rfl rfl).symm k) = ix2 x k := funext fun a => Fin.ext (by
    match a with
    | ⟨0, _⟩ => exact mm_rhs_0 _ _
    | ⟨1, _⟩ => exact (mm_rhs_1 _ _).trans hk)
  rw [el, er]

/-- A scaled product payload at (y, x). -/
theorem pay20_ix (P T : Vec Ideal S512x256 .bf16) (y x : Fin 512) :
    (k0_pay20 (F := Ideal) P T) (ix2 y x) = (∑ k : Fin 256, (P (ix2 y k) : EReal) * (T (ix2 x k) : EReal)) * tenW := by
  unfold k0_pay20 k0_pay16 k0_pay19
  rw [mulf_apply, shapeCast_self, shapeCast_self, matmul_ix]
  rfl
theorem pay21_ix (P T : Vec Ideal S512x256 .bf16) (y x : Fin 512) :
    (k0_pay21 (F := Ideal) P T) (ix2 y x) = (∑ k : Fin 256, (P (ix2 y k) : EReal) * (T (ix2 x k) : EReal)) * tenW := by
  unfold k0_pay21 k0_pay16 k0_pay18
  rw [mulf_apply, shapeCast_self, shapeCast_self, matmul_ix]
  rfl
theorem pay22_ix (P T : Vec Ideal S512x256 .bf16) (y x : Fin 512) :
    (k0_pay22 (F := Ideal) P T) (ix2 y x) = (∑ k : Fin 256, (P (ix2 y k) : EReal) * (T (ix2 x k) : EReal)) * tenW := by
  unfold k0_pay22 k0_pay17 k0_pay18
  rw [mulf_apply, shapeCast_self, shapeCast_self, matmul_ix]
  rfl
theorem pay23_ix (P T : Vec Ideal S512x256 .bf16) (y x : Fin 512) :
    (k0_pay23 (F := Ideal) P T) (ix2 y x) = (∑ k : Fin 256, (P (ix2 y k) : EReal) * (T (ix2 x k) : EReal)) * tenW := by
  unfold k0_pay23 k0_pay17 k0_pay19
  rw [mulf_apply, shapeCast_self, shapeCast_self, matmul_ix]
  rfl

/-! ## Lane reductions kept as a column -/

/-- The (512) → (512, 1) cast at (y, 0) reads lane y. -/
theorem col_cast_ix {α : Type} (v : S512.Idx → α) (y : Fin 512) :
    shapeCast S512x1 v shapeCasts_S512_S512x1 (ix2 y 0) = v (ix1 y) := by
  refine shapeCast_apply v shapeCasts_S512_S512x1 (ix2 y 0) (ix1 y) ?_
  rw [Shape.rowMajor_val_one, Shape.rowMajor_val_two]
  show y.val = y.val * 1 + 0
  omega

/-- The row sum as a column, at (y, 0). -/
theorem rowsum_ix (src : FVec Ideal S512x512 .f32) (y : Fin 512) :
    shapeCast S512x1 (multiReduction (F := Ideal) .add [1] S512 src 0x00000000#32 reduces_S512x512_S512 (.inl rfl) rfl) shapeCasts_S512_S512x1 (ix2 y 0)
      = ∑ x : Fin 512, src (ix2 y x) := by
  rw [col_cast_ix]
  refine (Ideal.multiReduction_add_single src 0x00000000#32 reduces_S512x512_S512 (.inl rfl) rfl (ix1 y)).trans ?_
  show ∑ k : Fin 512, src (reduces_S512x512_S512.lift (ix1 y) k) = _
  refine Finset.sum_congr rfl fun x _ => congrArg src ?_
  funext a
  match a with
  | ⟨0, _⟩ => rfl
  | ⟨1, _⟩ => rfl

/-- The row maximum as a column, at (y, 0). -/
theorem rowmax_ix (src : FVec Ideal S512x512 .f32) (y : Fin 512) :
    shapeCast S512x1 (multiReduction (F := Ideal) .maximumf [1] S512 src 0xFF800000#32 reduces_S512x512_S512 (.inl rfl) rfl) shapeCasts_S512_S512x1 (ix2 y 0)
      = (Finset.univ : Finset (Fin 512)).fold max ninfW (fun x => src (ix2 y x)) := by
  rw [col_cast_ix]
  refine (Ideal.multiReduction_maximumf_single src 0xFF800000#32 reduces_S512x512_S512 (.inl rfl) rfl (ix1 y)).trans ?_
  show (Finset.univ : Finset (Fin 512)).fold max ninfW (src ∘ reduces_S512x512_S512.lift (ix1 y)) = _
  refine congrArg (fun f => (Finset.univ : Finset (Fin 512)).fold max ninfW f) ?_
  funext x
  refine congrArg src ?_
  funext a
  match a with
  | ⟨0, _⟩ => rfl
  | ⟨1, _⟩ => rfl

/-- A column broadcast across the lanes, at (y, x), reads the column at row y. -/
theorem col_bcast_ix {α : Type} (v : S512x1.Idx → α) (y x : Fin 512) :
    broadcastTo S512x512 v broadcasts_S512x1_S512x512 (ix2 y x) = v (ix2 y 0) := by
  refine broadcastTo_apply v broadcasts_S512x1_S512x512 (ix2 y x) (ix2 y 0) (fun a => ?_)
  match a with
  | ⟨0, _⟩ => show y.val = if (512 : ℕ) = 1 then 0 else y.val; rw [if_neg (by decide)]
  | ⟨1, _⟩ => show (0 : ℕ) = if (1 : ℕ) = 1 then 0 else x.val; rw [if_pos rfl]

/-- Two records of accumulators with equal components are equal. -/
theorem acc_ext {a b : Acc} (h1 : a.m = b.m) (h2 : a.l = b.l) (h3 : a.s = b.s) (h4 : a.n = b.n) (h5 : a.a = b.a) : a = b := by
  cases a; cases b; simp only [Acc.mk.injEq]; exact ⟨h1, h2, h3, h4, h5⟩

/-- The bit of "n exceeds the threshold", widened and converted as a signed integer, is the indicator of the comparison. -/
theorem sitofp_gt (n t : Ideal .f32) :
    FloatOps.sitofp (F := Ideal) .f32 ((FloatOps.cmpf (F := Ideal) .ogt n t).setWidth 32) = ind (t < n) := by
  show ((((BitVec.ofBool (decide (t < n))).setWidth 32).toInt : ℝ) : EReal) = _
  unfold ind
  by_cases h : t < n
  · rw [if_pos h, decide_eq_true h]
    have e : ((BitVec.ofBool true).setWidth 32).toInt = 1 := by decide
    rw [e]; simp
  · rw [if_neg h, decide_eq_false h]
    have e : ((BitVec.ofBool false).setWidth 32).toInt = 0 := by decide
    rw [e]; simp

/-! ## The payloads of one column tile, each at one row, over arbitrary vectors -/

theorem pay41_ix (v16 v113 : FVec Ideal S512x512 .f32) (y x : Fin 512) :
    (k0_pay41 (F := Ideal) v16 v113) (ix2 y x) = v16 (ix2 y x) - bigW * v113 (ix2 y x) := rfl
theorem pay42_ix (v22 v119 : FVec Ideal S512x512 .f32) (y x : Fin 512) :
    (k0_pay42 (F := Ideal) v22 v119) (ix2 y x) = v22 (ix2 y x) - bigW * v119 (ix2 y x) := rfl
theorem pay46_ix (v13 v101 : FVec Ideal S512x512 .f32) (y x : Fin 512) :
    (k0_pay46 (F := Ideal) v13 v101) (ix2 y x) = v101 (ix2 y x) * v13 (ix2 y x) := rfl

/-- The new running maximum of channel 0: the old one against the two row maxima of the tile. -/
theorem pay43_ix (v13 v16 v113 : FVec Ideal S512x512 .f32) (v143 : Vec Ideal S512x1 .f32) (y : Fin 512) :
    (k0_pay43 (F := Ideal) v13 v16 v113 v143) (ix2 y 0)
      = max (v143 (ix2 y 0)) (max ((Finset.univ : Finset (Fin 512)).fold max ninfW (fun x => v13 (ix2 y x)))
          ((Finset.univ : Finset (Fin 512)).fold max ninfW (fun x => v16 (ix2 y x) - bigW * v113 (ix2 y x)))) := by
  unfold k0_pay43
  rw [maximumf_apply, maximumf_apply, rowmax_ix, rowmax_ix]
  rfl
theorem pay45_ix (v13 v16 v113 : FVec Ideal S512x512 .f32) (v143 : Vec Ideal S512x1 .f32) (y : Fin 512) :
    (k0_pay45 (F := Ideal) v13 v16 v113 v143) (ix2 y 0) = (k0_pay43 (F := Ideal) v13 v16 v113 v143) (ix2 y 0) := by
  unfold k0_pay45
  rw [shapeCast_self]

/-- The new running sum of exponentials of channel 0. -/
theorem pay44_ix (v13 v16 v113 : FVec Ideal S512x512 .f32) (v143 v145 v154 : Vec Ideal S512x1 .f32) (y : Fin 512) :
    (k0_pay44 (F := Ideal) v13 v16 v113 v143 v145 v154) (ix2 y 0)
      = (Ideal.exp (v145 (ix2 y 0) - (k0_pay43 (F := Ideal) v13 v16 v113 v143) (ix2 y 0)) * v154 (ix2 y 0)
          + ∑ x : Fin 512, Ideal.exp (v13 (ix2 y x) - (k0_pay43 (F := Ideal) v13 v16 v113 v143) (ix2 y 0)))
        + ∑ x : Fin 512, Ideal.exp ((v16 (ix2 y x) - bigW * v113 (ix2 y x)) - (k0_pay43 (F := Ideal) v13 v16 v113 v143) (ix2 y 0)) := by
  unfold k0_pay44
  rw [shapeCast_self, addf_apply, addf_apply, rowsum_ix, rowsum_ix, mulf_apply]
  refine congrArg₂ (· + ·) (congrArg₂ (· + ·) rfl (Finset.sum_congr rfl fun x _ => ?_)) (Finset.sum_congr rfl fun x _ => ?_)
  · show Ideal.exp (v13 (ix2 y x) - broadcastTo S512x512 (k0_pay43 (F := Ideal) v13 v16 v113 v143) broadcasts_S512x1_S512x512 (ix2 y x)) = _
    rw [col_bcast_ix]
  · show Ideal.exp ((v16 (ix2 y x) - bigW * v113 (ix2 y x)) - broadcastTo S512x512 (k0_pay43 (F := Ideal) v13 v16 v113 v143) broadcasts_S512x1_S512x512 (ix2 y x)) = _
    rw [col_bcast_ix]

/-- The three plain sums of channel 0 grow by the tile's row sums. -/
theorem pay47_ix (v168 : Vec Ideal S512x1 .f32) (v169 : FVec Ideal S512x512 .f32) (y : Fin 512) :
    (k0_pay47 (F := Ideal) v168 v169) (ix2 y 0) = v168 (ix2 y 0) + ∑ x : Fin 512, v169 (ix2 y x) := by
  unfold k0_pay47
  rw [shapeCast_self, addf_apply, rowsum_ix]
theorem pay48_ix (v101 : FVec Ideal S512x512 .f32) (v176 : Vec Ideal S512x1 .f32) (y : Fin 512) :
    (k0_pay48 (F := Ideal) v101 v176) (ix2 y 0) = v176 (ix2 y 0) + ∑ x : Fin 512, v101 (ix2 y x) := by
  unfold k0_pay48
  rw [shapeCast_self, addf_apply, rowsum_ix]
theorem pay49_ix (v125 : FVec Ideal S512x512 .f32) (v183 : Vec Ideal S512x1 .f32) (y : Fin 512) :
    (k0_pay49 (F := Ideal) v125 v183) (ix2 y 0) = v183 (ix2 y 0) + ∑ x : Fin 512, v125 (ix2 y x) := by
  unfold k0_pay49
  rw [shapeCast_self, addf_apply, rowsum_ix]

/-- Channel 1's new running maximum. -/
theorem pay50_ix (v19 v137 : FVec Ideal S512x512 .f32) (v195 : Vec Ideal S512x1 .f32) (y : Fin 512) :
    (k0_pay50 (F := Ideal) v19 v137 v195) (ix2 y 0)
      = max (v195 (ix2 y 0)) (max ((Finset.univ : Finset (Fin 512)).fold max ninfW (fun x => v19 (ix2 y x)))
          ((Finset.univ : Finset (Fin 512)).fold max ninfW (fun x => v137 (ix2 y x)))) := by
  unfold k0_pay50
  rw [maximumf_apply, maximumf_apply, rowmax_ix, rowmax_ix]
theorem pay55_ix (v196 : FVec Ideal S512x1 .f32) (y : Fin 512) :
    (k0_pay55 (F := Ideal) v196) (ix2 y 0) = v196 (ix2 y 0) := by
  unfold k0_pay55
  rw [shapeCast_self]
theorem pay51_ix (v19 v137 : FVec Ideal S512x512 .f32) (v195 v197 : Vec Ideal S512x1 .f32) (y : Fin 512) :
    (k0_pay51 (F := Ideal) v19 v137 v195 v197) (ix2 y 0)
      = Ideal.exp (v197 (ix2 y 0) - (k0_pay50 (F := Ideal) v19 v137 v195) (ix2 y 0)) := rfl
theorem pay52_ix (v19 v137 : FVec Ideal S512x512 .f32) (v195 : Vec Ideal S512x1 .f32) (y x : Fin 512) :
    (k0_pay52 (F := Ideal) v19 v137 v195) (ix2 y x)
      = Ideal.exp (v19 (ix2 y x) - (k0_pay50 (F := Ideal) v19 v137 v195) (ix2 y 0)) := by
  unfold k0_pay52
  show Ideal.exp (v19 (ix2 y x) - broadcastTo S512x512 (k0_pay50 (F := Ideal) v19 v137 v195) broadcasts_S512x1_S512x512 (ix2 y x)) = _
  rw [col_bcast_ix]
theorem pay53_ix (v19 v137 : FVec Ideal S512x512 .f32) (v195 : Vec Ideal S512x1 .f32) (y x : Fin 512) :
    (k0_pay53 (F := Ideal) v19 v137 v195) (ix2 y x)
      = Ideal.exp (v137 (ix2 y x) - (k0_pay50 (F := Ideal) v19 v137 v195) (ix2 y 0)) := by
  unfold k0_pay53
  show Ideal.exp (v137 (ix2 y x) - broadcastTo S512x512 (k0_pay50 (F := Ideal) v19 v137 v195) broadcasts_S512x1_S512x512 (ix2 y x)) = _
  rw [col_bcast_ix]
theorem pay54_ix (v199 : FVec Ideal S512x1 .f32) (v202 v205 : FVec Ideal S512x512 .f32) (v206 : Vec Ideal S512x1 .f32) (y : Fin 512) :
    (k0_pay54 (F := Ideal) v199 v202 v205 v206) (ix2 y 0)
      = (v199 (ix2 y 0) * v206 (ix2 y 0) + ∑ x : Fin 512, v202 (ix2 y x)) + ∑ x : Fin 512, v205 (ix2 y x) := by
  unfold k0_pay54
  rw [shapeCast_self, addf_apply, addf_apply, rowsum_ix, rowsum_ix, mulf_apply]
theorem pay56_ix (v19 v107 : FVec Ideal S512x512 .f32) (v220 : Vec Ideal S512x1 .f32) (y : Fin 512) :
    (k0_pay56 (F := Ideal) v19 v107 v220) (ix2 y 0) = v220 (ix2 y 0) + ∑ x : Fin 512, v107 (ix2 y x) * v19 (ix2 y x) := by
  unfold k0_pay56
  rw [shapeCast_self, addf_apply, rowsum_ix]
  rfl
theorem pay57_ix (v107 : FVec Ideal S512x512 .f32) (v228 : Vec Ideal S512x1 .f32) (y : Fin 512) :
    (k0_pay57 (F := Ideal) v107 v228) (ix2 y 0) = v228 (ix2 y 0) + ∑ x : Fin 512, v107 (ix2 y x) := by
  unfold k0_pay57
  rw [shapeCast_self, addf_apply, rowsum_ix]
theorem pay58_ix (v131 : FVec Ideal S512x512 .f32) (v235 : Vec Ideal S512x1 .f32) (y : Fin 512) :
    (k0_pay58 (F := Ideal) v131 v235) (ix2 y 0) = v235 (ix2 y 0) + ∑ x : Fin 512, v131 (ix2 y x) := by
  unfold k0_pay58
  rw [shapeCast_self, addf_apply, rowsum_ix]

end StepAux

namespace StepAux

/-! ## The finalisation payloads at one row -/

theorem pay12_ix (v245 v246 v253 v258 v269 v270 : Vec Ideal S512x1 .f32) (j : S512x1.Idx) :
    (k0_pay12 (F := Ideal) v245 v246 v253 v258 v269 v270) j
      = (zeroW - Ideal.div (ind (thrW < v253 j)) (v258 j)) * (Ideal.div (v269 j) (max (v270 j) oneW) - (v245 j + Ideal.log (v246 j))) := by
  unfold k0_pay12
  show (zeroW - Ideal.div (FloatOps.sitofp (F := Ideal) .f32 ((FloatOps.cmpf (F := Ideal) .ogt (v253 j) thrW).setWidth 32)) (v258 j))
      * (Ideal.div (v269 j) (max (v270 j) oneW) - (v245 j + Ideal.log (v246 j))) = _
  rw [sitofp_gt]
theorem pay10_ix (v249 v250 : Vec Ideal S512x1 .f32) (j : S512x1.Idx) :
    (k0_pay10 (F := Ideal) v249 v250) j = v249 j + Ideal.log (v250 j) := rfl
theorem pay11_ix (v260 v265 : Vec Ideal S512x1 .f32) (j : S512x1.Idx) :
    (k0_pay11 (F := Ideal) v260 v265) j = Ideal.div (ind (thrW < v260 j)) (v265 j) := by
  unfold k0_pay11
  show Ideal.div (FloatOps.sitofp (F := Ideal) .f32 ((FloatOps.cmpf (F := Ideal) .ogt (v260 j) thrW).setWidth 32)) (v265 j) = _
  rw [sitofp_gt]
theorem pay1_ix (v252 v266 : FVec Ideal S512x1 .f32) (c : Ideal .f32) (v279 v280 : Vec Ideal S512x1 .f32) (j : S512x1.Idx) :
    (k0_pay1 (F := Ideal) v252 v266 c v279 v280) j = (c - v266 j) * (Ideal.div (v279 j) (max (v280 j) oneW) - v252 j) := rfl

/-! ## Channel 0: the tile's data as the payloads hold it -/

theorem xp0_ix (i : grid0.Coords) (X : Blocks Ideal) (y x : Fin 512) :
    (k0_pay20 (F := Ideal) X.p1 X.t2) (ix2 y x) = (blkTile0 i X y).xp x := pay20_ix X.p1 X.t2 y x
theorem xn0_ix (i : grid0.Coords) (X : Blocks Ideal) (y x : Fin 512) :
    (k0_pay21 (F := Ideal) X.p1 X.t1) (ix2 y x) - bigW * (k0_pay36 (F := Ideal) (sameB i) X.r1 X.c3) (ix2 y x) = (blkTile0 i X y).xn x := by
  rw [pay21_ix, pay36_apply, sameB_apply]; rfl
theorem lb0_ix (i : grid0.Coords) (X : Blocks Ideal) (y x : Fin 512) :
    (k0_pay34 (F := Ideal) (sameB i) X.r1 X.c4) (ix2 y x) = (blkTile0 i X y).lb x := by
  rw [pay34_apply, sameB_apply]; rfl
theorem pp0_ix (i : grid0.Coords) (X : Blocks Ideal) (y x : Fin 512) :
    (k0_pay38 (F := Ideal) (sameB i) X.r1 X.c1) (ix2 y x) = (blkTile0 i X y).pp x := by
  rw [pay38_apply, sameB_apply]; rfl
/-- Channel 0's new maximum is the old one against the tile's top. -/
theorem top0 (i : grid0.Coords) (X : Blocks Ideal) (S : Scr Ideal) (y : Fin 512) :
    (k0_pay43 (F := Ideal) (k0_pay20 X.p1 X.t2) (k0_pay21 X.p1 X.t1) (k0_pay36 (sameB i) X.r1 X.c3) S.m0) (ix2 y 0)
      = max (S.m0 (ix2 y 0)) (blkTile0 i X y).top := by
  rw [pay43_ix]
  unfold Tile.top
  exact congrArg (max _) (congrArg₂ max
    (congrArg (fun f => (Finset.univ : Finset (Fin 512)).fold max ninfW f) (funext fun x => xp0_ix i X y x))
    (congrArg (fun f => (Finset.univ : Finset (Fin 512)).fold max ninfW f) (funext fun x => xn0_ix i X y x)))

/-! ## Channel 1 -/

theorem xp1_ix (i : grid0.Coords) (X : Blocks Ideal) (y x : Fin 512) :
    (k0_pay22 (F := Ideal) X.p2 X.t1) (ix2 y x) = (blkTile1 i X y).xp x := pay22_ix X.p2 X.t1 y x
theorem xn1_ix (i : grid0.Coords) (X : Blocks Ideal) (y x : Fin 512) :
    (k0_pay42 (F := Ideal) (k0_pay23 X.p2 X.t2) (k0_pay37 (sameB i) X.r2 X.c4)) (ix2 y x) = (blkTile1 i X y).xn x := by
  rw [pay42_ix, pay23_ix, pay37_apply, sameB_apply]; rfl
theorem lb1_ix (i : grid0.Coords) (X : Blocks Ideal) (y x : Fin 512) :
    (k0_pay35 (F := Ideal) (sameB i) X.r2 X.c3) (ix2 y x) = (blkTile1 i X y).lb x := by
  rw [pay35_apply, sameB_apply]; rfl
theorem pp1_ix (i : grid0.Coords) (X : Blocks Ideal) (y x : Fin 512) :
    (k0_pay40 (F := Ideal) (k0_pay29 (sameB i)) (k0_pay39 X.r2 X.c2)) (ix2 y x) = (blkTile1 i X y).pp x := by
  rw [pay40_apply, sameB_apply, pay39_apply]; rfl
/-- Channel 1's new maximum. -/
theorem top1 (i : grid0.Coords) (X : Blocks Ideal) (S : Scr Ideal) (y : Fin 512) :
    (k0_pay50 (F := Ideal) (k0_pay22 X.p2 X.t1) (k0_pay42 (k0_pay23 X.p2 X.t2) (k0_pay37 (sameB i) X.r2 X.c4)) S.m1) (ix2 y 0)
      = max (S.m1 (ix2 y 0)) (blkTile1 i X y).top := by
  rw [pay50_ix]
  unfold Tile.top
  exact congrArg (max _) (congrArg₂ max
    (congrArg (fun f => (Finset.univ : Finset (Fin 512)).fold max ninfW f) (funext fun x => xp1_ix i X y x))
    (congrArg (fun f => (Finset.univ : Finset (Fin 512)).fold max ninfW f) (funext fun x => xn1_ix i X y x)))

end StepAux

open StepAux

/-- Channel 0: the accumulators after a column tile are the recurrence's step on the tile's data. -/
theorem accOf0_step (i : grid0.Coords) (X : Blocks Ideal) (S : Scr Ideal) (y : Fin 512) :
    accOf0 (step i X S) y = (accOf0 S y).step (blkTile0 i X y) := by
  refine acc_ext ?_ ?_ ?_ ?_ ?_
  · show (k0_pay45 (F := Ideal) (k0_pay20 X.p1 X.t2) (k0_pay21 X.p1 X.t1) (k0_pay36 (sameB i) X.r1 X.c3) S.m0) (ix2 y 0)
        = max (S.m0 (ix2 y 0)) (blkTile0 i X y).top
    rw [pay45_ix, top0]
  · show (k0_pay44 (F := Ideal) (k0_pay20 X.p1 X.t2) (k0_pay21 X.p1 X.t1) (k0_pay36 (sameB i) X.r1 X.c3) S.m0 S.m0 S.l0) (ix2 y 0)
        = (Ideal.exp (S.m0 (ix2 y 0) - max (S.m0 (ix2 y 0)) (blkTile0 i X y).top) * S.l0 (ix2 y 0)
            + ∑ x : Fin 512, Ideal.exp ((blkTile0 i X y).xp x - max (S.m0 (ix2 y 0)) (blkTile0 i X y).top))
          + ∑ x : Fin 512, Ideal.exp ((blkTile0 i X y).xn x - max (S.m0 (ix2 y 0)) (blkTile0 i X y).top)
    rw [pay44_ix, top0]
    refine congrArg₂ (· + ·) (congrArg₂ (· + ·) rfl (Finset.sum_congr rfl fun x _ => ?_)) (Finset.sum_congr rfl fun x _ => ?_)
    · rw [xp0_ix i]
    · rw [xn0_ix]
  · show (k0_pay47 (F := Ideal) S.s0 (k0_pay46 (k0_pay20 X.p1 X.t2) (k0_pay34 (sameB i) X.r1 X.c4))) (ix2 y 0)
        = S.s0 (ix2 y 0) + ∑ x : Fin 512, (blkTile0 i X y).lb x * (blkTile0 i X y).xp x
    rw [pay47_ix]
    refine congrArg (S.s0 (ix2 y 0) + ·) (Finset.sum_congr rfl fun x _ => ?_)
    rw [pay46_ix, lb0_ix, xp0_ix i]
  · show (k0_pay48 (F := Ideal) (k0_pay34 (sameB i) X.r1 X.c4) S.n0) (ix2 y 0)
        = S.n0 (ix2 y 0) + ∑ x : Fin 512, (blkTile0 i X y).lb x
    rw [pay48_ix]
    exact congrArg (S.n0 (ix2 y 0) + ·) (Finset.sum_congr rfl fun x _ => lb0_ix i X y x)
  · show (k0_pay49 (F := Ideal) (k0_pay38 (sameB i) X.r1 X.c1) S.a0) (ix2 y 0)
        = S.a0 (ix2 y 0) + ∑ x : Fin 512, (blkTile0 i X y).pp x
    rw [pay49_ix]
    exact congrArg (S.a0 (ix2 y 0) + ·) (Finset.sum_congr rfl fun x _ => pp0_ix i X y x)

/-- Channel 1 likewise. -/
theorem accOf1_step (i : grid0.Coords) (X : Blocks Ideal) (S : Scr Ideal) (y : Fin 512) :
    accOf1 (step i X S) y = (accOf1 S y).step (blkTile1 i X y) := by
  refine acc_ext ?_ ?_ ?_ ?_ ?_
  · show (k0_pay55 (F := Ideal) (k0_pay50 (k0_pay22 X.p2 X.t1) (k0_pay42 (k0_pay23 X.p2 X.t2) (k0_pay37 (sameB i) X.r2 X.c4)) S.m1)) (ix2 y 0)
        = max (S.m1 (ix2 y 0)) (blkTile1 i X y).top
    rw [pay55_ix, top1]
  · show (k0_pay54 (F := Ideal)
          (k0_pay51 (k0_pay22 X.p2 X.t1) (k0_pay42 (k0_pay23 X.p2 X.t2) (k0_pay37 (sameB i) X.r2 X.c4)) S.m1 S.m1)
          (k0_pay52 (k0_pay22 X.p2 X.t1) (k0_pay42 (k0_pay23 X.p2 X.t2) (k0_pay37 (sameB i) X.r2 X.c4)) S.m1)
          (k0_pay53 (k0_pay22 X.p2 X.t1) (k0_pay42 (k0_pay23 X.p2 X.t2) (k0_pay37 (sameB i) X.r2 X.c4)) S.m1) S.l1) (ix2 y 0)
        = (Ideal.exp (S.m1 (ix2 y 0) - max (S.m1 (ix2 y 0)) (blkTile1 i X y).top) * S.l1 (ix2 y 0)
            + ∑ x : Fin 512, Ideal.exp ((blkTile1 i X y).xp x - max (S.m1 (ix2 y 0)) (blkTile1 i X y).top))
          + ∑ x : Fin 512, Ideal.exp ((blkTile1 i X y).xn x - max (S.m1 (ix2 y 0)) (blkTile1 i X y).top)
    rw [pay54_ix, pay51_ix, top1]
    refine congrArg₂ (· + ·) (congrArg₂ (· + ·) rfl (Finset.sum_congr rfl fun x _ => ?_)) (Finset.sum_congr rfl fun x _ => ?_)
    · rw [pay52_ix, top1, xp1_ix i]
    · rw [pay53_ix, top1, xn1_ix]
  · show (k0_pay56 (F := Ideal) (k0_pay22 X.p2 X.t1) (k0_pay35 (sameB i) X.r2 X.c3) S.s1) (ix2 y 0)
        = S.s1 (ix2 y 0) + ∑ x : Fin 512, (blkTile1 i X y).lb x * (blkTile1 i X y).xp x
    rw [pay56_ix]
    refine congrArg (S.s1 (ix2 y 0) + ·) (Finset.sum_congr rfl fun x _ => ?_)
    rw [lb1_ix, xp1_ix i]
  · show (k0_pay57 (F := Ideal) (k0_pay35 (sameB i) X.r2 X.c3) S.n1) (ix2 y 0)
        = S.n1 (ix2 y 0) + ∑ x : Fin 512, (blkTile1 i X y).lb x
    rw [pay57_ix]
    exact congrArg (S.n1 (ix2 y 0) + ·) (Finset.sum_congr rfl fun x _ => lb1_ix i X y x)
  · show (k0_pay58 (F := Ideal) (k0_pay40 (k0_pay29 (sameB i)) (k0_pay39 X.r2 X.c2)) S.a1) (ix2 y 0)
        = S.a1 (ix2 y 0) + ∑ x : Fin 512, (blkTile1 i X y).pp x
    rw [pay58_ix]
    exact congrArg (S.a1 (ix2 y 0) + ·) (Finset.sum_congr rfl fun x _ => pp1_ix i X y x)

/-- What a row tile starts from is the recurrence's initial record: every reset payload is a constant vector. -/
theorem accOf0_reset (y : Fin 512) : accOf0 (reset (F := Ideal)) y = Acc.init := by
  refine acc_ext ?_ ?_ ?_ ?_ ?_
  · show (k0_pay2 (F := Ideal)) (ix2 y 0) = ninfW
    unfold k0_pay2; rw [shapeCast_self]; rfl
  · show (k0_pay3 (F := Ideal)) (ix2 y 0) = zeroW
    unfold k0_pay3; rw [shapeCast_self]; rfl
  · show (k0_pay4 (F := Ideal)) (ix2 y 0) = zeroW
    unfold k0_pay4; rw [shapeCast_self]; rfl
  · show (k0_pay5 (F := Ideal)) (ix2 y 0) = zeroW
    unfold k0_pay5; rw [shapeCast_self]; rfl
  · show (k0_pay6 (F := Ideal)) (ix2 y 0) = zeroW
    unfold k0_pay6; rw [shapeCast_self]; rfl
theorem accOf1_reset (y : Fin 512) : accOf1 (reset (F := Ideal)) y = Acc.init := by
  refine acc_ext ?_ ?_ ?_ ?_ ?_
  · show (k0_pay7 (F := Ideal)) (ix2 y 0) = ninfW
    unfold k0_pay7; rw [shapeCast_self]; rfl
  · show (k0_pay8 (F := Ideal)) (ix2 y 0) = zeroW
    unfold k0_pay8; rw [shapeCast_self]; rfl
  · show (k0_pay13 (F := Ideal) k0_pay9) (ix2 y 0) = zeroW
    unfold k0_pay13 k0_pay9; rw [shapeCast_self]; rfl
  · show (k0_pay14 (F := Ideal)) (ix2 y 0) = zeroW
    unfold k0_pay14; rw [shapeCast_self]; rfl
  · show (k0_pay15 (F := Ideal)) (ix2 y 0) = zeroW
    unfold k0_pay15; rw [shapeCast_self]; rfl

/-- The stored losses are the recurrence's loss of the final accumulators. -/
theorem ce0_apply (S : Scr Ideal) (y : Fin 512) : ce0 S (ix2 y 0) = (accOf0 S y).loss := by
  show (k0_pay12 (F := Ideal) S.m0 S.l0 S.n0 S.a0 S.s0 S.n0) (ix2 y 0) = _
  rw [pay12_ix]
  rfl
theorem ce1_apply (S : Scr Ideal) (y : Fin 512) : ce1 S (ix2 y 0) = (accOf1 S y).loss := by
  show (k0_pay1 (F := Ideal) (k0_pay10 S.m1 S.l1) (k0_pay11 S.n1 S.a1) (Scalar.ofBits .f32 0x00000000#32) S.s1 S.n1) (ix2 y 0) = _
  rw [pay1_ix, pay10_ix, pay11_ix]
  rfl

end Cert.KernelIdeal.KValue
end
-- ==== Proof.KRun.lean ====
/-
  The idealized kernel's run, read: its result is the mean over the rows of each channel's row loss, and its arguments
  end unchanged.

  The grid is 8 row tiles by 8 column tiles of 512. A point's ten input blocks are 512-row (or 512-lane) slices of the
  ten operand arrays, which are the normalised features and the object ids of the arguments; so the tile a point folds
  into local row `y`'s accumulators is tile `t % 8` of global row `(t / 8) · 512 + y`. By induction on the point the
  accumulators after point `t` are the online recurrence over tiles `0 … t % 8` of that row (the recurrence restarts at
  each column tile 0), so the losses the last column tile stores are the kernel's row losses; the points of column tile 7
  tile the two output arrays, whose sums from zero divided by 4096, added, are the result.
-/
import proofs.«168933_j69020124447445_1_alg».proof.Proof.KHost
import proofs.«168933_j69020124447445_1_alg».proof.Proof.KPieces
import proofs.«168933_j69020124447445_1_alg».proof.Proof.KIFrameS
import proofs.«168933_j69020124447445_1_alg».proof.Proof.KStep
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.Tactic
noncomputable section
namespace Cert.KernelIdeal.KValue.Read
open Cert.KernelIdeal Cert.KernelIdeal.Gen Cert.KernelIdeal.GenP Cert.RowLoss Idealize.ShloMosaic Idealize.ShloMosaic.TcCoe Idealize.SL.Sem Idealize.ShloMosaic.ValueIdx
open Idealize.ShloMosaic.Pipeline (Dat)

/-! ## The grid and the blocks -/

section blocks
variable {F : FTy → Type} [FloatOps F]
variable (m : (ℓ : Loc nD τ sig) → Buf (Elt F) ℓ)

/-- The grid is 8 row tiles by 8 column tiles: point `t` has row tile `t / 8` and column tile `t % 8`. -/
theorem coords_facts : ∀ t : Fin cfg0.N, (grid0.coords t 0).val = t.val / 8 ∧ (grid0.coords t 1).val = t.val % 8 :=
  (by decide +kernel : ∀ t : Fin grid0.N, _)

/-- The windows that move with the row tile (the queries' features and ids, the two outputs): block (row tile, 0). -/
theorem idx_rows : ∀ t : Fin cfg0.N,
    (win0_0.index t (0 : Fin 2) = t.val / 8 ∧ win0_0.index t (1 : Fin 2) = 0)
    ∧ (win0_1.index t (0 : Fin 2) = t.val / 8 ∧ win0_1.index t (1 : Fin 2) = 0)
    ∧ (win0_4.index t (0 : Fin 2) = t.val / 8 ∧ win0_4.index t (1 : Fin 2) = 0)
    ∧ (win0_5.index t (0 : Fin 2) = t.val / 8 ∧ win0_5.index t (1 : Fin 2) = 0)
    ∧ (win0_10.index t (0 : Fin 2) = t.val / 8 ∧ win0_10.index t (1 : Fin 2) = 0)
    ∧ (win0_11.index t (0 : Fin 2) = t.val / 8 ∧ win0_11.index t (1 : Fin 2) = 0) :=
  (by decide +kernel : ∀ t : Fin grid0.N, _)

/-- The windows that move with the column tile: the keys' features at block (column tile, 0), the keys' ids at block
    (0, column tile). -/
theorem idx_cols : ∀ t : Fin cfg0.N,
    (win0_2.index t (0 : Fin 2) = t.val % 8 ∧ win0_2.index t (1 : Fin 2) = 0)
    ∧ (win0_3.index t (0 : Fin 2) = t.val % 8 ∧ win0_3.index t (1 : Fin 2) = 0)
    ∧ (win0_6.index t (0 : Fin 2) = 0 ∧ win0_6.index t (1 : Fin 2) = t.val % 8)
    ∧ (win0_7.index t (0 : Fin 2) = 0 ∧ win0_7.index t (1 : Fin 2) = t.val % 8)
    ∧ (win0_8.index t (0 : Fin 2) = 0 ∧ win0_8.index t (1 : Fin 2) = t.val % 8)
    ∧ (win0_9.index t (0 : Fin 2) = 0 ∧ win0_9.index t (1 : Fin 2) = t.val % 8) :=
  (by decide +kernel : ∀ t : Fin grid0.N, _)

/-- Block `p1` at point `t`, entry (y, k), is the array's entry (row tile · 512 + y, k). -/
theorem blk_p1 (c : Dev nD) (t : Fin cfg0.N) (y : Fin 512) (k : Fin 256) (r : Fin 4096) (hr : r.val = t.val / 8 * 512 + y.val) :
    (iblk m c 0 t : Vec F S512x256 .bf16) (ix2 y k) = (V m c main_v4 : Vec F S4096x256 .bf16) (ix2 r k) := by
  obtain ⟨⟨e0, e1⟩, -, -, -, -, -⟩ := idx_rows t
  unfold iblk
  rw [View.read_apply]
  show V m c main_v4 (((cfg0.win 0).blk t).view.emb (ix2 y k)) = V m c main_v4 _
  congr 1
  funext a
  apply Fin.ext
  match a with
  | ⟨0, _⟩ => show win0_0.index t (0 : Fin 2) * 512 + 1 * y.val = r.val; rw [e0, hr]; omega
  | ⟨1, _⟩ => show win0_0.index t (1 : Fin 2) * 256 + 1 * k.val = k.val; rw [e1]; omega

/-- Block `p2` at point `t`, entry (y, k), is the array's entry (row tile · 512 + y, k). -/
theorem blk_p2 (c : Dev nD) (t : Fin cfg0.N) (y : Fin 512) (k : Fin 256) (r : Fin 4096) (hr : r.val = t.val / 8 * 512 + y.val) :
    (iblk m c 1 t : Vec F S512x256 .bf16) (ix2 y k) = (V m c main_v9 : Vec F S4096x256 .bf16) (ix2 r k) := by
  obtain ⟨-, ⟨e0, e1⟩, -, -, -, -⟩ := idx_rows t
  unfold iblk
  rw [View.read_apply]
  show V m c main_v9 (((cfg0.win 1).blk t).view.emb (ix2 y k)) = V m c main_v9 _
  congr 1
  funext a
  apply Fin.ext
  match a with
  | ⟨0, _⟩ => show win0_1.index t (0 : Fin 2) * 512 + 1 * y.val = r.val; rw [e0, hr]; omega
  | ⟨1, _⟩ => show win0_1.index t (1 : Fin 2) * 256 + 1 * k.val = k.val; rw [e1]; omega

/-- Block `t1` at point `t`, entry (y, k), is the array's entry (column tile · 512 + y, k). -/
theorem blk_t1 (c : Dev nD) (t : Fin cfg0.N) (y : Fin 512) (k : Fin 256) (r : Fin 4096) (hr : r.val = t.val % 8 * 512 + y.val) :
    (iblk m c 2 t : Vec F S512x256 .bf16) (ix2 y k) = (V m c main_v14 : Vec F S4096x256 .bf16) (ix2 r k) := by
  obtain ⟨⟨e0, e1⟩, -, -, -, -, -⟩ := idx_cols t
  unfold iblk
  rw [View.read_apply]
  show V m c main_v14 (((cfg0.win 2).blk t).view.emb (ix2 y k)) = V m c main_v14 _
  congr 1
  funext a
  apply Fin.ext
  match a with
  | ⟨0, _⟩ => show win0_2.index t (0 : Fin 2) * 512 + 1 * y.val = r.val; rw [e0, hr]; omega
  | ⟨1, _⟩ => show win0_2.index t (1 : Fin 2) * 256 + 1 * k.val = k.val; rw [e1]; omega

/-- Block `t2` at point `t`, entry (y, k), is the array's entry (column tile · 512 + y, k). -/
theorem blk_t2 (c : Dev nD) (t : Fin cfg0.N) (y : Fin 512) (k : Fin 256) (r : Fin 4096) (hr : r.val = t.val % 8 * 512 + y.val) :
    (iblk m c 3 t : Vec F S512x256 .bf16) (ix2 y k) = (V m c main_v19 : Vec F S4096x256 .bf16) (ix2 r k) := by
  obtain ⟨-, ⟨e0, e1⟩, -, -, -, -⟩ := idx_cols t
  unfold iblk
  rw [View.read_apply]
  show V m c main_v19 (((cfg0.win 3).blk t).view.emb (ix2 y k)) = V m c main_v19 _
  congr 1
  funext a
  apply Fin.ext
  match a with
  | ⟨0, _⟩ => show win0_3.index t (0 : Fin 2) * 512 + 1 * y.val = r.val; rw [e0, hr]; omega
  | ⟨1, _⟩ => show win0_3.index t (1 : Fin 2) * 256 + 1 * k.val = k.val; rw [e1]; omega

/-- Block `r1` at point `t`, entry (y, 0), is the array's entry (row tile · 512 + y, 0). -/
theorem blk_r1 (c : Dev nD) (t : Fin cfg0.N) (y : Fin 512) (r : Fin 4096) (hr : r.val = t.val / 8 * 512 + y.val) :
    (iblk m c 4 t : Vec F S512x1 .i32) (ix2 y 0) = (V m c main_v24 : Vec F S4096x1 .i32) (ix2 r 0) := by
  obtain ⟨-, -, ⟨e0, e1⟩, -, -, -⟩ := idx_rows t
  unfold iblk
  rw [View.read_apply]
  show V m c main_v24 (((cfg0.win 4).blk t).view.emb (ix2 y 0)) = V m c main_v24 _
  congr 1
  funext a
  apply Fin.ext
  match a with
  | ⟨0, _⟩ => show win0_4.index t (0 : Fin 2) * 512 + 1 * y.val = r.val; rw [e0, hr]; omega
  | ⟨1, _⟩ => show win0_4.index t (1 : Fin 2) * 1 + 1 * 0 = 0; rw [e1]

/-- Block `r2` at point `t`, entry (y, 0), is the array's entry (row tile · 512 + y, 0). -/
theorem blk_r2 (c : Dev nD) (t : Fin cfg0.N) (y : Fin 512) (r : Fin 4096) (hr : r.val = t.val / 8 * 512 + y.val) :
    (iblk m c 5 t : Vec F S512x1 .i32) (ix2 y 0) = (V m c main_v25 : Vec F S4096x1 .i32) (ix2 r 0) := by
  obtain ⟨-, -, -, ⟨e0, e1⟩, -, -⟩ := idx_rows t
  unfold iblk
  rw [View.read_apply]
  show V m c main_v25 (((cfg0.win 5).blk t).view.emb (ix2 y 0)) = V m c main_v25 _
  congr 1
  funext a
  apply Fin.ext
  match a with
  | ⟨0, _⟩ => show win0_5.index t (0 : Fin 2) * 512 + 1 * y.val = r.val; rw [e0, hr]; omega
  | ⟨1, _⟩ => show win0_5.index t (1 : Fin 2) * 1 + 1 * 0 = 0; rw [e1]

/-- Block `c1` at point `t`, entry (0, x), is the array's entry (0, column tile · 512 + x). -/
theorem blk_c1 (c : Dev nD) (t : Fin cfg0.N) (x : Fin 512) (r : Fin 4096) (hr : r.val = t.val % 8 * 512 + x.val) :
    (iblk m c 6 t : Vec F S1x512 .i32) (ix2 0 x) = (V m c main_v26 : Vec F S1x4096 .i32) (ix2 0 r) := by
  obtain ⟨-, -, ⟨e0, e1⟩, -, -, -⟩ := idx_cols t
  unfold iblk
  rw [View.read_apply]
  show V m c main_v26 (((cfg0.win 6).blk t).view.emb (ix2 0 x)) = V m c main_v26 _
  congr 1
  funext a
  apply Fin.ext
  match a with
  | ⟨0, _⟩ => show win0_6.index t (0 : Fin 2) * 1 + 1 * 0 = 0; rw [e0]
  | ⟨1, _⟩ => show win0_6.index t (1 : Fin 2) * 512 + 1 * x.val = r.val; rw [e1, hr]; omega

/-- Block `c2` at point `t`, entry (0, x), is the array's entry (0, column tile · 512 + x). -/
theorem blk_c2 (c : Dev nD) (t : Fin cfg0.N) (x : Fin 512) (r : Fin 4096) (hr : r.val = t.val % 8 * 512 + x.val) :
    (iblk m c 7 t : Vec F S1x512 .i32) (ix2 0 x) = (V m c main_v27 : Vec F S1x4096 .i32) (ix2 0 r) := by
  obtain ⟨-, -, -, ⟨e0, e1⟩, -, -⟩ := idx_cols t
  unfold iblk
  rw [View.read_apply]
  show V m c main_v27 (((cfg0.win 7).blk t).view.emb (ix2 0 x)) = V m c main_v27 _
  congr 1
  funext a
  apply Fin.ext
  match a with
  | ⟨0, _⟩ => show win0_7.index t (0 : Fin 2) * 1 + 1 * 0 = 0; rw [e0]
  | ⟨1, _⟩ => show win0_7.index t (1 : Fin 2) * 512 + 1 * x.val = r.val; rw [e1, hr]; omega

/-- Block `c3` at point `t`, entry (0, x), is the array's entry (0, column tile · 512 + x). -/
theorem blk_c3 (c : Dev nD) (t : Fin cfg0.N) (x : Fin 512) (r : Fin 4096) (hr : r.val = t.val % 8 * 512 + x.val) :
    (iblk m c 8 t : Vec F S1x512 .i32) (ix2 0 x) = (V m c main_v28 : Vec F S1x4096 .i32) (ix2 0 r) := by
  obtain ⟨-, -, -, -, ⟨e0, e1⟩, -⟩ := idx_cols t
  unfold iblk
  rw [View.read_apply]
  show V m c main_v28 (((cfg0.win 8).blk t).view.emb (ix2 0 x)) = V m c main_v28 _
  congr 1
  funext a
  apply Fin.ext
  match a with
  | ⟨0, _⟩ => show win0_8.index t (0 : Fin 2) * 1 + 1 * 0 = 0; rw [e0]
  | ⟨1, _⟩ => show win0_8.index t (1 : Fin 2) * 512 + 1 * x.val = r.val; rw [e1, hr]; omega

/-- Block `c4` at point `t`, entry (0, x), is the array's entry (0, column tile · 512 + x). -/
theorem blk_c4 (c : Dev nD) (t : Fin cfg0.N) (x : Fin 512) (r : Fin 4096) (hr : r.val = t.val % 8 * 512 + x.val) :
    (iblk m c 9 t : Vec F S1x512 .i32) (ix2 0 x) = (V m c main_v29 : Vec F S1x4096 .i32) (ix2 0 r) := by
  obtain ⟨-, -, -, -, -, ⟨e0, e1⟩⟩ := idx_cols t
  unfold iblk
  rw [View.read_apply]
  show V m c main_v29 (((cfg0.win 9).blk t).view.emb (ix2 0 x)) = V m c main_v29 _
  congr 1
  funext a
  apply Fin.ext
  match a with
  | ⟨0, _⟩ => show win0_9.index t (0 : Fin 2) * 1 + 1 * 0 = 0; rw [e0]
  | ⟨1, _⟩ => show win0_9.index t (1 : Fin 2) * 512 + 1 * x.val = r.val; rw [e1, hr]; omega

end blocks

/-! ## The tile a grid point folds in -/

variable (m : (ℓ : Loc nD τ sig) → Buf (Elt Ideal) ℓ)

/-- The global row of local query row `y` at point `t`: row tile · 512 + y. -/
def qrow (t : Fin cfg0.N) (y : Fin 512) : Fin 4096 :=
  ⟨t.val / 8 * 512 + y.val, by have h := lt_of_lt_of_eq t.isLt (show cfg0.N = 64 from N_0); have := y.isLt; omega⟩
/-- The column tile of point `t`. -/
def ctile (t : Fin cfg0.N) : Fin 8 := ⟨t.val % 8, Nat.mod_lt _ (by decide)⟩

theorem p1_at (c : Dev nD) (t : Fin cfg0.N) (y : Fin 512) (k : Fin 256) :
    ((blocksAt m c t).p1 (ix2 y k) : EReal) = rowAt (A0 m c) (qrow t y) k :=
  (blk_p1 m c t y k (qrow t y) rfl).trans (V_p1 m c (qrow t y) k)
theorem p2_at (c : Dev nD) (t : Fin cfg0.N) (y : Fin 512) (k : Fin 256) :
    ((blocksAt m c t).p2 (ix2 y k) : EReal) = rowAt (A1 m c) (qrow t y) k :=
  (blk_p2 m c t y k (qrow t y) rfl).trans (V_p2 m c (qrow t y) k)
theorem t1_at (c : Dev nD) (t : Fin cfg0.N) (x : Fin 512) (k : Fin 256) :
    ((blocksAt m c t).t1 (ix2 x k) : EReal) = rowAt (A2 m c) (keyOf (ctile t) x) k :=
  (blk_t1 m c t x k (keyOf (ctile t) x) rfl).trans (V_t1 m c (keyOf (ctile t) x) k)
theorem t2_at (c : Dev nD) (t : Fin cfg0.N) (x : Fin 512) (k : Fin 256) :
    ((blocksAt m c t).t2 (ix2 x k) : EReal) = rowAt (A3 m c) (keyOf (ctile t) x) k :=
  (blk_t2 m c t x k (keyOf (ctile t) x) rfl).trans (V_t2 m c (keyOf (ctile t) x) k)
theorem r1_at (c : Dev nD) (t : Fin cfg0.N) (y : Fin 512) :
    ((blocksAt m c t).r1 (ix2 y 0) : BitVec 32) = idAt (I4 m c) (qrow t y) :=
  (blk_r1 m c t y (qrow t y) rfl).trans (V_r1 m c (qrow t y))
theorem r2_at (c : Dev nD) (t : Fin cfg0.N) (y : Fin 512) :
    ((blocksAt m c t).r2 (ix2 y 0) : BitVec 32) = idAt (I5 m c) (qrow t y) :=
  (blk_r2 m c t y (qrow t y) rfl).trans (V_r2 m c (qrow t y))
theorem c1_at (c : Dev nD) (t : Fin cfg0.N) (x : Fin 512) :
    ((blocksAt m c t).c1 (ix2 0 x) : BitVec 32) = idAt (I4 m c) (keyOf (ctile t) x) :=
  (blk_c1 m c t x (keyOf (ctile t) x) rfl).trans (V_c1 m c (keyOf (ctile t) x))
theorem c2_at (c : Dev nD) (t : Fin cfg0.N) (x : Fin 512) :
    ((blocksAt m c t).c2 (ix2 0 x) : BitVec 32) = idAt (I5 m c) (keyOf (ctile t) x) :=
  (blk_c2 m c t x (keyOf (ctile t) x) rfl).trans (V_c2 m c (keyOf (ctile t) x))
theorem c3_at (c : Dev nD) (t : Fin cfg0.N) (x : Fin 512) :
    ((blocksAt m c t).c3 (ix2 0 x) : BitVec 32) = idAt (I6 m c) (keyOf (ctile t) x) :=
  (blk_c3 m c t x (keyOf (ctile t) x) rfl).trans (V_c3 m c (keyOf (ctile t) x))
theorem c4_at (c : Dev nD) (t : Fin cfg0.N) (x : Fin 512) :
    ((blocksAt m c t).c4 (ix2 0 x) : BitVec 32) = idAt (I7 m c) (keyOf (ctile t) x) :=
  (blk_c4 m c t x (keyOf (ctile t) x) rfl).trans (V_c4 m c (keyOf (ctile t) x))

/-- "Same image" from the grid position is "same image" of the global rows. -/
theorem sameImgB_eq (t : Fin cfg0.N) (y x : Fin 512) :
    sameImgB (grid0.coords t) y x = sameImg (qrow t y) (keyOf (ctile t) x) := by
  obtain ⟨e0, e1⟩ := coords_facts t
  unfold sameImgB sameImg
  rw [e0, e1]
  rfl

/-- Channel 0's tile at point `t`, local row `y`, is tile `t % 8` of global row `(t / 8) · 512 + y`. -/
theorem blkTile0_eq (c : Dev nD) (t : Fin cfg0.N) (y : Fin 512) :
    blkTile0 (grid0.coords t) (blocksAt m c t) y
      = tileOf (A0 m c) (A3 m c) (A2 m c) (I4 m c) (I7 m c) (I6 m c) (I4 m c) (qrow t y) (ctile t) := by
  unfold blkTile0 tileOf logit
  simp only [p1_at, t1_at, t2_at, r1_at, c1_at, c3_at, c4_at, sameImgB_eq]

/-- Channel 1's. -/
theorem blkTile1_eq (c : Dev nD) (t : Fin cfg0.N) (y : Fin 512) :
    blkTile1 (grid0.coords t) (blocksAt m c t) y
      = tileOf (A1 m c) (A2 m c) (A3 m c) (I5 m c) (I6 m c) (I7 m c) (I5 m c) (qrow t y) (ctile t) := by
  unfold blkTile1 tileOf logit
  simp only [p2_at, t1_at, t2_at, r2_at, c2_at, c3_at, c4_at, sameImgB_eq]

/-! ## The accumulators after a grid point -/

/-- One step at point `t` from accumulators `S`, channel 0, local row `y`: `Acc.step` with the row's tile. -/
theorem acc0_step_at (c : Dev nD) (t : Fin cfg0.N) (S : Scr Ideal) (y : Fin 512) :
    accOf0 (step (grid0.coords t) (blocksAt m c t) S) y
      = (accOf0 S y).step (tileOf (A0 m c) (A3 m c) (A2 m c) (I4 m c) (I7 m c) (I6 m c) (I4 m c) (qrow t y) (ctile t)) := by
  rw [accOf0_step, blkTile0_eq]
theorem acc1_step_at (c : Dev nD) (t : Fin cfg0.N) (S : Scr Ideal) (y : Fin 512) :
    accOf1 (step (grid0.coords t) (blocksAt m c t) S) y
      = (accOf1 S y).step (tileOf (A1 m c) (A2 m c) (A3 m c) (I5 m c) (I6 m c) (I7 m c) (I5 m c) (qrow t y) (ctile t)) := by
  rw [accOf1_step, blkTile1_eq]

theorem scrAt_reset (c : Dev nD) (n : ℕ) (hn : n < cfg0.N) (h0 : n % 8 = 0) :
    scrAt m c n hn = step (grid0.coords ⟨n, hn⟩) (blocksAt m c ⟨n, hn⟩) reset := by
  cases n with
  | zero => rfl
  | succ n => rw [scrAt]; exact if_pos h0
theorem scrAt_succ (c : Dev nD) (n : ℕ) (hn : n + 1 < cfg0.N) (h0 : ¬(n + 1) % 8 = 0) :
    scrAt m c (n + 1) hn
      = step (grid0.coords ⟨n + 1, hn⟩) (blocksAt m c ⟨n + 1, hn⟩) (scrAt m c n (Nat.lt_of_succ_lt hn)) := by
  rw [scrAt]; exact if_neg h0

/-- After point `n` (row tile `n / 8`, column tile `k = n % 8`) channel 0's accumulators of local row `y` are the online
    recurrence over the row's tiles `0 … k`: by induction on the point, the recurrence restarting at each column tile 0. -/
theorem inv0 (c : Dev nD) (y : Fin 512) : ∀ (n : ℕ) (hn : n < cfg0.N) (k : ℕ) (hk : k < 8), n % 8 = k →
    accOf0 (scrAt m c n hn) y
      = Acc.upto (tileOf (A0 m c) (A3 m c) (A2 m c) (I4 m c) (I7 m c) (I6 m c) (I4 m c) (qrow ⟨n, hn⟩ y)) k hk := by
  intro n
  induction n with
  | zero =>
    intro hn k hk hmod
    obtain rfl : k = 0 := by omega
    rw [scrAt_reset m c 0 hn rfl, acc0_step_at, accOf0_reset]
    rfl
  | succ n ih =>
    intro hn k hk hmod
    by_cases h0 : (n + 1) % 8 = 0
    · obtain rfl : k = 0 := by omega
      have hc : ctile ⟨n + 1, hn⟩ = ⟨0, hk⟩ := Fin.ext h0
      rw [scrAt_reset m c (n + 1) hn h0, acc0_step_at, accOf0_reset, hc]
      rfl
    · obtain ⟨k', rfl⟩ : ∃ k', k = k' + 1 := ⟨k - 1, by omega⟩
      have hq : qrow ⟨n + 1, hn⟩ y = qrow ⟨n, Nat.lt_of_succ_lt hn⟩ y :=
        Fin.ext (by show (n + 1) / 8 * 512 + y.val = n / 8 * 512 + y.val; omega)
      have hc : ctile ⟨n + 1, hn⟩ = ⟨k' + 1, hk⟩ := Fin.ext hmod
      rw [scrAt_succ m c n hn h0, acc0_step_at, ih (Nat.lt_of_succ_lt hn) k' (by omega) (by omega), hq, hc]
      rfl

/-- Channel 1's. -/
theorem inv1 (c : Dev nD) (y : Fin 512) : ∀ (n : ℕ) (hn : n < cfg0.N) (k : ℕ) (hk : k < 8), n % 8 = k →
    accOf1 (scrAt m c n hn) y
      = Acc.upto (tileOf (A1 m c) (A2 m c) (A3 m c) (I5 m c) (I6 m c) (I7 m c) (I5 m c) (qrow ⟨n, hn⟩ y)) k hk := by
  intro n
  induction n with
  | zero =>
    intro hn k hk hmod
    obtain rfl : k = 0 := by omega
    rw [scrAt_reset m c 0 hn rfl, acc1_step_at, accOf1_reset]
    rfl
  | succ n ih =>
    intro hn k hk hmod
    by_cases h0 : (n + 1) % 8 = 0
    · obtain rfl : k = 0 := by omega
      have hc : ctile ⟨n + 1, hn⟩ = ⟨0, hk⟩ := Fin.ext h0
      rw [scrAt_reset m c (n + 1) hn h0, acc1_step_at, accOf1_reset, hc]
      rfl
    · obtain ⟨k', rfl⟩ : ∃ k', k = k' + 1 := ⟨k - 1, by omega⟩
      have hq : qrow ⟨n + 1, hn⟩ y = qrow ⟨n, Nat.lt_of_succ_lt hn⟩ y :=
        Fin.ext (by show (n + 1) / 8 * 512 + y.val = n / 8 * 512 + y.val; omega)
      have hc : ctile ⟨n + 1, hn⟩ = ⟨k' + 1, hk⟩ := Fin.ext hmod
      rw [scrAt_succ m c n hn h0, acc1_step_at, ih (Nat.lt_of_succ_lt hn) k' (by omega) (by omega), hq, hc]
      rfl

/-! ## The two output arrays -/

/-- The row an index of a (4096, 1) array names. -/
def rowIx (j : S4096x1.Idx) : Fin 4096 := ⟨(j 0).val, idx2_lt0 j⟩

/-- Channel 0's output array: at row `r` the kernel's row loss of the row's eight tiles. -/
def G0 (c : Dev nD) : S4096x1.Idx → EReal :=
  fun j => kerRow (tileOf (A0 m c) (A3 m c) (A2 m c) (I4 m c) (I7 m c) (I6 m c) (I4 m c) (rowIx j))
/-- Channel 1's. -/
def G1 (c : Dev nD) : S4096x1.Idx → EReal :=
  fun j => kerRow (tileOf (A1 m c) (A2 m c) (A3 m c) (I5 m c) (I6 m c) (I7 m c) (I5 m c) (rowIx j))

/-- An index of output 10's array is in point `t`'s block iff each coordinate is in the block's range on its axis. -/
theorem mem_blk10 (t : Fin cfg0.N) (i : S4096x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v30_0).slice (win0_10.rect t)).set ↔ _
  rw [View.set_slice_whole, Rect.mem_set_unit]
  exact Iff.rfl
theorem mem_blk11 (t : Fin cfg0.N) (i : S4096x1.Idx) :
    i ∈ ((cfg0.win 11).blk t).view.set ↔ ∀ a : Fin 2, win0_11.index t a * S512x1.size a ≤ (i a).val ∧ (i a).val < win0_11.index t a * S512x1.size a + S512x1.size a := by
  show i ∈ ((View.whole main_v30_1).slice (win0_11.rect t)).set ↔ _
  rw [View.set_slice_whole, Rect.mem_set_unit]
  exact Iff.rfl

/-- Every row is written back by the last column tile's point of its row tile: `t = (r / 512) · 8 + 7`. -/
theorem cover10 (i : S4096x1.Idx) : ∃ t : Fin cfg0.N, (cfg0.win 10).flush t = true ∧ i ∈ ((cfg0.win 10).blk t).view.set := by
  have hi0 : (i 0).val < 4096 := (i 0).isLt
  have hi1 : (i 1).val < 1 := (i 1).isLt
  have hN : cfg0.N = 64 := N_0
  obtain ⟨t, ht⟩ : ∃ t : Fin cfg0.N, t.val = (i 0).val / 512 * 8 + 7 := ⟨⟨(i 0).val / 512 * 8 + 7, by omega⟩, rfl⟩
  obtain ⟨-, -, -, -, ⟨e0, e1⟩, -⟩ := idx_rows t
  refine ⟨t, (flush0_10 t).mpr (by omega), ?_⟩
  rw [mem_blk10]
  intro a
  match a with
  | ⟨0, _⟩ =>
    show win0_10.index t (0 : Fin 2) * 512 ≤ (i 0).val ∧ (i 0).val < win0_10.index t (0 : Fin 2) * 512 + 512
    rw [e0]; omega
  | ⟨1, _⟩ =>
    show win0_10.index t (1 : Fin 2) * 1 ≤ (i 1).val ∧ (i 1).val < win0_10.index t (1 : Fin 2) * 1 + 1
    rw [e1]; omega
theorem cover11 (i : S4096x1.Idx) : ∃ t : Fin cfg0.N, (cfg0.win 11).flush t = true ∧ i ∈ ((cfg0.win 11).blk t).view.set := by
  have hi0 : (i 0).val < 4096 := (i 0).isLt
  have hi1 : (i 1).val < 1 := (i 1).isLt
  have hN : cfg0.N = 64 := N_0
  obtain ⟨t, ht⟩ : ∃ t : Fin cfg0.N, t.val = (i 0).val / 512 * 8 + 7 := ⟨⟨(i 0).val / 512 * 8 + 7, by omega⟩, rfl⟩
  obtain ⟨-, -, -, -, -, ⟨e0, e1⟩⟩ := idx_rows t
  refine ⟨t, (flush0_11 t).mpr (by omega), ?_⟩
  rw [mem_blk11]
  intro a
  match a with
  | ⟨0, _⟩ =>
    show win0_11.index t (0 : Fin 2) * 512 ≤ (i 0).val ∧ (i 0).val < win0_11.index t (0 : Fin 2) * 512 + 512
    rw [e0]; omega
  | ⟨1, _⟩ =>
    show win0_11.index t (1 : Fin 2) * 1 ≤ (i 1).val ∧ (i 1).val < win0_11.index t (1 : Fin 2) * 1 + 1
    rw [e1]; omega

/-- The row an index of point `t`'s output block names in the array: row tile · 512 + the local row. -/
theorem rowIx_emb10 (t : Fin cfg0.N) (y : Fin 512) :
    rowIx (((cfg0.win 10).blk t).view.emb (ix2 y 0)) = qrow t y := by
  obtain ⟨-, -, -, -, ⟨e0, e1⟩, -⟩ := idx_rows t
  apply Fin.ext
  show win0_10.index t (0 : Fin 2) * 512 + 1 * y.val = t.val / 8 * 512 + y.val
  rw [e0]; omega
theorem rowIx_emb11 (t : Fin cfg0.N) (y : Fin 512) :
    rowIx (((cfg0.win 11).blk t).view.emb (ix2 y 0)) = qrow t y := by
  obtain ⟨-, -, -, -, -, ⟨e0, e1⟩⟩ := idx_rows t
  apply Fin.ext
  show win0_11.index t (0 : Fin 2) * 512 + 1 * y.val = t.val / 8 * 512 + y.val
  rw [e0]; omega

/-- What a point of column tile 7 writes back from output 10's staging buffer is its block of `G0`: the stored losses
    are `Acc.loss` of the accumulators after the point, which are the recurrence over all eight tiles of the row. -/
theorem flushed10_eq (c : Dev nD) (t : Fin cfg0.N) (hf : (cfg0.win 10).flush t = true) :
    (dats m 0 c).flushed 10 t = ((cfg0.win 10).blk t).view.read (Elt Ideal) (G0 m c) := by
  have h7 : t.val % 8 = 7 := (flush0_10 t).mp hf
  show (cfg0.win 10).cut (grid0.coords t) ((dats m 0 c).after 10 t) = _
  rw [after0_10, outsAt_out10 m c t h7]
  refine funext fun (j : S512x1.Idx) => ?_
  obtain ⟨y, z, rfl⟩ : ∃ y z, j = ix2 y z := ⟨j 0, j 1, eq_ix2 j⟩
  obtain rfl : z = 0 := Subsingleton.elim _ _
  rw [View.read_apply]
  show ce0 (scrAt m c t.val t.isLt) (ix2 y 0) = G0 m c (((cfg0.win 10).blk t).view.emb (ix2 y 0))
  rw [ce0_apply, inv0 m c y t.val t.isLt 7 (by decide) h7]
  unfold G0
  rw [rowIx_emb10]
  rfl
theorem flushed11_eq (c : Dev nD) (t : Fin cfg0.N) (hf : (cfg0.win 11).flush t = true) :
    (dats m 0 c).flushed 11 t = ((cfg0.win 11).blk t).view.read (Elt Ideal) (G1 m c) := by
  have h7 : t.val % 8 = 7 := (flush0_11 t).mp hf
  show (cfg0.win 11).cut (grid0.coords t) ((dats m 0 c).after 11 t) = _
  rw [after0_11, outsAt_out11 m c t h7]
  refine funext fun (j : S512x1.Idx) => ?_
  obtain ⟨y, z, rfl⟩ : ∃ y z, j = ix2 y z := ⟨j 0, j 1, eq_ix2 j⟩
  obtain rfl : z = 0 := Subsingleton.elim _ _
  rw [View.read_apply]
  show ce1 (scrAt m c t.val t.isLt) (ix2 y 0) = G1 m c (((cfg0.win 11).blk t).view.emb (ix2 y 0))
  rw [ce1_apply, inv1 m c y t.val t.isLt 7 (by decide) h7]
  unfold G1
  rw [rowIx_emb11]
  rfl

/-- So output 10's array ends holding `G0`: the points of column tile 7 tile it. -/
theorem final10 (c : Dev nD) : (dats m 0 c).arrAt 10 cfg0.N = G0 m c :=
  (dats m 0 c).arrAt_eq_of_cover 10 (G0 m c) (flushed10_eq m c) cover10
theorem final11 (c : Dev nD) : (dats m 0 c).arrAt 11 cfg0.N = G1 m c :=
  (dats m 0 c).arrAt_eq_of_cover 11 (G1 m c) (flushed11_eq m c) cover11

/-! ## The host operations after the region -/

/-- The operations after the region — each output array summed from zero and divided by 4096, the two quotients added —
    applied to the arrays the region leaves: the sum of the two means. -/
theorem tail_of (c : Dev nD) (Vz : Valuation τ sig (Elt Ideal))
    (A : (w : Fin cfg0.W) → Buf (Elt Ideal) ((spec0 w).arr.view.loc (c.tc : Thread nD τ)))
    (g0 g1 : S4096x1.Idx → EReal) (h0 : A 10 = g0) (h1 : A 11 = g1) :
    StableHlo.after (hostOps1 (F := Ideal)) (Pipeline.withArrays spec0 c Vz A) (Proc.devRef .tc main_v35)
      = fun _ => meanOf g0 + meanOf g1 := by
  after_results
  have e10 : Pipeline.withArrays spec0 c Vz A (Proc.devRef .tc main_v30_0) = g0 :=
    (Pipeline.withArrays_arr spec0 launch0.win.arr_inj c Vz A 10).trans h0
  have e11 : Pipeline.withArrays spec0 c Vz A (Proc.devRef .tc main_v30_1) = g1 :=
    (Pipeline.withArrays_arr spec0 launch0.win.arr_inj c Vz A 11).trans h1
  rw [e10, e11]
  funext x
  show Ideal.div (Ideal.hostReduceAdd reducesTo_S4096x1_S_d0_1 g0 (Ideal.ofBits .f32 0x00000000#32) x) (Ideal.ofBits .f32 0x45800000#32)
      + Ideal.div (Ideal.hostReduceAdd reducesTo_S4096x1_S_d0_1 g1 (Ideal.ofBits .f32 0x00000000#32) x) (Ideal.ofBits .f32 0x45800000#32)
    = meanOf g0 + meanOf g1
  rw [Ideal.hostReduceAdd_total reducesTo_S4096x1_S_d0_1 (fun b => b.elim0) g0,
    Ideal.hostReduceAdd_total reducesTo_S4096x1_S_d0_1 (fun b => b.elim0) g1]
  rfl

/-- After the host tail `%35` holds the kernel's value. -/
theorem tail_eq (c : Dev nD) :
    Pipeline.afterTail₀ cfgs (dats m) 0 (V0 m) [hostOps1] c main_v35
      = fun _ => kerVal (A0 m c) (A1 m c) (A2 m c) (A3 m c) (I4 m c) (I5 m c) (I6 m c) (I7 m c) := by
  unfold Pipeline.afterTail₀
  show StableHlo.after (hostOps1 (F := Ideal)) (Pipeline.withArrays spec0 c (V0 m c) fun w => (dats m 0 c).arrAt w cfg0.N)
      (Proc.devRef .tc main_v35) = fun _ => meanOf (G0 m c) + meanOf (G1 m c)
  exact tail_of c (V0 m c) (fun w => (dats m 0 c).arrAt w cfg0.N) (G0 m c) (G1 m c) (final10 m c) (final11 m c)

end Cert.KernelIdeal.KValue.Read

namespace Cert.KernelIdeal.KValue
open Cert.KernelIdeal Cert.KernelIdeal.Gen Cert.KernelIdeal.GenP Cert.RowLoss Idealize.ShloMosaic Idealize.ShloMosaic.TcCoe Idealize.SL.Sem Idealize.ShloMosaic.ValueIdx

/-! ## The run, read -/

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v35) = (fun _ => kerVal (A0 m c) (A1 m c) (A2 m c) (A3 m c) (I4 m c) (I5 m c) (I6 m c) (I7 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v35 (Pipeline.mem_restRefs_of main_v35 (by decide) (by decide))).trans (Read.tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KValue
end
-- ==== Proof.RefRows.lean ====
/- The reference's per-row data read at an index: its 8192 logits, its 8192 labels, its object area.

   Each of the reference's stages is a function of the arguments; this module reads the stages that make up a row's data at
   explicit coordinates and finds the closed forms `refX`, `refLb`, `refArea`:

   * a comparison of two id arrays converted to a float is 1 where the ids agree and 0 elsewhere (`sameId`), and the
     identity matrix on (image, image) — a row number plus zero compared with a column number — is `ind (b = u)`;
   * each argument divided by its broadcast row norm is `nrmAt`, and a `dot_general` over the feature axis times ten is
     the scaled dot product of two normalised rows;
   * a concatenation along the key-image axis reads its first operand below 256 and its second from 256 on, and the
     row-major reshape (256, 16, 512, 16) → (256, 16, 8192) reads entry q at (q / 16, q % 16);
   * the sum over the last two axes of a (256, 16, 1, 16) array is the sum over its 16 last coordinates. -/
import proofs.«168933_j69020124447445_1_alg».proof.Proof.RefRead
import proofs.«168933_j69020124447445_1_alg».proof.Proof.RowData
import Idealize.ShloMosaic.Lib.Pipeline.Value
import Idealize.ShloMosaic.Lib.ValueIdx
import Idealize.ShloMosaic.PureOps.Ideal.Laws
import Idealize.ShloMosaic.Lib.StableHlo.Predicate
noncomputable section
namespace Cert.ReferenceIdeal.RefValue
open Cert.ReferenceIdeal Cert.ReferenceIdeal.Gen Cert.ReferenceIdeal.ReadP Cert.RowLoss Idealize.ShloMosaic Idealize.ShloMosaic.ValueIdx
open Idealize.ShloMosaic.StableHlo.Predicate

/-! ## Indices of literal shapes are equal when their coordinates are -/

theorem idxExt2 {n0 n1 : Nat} {i j : (⟨2, ![n0, n1]⟩ : Shape).Idx} (h0 : (i 0).val = (j 0).val)
    (h1 : (i 1).val = (j 1).val) : i = j := by
  funext a
  match a with
  | ⟨0, _⟩ => exact Fin.ext h0
  | ⟨1, _⟩ => exact Fin.ext h1

theorem idxExt3 {n0 n1 n2 : Nat} {i j : (⟨3, ![n0, n1, n2]⟩ : Shape).Idx} (h0 : (i 0).val = (j 0).val)
    (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

theorem idxExt4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j := by
  funext a
  match a with
  | ⟨0, _⟩ => exact Fin.ext h0
  | ⟨1, _⟩ => exact Fin.ext h1
  | ⟨2, _⟩ => exact Fin.ext h2
  | ⟨3, _⟩ => exact Fin.ext h3

/-! ## The operations the reference's masks are made of -/

/-- A comparison for equality of two words, converted to a float, is 1 when the words are equal and 0 otherwise:
    the one-bit result is the word 1 or 0, and the conversion reads it as that natural number. -/
theorem conv_cmp_eq (u v : BitVec 32) :
    FloatOps.uitofp (F := Ideal) .f32 (IntOp.cmpi .eq u v) = ind (u = v) := by
  show (((IntOp.cmpi .eq u v).toNat : ℝ) : EReal) = _
  unfold ind
  by_cases h : u = v
  · rw [if_pos h, (cmpi_eq_iff).2 h]; simp
  · rw [if_neg h, eq_zero_of_ne_one (fun h1 => h (cmpi_eq_iff.1 h1))]; simp

/-- The identity matrix's entry (a, c): the row number plus zero compared with the column number, as 32-bit words. Both
    numbers are below 256, so the words are equal exactly when the numbers are. -/
theorem eye_apply (a c : Fin 256) :
    FloatOps.uitofp (F := Ideal) .f32 (IntOp.cmpi .eq (IntOp.addi (BitVec.ofNat 32 a.val) 0#32) (BitVec.ofNat 32 c.val))
      = ind (a.val = c.val) := by
  rw [conv_cmp_eq]
  have key : (IntOp.addi (BitVec.ofNat 32 a.val) 0#32 = BitVec.ofNat 32 c.val) ↔ a.val = c.val := by
    unfold IntOp.addi
    rw [BitVec.add_zero]
    constructor
    · intro h
      have h2 := congrArg BitVec.toNat h
      simp only [BitVec.toNat_ofNat] at h2
      have := a.isLt; have := c.isLt
      omega
    · intro h; rw [h]
  unfold ind
  simp only [key]

/-- Two (256, 16, 256, 16) arrays joined along the third axis, read where that coordinate is below 256: the first array
    at the same coordinates. -/
theorem cat_left {α : Type} (x₁ x₂ : S256x16x256x16.Idx → α) (b : Fin 256) (n : Fin 16) (u : Fin 512) (m : Fin 16)
    (h : u.val < 256) :
    concatenate S256x16x512x16 2 [⟨S256x16x256x16, x₁⟩, ⟨S256x16x256x16, x₂⟩]
        concatenates_S256x16x256x16_S256x16x256x16_S256x16x512x16_d2 (ix4 b n u m)
      = x₁ (ix4 b n ⟨u.val, h⟩ m) :=
  concatenate_pair_apply_left (t := S256x16x512x16) (s₁ := S256x16x256x16) (s₂ := S256x16x256x16) (2 : Fin 4) x₁ x₂
    concatenates_S256x16x256x16_S256x16x256x16_S256x16x512x16_d2 (ix4 b n u m) rfl (ix4 b n ⟨u.val, h⟩ m) (fun a => by
      match a with
      | ⟨0, _⟩ => rfl
      | ⟨1, _⟩ => rfl
      | ⟨2, _⟩ => rfl
      | ⟨3, _⟩ => rfl)

/-- … and where that coordinate is 256 or more: the second array, the coordinate 256 less. -/
theorem cat_right {α : Type} (x₁ x₂ : S256x16x256x16.Idx → α) (b : Fin 256) (n : Fin 16) (u : Fin 512) (m : Fin 16)
    (h : ¬ u.val < 256) :
    concatenate S256x16x512x16 2 [⟨S256x16x256x16, x₁⟩, ⟨S256x16x256x16, x₂⟩]
        concatenates_S256x16x256x16_S256x16x256x16_S256x16x512x16_d2 (ix4 b n u m)
      = x₂ (ix4 b n ⟨u.val - 256, by have := u.isLt; omega⟩ m) :=
  concatenate_pair_apply_right (t := S256x16x512x16) (s₁ := S256x16x256x16) (s₂ := S256x16x256x16) (2 : Fin 4) x₁ x₂
    concatenates_S256x16x256x16_S256x16x256x16_S256x16x512x16_d2 (ix4 b n u m) rfl rfl
    (ix4 b n ⟨u.val - 256, by have := u.isLt; omega⟩ m) (fun a ha => by
      match a with
      | ⟨0, _⟩ => rfl
      | ⟨1, _⟩ => rfl
      | ⟨2, _⟩ => exact absurd rfl ha
      | ⟨3, _⟩ => rfl) (by show u.val - 256 + 256 = u.val; omega)

/-- The host's sum of a (256, 16, 1, 16) array over its last two axes, at (b, n): the initial value plus the sum over
    the 16 last coordinates (the third axis has one coordinate). The indices that reduce to (b, n) are exactly the
    (b, n, 0, m). -/
theorem sum_two_axes (x : S256x16x1x16.Idx → EReal) (init : EReal) (b : Fin 256) (n : Fin 16) :
    Ideal.hostReduceAdd reducesTo_S256x16x1x16_S256x16_d2_3 x init (ix2 b n)
      = init + ∑ m : Fin 16, x (ix4 b n (0 : Fin 1) m) := by
  unfold Ideal.hostReduceAdd
  congr 1
  symm
  apply Finset.sum_bij (fun m _ => ix4 b n (0 : Fin 1) m)
  · intro m _
    simp only [Finset.mem_filter, Finset.mem_univ, true_and]
    funext a
    match a with
    | ⟨0, _⟩ => rfl
    | ⟨1, _⟩ => rfl
  · intro m1 _ m2 _ h
    exact congrFun h 3
  · intro i hi
    simp only [Finset.mem_filter, Finset.mem_univ, true_and] at hi
    refine ⟨i 3, Finset.mem_univ _, ?_⟩
    have h0 : (i 0).val = b.val := congrArg Fin.val (congrFun hi 0)
    have h1 : (i 1).val = n.val := congrArg Fin.val (congrFun hi 1)
    funext a
    match a with
    | ⟨0, _⟩ => exact Fin.ext h0.symm
    | ⟨1, _⟩ => exact Fin.ext h1.symm
    | ⟨2, _⟩ => exact Fin.ext (by have h2 : (i 2).val < 1 := (i 2).isLt; show 0 = (i 2).val; omega)
    | ⟨3, _⟩ => rfl
  · intro m _; rfl

/-- The row-major reshape (256, 16, 512, 16) → (256, 16, 8192): entry q of row (b, n) is entry (q / 16, q % 16). -/
theorem reshape_coords (b : Fin 256) (n : Fin 16) (q : Fin 8192) :
    ((b.val * 16 + n.val) * 8192 + q.val) / 131072 = b.val
      ∧ ((b.val * 16 + n.val) * 8192 + q.val) / 8192 % 16 = n.val
      ∧ ((b.val * 16 + n.val) * 8192 + q.val) / 16 % 512 = q.val / 16
      ∧ ((b.val * 16 + n.val) * 8192 + q.val) % 16 = q.val % 16 := by
  have hb := b.isLt; have hn := n.isLt; have hq := q.isLt
  refine ⟨by omega, by omega, by omega, by omega⟩

/-! ## The four normalised arrays, the identity matrix -/

/-- Stage %30: `x0` divided by the Euclidean norm of its feature vector, the norm the square root of the sum (from
    zero) of the squares over the last axis. -/
theorem nrm_v30 (x0 : Feat) (b : Fin 256) (n : Fin 16) (k : Fin 256) :
    val_main_v30 (F := Ideal) x0 (ix3 b n k) = nrmAt x0 b n k := by
  rw [val_main_v30_apply, val_main_v29_apply, val_main_v28_apply, val_main_call0_v2_apply, val_main_call0_v1_apply,
    val_main_call0_cst_apply]
  unfold nrmAt
  refine congrArg (fun s => Ideal.div (x0 (ix3 b n k)) (Ideal.sqrt (zeroW + s))) (Finset.sum_congr rfl fun k' _ => ?_)
  rw [val_main_call0_v0_apply,
    show idx_main_call0_v1 (idx_main_call0_v2 (idx_main_v29 (ix3 b n k))) k' = ix3 b n k' from idxExt3 rfl rfl rfl]
  rfl

/-- Stage %33: `x1` divided by the Euclidean norm of its feature vector, the norm the square root of the sum (from
    zero) of the squares over the last axis. -/
theorem nrm_v33 (x1 : Feat) (b : Fin 256) (n : Fin 16) (k : Fin 256) :
    val_main_v33 (F := Ideal) x1 (ix3 b n k) = nrmAt x1 b n k := by
  rw [val_main_v33_apply, val_main_v32_apply, val_main_v31_apply, val_main_call1_v2_apply, val_main_call1_v1_apply,
    val_main_call1_cst_apply]
  unfold nrmAt
  refine congrArg (fun s => Ideal.div (x1 (ix3 b n k)) (Ideal.sqrt (zeroW + s))) (Finset.sum_congr rfl fun k' _ => ?_)
  rw [val_main_call1_v0_apply,
    show idx_main_call1_v1 (idx_main_call1_v2 (idx_main_v32 (ix3 b n k))) k' = ix3 b n k' from idxExt3 rfl rfl rfl]
  rfl

/-- Stage %36: `x2` divided by the Euclidean norm of its feature vector, the norm the square root of the sum (from
    zero) of the squares over the last axis. -/
theorem nrm_v36 (x2 : Feat) (b : Fin 256) (n : Fin 16) (k : Fin 256) :
    val_main_v36 (F := Ideal) x2 (ix3 b n k) = nrmAt x2 b n k := by
  rw [val_main_v36_apply, val_main_v35_apply, val_main_v34_apply, val_main_call2_v2_apply, val_main_call2_v1_apply,
    val_main_call2_cst_apply]
  unfold nrmAt
  refine congrArg (fun s => Ideal.div (x2 (ix3 b n k)) (Ideal.sqrt (zeroW + s))) (Finset.sum_congr rfl fun k' _ => ?_)
  rw [val_main_call2_v0_apply,
    show idx_main_call2_v1 (idx_main_call2_v2 (idx_main_v35 (ix3 b n k))) k' = ix3 b n k' from idxExt3 rfl rfl rfl]
  rfl

/-- Stage %39: `x3` divided by the Euclidean norm of its feature vector, the norm the square root of the sum (from
    zero) of the squares over the last axis. -/
theorem nrm_v39 (x3 : Feat) (b : Fin 256) (n : Fin 16) (k : Fin 256) :
    val_main_v39 (F := Ideal) x3 (ix3 b n k) = nrmAt x3 b n k := by
  rw [val_main_v39_apply, val_main_v38_apply, val_main_v37_apply, val_main_call3_v2_apply, val_main_call3_v1_apply,
    val_main_call3_cst_apply]
  unfold nrmAt
  refine congrArg (fun s => Ideal.div (x3 (ix3 b n k)) (Ideal.sqrt (zeroW + s))) (Finset.sum_congr rfl fun k' _ => ?_)
  rw [val_main_call3_v0_apply,
    show idx_main_call3_v1 (idx_main_call3_v2 (idx_main_v38 (ix3 b n k))) k' = ix3 b n k' from idxExt3 rfl rfl rfl]
  rfl

/-- Stage %46: the identity matrix on (image, image), with unit axes in the region places. -/
theorem eye_v46 (b u : Fin 256) (z1 z3 : Fin 1) :
    val_main_v46 (F := Ideal) (ix4 b z1 u z3) = ind (b.val = u.val) := by
  rw [val_main_v46_apply, val_main_v45_apply, val_main_v44_apply, val_main_v43_apply, val_main_v40_apply,
    val_main_v41_apply, val_main_v42_apply, val_main_c_apply]
  exact eye_apply b u

/-! ## Channel 0: queries `x0` with ids `x4` -/

/-- Stage %5: 1 where region n of image b in `x4` and region m of image b in `x6` carry the same id. -/
theorem same_v5 (x4 x6 : Ids) (b : Fin 256) (n m : Fin 16) :
    val_main_v5 (F := Ideal) x4 x6 (ix3 b n m) = sameId (x4 (ix2 b n)) (x6 (ix2 b m)) := by
  rw [val_main_v5_apply, val_main_v4_apply, val_main_v2_apply, val_main_v0_apply, val_main_v3_apply,
    val_main_v1_apply, conv_cmp_eq,
    show idx_main_v0 (idx_main_v2 (ix3 b n m)) = ix2 b n from idxExt2 rfl rfl,
    show idx_main_v1 (idx_main_v3 (ix3 b n m)) = ix2 b m from idxExt2 rfl rfl]
  rfl

/-- Stage %69: stage %5 spread over the key images: at (b, n, u, m) it does not depend on u. -/
theorem same_v69 (x4 x6 : Ids) (b : Fin 256) (n : Fin 16) (u : Fin 256) (m : Fin 16) :
    val_main_v69 (F := Ideal) x4 x6 (ix4 b n u m) = sameId (x4 (ix2 b n)) (x6 (ix2 b m)) := by
  rw [val_main_v69_apply, val_main_v6_apply,
    show idx_main_v6 (idx_main_v69 (ix4 b n u m)) = ix3 b n m from idxExt3 rfl rfl rfl, same_v5]

/-- Stage %12: 1 where region n of image b in `x4` and region m of image b in `x7` carry the same id. -/
theorem same_v12 (x4 x7 : Ids) (b : Fin 256) (n m : Fin 16) :
    val_main_v12 (F := Ideal) x4 x7 (ix3 b n m) = sameId (x4 (ix2 b n)) (x7 (ix2 b m)) := by
  rw [val_main_v12_apply, val_main_v11_apply, val_main_v9_apply, val_main_v7_apply, val_main_v10_apply,
    val_main_v8_apply, conv_cmp_eq,
    show idx_main_v7 (idx_main_v9 (ix3 b n m)) = ix2 b n from idxExt2 rfl rfl,
    show idx_main_v8 (idx_main_v10 (ix3 b n m)) = ix2 b m from idxExt2 rfl rfl]
  rfl

/-- Stage %60: stage %12 spread over the key images: at (b, n, u, m) it does not depend on u. -/
theorem same_v60 (x4 x7 : Ids) (b : Fin 256) (n : Fin 16) (u : Fin 256) (m : Fin 16) :
    val_main_v60 (F := Ideal) x4 x7 (ix4 b n u m) = sameId (x4 (ix2 b n)) (x7 (ix2 b m)) := by
  rw [val_main_v60_apply, val_main_v13_apply,
    show idx_main_v13 (idx_main_v60 (ix4 b n u m)) = ix3 b n m from idxExt3 rfl rfl rfl, same_v12]

/-- Stage %99: 1 where region n of image b in `x4` and region m of image b in `x4` carry the same id. -/
theorem same_v99 (x4 : Ids) (b : Fin 256) (n m : Fin 16) :
    val_main_v99 (F := Ideal) x4 (ix3 b n m) = sameId (x4 (ix2 b n)) (x4 (ix2 b m)) := by
  rw [val_main_v99_apply, val_main_v98_apply, val_main_v96_apply, val_main_v94_apply, val_main_v97_apply,
    val_main_v95_apply, conv_cmp_eq,
    show idx_main_v94 (idx_main_v96 (ix3 b n m)) = ix2 b n from idxExt2 rfl rfl,
    show idx_main_v95 (idx_main_v97 (ix3 b n m)) = ix2 b m from idxExt2 rfl rfl]
  rfl

/-- Stage %55: ten times the dot product of the normalised feature vectors of region n of image b in `x0` and
    region m of image u in `x3`. -/
theorem logit_v55 (x0 x3 : Feat) (b : Fin 256) (n : Fin 16) (u : Fin 256) (m : Fin 16) :
    val_main_v55 (F := Ideal) x0 x3 (ix4 b n u m)
      = (∑ k : Fin 256, nrmAt x0 b n k * nrmAt x3 u m k) * tenW := by
  rw [val_main_v55_apply, val_main_v53_apply, val_main_v54_apply, val_main_cst_1_apply]
  refine congrArg (fun s => s * tenW) (Finset.sum_congr rfl fun k _ => ?_)
  rw [show lidx_main_v53 (ix4 b n u m) k = ix3 b n k from idxExt3 rfl rfl rfl,
    show ridx_main_v53 (ix4 b n u m) k = ix3 u m k from idxExt3 rfl rfl rfl, nrm_v30, nrm_v39]

/-- Stage %49: ten times the dot product of the normalised feature vectors of region n of image b in `x0` and
    region m of image u in `x2`. -/
theorem logit_v49 (x0 x2 : Feat) (b : Fin 256) (n : Fin 16) (u : Fin 256) (m : Fin 16) :
    val_main_v49 (F := Ideal) x0 x2 (ix4 b n u m)
      = (∑ k : Fin 256, nrmAt x0 b n k * nrmAt x2 u m k) * tenW := by
  rw [val_main_v49_apply, val_main_v47_apply, val_main_v48_apply, val_main_cst_apply]
  refine congrArg (fun s => s * tenW) (Finset.sum_congr rfl fun k _ => ?_)
  rw [show lidx_main_v47 (ix4 b n u m) k = ix3 b n k from idxExt3 rfl rfl rfl,
    show ridx_main_v47 (ix4 b n u m) k = ix3 u m k from idxExt3 rfl rfl rfl, nrm_v30, nrm_v36]

/-- Stage %70: (1e9 times the identity matrix's entry (b, u)) times stage %69, in that order. -/
theorem mask_v70 (x4 x6 : Ids) (b : Fin 256) (n : Fin 16) (u : Fin 256) (m : Fin 16) :
    val_main_v70 (F := Ideal) x4 x6 (ix4 b n u m)
      = (bigW * ind (b.val = u.val)) * sameId (x4 (ix2 b n)) (x6 (ix2 b m)) := by
  rw [val_main_v70_apply, val_main_v68_apply, val_main_v67_apply, val_main_v66_apply, val_main_cst_4_apply,
    same_v69,
    show idx_main_v68 (ix4 b n u m) = ix4 b (0 : Fin 1) u (0 : Fin 1) from idxExt4 rfl rfl rfl rfl, eye_v46]
  rfl

/-- Stage %61: the identity matrix's entry (b, u) times stage %60. -/
theorem label_v61 (x4 x7 : Ids) (b : Fin 256) (n : Fin 16) (u : Fin 256) (m : Fin 16) :
    val_main_v61 (F := Ideal) x4 x7 (ix4 b n u m)
      = ind (b.val = u.val) * sameId (x4 (ix2 b n)) (x7 (ix2 b m)) := by
  rw [val_main_v61_apply, val_main_v59_apply, same_v60,
    show idx_main_v59 (ix4 b n u m) = ix4 b (0 : Fin 1) u (0 : Fin 1) from idxExt4 rfl rfl rfl rfl, eye_v46]
  rfl

/-- Stages %120, %121: the positive logits then the masked negative logits, joined along the key image and flattened:
    entry q is key (q / 16, q % 16) of the positive family when q / 16 < 256, else key (q / 16 - 256, q % 16) of the
    negative family. -/
theorem x0_apply (x0 x2 x3 : Feat) (x4 x6 : Ids) (b : Fin 256) (n : Fin 16) (q : Fin 8192) :
    val_main_v121 (F := Ideal) x0 x2 x3 x4 x6 (ix3 b n q) = refX x0 x3 x2 x4 x6 b n q := by
  obtain ⟨c0, c1, c2, c3⟩ := reshape_coords b n q
  rw [val_main_v121_apply,
    show idx_main_v121 (ix3 b n q) = ix4 b n (⟨q.val / 16, by have := q.isLt; omega⟩ : Fin 512) (roiQ q)
      from idxExt4 c0 c1 c2 c3]
  unfold val_main_v120 refX
  by_cases h : q.val / 16 < 256
  · rw [dif_pos h]
    exact (cat_left _ _ b n _ (roiQ q) h).trans (logit_v55 x0 x3 b n ⟨q.val / 16, h⟩ (roiQ q))
  · rw [dif_neg h]
    refine (cat_right _ _ b n _ (roiQ q) h).trans ?_
    rw [val_main_v71_apply, logit_v49, mask_v70]
    rfl

/-- Stages %78, %79: the labels joined with zeros along the key image and flattened: entry q is the label of key
    (q / 16, q % 16) when q / 16 < 256, else zero. -/
theorem lb0_apply (x4 x7 : Ids) (b : Fin 256) (n : Fin 16) (q : Fin 8192) :
    val_main_v79 (F := Ideal) x4 x7 (ix3 b n q) = refLb x4 x7 b n q := by
  obtain ⟨c0, c1, c2, c3⟩ := reshape_coords b n q
  rw [val_main_v79_apply,
    show idx_main_v79 (ix3 b n q) = ix4 b n (⟨q.val / 16, by have := q.isLt; omega⟩ : Fin 512) (roiQ q)
      from idxExt4 c0 c1 c2 c3]
  unfold val_main_v78 refLb
  by_cases h : q.val / 16 < 256
  · rw [if_pos h]
    exact (cat_left _ _ b n _ (roiQ q) h).trans (label_v61 x4 x7 b n ⟨q.val / 16, h⟩ (roiQ q))
  · rw [if_neg h]
    refine (cat_right _ _ b n _ (roiQ q) h).trans ?_
    rw [val_main_v65_apply, val_main_cst_3_apply]
    rfl

/-- Stage %100: stage %99 with a unit axis inserted. -/
theorem same_v100 (x4 : Ids) (b : Fin 256) (n : Fin 16) (z : Fin 1) (m : Fin 16) :
    val_main_v100 (F := Ideal) x4 (ix4 b n z m) = sameId (x4 (ix2 b n)) (x4 (ix2 b m)) := by
  rw [val_main_v100_apply, show idx_main_v100 (ix4 b n z m) = ix3 b n m from idxExt3 rfl rfl rfl, same_v99]

/-- Stage %101: the sum (from zero) over the regions m of image b of [region m carries region n's id]. -/
theorem area0_apply (x4 : Ids) (b : Fin 256) (n : Fin 16) :
    val_main_v101 (F := Ideal) x4 (ix2 b n) = refArea x4 b n := by
  unfold val_main_v101
  simp only [Host.reduceAdd, Ideal.hostReduceAdd_def]
  rw [sum_two_axes]
  unfold refArea
  refine congrArg (fun s => zeroW + s) (Finset.sum_congr rfl fun m _ => ?_)
  exact same_v100 x4 b n 0 m

/-! ## Channel 1: queries `x1` with ids `x5` -/

/-- Stage %26: 1 where region n of image b in `x5` and region m of image b in `x7` carry the same id. -/
theorem same_v26 (x5 x7 : Ids) (b : Fin 256) (n m : Fin 16) :
    val_main_v26 (F := Ideal) x5 x7 (ix3 b n m) = sameId (x5 (ix2 b n)) (x7 (ix2 b m)) := by
  rw [val_main_v26_apply, val_main_v25_apply, val_main_v23_apply, val_main_v21_apply, val_main_v24_apply,
    val_main_v22_apply, conv_cmp_eq,
    show idx_main_v21 (idx_main_v23 (ix3 b n m)) = ix2 b n from idxExt2 rfl rfl,
    show idx_main_v22 (idx_main_v24 (ix3 b n m)) = ix2 b m from idxExt2 rfl rfl]
  rfl

/-- Stage %75: stage %26 spread over the key images: at (b, n, u, m) it does not depend on u. -/
theorem same_v75 (x5 x7 : Ids) (b : Fin 256) (n : Fin 16) (u : Fin 256) (m : Fin 16) :
    val_main_v75 (F := Ideal) x5 x7 (ix4 b n u m) = sameId (x5 (ix2 b n)) (x7 (ix2 b m)) := by
  rw [val_main_v75_apply, val_main_v27_apply,
    show idx_main_v27 (idx_main_v75 (ix4 b n u m)) = ix3 b n m from idxExt3 rfl rfl rfl, same_v26]

/-- Stage %19: 1 where region n of image b in `x5` and region m of image b in `x6` carry the same id. -/
theorem same_v19 (x5 x6 : Ids) (b : Fin 256) (n m : Fin 16) :
    val_main_v19 (F := Ideal) x5 x6 (ix3 b n m) = sameId (x5 (ix2 b n)) (x6 (ix2 b m)) := by
  rw [val_main_v19_apply, val_main_v18_apply, val_main_v16_apply, val_main_v14_apply, val_main_v17_apply,
    val_main_v15_apply, conv_cmp_eq,
    show idx_main_v14 (idx_main_v16 (ix3 b n m)) = ix2 b n from idxExt2 rfl rfl,
    show idx_main_v15 (idx_main_v17 (ix3 b n m)) = ix2 b m from idxExt2 rfl rfl]
  rfl

/-- Stage %63: stage %19 spread over the key images: at (b, n, u, m) it does not depend on u. -/
theorem same_v63 (x5 x6 : Ids) (b : Fin 256) (n : Fin 16) (u : Fin 256) (m : Fin 16) :
    val_main_v63 (F := Ideal) x5 x6 (ix4 b n u m) = sameId (x5 (ix2 b n)) (x6 (ix2 b m)) := by
  rw [val_main_v63_apply, val_main_v20_apply,
    show idx_main_v20 (idx_main_v63 (ix4 b n u m)) = ix3 b n m from idxExt3 rfl rfl rfl, same_v19]

/-- Stage %107: 1 where region n of image b in `x5` and region m of image b in `x5` carry the same id. -/
theorem same_v107 (x5 : Ids) (b : Fin 256) (n m : Fin 16) :
    val_main_v107 (F := Ideal) x5 (ix3 b n m) = sameId (x5 (ix2 b n)) (x5 (ix2 b m)) := by
  rw [val_main_v107_apply, val_main_v106_apply, val_main_v104_apply, val_main_v102_apply, val_main_v105_apply,
    val_main_v103_apply, conv_cmp_eq,
    show idx_main_v102 (idx_main_v104 (ix3 b n m)) = ix2 b n from idxExt2 rfl rfl,
    show idx_main_v103 (idx_main_v105 (ix3 b n m)) = ix2 b m from idxExt2 rfl rfl]
  rfl

/-- Stage %58: ten times the dot product of the normalised feature vectors of region n of image b in `x1` and
    region m of image u in `x2`. -/
theorem logit_v58 (x1 x2 : Feat) (b : Fin 256) (n : Fin 16) (u : Fin 256) (m : Fin 16) :
    val_main_v58 (F := Ideal) x1 x2 (ix4 b n u m)
      = (∑ k : Fin 256, nrmAt x1 b n k * nrmAt x2 u m k) * tenW := by
  rw [val_main_v58_apply, val_main_v56_apply, val_main_v57_apply, val_main_cst_2_apply]
  refine congrArg (fun s => s * tenW) (Finset.sum_congr rfl fun k _ => ?_)
  rw [show lidx_main_v56 (ix4 b n u m) k = ix3 b n k from idxExt3 rfl rfl rfl,
    show ridx_main_v56 (ix4 b n u m) k = ix3 u m k from idxExt3 rfl rfl rfl, nrm_v33, nrm_v36]

/-- Stage %52: ten times the dot product of the normalised feature vectors of region n of image b in `x1` and
    region m of image u in `x3`. -/
theorem logit_v52 (x1 x3 : Feat) (b : Fin 256) (n : Fin 16) (u : Fin 256) (m : Fin 16) :
    val_main_v52 (F := Ideal) x1 x3 (ix4 b n u m)
      = (∑ k : Fin 256, nrmAt x1 b n k * nrmAt x3 u m k) * tenW := by
  rw [val_main_v52_apply, val_main_v50_apply, val_main_v51_apply, val_main_cst_0_apply]
  refine congrArg (fun s => s * tenW) (Finset.sum_congr rfl fun k _ => ?_)
  rw [show lidx_main_v50 (ix4 b n u m) k = ix3 b n k from idxExt3 rfl rfl rfl,
    show ridx_main_v50 (ix4 b n u m) k = ix3 u m k from idxExt3 rfl rfl rfl, nrm_v33, nrm_v39]

/-- Stage %76: (1e9 times the identity matrix's entry (b, u)) times stage %75, in that order. -/
theorem mask_v76 (x5 x7 : Ids) (b : Fin 256) (n : Fin 16) (u : Fin 256) (m : Fin 16) :
    val_main_v76 (F := Ideal) x5 x7 (ix4 b n u m)
      = (bigW * ind (b.val = u.val)) * sameId (x5 (ix2 b n)) (x7 (ix2 b m)) := by
  rw [val_main_v76_apply, val_main_v74_apply, val_main_v73_apply, val_main_v72_apply, val_main_cst_5_apply,
    same_v75,
    show idx_main_v74 (ix4 b n u m) = ix4 b (0 : Fin 1) u (0 : Fin 1) from idxExt4 rfl rfl rfl rfl, eye_v46]
  rfl

/-- Stage %64: the identity matrix's entry (b, u) times stage %63. -/
theorem label_v64 (x5 x6 : Ids) (b : Fin 256) (n : Fin 16) (u : Fin 256) (m : Fin 16) :
    val_main_v64 (F := Ideal) x5 x6 (ix4 b n u m)
      = ind (b.val = u.val) * sameId (x5 (ix2 b n)) (x6 (ix2 b m)) := by
  rw [val_main_v64_apply, val_main_v62_apply, same_v63,
    show idx_main_v62 (ix4 b n u m) = ix4 b (0 : Fin 1) u (0 : Fin 1) from idxExt4 rfl rfl rfl rfl, eye_v46]
  rfl

/-- Stages %122, %123: the positive logits then the masked negative logits, joined along the key image and flattened:
    entry q is key (q / 16, q % 16) of the positive family when q / 16 < 256, else key (q / 16 - 256, q % 16) of the
    negative family. -/
theorem x1_apply (x1 x2 x3 : Feat) (x5 x7 : Ids) (b : Fin 256) (n : Fin 16) (q : Fin 8192) :
    val_main_v123 (F := Ideal) x1 x2 x3 x5 x7 (ix3 b n q) = refX x1 x2 x3 x5 x7 b n q := by
  obtain ⟨c0, c1, c2, c3⟩ := reshape_coords b n q
  rw [val_main_v123_apply,
    show idx_main_v123 (ix3 b n q) = ix4 b n (⟨q.val / 16, by have := q.isLt; omega⟩ : Fin 512) (roiQ q)
      from idxExt4 c0 c1 c2 c3]
  unfold val_main_v122 refX
  by_cases h : q.val / 16 < 256
  · rw [dif_pos h]
    exact (cat_left _ _ b n _ (roiQ q) h).trans (logit_v58 x1 x2 b n ⟨q.val / 16, h⟩ (roiQ q))
  · rw [dif_neg h]
    refine (cat_right _ _ b n _ (roiQ q) h).trans ?_
    rw [val_main_v77_apply, logit_v52, mask_v76]
    rfl

/-- Stages %80, %81: the labels joined with zeros along the key image and flattened: entry q is the label of key
    (q / 16, q % 16) when q / 16 < 256, else zero. -/
theorem lb1_apply (x5 x6 : Ids) (b : Fin 256) (n : Fin 16) (q : Fin 8192) :
    val_main_v81 (F := Ideal) x5 x6 (ix3 b n q) = refLb x5 x6 b n q := by
  obtain ⟨c0, c1, c2, c3⟩ := reshape_coords b n q
  rw [val_main_v81_apply,
    show idx_main_v81 (ix3 b n q) = ix4 b n (⟨q.val / 16, by have := q.isLt; omega⟩ : Fin 512) (roiQ q)
      from idxExt4 c0 c1 c2 c3]
  unfold val_main_v80 refLb
  by_cases h : q.val / 16 < 256
  · rw [if_pos h]
    exact (cat_left _ _ b n _ (roiQ q) h).trans (label_v64 x5 x6 b n ⟨q.val / 16, h⟩ (roiQ q))
  · rw [if_neg h]
    refine (cat_right _ _ b n _ (roiQ q) h).trans ?_
    rw [val_main_v65_apply, val_main_cst_3_apply]
    rfl

/-- Stage %108: stage %107 with a unit axis inserted. -/
theorem same_v108 (x5 : Ids) (b : Fin 256) (n : Fin 16) (z : Fin 1) (m : Fin 16) :
    val_main_v108 (F := Ideal) x5 (ix4 b n z m) = sameId (x5 (ix2 b n)) (x5 (ix2 b m)) := by
  rw [val_main_v108_apply, show idx_main_v108 (ix4 b n z m) = ix3 b n m from idxExt3 rfl rfl rfl, same_v107]

/-- Stage %109: the sum (from zero) over the regions m of image b of [region m carries region n's id]. -/
theorem area1_apply (x5 : Ids) (b : Fin 256) (n : Fin 16) :
    val_main_v109 (F := Ideal) x5 (ix2 b n) = refArea x5 b n := by
  unfold val_main_v109
  simp only [Host.reduceAdd, Ideal.hostReduceAdd_def]
  rw [sum_two_axes]
  unfold refArea
  refine congrArg (fun s => zeroW + s) (Finset.sum_congr rfl fun m _ => ?_)
  exact same_v108 x5 b n 0 m

end Cert.ReferenceIdeal.RefValue
end
-- ==== Proof.RefValue.lean ====
/-
  The reference's result is the mean of its row losses, channel by channel.

  After the per-row data (the 8192 logits, the 8192 labels, the object area) the reference does, for every query (b, n):
  the number of positives nn = 0 + sum of the labels; the log-softmax of the logits, x - M - log (0 + sum of exp (x - M))
  with M = max (-inf, fold of max from -inf over the logits); the labels divided by max (nn, 1), multiplied entry by entry
  with the log-softmax and summed from 0; that sum multiplied by minus the weight [nn > 0.001] / area. The channel's value
  is the sum of these row values over all (b, n), from 0, divided by 4096. Read operation by operation at an index, these
  stages are, word for word, the specification's row value and mean; the literals stay the words the program prints.
-/
import proofs.«168933_j69020124447445_1_alg».proof.Proof.RefRows
noncomputable section
namespace Cert.ReferenceIdeal.RefValue
open Cert.ReferenceIdeal Cert.ReferenceIdeal.ReadP Cert.RowLoss Idealize.ShloMosaic Idealize.ShloMosaic.ValueIdx

namespace Stages

/-! ### Two readings used by both channels -/

/-- A one-bit comparison "n > t" of extended reals, converted to a float as an unsigned integer, is the indicator of t < n:
    the bit is 1 exactly when t < n, and the unsigned value of one bit is 0 or 1. -/
theorem uitofp_cmp_ogt (n t : EReal) :
    FloatOps.uitofp (F := Ideal) .f32 (FloatOps.cmpf (F := Ideal) (φ := .f32) .ogt n t) = ind (t < n) := by
  show (((Ideal.cmp .ogt n t).toNat : ℝ) : EReal) = ind (t < n)
  unfold Ideal.cmp ind
  by_cases h : t < n
  · simp [h]
  · simp [h]

/-- A maximum-reduce over the last axis of a (256, 16, 8192) array, read at (b, n): max commutes and associates, so the
    row-major fold is the fold of max, from the initial value, over the 8192 entries of row (b, n) in any order. -/
theorem rowMax (x : FVec Ideal ⟨3, ![256, 16, 8192]⟩ .f32) (init : FVec Ideal ⟨0, ![]⟩ .f32)
    (h' : (⟨3, ![256, 16, 8192]⟩ : Shape).ReducesTo [2] ⟨2, ![256, 16]⟩) (hu : 0 < (⟨0, ![]⟩ : Shape).numel)
    (b : Fin 256) (n : Fin 16) (g : Fin 8192 → Ideal .f32) (hg : ∀ q, x (ix3 b n q) = g q) :
    Host.reduce FloatOps.maximumf x init h' hu (ix2 b n)
      = (Finset.univ : Finset (Fin 8192)).fold max (init (Shape.Idx.first hu)) g := by
  have h : (⟨3, ![256, 16, 8192]⟩ : Shape).Reduces [2] ⟨2, ![256, 16]⟩ := by decide
  rw [Host.reduce_eq_fold_single FloatOps.maximumf x _ h' h hu]
  have hf : (x ∘ h.lift (ix2 b n)) = g := funext fun q => (congrArg x (by
    funext c; apply Fin.ext
    match c with | ⟨0, _⟩ => rfl | ⟨1, _⟩ => rfl | ⟨2, _⟩ => rfl)).trans (hg q)
  exact congrArg (fun f => Finset.fold max (init (Shape.Idx.first hu)) f (Finset.univ : Finset (Fin 8192))) hf

/-- The specification's row value with its three local names written out. -/
theorem refRow_eq (x lb : Fin 8192 → EReal) (area : EReal) :
    refRow x lb area
      = (-(Ideal.div (ind (thrW < zeroW + ∑ q : Fin 8192, lb q)) area))
        * (zeroW + ∑ q : Fin 8192, Ideal.div (lb q) (max (zeroW + ∑ q' : Fin 8192, lb q') oneW)
            * ((x q - max ninfW ((Finset.univ : Finset (Fin 8192)).fold max ninfW x))
                - Ideal.log (zeroW + ∑ q' : Fin 8192, Ideal.exp (x q' - max ninfW ((Finset.univ : Finset (Fin 8192)).fold max ninfW x))))) :=
  rfl

/-! ### Channel 0 -/

theorem idx_v82 (b : Fin 256) (n : Fin 16) (q : Fin 8192) : idx_main_v82 (ix2 b n) q = ix3 b n q := by
  funext a; apply Fin.ext; match a with | ⟨0, _⟩ => rfl | ⟨1, _⟩ => rfl | ⟨2, _⟩ => rfl
theorem idx_call4_v7 (b : Fin 256) (n : Fin 16) (q : Fin 8192) : idx_main_call4_v7 (ix2 b n) q = ix3 b n q := by
  funext a; apply Fin.ext; match a with | ⟨0, _⟩ => rfl | ⟨1, _⟩ => rfl | ⟨2, _⟩ => rfl
theorem idx_v127 (b : Fin 256) (n : Fin 16) (q : Fin 8192) : idx_main_v127 (ix2 b n) q = ix3 b n q := by
  funext a; apply Fin.ext; match a with | ⟨0, _⟩ => rfl | ⟨1, _⟩ => rfl | ⟨2, _⟩ => rfl
theorem idx_v88 (b : Fin 256) (n : Fin 16) (q : Fin 8192) : idx_main_v83 (idx_main_v88 (ix3 b n q)) = ix2 b n := by
  funext a; apply Fin.ext; match a with | ⟨0, _⟩ => rfl | ⟨1, _⟩ => rfl
theorem idx_call4_v4 (b : Fin 256) (n : Fin 16) (q : Fin 8192) :
    idx_main_call4_v3 (idx_main_call4_v4 (ix3 b n q)) = ix2 b n := by
  funext a; apply Fin.ext; match a with | ⟨0, _⟩ => rfl | ⟨1, _⟩ => rfl
theorem idx_call4_v10 (b : Fin 256) (n : Fin 16) (q : Fin 8192) :
    idx_main_call4_v8 (idx_main_call4_v10 (ix3 b n q)) = ix2 b n := by
  funext a; apply Fin.ext; match a with | ⟨0, _⟩ => rfl | ⟨1, _⟩ => rfl
theorem idx_v110 (b : Fin 256) (n : Fin 16) : idx_main_v83 (idx_main_v110 (ix2 b n)) = ix2 b n := by
  have hb := b.isLt; have hn := n.isLt
  funext a; apply Fin.ext
  match a with
  | ⟨0, _⟩ => show (b.val * 16 + n.val) / 16 = b.val; omega
  | ⟨1, _⟩ => show (b.val * 16 + n.val) / 1 % 16 = n.val; omega

/-- The number of positives of query (b, n): the sum, from zero, of its 8192 labels. -/
theorem npos0 (x4 x7 : Ids) (b : Fin 256) (n : Fin 16) :
    val_main_v82 (F := Ideal) x4 x7 (ix2 b n) = zeroW + ∑ q : Fin 8192, refLb x4 x7 b n q := by
  rw [val_main_v82_apply]
  refine congrArg (zeroW + ·) (Finset.sum_congr rfl fun q _ => ?_)
  rw [idx_v82, lb0_apply]

/-- The maximum the log-softmax subtracts: the larger of -inf and the fold of max, from -inf, over the 8192 logits. -/
theorem rowmax0 (x0 x2 x3 : Feat) (x4 x6 : Ids) (b : Fin 256) (n : Fin 16) :
    val_main_call4_v2 (F := Ideal) x0 x2 x3 x4 x6 (ix2 b n)
      = max ninfW ((Finset.univ : Finset (Fin 8192)).fold max ninfW (refX x0 x3 x2 x4 x6 b n)) := by
  rw [val_main_call4_v2_apply, val_main_call4_v1_apply]
  refine congrArg (max ninfW) ?_
  unfold val_main_call4_v0
  exact rowMax _ _ _ _ b n _ (fun q => x0_apply x0 x2 x3 x4 x6 b n q)

/-- A logit minus the row maximum. -/
theorem shifted0 (x0 x2 x3 : Feat) (x4 x6 : Ids) (b : Fin 256) (n : Fin 16) (q : Fin 8192) :
    val_main_call4_v5 (F := Ideal) x0 x2 x3 x4 x6 (ix3 b n q)
      = refX x0 x3 x2 x4 x6 b n q - max ninfW ((Finset.univ : Finset (Fin 8192)).fold max ninfW (refX x0 x3 x2 x4 x6 b n)) := by
  rw [val_main_call4_v5_apply, x0_apply, val_main_call4_v4_apply, val_main_call4_v3_apply, idx_call4_v4, rowmax0]
  rfl

/-- The sum, from zero, of the exponentials of the shifted logits. -/
theorem sumexp0 (x0 x2 x3 : Feat) (x4 x6 : Ids) (b : Fin 256) (n : Fin 16) :
    val_main_call4_v7 (F := Ideal) x0 x2 x3 x4 x6 (ix2 b n)
      = zeroW + ∑ q : Fin 8192, Ideal.exp (refX x0 x3 x2 x4 x6 b n q
          - max ninfW ((Finset.univ : Finset (Fin 8192)).fold max ninfW (refX x0 x3 x2 x4 x6 b n))) := by
  rw [val_main_call4_v7_apply]
  refine congrArg (zeroW + ·) (Finset.sum_congr rfl fun q _ => ?_)
  rw [idx_call4_v7, val_main_call4_v6_apply, shifted0]
  rfl

/-- The log-softmax at entry q: the shifted logit minus the logarithm of the sum of exponentials. -/
theorem logsoftmax0 (x0 x2 x3 : Feat) (x4 x6 : Ids) (b : Fin 256) (n : Fin 16) (q : Fin 8192) :
    val_main_v125 (F := Ideal) x0 x2 x3 x4 x6 (ix3 b n q)
      = (refX x0 x3 x2 x4 x6 b n q - max ninfW ((Finset.univ : Finset (Fin 8192)).fold max ninfW (refX x0 x3 x2 x4 x6 b n)))
        - Ideal.log (zeroW + ∑ q' : Fin 8192, Ideal.exp (refX x0 x3 x2 x4 x6 b n q'
            - max ninfW ((Finset.univ : Finset (Fin 8192)).fold max ninfW (refX x0 x3 x2 x4 x6 b n)))) := by
  rw [val_main_v125_apply, shifted0, val_main_call4_v10_apply, val_main_call4_v9_apply, val_main_call4_v8_apply,
    idx_call4_v10, sumexp0]
  rfl

/-- A label divided by the larger of the number of positives and one. -/
theorem weightedLabel0 (x4 x7 : Ids) (b : Fin 256) (n : Fin 16) (q : Fin 8192) :
    val_main_v89 (F := Ideal) x4 x7 (ix3 b n q)
      = Ideal.div (refLb x4 x7 b n q) (max (zeroW + ∑ q' : Fin 8192, refLb x4 x7 b n q') oneW) := by
  rw [val_main_v89_apply, lb0_apply, val_main_v88_apply, val_main_v87_apply, val_main_v83_apply, idx_v88, npos0,
    val_main_v86_apply]
  rfl

/-- The row's weight, negated: minus the quotient of the indicator that the number of positives exceeds 0.001 by the area. -/
theorem negWeight0 (x4 x7 : Ids) (b : Fin 256) (n : Fin 16) :
    val_main_v124 (F := Ideal) x4 x7 (ix2 b n)
      = -(Ideal.div (ind (thrW < zeroW + ∑ q : Fin 8192, refLb x4 x7 b n q)) (refArea x4 b n)) := by
  rw [val_main_v124_apply, val_main_v114_apply, val_main_v113_apply, val_main_v112_apply, val_main_v110_apply,
    val_main_v83_apply, idx_v110, npos0, val_main_v111_apply, area0_apply]
  show -(Ideal.div (FloatOps.uitofp (F := Ideal) .f32 (FloatOps.cmpf (F := Ideal) (φ := .f32) .ogt
    (zeroW + ∑ q : Fin 8192, refLb x4 x7 b n q) thrW)) (refArea x4 b n)) = _
  rw [uitofp_cmp_ogt]

/-- The row's loss as the reference computes it is the specification's row value. -/
theorem row0 (x0 x2 x3 : Feat) (x4 x6 x7 : Ids) (b : Fin 256) (n : Fin 16) :
    val_main_v128 (F := Ideal) x0 x2 x3 x4 x6 x7 (ix2 b n)
      = refRow (refX x0 x3 x2 x4 x6 b n) (refLb x4 x7 b n) (refArea x4 b n) := by
  rw [val_main_v128_apply, negWeight0, val_main_v127_apply]
  rw [refRow_eq]
  refine congrArg (_ * ·) (congrArg (zeroW + ·) (Finset.sum_congr rfl fun q _ => ?_))
  rw [idx_v127, val_main_v126_apply, weightedLabel0, logsoftmax0]
  rfl

/-! ### Channel 1 -/

theorem idx_v84 (b : Fin 256) (n : Fin 16) (q : Fin 8192) : idx_main_v84 (ix2 b n) q = ix3 b n q := by
  funext a; apply Fin.ext; match a with | ⟨0, _⟩ => rfl | ⟨1, _⟩ => rfl | ⟨2, _⟩ => rfl
theorem idx_call5_v7 (b : Fin 256) (n : Fin 16) (q : Fin 8192) : idx_main_call5_v7 (ix2 b n) q = ix3 b n q := by
  funext a; apply Fin.ext; match a with | ⟨0, _⟩ => rfl | ⟨1, _⟩ => rfl | ⟨2, _⟩ => rfl
theorem idx_v132 (b : Fin 256) (n : Fin 16) (q : Fin 8192) : idx_main_v132 (ix2 b n) q = ix3 b n q := by
  funext a; apply Fin.ext; match a with | ⟨0, _⟩ => rfl | ⟨1, _⟩ => rfl | ⟨2, _⟩ => rfl
theorem idx_v92 (b : Fin 256) (n : Fin 16) (q : Fin 8192) : idx_main_v85 (idx_main_v92 (ix3 b n q)) = ix2 b n := by
  funext a; apply Fin.ext; match a with | ⟨0, _⟩ => rfl | ⟨1, _⟩ => rfl
theorem idx_call5_v4 (b : Fin 256) (n : Fin 16) (q : Fin 8192) :
    idx_main_call5_v3 (idx_main_call5_v4 (ix3 b n q)) = ix2 b n := by
  funext a; apply Fin.ext; match a with | ⟨0, _⟩ => rfl | ⟨1, _⟩ => rfl
theorem idx_call5_v10 (b : Fin 256) (n : Fin 16) (q : Fin 8192) :
    idx_main_call5_v8 (idx_main_call5_v10 (ix3 b n q)) = ix2 b n := by
  funext a; apply Fin.ext; match a with | ⟨0, _⟩ => rfl | ⟨1, _⟩ => rfl
theorem idx_v115 (b : Fin 256) (n : Fin 16) : idx_main_v85 (idx_main_v115 (ix2 b n)) = ix2 b n := by
  have hb := b.isLt; have hn := n.isLt
  funext a; apply Fin.ext
  match a with
  | ⟨0, _⟩ => show (b.val * 16 + n.val) / 16 = b.val; omega
  | ⟨1, _⟩ => show (b.val * 16 + n.val) / 1 % 16 = n.val; omega

/-- The number of positives of query (b, n): the sum, from zero, of its 8192 labels. -/
theorem npos1 (x5 x6 : Ids) (b : Fin 256) (n : Fin 16) :
    val_main_v84 (F := Ideal) x5 x6 (ix2 b n) = zeroW + ∑ q : Fin 8192, refLb x5 x6 b n q := by
  rw [val_main_v84_apply]
  refine congrArg (zeroW + ·) (Finset.sum_congr rfl fun q _ => ?_)
  rw [idx_v84, lb1_apply]

/-- The maximum the log-softmax subtracts: the larger of -inf and the fold of max, from -inf, over the 8192 logits. -/
theorem rowmax1 (x1 x2 x3 : Feat) (x5 x7 : Ids) (b : Fin 256) (n : Fin 16) :
    val_main_call5_v2 (F := Ideal) x1 x2 x3 x5 x7 (ix2 b n)
      = max ninfW ((Finset.univ : Finset (Fin 8192)).fold max ninfW (refX x1 x2 x3 x5 x7 b n)) := by
  rw [val_main_call5_v2_apply, val_main_call5_v1_apply]
  refine congrArg (max ninfW) ?_
  unfold val_main_call5_v0
  exact rowMax _ _ _ _ b n _ (fun q => x1_apply x1 x2 x3 x5 x7 b n q)

/-- A logit minus the row maximum. -/
theorem shifted1 (x1 x2 x3 : Feat) (x5 x7 : Ids) (b : Fin 256) (n : Fin 16) (q : Fin 8192) :
    val_main_call5_v5 (F := Ideal) x1 x2 x3 x5 x7 (ix3 b n q)
      = refX x1 x2 x3 x5 x7 b n q - max ninfW ((Finset.univ : Finset (Fin 8192)).fold max ninfW (refX x1 x2 x3 x5 x7 b n)) := by
  rw [val_main_call5_v5_apply, x1_apply, val_main_call5_v4_apply, val_main_call5_v3_apply, idx_call5_v4, rowmax1]
  rfl

/-- The sum, from zero, of the exponentials of the shifted logits. -/
theorem sumexp1 (x1 x2 x3 : Feat) (x5 x7 : Ids) (b : Fin 256) (n : Fin 16) :
    val_main_call5_v7 (F := Ideal) x1 x2 x3 x5 x7 (ix2 b n)
      = zeroW + ∑ q : Fin 8192, Ideal.exp (refX x1 x2 x3 x5 x7 b n q
          - max ninfW ((Finset.univ : Finset (Fin 8192)).fold max ninfW (refX x1 x2 x3 x5 x7 b n))) := by
  rw [val_main_call5_v7_apply]
  refine congrArg (zeroW + ·) (Finset.sum_congr rfl fun q _ => ?_)
  rw [idx_call5_v7, val_main_call5_v6_apply, shifted1]
  rfl

/-- The log-softmax at entry q: the shifted logit minus the logarithm of the sum of exponentials. -/
theorem logsoftmax1 (x1 x2 x3 : Feat) (x5 x7 : Ids) (b : Fin 256) (n : Fin 16) (q : Fin 8192) :
    val_main_v130 (F := Ideal) x1 x2 x3 x5 x7 (ix3 b n q)
      = (refX x1 x2 x3 x5 x7 b n q - max ninfW ((Finset.univ : Finset (Fin 8192)).fold max ninfW (refX x1 x2 x3 x5 x7 b n)))
        - Ideal.log (zeroW + ∑ q' : Fin 8192, Ideal.exp (refX x1 x2 x3 x5 x7 b n q'
            - max ninfW ((Finset.univ : Finset (Fin 8192)).fold max ninfW (refX x1 x2 x3 x5 x7 b n)))) := by
  rw [val_main_v130_apply, shifted1, val_main_call5_v10_apply, val_main_call5_v9_apply, val_main_call5_v8_apply,
    idx_call5_v10, sumexp1]
  rfl

/-- A label divided by the larger of the number of positives and one. -/
theorem weightedLabel1 (x5 x6 : Ids) (b : Fin 256) (n : Fin 16) (q : Fin 8192) :
    val_main_v93 (F := Ideal) x5 x6 (ix3 b n q)
      = Ideal.div (refLb x5 x6 b n q) (max (zeroW + ∑ q' : Fin 8192, refLb x5 x6 b n q') oneW) := by
  rw [val_main_v93_apply, lb1_apply, val_main_v92_apply, val_main_v91_apply, val_main_v85_apply, idx_v92, npos1,
    val_main_v90_apply]
  rfl

/-- The row's weight, negated: minus the quotient of the indicator that the number of positives exceeds 0.001 by the area. -/
theorem negWeight1 (x5 x6 : Ids) (b : Fin 256) (n : Fin 16) :
    val_main_v129 (F := Ideal) x5 x6 (ix2 b n)
      = -(Ideal.div (ind (thrW < zeroW + ∑ q : Fin 8192, refLb x5 x6 b n q)) (refArea x5 b n)) := by
  rw [val_main_v129_apply, val_main_v119_apply, val_main_v118_apply, val_main_v117_apply, val_main_v115_apply,
    val_main_v85_apply, idx_v115, npos1, val_main_v116_apply, area1_apply]
  show -(Ideal.div (FloatOps.uitofp (F := Ideal) .f32 (FloatOps.cmpf (F := Ideal) (φ := .f32) .ogt
    (zeroW + ∑ q : Fin 8192, refLb x5 x6 b n q) thrW)) (refArea x5 b n)) = _
  rw [uitofp_cmp_ogt]

/-- The row's loss as the reference computes it is the specification's row value. -/
theorem row1 (x1 x2 x3 : Feat) (x5 x6 x7 : Ids) (b : Fin 256) (n : Fin 16) :
    val_main_v133 (F := Ideal) x1 x2 x3 x5 x6 x7 (ix2 b n)
      = refRow (refX x1 x2 x3 x5 x7 b n) (refLb x5 x6 b n) (refArea x5 b n) := by
  rw [val_main_v133_apply, negWeight1, val_main_v132_apply]
  rw [refRow_eq]
  refine congrArg (_ * ·) (congrArg (zeroW + ·) (Finset.sum_congr rfl fun q _ => ?_))
  rw [idx_v132, val_main_v131_apply, weightedLabel1, logsoftmax1]
  rfl

end Stages

open Stages

/-- The channel's value: the sum over all 4096 queries of the row values, from zero, divided by 4096. -/
theorem ch0 (x0 x2 x3 : Feat) (x4 x6 x7 : Ids) :
    val_main_v135 (F := Ideal) x0 x2 x3 x4 x6 x7 = fun _ => meanOf (fun y : (⟨2, ![256, 16]⟩ : Shape).Idx =>
      refRow (refX x0 x3 x2 x4 x6 ⟨(y 0).val, idx2_lt0 y⟩ ⟨(y 1).val, idx2_lt1 y⟩)
        (refLb x4 x7 ⟨(y 0).val, idx2_lt0 y⟩ ⟨(y 1).val, idx2_lt1 y⟩) (refArea x4 ⟨(y 0).val, idx2_lt0 y⟩ ⟨(y 1).val, idx2_lt1 y⟩)) := by
  funext i
  rw [val_main_v135_apply, val_main_v134_apply]
  unfold meanOf
  refine congrArg (fun s => Ideal.div (zeroW + s) rowsW) (Finset.sum_congr rfl fun y _ => ?_)
  have e : y = ix2 (⟨(y 0).val, idx2_lt0 y⟩ : Fin 256) (⟨(y 1).val, idx2_lt1 y⟩ : Fin 16) := by
    funext d; match d with | ⟨0, _⟩ => rfl | ⟨1, _⟩ => rfl
  exact (congrArg (val_main_v128 (F := Ideal) x0 x2 x3 x4 x6 x7) e).trans (row0 x0 x2 x3 x4 x6 x7 _ _)

/-- The channel's value: the sum over all 4096 queries of the row values, from zero, divided by 4096. -/
theorem ch1 (x1 x2 x3 : Feat) (x5 x6 x7 : Ids) :
    val_main_v137 (F := Ideal) x1 x2 x3 x5 x6 x7 = fun _ => meanOf (fun y : (⟨2, ![256, 16]⟩ : Shape).Idx =>
      refRow (refX x1 x2 x3 x5 x7 ⟨(y 0).val, idx2_lt0 y⟩ ⟨(y 1).val, idx2_lt1 y⟩)
        (refLb x5 x6 ⟨(y 0).val, idx2_lt0 y⟩ ⟨(y 1).val, idx2_lt1 y⟩) (refArea x5 ⟨(y 0).val, idx2_lt0 y⟩ ⟨(y 1).val, idx2_lt1 y⟩)) := by
  funext i
  rw [val_main_v137_apply, val_main_v136_apply]
  unfold meanOf
  refine congrArg (fun s => Ideal.div (zeroW + s) rowsW) (Finset.sum_congr rfl fun y _ => ?_)
  have e : y = ix2 (⟨(y 0).val, idx2_lt0 y⟩ : Fin 256) (⟨(y 1).val, idx2_lt1 y⟩ : Fin 16) := by
    funext d; match d with | ⟨0, _⟩ => rfl | ⟨1, _⟩ => rfl
  exact (congrArg (val_main_v133 (F := Ideal) x1 x2 x3 x5 x6 x7) e).trans (row1 x1 x2 x3 x5 x6 x7 _ _)

theorem result_eq (x0 x1 x2 x3 : Feat) (x4 x5 x6 x7 : Ids) :
    val_main_v138 (F := Ideal) x0 x1 x2 x3 x4 x5 x6 x7 = fun _ => refVal x0 x1 x2 x3 x4 x5 x6 x7 := by
  funext i
  rw [val_main_v138_apply, ch0, ch1]
  rfl
end Cert.ReferenceIdeal.RefValue
end
-- ==== Proof.Consts.lean ====
/-
  The float literals of the row loss, as the extended reals their patterns denote.

  Each literal is a 32-bit IEEE pattern; unfolding the pattern's sign, exponent and fraction fields gives the value:
  `+0.0` is 0, `-inf` is ⊥, `1.0` is 1, and the remaining four are finite reals (0.001 rounded lies strictly between
  0 and 1; 4096.0 is nonzero). Every other module reads the literals through these statements only.
-/
import Idealize.ShloMosaic.PureOps.Ideal
import Idealize.ShloMosaic.PureOps.Ideal.Laws
import proofs.«168933_j69020124447445_1_alg».proof.Proof.Spec

noncomputable section

namespace Cert.RowLoss

open Idealize.ShloMosaic

/-- `+0.0` denotes 0. -/
theorem zeroW_eq : zeroW = 0 := by
  simp [Ideal.ofBits, Ideal.ieee]

/-- `-inf` (sign set, exponent all ones, fraction zero) denotes ⊥. -/
theorem ninfW_eq : ninfW = ⊥ := by
  simp [Ideal.ofBits, Ideal.ieee]

/-- `1.0` denotes 1. -/
theorem oneW_eq : oneW = 1 := by
  simp [Ideal.ofBits, Ideal.ieee, -EReal.coe_mul]; norm_num

/-- `0.001` rounded to f32 is a real strictly between 0 and 1. -/
theorem thrW_eq : ∃ r : ℝ, thrW = (r : EReal) ∧ 0 < r ∧ r < 1 := by
  refine ⟨_, by simp [Ideal.ofBits, Ideal.ieee, -EReal.coe_mul]; rfl, ?_, ?_⟩ <;> norm_num

/-- `10.0` is a real. -/
theorem tenW_real : ∃ r : ℝ, tenW = (r : EReal) := by
  exact ⟨_, by simp [Ideal.ofBits, Ideal.ieee, -EReal.coe_mul]; rfl⟩

/-- `1e9` rounded to f32 is a real. -/
theorem bigW_real : ∃ r : ℝ, bigW = (r : EReal) := by
  exact ⟨_, by simp [Ideal.ofBits, Ideal.ieee, -EReal.coe_mul]; rfl⟩

/-- `4096.0` is a nonzero real. -/
theorem rowsW_real : ∃ r : ℝ, rowsW = (r : EReal) ∧ r ≠ 0 := by
  refine ⟨_, by simp [Ideal.ofBits, Ideal.ieee, -EReal.coe_mul]; rfl, ?_⟩; norm_num

end Cert.RowLoss

end
-- ==== Proof.RowMath.lean ====
/-
  One row of the contrastive loss: the online recurrence over eight tiles and the log-softmax of the 8192 concatenated
  logits agree on real data.

  Write `E` for the sum of the exponentials of all 8192 logits, `S` for the sum of the positive logits, `n` for the
  number of positives (a sum of 0/1 labels) and `A > 0` for the area.

  * Kernel: by induction on the tile, the accumulators after tiles `0 … c` are real, with the running maximum SOME real
    `μ` (a fold of `max` from ⊥ over a nonempty family of reals is real) and the running sum of exponentials equal to
    `E_c * exp (-μ)`, `E_c` the sum of exponentials over the tiles seen: the rescaling step is
    `exp (μ - μ') * exp (-μ) = exp (-μ')`. At the end `μ + log (E * exp (-μ)) = log E`, whatever `μ` was.
  * Reference: its maximum `M` is also some real, `L = E * exp (-M)`, and `(x - M) - log L = x - log E`. Its second 4096
    labels are zero, so the contraction with `lb / max (n, 1)` is `S / max (n,1) - (n / max (n,1)) * log E`.
  * If `n ≥ 1` then `max (n, 1) = n` and the threshold (between 0 and 1) is below `n`: both sides are
    `-(1 / A) * (S / n - log E)`. If `n = 0` the indicator is 0 and both sides are `0 * (a real) = 0`.
-/
import Mathlib.Data.EReal.Basic
import Mathlib.Data.EReal.Operations
import Mathlib.Data.Finset.Fold
import Mathlib.Algebra.BigOperators.Fin
import Mathlib.Logic.Equiv.Fin.Basic
import Mathlib.Analysis.SpecialFunctions.Log.Basic
import Mathlib.Tactic.LinearCombination
import Mathlib.Tactic.Ring
import Mathlib.Tactic.NormNum
import Idealize.ShloMosaic.PureOps.Ideal
import proofs.«168933_j69020124447445_1_alg».proof.Proof.Spec
import proofs.«168933_j69020124447445_1_alg».proof.Proof.Consts

noncomputable section

namespace Cert.RowLoss

open Idealize.ShloMosaic

/-! ## Coercion of reals into the extended reals commutes with the operations used -/

/-- The coercion commutes with finite sums. -/
private theorem coe_sum {ι : Type*} (s : Finset ι) (f : ι → ℝ) :
    ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- The coercion commutes with the maximum of two reals (it is monotone). -/
private theorem coe_max (u v : ℝ) : max (u : EReal) (v : EReal) = ((max u v : ℝ) : EReal) := by
  rcases le_total u v with h | h
  · rw [max_eq_right h, max_eq_right (EReal.coe_le_coe_iff.mpr h)]
  · rw [max_eq_left h, max_eq_left (EReal.coe_le_coe_iff.mpr h)]

/-- A fold of `max`, from a start below ⊤, over a nonempty family of reals is a real: it is below ⊤ because the start
    and every member are, and above ⊥ because some member is. -/
private theorem fold_max_real {n : ℕ} (hn : 0 < n) (b : EReal) (hb : b ≠ ⊤) (f : Fin n → ℝ) :
    ∃ r : ℝ, (Finset.univ : Finset (Fin n)).fold max b (fun i => (f i : EReal)) = (r : EReal) := by
  refine ⟨_, (EReal.coe_toReal ?_ ?_).symm⟩
  · rw [← lt_top_iff_ne_top, Finset.fold_max_lt]
    exact ⟨lt_top_iff_ne_top.mpr hb, fun i _ => EReal.coe_lt_top _⟩
  · rw [← bot_lt_iff_ne_bot, Finset.lt_fold_max]
    exact Or.inr ⟨⟨0, hn⟩, Finset.mem_univ _, EReal.bot_lt_coe _⟩

/-- The sum of the exponentials of real logits relative to a real `μ` is the real `(∑ exp g) * exp (-μ)`. -/
private theorem sum_exp_coe {ι : Type*} [Fintype ι] (f : ι → EReal) (g : ι → ℝ) (h : ∀ i, f i = (g i : EReal)) (μ : ℝ) :
    ∑ i, Ideal.exp (f i - (μ : EReal)) = (((∑ i, Real.exp (g i)) * Real.exp (-μ) : ℝ) : EReal) := by
  rw [Finset.sum_mul, coe_sum]
  refine Finset.sum_congr rfl (fun i _ => ?_)
  rw [h, ← EReal.coe_sub, Ideal.exp_coe, sub_eq_add_neg, Real.exp_add]

/-- A sum of real data read through the coercion. -/
private theorem sum_coe' {ι : Type*} [Fintype ι] (f : ι → EReal) (g : ι → ℝ) (h : ∀ i, f i = (g i : EReal)) :
    ∑ i, f i = ((∑ i, g i : ℝ) : EReal) := by
  rw [coe_sum]; exact Finset.sum_congr rfl (fun i _ => h i)

/-! ## The kernel's recurrence on real data -/

/-- A tile of real logits has a real maximum. -/
private theorem top_real (t : Tile) (a0 b0 : Fin 512 → ℝ) (hxp : ∀ y, t.xp y = (a0 y : EReal))
    (hxn : ∀ y, t.xn y = (b0 y : EReal)) : ∃ τ : ℝ, t.top = (τ : EReal) := by
  have hb : ninfW ≠ ⊤ := by rw [ninfW_eq]; exact bot_ne_top
  obtain ⟨r1, h1⟩ := fold_max_real (by norm_num : 0 < 512) ninfW hb a0
  obtain ⟨r2, h2⟩ := fold_max_real (by norm_num : 0 < 512) ninfW hb b0
  refine ⟨max r1 r2, ?_⟩
  rw [Tile.top, funext hxp, funext hxn, h1, h2, coe_max]

/-- One tile folded into accumulators that are either the initial ones (`m = ⊥`, `l = 0`) or real with
    `l = E * exp (-m)`: the new maximum is a real `μ'` and the new `l` is `(E + ∑ exp a + ∑ exp b) * exp (-μ')`,
    because `exp (μ - μ') * exp (-μ) = exp (-μ')` and `exp (x - μ') = exp x * exp (-μ')`; the plain sums grow. -/
private theorem step_real (st : Acc) (t : Tile) (a0 b0 l0 p0 : Fin 512 → ℝ)
    (hxp : ∀ y, t.xp y = (a0 y : EReal)) (hxn : ∀ y, t.xn y = (b0 y : EReal))
    (hlb : ∀ y, t.lb y = (l0 y : EReal)) (hpp : ∀ y, t.pp y = (p0 y : EReal))
    (E S N A : ℝ)
    (hm : (st.m = ⊥ ∧ st.l = 0 ∧ E = 0) ∨ ∃ μ : ℝ, st.m = (μ : EReal) ∧ st.l = ((E * Real.exp (-μ) : ℝ) : EReal))
    (hs : st.s = (S : EReal)) (hn : st.n = (N : EReal)) (ha : st.a = (A : EReal)) :
    ∃ μ' : ℝ, (st.step t).m = (μ' : EReal)
      ∧ (st.step t).l = (((E + (∑ y, Real.exp (a0 y) + ∑ y, Real.exp (b0 y))) * Real.exp (-μ') : ℝ) : EReal)
      ∧ (st.step t).s = ((S + ∑ y, l0 y * a0 y : ℝ) : EReal)
      ∧ (st.step t).n = ((N + ∑ y, l0 y : ℝ) : EReal)
      ∧ (st.step t).a = ((A + ∑ y, p0 y : ℝ) : EReal) := by
  obtain ⟨τ, hτ⟩ := top_real t a0 b0 hxp hxn
  have hs' : (st.step t).s = ((S + ∑ y, l0 y * a0 y : ℝ) : EReal) := by
    show st.s + ∑ x : Fin 512, t.lb x * t.xp x = _
    rw [hs, EReal.coe_add, sum_coe' (fun x => t.lb x * t.xp x) (fun y => l0 y * a0 y)
      (fun y => by rw [hlb, hxp, EReal.coe_mul])]
  have hn' : (st.step t).n = ((N + ∑ y, l0 y : ℝ) : EReal) := by
    show st.n + ∑ x : Fin 512, t.lb x = _
    rw [hn, EReal.coe_add, sum_coe' _ _ hlb]
  have ha' : (st.step t).a = ((A + ∑ y, p0 y : ℝ) : EReal) := by
    show st.a + ∑ x : Fin 512, t.pp x = _
    rw [ha, EReal.coe_add, sum_coe' _ _ hpp]
  rcases hm with ⟨hm0, hl0, hE⟩ | ⟨μ, hmμ, hlμ⟩
  · have hmax : max st.m t.top = (τ : EReal) := by rw [hm0, hτ]; exact max_eq_right bot_le
    refine ⟨τ, hmax, ?_, hs', hn', ha'⟩
    show (Ideal.exp (st.m - max st.m t.top) * st.l + ∑ x : Fin 512, Ideal.exp (t.xp x - max st.m t.top))
           + ∑ x : Fin 512, Ideal.exp (t.xn x - max st.m t.top) = _
    rw [hmax, hl0, mul_zero, zero_add, sum_exp_coe _ _ hxp, sum_exp_coe _ _ hxn, ← EReal.coe_add, hE]
    congr 1; ring
  · have hmax : max st.m t.top = ((max μ τ : ℝ) : EReal) := by rw [hmμ, hτ, coe_max]
    refine ⟨max μ τ, hmax, ?_, hs', hn', ha'⟩
    show (Ideal.exp (st.m - max st.m t.top) * st.l + ∑ x : Fin 512, Ideal.exp (t.xp x - max st.m t.top))
           + ∑ x : Fin 512, Ideal.exp (t.xn x - max st.m t.top) = _
    rw [hmax, hmμ, hlμ, sum_exp_coe _ _ hxp, sum_exp_coe _ _ hxn, ← EReal.coe_sub, Ideal.exp_coe,
      ← EReal.coe_mul, ← EReal.coe_add, ← EReal.coe_add]
    congr 1
    have h : Real.exp (μ - max μ τ) * Real.exp (-μ) = Real.exp (-(max μ τ)) := by
      rw [← Real.exp_add]; congr 1; ring
    linear_combination E * h

/-- The tiles `0 … c`. -/
private def upTo (c : ℕ) : Finset (Fin 8) := Finset.univ.filter (fun k => k.val ≤ c)

private theorem upTo_zero (h : 0 < 8) : upTo 0 = {⟨0, h⟩} := by
  ext k
  simp only [upTo, Finset.mem_filter, Finset.mem_singleton, Finset.mem_univ, true_and, Fin.ext_iff]
  omega

private theorem upTo_succ (c : ℕ) (h : c + 1 < 8) : upTo (c + 1) = insert ⟨c + 1, h⟩ (upTo c) := by
  ext k
  simp only [upTo, Finset.mem_filter, Finset.mem_insert, Finset.mem_univ, true_and, Fin.ext_iff]
  omega

private theorem not_mem_upTo (c : ℕ) (h : c + 1 < 8) : (⟨c + 1, h⟩ : Fin 8) ∉ upTo c := by
  simp only [upTo, Finset.mem_filter, Finset.mem_univ, true_and]
  omega

private theorem upTo_seven : upTo 7 = Finset.univ := by
  ext k
  simp only [upTo, Finset.mem_filter, Finset.mem_univ, true_and, iff_true]
  omega

/-- After tiles `0 … c` of real data the accumulators are real: the maximum is some real `μ`, the sum of exponentials
    is `(∑ over the tiles seen of exp a + exp b) * exp (-μ)`, and the three plain sums are the partial sums. By induction on
    `c`, one step at a time. -/
private theorem upto_real (T : Fin 8 → Tile) (a b l p : Fin 8 → Fin 512 → ℝ)
    (hxp : ∀ c y, (T c).xp y = (a c y : EReal)) (hxn : ∀ c y, (T c).xn y = (b c y : EReal))
    (hlb : ∀ c y, (T c).lb y = (l c y : EReal)) (hpp : ∀ c y, (T c).pp y = (p c y : EReal)) :
    ∀ (c : ℕ) (h : c < 8), ∃ μ : ℝ, (Acc.upto T c h).m = (μ : EReal)
      ∧ (Acc.upto T c h).l
          = (((∑ k ∈ upTo c, (∑ y, Real.exp (a k y) + ∑ y, Real.exp (b k y))) * Real.exp (-μ) : ℝ) : EReal)
      ∧ (Acc.upto T c h).s = ((∑ k ∈ upTo c, ∑ y, l k y * a k y : ℝ) : EReal)
      ∧ (Acc.upto T c h).n = ((∑ k ∈ upTo c, ∑ y, l k y : ℝ) : EReal)
      ∧ (Acc.upto T c h).a = ((∑ k ∈ upTo c, ∑ y, p k y : ℝ) : EReal) := by
  intro c
  induction c with
  | zero =>
    intro h
    have e : Acc.upto T 0 h = Acc.init.step (T ⟨0, h⟩) := rfl
    have z : zeroW = ((0 : ℝ) : EReal) := zeroW_eq.trans EReal.coe_zero.symm
    obtain ⟨μ, g1, g2, g3, g4, g5⟩ := step_real Acc.init (T ⟨0, h⟩) _ _ _ _ (hxp _) (hxn _) (hlb _) (hpp _) 0 0 0 0
      (Or.inl ⟨ninfW_eq, zeroW_eq, rfl⟩) z z z
    refine ⟨μ, by rw [e, g1], ?_, ?_, ?_, ?_⟩
    · rw [e, g2, upTo_zero h, Finset.sum_singleton, zero_add]
    · rw [e, g3, upTo_zero h, Finset.sum_singleton, zero_add]
    · rw [e, g4, upTo_zero h, Finset.sum_singleton, zero_add]
    · rw [e, g5, upTo_zero h, Finset.sum_singleton, zero_add]
  | succ c ih =>
    intro h
    obtain ⟨μ, h1, h2, h3, h4, h5⟩ := ih (Nat.lt_of_succ_lt h)
    have e : Acc.upto T (c + 1) h = (Acc.upto T c (Nat.lt_of_succ_lt h)).step (T ⟨c + 1, h⟩) := rfl
    obtain ⟨μ', g1, g2, g3, g4, g5⟩ := step_real _ (T ⟨c + 1, h⟩) _ _ _ _ (hxp _) (hxn _) (hlb _) (hpp _) _ _ _ _
      (Or.inr ⟨μ, h1, h2⟩) h3 h4 h5
    refine ⟨μ', by rw [e, g1], ?_, ?_, ?_, ?_⟩
    · rw [e, g2, upTo_succ c h, Finset.sum_insert (not_mem_upTo c h)]; congr 1; ring
    · rw [e, g3, upTo_succ c h, Finset.sum_insert (not_mem_upTo c h)]; congr 1; ring
    · rw [e, g4, upTo_succ c h, Finset.sum_insert (not_mem_upTo c h)]; congr 1; ring
    · rw [e, g5, upTo_succ c h, Finset.sum_insert (not_mem_upTo c h)]; congr 1; ring

/-! ## The concatenated vector: 8192 positions as two copies of 8 tiles of 512 keys -/

/-- The position of key `y` of tile `c` in the first half. -/
private def idx1 (c : Fin 8) (y : Fin 512) : Fin 8192 := ⟨c.val * 512 + y.val, by omega⟩
/-- The position of key `y` of tile `c` in the second half. -/
private def idx2 (c : Fin 8) (y : Fin 512) : Fin 8192 := ⟨4096 + (c.val * 512 + y.val), by omega⟩

/-- Every position is one of the two kinds: `q = 512 (q / 512) + q % 512`, below or above 4096. -/
private theorem forall_split (P : Fin 8192 → Prop) (h1 : ∀ c y, P (idx1 c y)) (h2 : ∀ c y, P (idx2 c y)) : ∀ q, P q := by
  intro q
  by_cases h : q.val < 4096
  · have e : q = idx1 ⟨q.val / 512, by omega⟩ ⟨q.val % 512, by omega⟩ := by
      apply Fin.ext; simp only [idx1]; omega
    rw [e]; exact h1 _ _
  · have e : q = idx2 ⟨(q.val - 4096) / 512, by omega⟩ ⟨(q.val - 4096) % 512, by omega⟩ := by
      apply Fin.ext; simp only [idx2]; omega
    rw [e]; exact h2 _ _

/-- A sum over the 8192 positions is the sum over the first half plus the sum over the second, each by tile and key. -/
private theorem sum_split {M : Type*} [AddCommMonoid M] (f : Fin 8192 → M) :
    ∑ q, f q = ∑ c : Fin 8, ∑ y : Fin 512, f (idx1 c y) + ∑ c : Fin 8, ∑ y : Fin 512, f (idx2 c y) := by
  have hblk : ∀ g : Fin 4096 → M,
      ∑ i, g i = ∑ c : Fin 8, ∑ y : Fin 512, g ⟨c.val * 512 + y.val, by omega⟩ := by
    intro g
    have := (finProdFinEquiv (m := 8) (n := 512)).sum_comp g
    rw [← this, Fintype.sum_prod_type]
    refine Finset.sum_congr rfl (fun c _ => Finset.sum_congr rfl (fun y _ => ?_))
    congr 1; apply Fin.ext; simp [finProdFinEquiv]; omega
  refine (Fin.sum_univ_add (a := 4096) (b := 4096) f).trans ?_
  rw [hblk (fun i => f (Fin.castAdd 4096 i)), hblk (fun i => f (Fin.natAdd 4096 i))]
  rfl

/-! ## Both shapes in closed form on real data -/

/-- For `E > 0`, `log (E * exp (-μ)) = log E - μ`, on the real branch of the logarithm. -/
private theorem log_scaled (E μ : ℝ) (hE : 0 < E) :
    Ideal.log (((E * Real.exp (-μ) : ℝ)) : EReal) = ((Real.log E - μ : ℝ) : EReal) := by
  rw [Ideal.log_coe, if_neg (not_le.mpr (mul_pos hE (Real.exp_pos _))),
    Real.log_mul hE.ne' (Real.exp_pos _).ne', Real.log_exp, sub_eq_add_neg]

/-- The divisor `max (n, 1)` on a real `n`. -/
private theorem max_oneW (N : ℝ) : max (N : EReal) oneW = ((max N 1 : ℝ) : EReal) := by
  rw [oneW_eq, ← EReal.coe_one, coe_max]

private theorem max_one_ne_zero (N : ℝ) : max N 1 ≠ 0 := (lt_of_lt_of_le one_pos (le_max_right N 1)).ne'

/-- The kernel's row value on real data: with `μ` the final running maximum, `μ + log (E * exp (-μ)) = log E` where `E` is
    the sum of the exponentials of all 8192 logits, so the value does not depend on `μ`. -/
private theorem kerRow_real (T : Fin 8 → Tile) (a b l p : Fin 8 → Fin 512 → ℝ)
    (hxp : ∀ c y, (T c).xp y = (a c y : EReal)) (hxn : ∀ c y, (T c).xn y = (b c y : EReal))
    (hlb : ∀ c y, (T c).lb y = (l c y : EReal)) (hpp : ∀ c y, (T c).pp y = (p c y : EReal))
    (hA : (∑ c : Fin 8, ∑ y : Fin 512, p c y) ≠ 0) :
    kerRow T
      = (zeroW - ind (thrW < ((∑ c : Fin 8, ∑ y : Fin 512, l c y : ℝ) : EReal))
            * ((1 / ∑ c : Fin 8, ∑ y : Fin 512, p c y : ℝ) : EReal))
        * (((∑ c : Fin 8, ∑ y : Fin 512, l c y * a c y) * (1 / max (∑ c : Fin 8, ∑ y : Fin 512, l c y) 1)
              - Real.log (∑ c : Fin 8, (∑ y : Fin 512, Real.exp (a c y) + ∑ y : Fin 512, Real.exp (b c y))) : ℝ) : EReal) := by
  obtain ⟨μ, h1, h2, h3, h4, h5⟩ := upto_real T a b l p hxp hxn hlb hpp 7 (by decide)
  rw [upTo_seven] at h2 h3 h4 h5
  have ne8 : (Finset.univ : Finset (Fin 8)).Nonempty := ⟨⟨0, by norm_num⟩, Finset.mem_univ _⟩
  have ne512 : (Finset.univ : Finset (Fin 512)).Nonempty := ⟨⟨0, by norm_num⟩, Finset.mem_univ _⟩
  have hE : 0 < ∑ c : Fin 8, (∑ y : Fin 512, Real.exp (a c y) + ∑ y : Fin 512, Real.exp (b c y)) :=
    Finset.sum_pos (fun c _ => add_pos (Finset.sum_pos (fun y _ => Real.exp_pos _) ne512)
      (Finset.sum_pos (fun y _ => Real.exp_pos _) ne512)) ne8
  rw [kerRow, Acc.loss, h1, h2, h3, h4, h5, max_oneW, Ideal.div_coe hA, Ideal.div_coe (max_one_ne_zero _),
    log_scaled _ _ hE, ← EReal.coe_mul, ← EReal.coe_add, ← EReal.coe_sub]
  congr 2; ring

/-- The reference's row value on real data: with `M` the (real) maximum, `L = E * exp (-M)` and
    `(x - M) - log L = x - log E`. -/
private theorem refRow_real (x lb : Fin 8192 → EReal) (area : EReal) (xr lr : Fin 8192 → ℝ) (A : ℝ)
    (hx : ∀ q, x q = (xr q : EReal)) (hl : ∀ q, lb q = (lr q : EReal)) (hA : area = (A : EReal)) (hA0 : A ≠ 0) :
    refRow x lb area
      = (-(ind (thrW < ((∑ q, lr q : ℝ) : EReal)) * ((1 / A : ℝ) : EReal)))
        * ((∑ q, lr q * (1 / max (∑ q, lr q) 1) * (xr q - Real.log (∑ q, Real.exp (xr q))) : ℝ) : EReal) := by
  have hb : ninfW ≠ ⊤ := by rw [ninfW_eq]; exact bot_ne_top
  obtain ⟨M', hM'⟩ := fold_max_real (by norm_num : 0 < 8192) ninfW hb xr
  have hM : max ninfW ((Finset.univ : Finset (Fin 8192)).fold max ninfW x) = (M' : EReal) := by
    rw [funext hx, hM', ninfW_eq]; exact max_eq_right bot_le
  have hn : zeroW + ∑ q, lb q = ((∑ q, lr q : ℝ) : EReal) := by rw [zeroW_eq, zero_add, sum_coe' _ _ hl]
  have hE : 0 < ∑ q, Real.exp (xr q) :=
    Finset.sum_pos (fun q _ => Real.exp_pos _) ⟨⟨0, by norm_num⟩, Finset.mem_univ _⟩
  have hL : zeroW + ∑ q, Ideal.exp (x q - (M' : EReal))
      = (((∑ q, Real.exp (xr q)) * Real.exp (-M') : ℝ) : EReal) := by
    rw [zeroW_eq, zero_add, sum_exp_coe _ _ hx]
  rw [refRow]
  simp only [hn, hM, hL, log_scaled _ _ hE, max_oneW]
  rw [hA, Ideal.div_coe hA0, zeroW_eq, zero_add]
  refine congrArg₂ (fun u v : EReal => u * v) rfl
    ((Finset.sum_congr rfl (fun q _ => ?_)).trans (coe_sum _ _).symm)
  rw [hl, hx, Ideal.div_coe (max_one_ne_zero _), ← EReal.coe_mul, ← EReal.coe_sub, ← EReal.coe_sub, ← EReal.coe_mul]
  refine congrArg (fun r : ℝ => (r : EReal)) ?_
  ring

/-! ## The two shapes agree -/

/-- A family of 0/1 values sums to 0 or to at least 1. -/
private theorem sum01 (l : Fin 8 → Fin 512 → ℝ) (hl01 : ∀ c y, l c y = 0 ∨ l c y = 1) :
    (∑ c : Fin 8, ∑ y : Fin 512, l c y) = 0 ∨ 1 ≤ ∑ c : Fin 8, ∑ y : Fin 512, l c y := by
  have h0 : ∀ c y, 0 ≤ l c y := fun c y => by rcases hl01 c y with h | h <;> rw [h]; norm_num
  by_cases hall : ∀ c y, l c y = 0
  · left; simp only [hall, Finset.sum_const_zero]
  · right
    obtain ⟨c, hc⟩ := not_forall.mp hall
    obtain ⟨y, hcy⟩ := not_forall.mp hc
    have h1 : l c y = 1 := (hl01 c y).resolve_left hcy
    calc (1 : ℝ) = l c y := h1.symm
      _ ≤ ∑ y : Fin 512, l c y := Finset.single_le_sum (f := fun y => l c y) (fun y _ => h0 c y) (Finset.mem_univ y)
      _ ≤ ∑ c : Fin 8, ∑ y : Fin 512, l c y :=
          Finset.single_le_sum (f := fun c => ∑ y : Fin 512, l c y)
            (fun c _ => Finset.sum_nonneg (fun y _ => h0 c y)) (Finset.mem_univ c)

/-- On real data whose labels are 0/1 and whose area is positive, the online recurrence over eight tiles and the
    log-softmax of the concatenated logits give the row the same loss. Both reduce to
    `-(w) * (S / max(n,1) - (n / max(n,1)) * log E)` resp. `-(w) * (S / max(n,1) - log E)` with `E` the sum of the
    exponentials of all logits, `S` the sum of the positive logits and `n` the number of positives; for `n ≥ 1` the
    factor `n / max(n,1)` is 1, and for `n = 0` the weight `w` is 0 (the threshold is positive) and both sides vanish. -/
theorem kerRow_eq_refRow
    (T : Fin 8 → Tile) (x lb : Fin 8192 → EReal) (area : EReal)
    (a b l p : Fin 8 → Fin 512 → ℝ)
    (hxp : ∀ c y, (T c).xp y = (a c y : EReal)) (hxn : ∀ c y, (T c).xn y = (b c y : EReal))
    (hlb : ∀ c y, (T c).lb y = (l c y : EReal)) (hpp : ∀ c y, (T c).pp y = (p c y : EReal))
    (hl01 : ∀ c y, l c y = 0 ∨ l c y = 1) (hp0 : ∀ c y, 0 ≤ p c y) (hp1 : 0 < ∑ c : Fin 8, ∑ y : Fin 512, p c y)
    (hx1 : ∀ (c : Fin 8) (y : Fin 512) (h : c.val * 512 + y.val < 8192), x ⟨c.val * 512 + y.val, h⟩ = (T c).xp y)
    (hx2 : ∀ (c : Fin 8) (y : Fin 512) (h : 4096 + (c.val * 512 + y.val) < 8192), x ⟨4096 + (c.val * 512 + y.val), h⟩ = (T c).xn y)
    (hb1 : ∀ (c : Fin 8) (y : Fin 512) (h : c.val * 512 + y.val < 8192), lb ⟨c.val * 512 + y.val, h⟩ = (T c).lb y)
    (hb2 : ∀ q : Fin 8192, 4096 ≤ q.val → lb q = zeroW)
    (har : area = zeroW + ∑ c : Fin 8, ∑ y : Fin 512, (T c).pp y) :
    kerRow T = refRow x lb area := by
  -- the concatenated vectors read as reals, position by position
  have hx1' : ∀ c y, x (idx1 c y) = (a c y : EReal) := fun c y => (hx1 c y _).trans (hxp c y)
  have hx2' : ∀ c y, x (idx2 c y) = (b c y : EReal) := fun c y => (hx2 c y _).trans (hxn c y)
  have hb1' : ∀ c y, lb (idx1 c y) = (l c y : EReal) := fun c y => (hb1 c y _).trans (hlb c y)
  have hb2' : ∀ c y, lb (idx2 c y) = ((0 : ℝ) : EReal) := fun c y =>
    (hb2 _ (by simp only [idx2]; omega)).trans (zeroW_eq.trans EReal.coe_zero.symm)
  have hx : ∀ q, x q = (((x q).toReal : ℝ) : EReal) :=
    forall_split _ (fun c y => by rw [hx1', EReal.toReal_coe]) (fun c y => by rw [hx2', EReal.toReal_coe])
  have hl : ∀ q, lb q = (((lb q).toReal : ℝ) : EReal) :=
    forall_split _ (fun c y => by rw [hb1', EReal.toReal_coe]) (fun c y => by rw [hb2', EReal.toReal_coe])
  have hA : area = ((∑ c : Fin 8, ∑ y : Fin 512, p c y : ℝ) : EReal) := by
    rw [har, zeroW_eq, zero_add]
    exact sum_coe' (fun c => ∑ y : Fin 512, (T c).pp y) (fun c => ∑ y : Fin 512, p c y) (fun c => sum_coe' _ _ (hpp c))
  -- the three sums over the 8192 positions, by tile and key
  have hN' : ∑ q, (lb q).toReal = ∑ c : Fin 8, ∑ y : Fin 512, l c y := by
    rw [sum_split]; simp only [hb1', hb2', EReal.toReal_coe, Finset.sum_const_zero, add_zero]
  have hE' : ∑ q, Real.exp ((x q).toReal)
      = ∑ c : Fin 8, (∑ y : Fin 512, Real.exp (a c y) + ∑ y : Fin 512, Real.exp (b c y)) := by
    rw [sum_split, Finset.sum_add_distrib]; simp only [hx1', hx2', EReal.toReal_coe]
  have hsum : ∀ D LSE : ℝ, ∑ q, (lb q).toReal * (1 / D) * ((x q).toReal - LSE)
      = (∑ c : Fin 8, ∑ y : Fin 512, l c y * a c y) * (1 / D)
        - (∑ c : Fin 8, ∑ y : Fin 512, l c y) * ((1 / D) * LSE) := by
    intro D LSE
    have e : ∀ c y, l c y * (1 / D) * (a c y - LSE) = l c y * a c y * (1 / D) - l c y * ((1 / D) * LSE) := by
      intro c y; ring
    rw [sum_split]
    simp only [hb1', hb2', hx1', hx2', EReal.toReal_coe, zero_mul, Finset.sum_const_zero, add_zero, e,
      Finset.sum_sub_distrib, ← Finset.sum_mul]
  rw [kerRow_real T a b l p hxp hxn hlb hpp hp1.ne', refRow_real x lb area _ _ _ hx hl hA hp1.ne', hN', hE', hsum]
  obtain ⟨θ, hθ, hθ0, hθ1⟩ := thrW_eq
  rw [hθ]
  rcases sum01 l hl01 with hN0 | hN1
  · have hi : ind ((θ : EReal) < ((∑ c : Fin 8, ∑ y : Fin 512, l c y : ℝ) : EReal)) = 0 := by
      rw [ind, if_neg]; rw [hN0]; exact not_lt.mpr (EReal.coe_le_coe_iff.mpr hθ0.le)
    rw [hi, zero_mul, zeroW_eq]
    simp only [sub_eq_add_neg, neg_zero, add_zero, zero_mul]
  · have hi : ind ((θ : EReal) < ((∑ c : Fin 8, ∑ y : Fin 512, l c y : ℝ) : EReal)) = 1 := by
      rw [ind, if_pos]; exact EReal.coe_lt_coe_iff.mpr (lt_of_lt_of_le hθ1 hN1)
    have hN : (∑ c : Fin 8, ∑ y : Fin 512, l c y) ≠ 0 := (lt_of_lt_of_le one_pos hN1).ne'
    rw [hi, one_mul, zeroW_eq, sub_eq_add_neg, zero_add, max_eq_left hN1, ← mul_assoc, mul_one_div_cancel hN, one_mul]

end Cert.RowLoss

end
-- ==== Proof.NormReal.lean ====
/- A feature vector of real entries that is not zero has a positive real norm, so its normalised entries are real. -/
import proofs.«168933_j69020124447445_1_alg».proof.Proof.RowData
import Idealize.ShloMosaic.PureOps.Ideal.Laws
noncomputable section
namespace Cert.RowLoss
open Idealize.ShloMosaic Idealize.ShloMosaic.ValueIdx

/-- The embedding of the reals in the extended reals commutes with finite sums: by induction on the index set, one
    summand at a time, since it commutes with the sum of two reals. -/
private theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A normalised entry is a real number. With real entries `f` the sum of squares (from the zero word, which is 0) is the
    real `s = ∑ f²`; it is positive because the vector is not zero, so its square root is the real `√s ≠ 0` and the
    quotient by it is the real `f k · (1 / √s)`. -/
theorem nrmAt_real (A : Feat) (h : Good A) (b : Fin 256) (n : Fin 16) (k : Fin 256) :
    ∃ r : ℝ, nrmAt A b n k = (r : EReal) := by
  choose f hf using h.real
  have hs : zeroW + ∑ k' : Fin 256, A (ix3 b n k') * A (ix3 b n k')
      = ((∑ k' : Fin 256, f (ix3 b n k') * f (ix3 b n k') : ℝ) : EReal) := by
    rw [show zeroW = (0 : EReal) from Ideal.ofBits_zero_f32, zero_add, coe_finset_sum]
    exact Finset.sum_congr rfl fun k' _ => by rw [hf, EReal.coe_mul]
  have hpos : (0 : ℝ) < ∑ k' : Fin 256, f (ix3 b n k') * f (ix3 b n k') := by
    have := h.nonzero b n
    rw [hs] at this
    exact_mod_cast this
  have hne : Real.sqrt (∑ k' : Fin 256, f (ix3 b n k') * f (ix3 b n k')) ≠ 0 :=
    (Real.sqrt_pos.2 hpos).ne'
  refine ⟨f (ix3 b n k) * (1 / Real.sqrt (∑ k' : Fin 256, f (ix3 b n k') * f (ix3 b n k'))), ?_⟩
  unfold nrmAt
  rw [hs, Ideal.sqrt_coe, if_neg (not_lt.2 hpos.le), Ideal.div_coe hne, hf, EReal.coe_mul]
end Cert.RowLoss
end
-- ==== Proof.Bridge.lean ====
/-
  On arguments with real entries and no zero feature vector the kernel's arrangement of the loss and the reference's agree.

  The kernel flattens (image, region) to a row `i = 16 b + n` and meets the 4096 keys in eight tiles of 512; the reference
  keeps (image, region) apart and lays each row's logits out as 8192 entries, the positive family first. Entry `j < 4096`
  is key (j / 16, j % 16) of the positive family and entry `4096 + j` the same key of the negative family, so lane `y` of
  tile `c` is entry `512 c + y` (resp. `4096 + 512 c + y`). The "same image" factors agree (`i / 16 = j / 16` against an
  identity matrix on images), and where that factor is 1 the "same object" factors read the same id; where it is 0 both
  products vanish. The kernel's object area sums over all keys masked to the query's image, the reference's over the 16
  regions of that image: the same sum. All tile data are real (normalised rows, real constants, 0/1 indicators), and the
  query's own key puts a 1 in the area, so the row statement applies row by row; finally both means run over the same
  4096 rows and divide by the same constant.
-/
import proofs.«168933_j69020124447445_1_alg».proof.Proof.RowMath
import proofs.«168933_j69020124447445_1_alg».proof.Proof.NormReal
import Idealize.ShloMosaic.Lib.ValueIdx
import Idealize.ShloMosaic.PureOps.Ideal.Laws
noncomputable section
namespace Cert.RowLoss
open Idealize.ShloMosaic Idealize.ShloMosaic.ValueIdx

namespace Bridge

/-! ## Layout: rows, keys and the reference's entries -/

/-- A row is the row of its image and region: `16 (i / 16) + i % 16 = i`. -/
theorem rowOf_img_roi (i : Fin 4096) : rowOf (imgOf i) (roiOf i) = i := by
  apply Fin.ext; simp only [rowOf, imgOf, roiOf]; omega

/-- The image of row `16 b + n` is `b` (as `n < 16`). -/
theorem imgOf_rowOf (b : Fin 256) (n : Fin 16) : imgOf (rowOf b n) = b := by
  apply Fin.ext; simp only [rowOf, imgOf]; omega

/-- The region of row `16 b + n` is `n`. -/
theorem roiOf_rowOf (b : Fin 256) (n : Fin 16) : roiOf (rowOf b n) = n := by
  apply Fin.ext; simp only [rowOf, roiOf]; omega

/-- Rows are pairs (image, region). -/
def rowEquiv : Fin 4096 ≃ Fin 256 × Fin 16 where
  toFun i := (imgOf i, roiOf i)
  invFun p := rowOf p.1 p.2
  left_inv i := rowOf_img_roi i
  right_inv p := Prod.ext (imgOf_rowOf p.1 p.2) (roiOf_rowOf p.1 p.2)

/-- Keys are pairs (tile, lane): key `j` sits at lane `j % 512` of tile `j / 512`. -/
def keyEquiv : Fin 8 × Fin 512 ≃ Fin 4096 where
  toFun p := keyOf p.1 p.2
  invFun j := (⟨j.val / 512, by have := j.isLt; omega⟩, ⟨j.val % 512, by omega⟩)
  left_inv p := by
    obtain ⟨c, y⟩ := p
    have := c.isLt; have := y.isLt
    apply Prod.ext <;> apply Fin.ext <;> simp only [keyOf] <;> omega
  right_inv j := by apply Fin.ext; simp only [keyOf]; omega

/-- A sum over the rows is the double sum over images and regions. -/
theorem sum_rows (G : Fin 256 → Fin 16 → EReal) :
    ∑ i : Fin 4096, G (imgOf i) (roiOf i) = ∑ b : Fin 256, ∑ n : Fin 16, G b n := by
  rw [← Fintype.sum_prod_type (f := fun p : Fin 256 × Fin 16 => G p.1 p.2)]
  exact Equiv.sum_comp rowEquiv (fun p : Fin 256 × Fin 16 => G p.1 p.2)

/-- A double sum over tiles and lanes is the sum over the keys. -/
theorem sum_keys (g : Fin 4096 → EReal) :
    ∑ c : Fin 8, ∑ y : Fin 512, g (keyOf c y) = ∑ j : Fin 4096, g j := by
  rw [← Fintype.sum_prod_type (f := fun p : Fin 8 × Fin 512 => g (keyOf p.1 p.2))]
  exact Equiv.sum_comp keyEquiv g

/-! ## The reference's 8192 entries, read at key `j` of either half -/

/-- Entry `j < 4096` of the reference's logits is the positive family's logit against key (j / 16, j % 16). -/
theorem refX_lo (Q Kp Kn : Feat) (qi kn : Ids) (b : Fin 256) (n : Fin 16) (j : Fin 4096) (h : j.val < 8192) :
    refX Q Kp Kn qi kn b n ⟨j.val, h⟩
      = (∑ k : Fin 256, nrmAt Q b n k * nrmAt Kp (imgOf j) (roiOf j) k) * tenW := by
  have hj : j.val / 16 < 256 := by have := j.isLt; omega
  unfold refX
  rw [dif_pos hj]
  rfl

/-- Entry `4096 + j` of the reference's logits is the negative family's logit against key (j / 16, j % 16), masked:
    `(4096 + j) / 16 - 256 = j / 16` and `(4096 + j) % 16 = j % 16`. -/
theorem refX_hi (Q Kp Kn : Feat) (qi kn : Ids) (b : Fin 256) (n : Fin 16) (j : Fin 4096) (h : 4096 + j.val < 8192) :
    refX Q Kp Kn qi kn b n ⟨4096 + j.val, h⟩
      = (∑ k : Fin 256, nrmAt Q b n k * nrmAt Kn (imgOf j) (roiOf j) k) * tenW
          - (bigW * ind (b.val = j.val / 16)) * sameId (qi (ix2 b n)) (kn (ix2 b (roiOf j))) := by
  have hj : ¬ (4096 + j.val) / 16 < 256 := by omega
  have e1 : (4096 + j.val) / 16 - 256 = j.val / 16 := by omega
  have e2 : (4096 + j.val) % 16 = j.val % 16 := by omega
  unfold refX
  rw [dif_neg hj]
  simp only [roiQ, e1, e2]
  rfl

/-- Entry `j < 4096` of the reference's labels. -/
theorem refLb_lo (qi kp : Ids) (b : Fin 256) (n : Fin 16) (j : Fin 4096) (h : j.val < 8192) :
    refLb qi kp b n ⟨j.val, h⟩ = ind (b.val = j.val / 16) * sameId (qi (ix2 b n)) (kp (ix2 b (roiOf j))) := by
  have hj : j.val / 16 < 256 := by have := j.isLt; omega
  unfold refLb
  rw [if_pos hj]
  rfl

/-- The second half of the reference's labels is zero. -/
theorem refLb_hi (qi kp : Ids) (b : Fin 256) (n : Fin 16) (q : Fin 8192) (h : 4096 ≤ q.val) :
    refLb qi kp b n q = zeroW := by
  have hq : ¬ q.val / 16 < 256 := by omega
  unfold refLb
  rw [if_neg hq]

/-! ## Indicators -/

/-- The reference's label factor and the kernel's agree: when the key's image is the query's, the key's id is read at
    the same place; otherwise both products are 0. -/
theorem lb_eq (qi kp : Ids) (i j : Fin 4096) :
    ind ((imgOf i).val = j.val / 16) * sameId (qi (ix2 (imgOf i) (roiOf i))) (kp (ix2 (imgOf i) (roiOf j)))
      = sameImg i j * sameId (idAt qi i) (idAt kp j) := by
  by_cases h : i.val / 16 = j.val / 16
  · have hij : imgOf j = imgOf i := Fin.ext h.symm
    unfold sameImg idAt
    rw [hij]
    rfl
  · have h0 : ind ((imgOf i).val = j.val / 16) = 0 := if_neg h
    have h1 : sameImg i j = 0 := if_neg h
    rw [h0, h1, zero_mul, zero_mul]

/-- The reference's mask term and the kernel's agree, by the same two cases. -/
theorem mask_eq (qi kn : Ids) (i j : Fin 4096) :
    (bigW * ind ((imgOf i).val = j.val / 16)) * sameId (qi (ix2 (imgOf i) (roiOf i))) (kn (ix2 (imgOf i) (roiOf j)))
      = bigW * (sameImg i j * sameId (idAt qi i) (idAt kn j)) := by
  rw [mul_assoc, lb_eq]

/-! ## Real witnesses -/

/-- The embedding of the reals in the extended reals commutes with finite sums (induction on the index set). -/
theorem coe_sum_real {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real 0 or 1 of a truth value. -/
def ind01 (p : Prop) [Decidable p] : ℝ := if p then 1 else 0

theorem ind_coe01 (p : Prop) [Decidable p] : ind p = ((ind01 p : ℝ) : EReal) := by
  unfold ind ind01; split <;> simp

theorem ind01_nonneg (p : Prop) [Decidable p] : 0 ≤ ind01 p := by
  unfold ind01; split <;> norm_num

theorem ind01_mul_cases (p q : Prop) [Decidable p] [Decidable q] :
    ind01 p * ind01 q = 0 ∨ ind01 p * ind01 q = 1 := by
  unfold ind01; by_cases hp : p <;> by_cases hq : q <;> simp [hp, hq]

/-- A product of the two indicators of a tile is the embedding of the product of the real indicators. -/
theorem prod_coe (i j : Fin 4096) (u v : BitVec 32) :
    sameImg i j * sameId u v = ((ind01 (i.val / 16 = j.val / 16) * ind01 (u = v) : ℝ) : EReal) := by
  unfold sameImg sameId
  rw [ind_coe01, ind_coe01, EReal.coe_mul]

/-- With real normalised rows and a real temperature, a logit is the embedding of the real scaled dot product. -/
theorem logit_coe (Q K : Feat) (fQ fK : Fin 256 → Fin 16 → Fin 256 → ℝ)
    (hQ : ∀ b n k, nrmAt Q b n k = (fQ b n k : EReal)) (hK : ∀ b n k, nrmAt K b n k = (fK b n k : EReal))
    (t : ℝ) (ht : tenW = (t : EReal)) (i j : Fin 4096) :
    logit Q K i j = (((∑ k : Fin 256, fQ (imgOf i) (roiOf i) k * fK (imgOf j) (roiOf j) k) * t : ℝ) : EReal) := by
  unfold logit rowAt
  rw [ht, EReal.coe_mul, coe_sum_real]
  congr 1
  exact Finset.sum_congr rfl fun k _ => by rw [hQ, hK, EReal.coe_mul]

/-! ## The object area -/

/-- The kernel's area (over all 4096 keys, masked to the query's image) is the reference's (over the 16 regions of the
    query's image): split the keys by image; the other images contribute 0, the query's image its 16 regions. -/
theorem area_eq (qi : Ids) (i : Fin 4096) :
    refArea qi (imgOf i) (roiOf i)
      = zeroW + ∑ c : Fin 8, ∑ y : Fin 512, sameImg i (keyOf c y) * sameId (idAt qi i) (idAt qi (keyOf c y)) := by
  rw [sum_keys (fun j => sameImg i j * sameId (idAt qi i) (idAt qi j))]
  have key : (∑ j : Fin 4096, sameImg i j * sameId (idAt qi i) (idAt qi j))
      = ∑ u : Fin 256, ∑ m : Fin 16, ind ((imgOf i).val = u.val) * sameId (idAt qi i) (qi (ix2 u m)) :=
    sum_rows (fun (u : Fin 256) (m : Fin 16) => ind ((imgOf i).val = u.val) * sameId (idAt qi i) (qi (ix2 u m)))
  rw [key, Finset.sum_eq_single (imgOf i)]
  · unfold refArea
    congr 1
    refine Finset.sum_congr rfl fun m _ => ?_
    rw [show ind ((imgOf i).val = (imgOf i).val) = 1 from if_pos rfl, one_mul]
    rfl
  · intro u _ hu
    refine Finset.sum_eq_zero fun m _ => ?_
    rw [show ind ((imgOf i).val = u.val) = 0 from if_neg (fun h => hu (Fin.ext h.symm)), zero_mul]
  · intro h; exact absurd (Finset.mem_univ _) h

/-! ## One row -/

/-- For a query row `i` with image `b = i / 16` and region `n = i % 16`, the kernel's tiles and the reference's 8192
    entries describe the same row: the tile data are real (normalised rows, the temperature and the mask constant are
    real, the indicators are 0 or 1), the query's own key gives the area a term 1, entry `512 c + y` of the reference is
    lane `y` of tile `c` of the positive family and entry `4096 + 512 c + y` that of the negative family, and the areas
    agree; so the online recurrence and the log-softmax give the row the same loss. -/
theorem row_eq (Q Kp Kn : Feat) (qi kp kn : Ids) (hQ : Good Q) (hKp : Good Kp) (hKn : Good Kn) (i : Fin 4096) :
    kerRow (tileOf Q Kp Kn qi kp kn qi i)
      = refRow (refX Q Kp Kn qi kn (imgOf i) (roiOf i)) (refLb qi kp (imgOf i) (roiOf i))
          (refArea qi (imgOf i) (roiOf i)) := by
  choose fQ hfQ using nrmAt_real Q hQ
  choose fP hfP using nrmAt_real Kp hKp
  choose fN hfN using nrmAt_real Kn hKn
  obtain ⟨t, ht⟩ := tenW_real
  obtain ⟨B, hB⟩ := bigW_real
  refine kerRow_eq_refRow (tileOf Q Kp Kn qi kp kn qi i) _ _ _
    (fun c y => (∑ k : Fin 256, fQ (imgOf i) (roiOf i) k * fP (imgOf (keyOf c y)) (roiOf (keyOf c y)) k) * t)
    (fun c y => (∑ k : Fin 256, fQ (imgOf i) (roiOf i) k * fN (imgOf (keyOf c y)) (roiOf (keyOf c y)) k) * t
        - B * (ind01 (i.val / 16 = (keyOf c y).val / 16) * ind01 (idAt qi i = idAt kn (keyOf c y))))
    (fun c y => ind01 (i.val / 16 = (keyOf c y).val / 16) * ind01 (idAt qi i = idAt kp (keyOf c y)))
    (fun c y => ind01 (i.val / 16 = (keyOf c y).val / 16) * ind01 (idAt qi i = idAt qi (keyOf c y)))
    ?hxp ?hxn ?hlb ?hpp ?hl01 ?hp0 ?hp1 ?hx1 ?hx2 ?hb1 ?hb2 ?har
  case hxp => exact fun c y => logit_coe Q Kp fQ fP hfQ hfP t ht i (keyOf c y)
  case hxn =>
    intro c y
    show logit Q Kn i (keyOf c y) - bigW * (sameImg i (keyOf c y) * sameId (idAt qi i) (idAt kn (keyOf c y))) = _
    rw [logit_coe Q Kn fQ fN hfQ hfN t ht i (keyOf c y), hB, prod_coe, ← EReal.coe_mul, ← EReal.coe_sub]
  case hlb => exact fun c y => prod_coe i (keyOf c y) _ _
  case hpp => exact fun c y => prod_coe i (keyOf c y) _ _
  case hl01 => exact fun c y => ind01_mul_cases _ _
  case hp0 => exact fun c y => mul_nonneg (ind01_nonneg _) (ind01_nonneg _)
  case hp1 =>
    have hp0 : ∀ (c : Fin 8) (y : Fin 512),
        0 ≤ ind01 (i.val / 16 = (keyOf c y).val / 16) * ind01 (idAt qi i = idAt qi (keyOf c y)) :=
      fun c y => mul_nonneg (ind01_nonneg _) (ind01_nonneg _)
    have hk : keyOf (keyEquiv.symm i).1 (keyEquiv.symm i).2 = i := keyEquiv.apply_symm_apply i
    have h1 : ind01 (i.val / 16 = (keyOf (keyEquiv.symm i).1 (keyEquiv.symm i).2).val / 16)
        * ind01 (idAt qi i = idAt qi (keyOf (keyEquiv.symm i).1 (keyEquiv.symm i).2)) = 1 := by
      rw [hk]; unfold ind01; rw [if_pos rfl, if_pos rfl, mul_one]
    calc (0 : ℝ) < 1 := one_pos
      _ = _ := h1.symm
      _ ≤ ∑ y : Fin 512, ind01 (i.val / 16 = (keyOf (keyEquiv.symm i).1 y).val / 16)
            * ind01 (idAt qi i = idAt qi (keyOf (keyEquiv.symm i).1 y)) :=
          Finset.single_le_sum
            (f := fun y : Fin 512 => ind01 (i.val / 16 = (keyOf (keyEquiv.symm i).1 y).val / 16)
              * ind01 (idAt qi i = idAt qi (keyOf (keyEquiv.symm i).1 y)))
            (fun y _ => hp0 _ y) (Finset.mem_univ _)
      _ ≤ _ :=
          Finset.single_le_sum
            (f := fun c : Fin 8 => ∑ y : Fin 512, ind01 (i.val / 16 = (keyOf c y).val / 16)
              * ind01 (idAt qi i = idAt qi (keyOf c y)))
            (fun c _ => Finset.sum_nonneg fun y _ => hp0 c y) (Finset.mem_univ _)
  case hx1 => exact fun c y h => refX_lo Q Kp Kn qi kn (imgOf i) (roiOf i) (keyOf c y) h
  case hx2 =>
    intro c y h
    have e := refX_hi Q Kp Kn qi kn (imgOf i) (roiOf i) (keyOf c y) h
    rw [mask_eq] at e
    exact e
  case hb1 =>
    intro c y h
    have e := refLb_lo qi kp (imgOf i) (roiOf i) (keyOf c y) h
    rw [lb_eq] at e
    exact e
  case hb2 => exact fun q hq => refLb_hi qi kp _ _ q hq
  case har => exact area_eq qi i

/-! ## The two means -/

/-- The mean over the 4096 flattened rows of a per-row quantity is the mean over (image, region) of the same quantity:
    both sums run over the same rows (a (4096, 1) index is its first coordinate; a row is its image and region), and both
    are divided by the same constant. -/
theorem mean_eq (F : Fin 4096 → EReal) (G : Fin 256 → Fin 16 → EReal) (h : ∀ i, F i = G (imgOf i) (roiOf i)) :
    meanOf (fun y : (⟨2, ![4096, 1]⟩ : Shape).Idx => F ⟨(y 0).val, idx2_lt0 y⟩)
      = meanOf (fun y : (⟨2, ![256, 16]⟩ : Shape).Idx => G ⟨(y 0).val, idx2_lt0 y⟩ ⟨(y 1).val, idx2_lt1 y⟩) := by
  have L : ∑ y : (⟨2, ![4096, 1]⟩ : Shape).Idx, F ⟨(y 0).val, idx2_lt0 y⟩ = ∑ a : Fin 4096, F a := by
    rw [sum_idx2]
    refine Finset.sum_congr rfl fun a _ => ?_
    rw [Fin.sum_univ_one]
  have R : ∑ y : (⟨2, ![256, 16]⟩ : Shape).Idx, G ⟨(y 0).val, idx2_lt0 y⟩ ⟨(y 1).val, idx2_lt1 y⟩
      = ∑ b : Fin 256, ∑ n : Fin 16, G b n := by
    rw [sum_idx2]
  unfold meanOf
  rw [L, R, ← sum_rows]
  congr 2
  exact Finset.sum_congr rfl fun i _ => h i

end Bridge

open Bridge in
/-- On arguments with real entries and no zero feature vector the kernel's arrangement of the loss and the reference's
    agree: channel by channel the two means run over the same rows, and each row has the same loss. -/
theorem kerVal_eq_refVal (A0 A1 A2 A3 : Feat) (I4 I5 I6 I7 : Ids)
    (h0 : Good A0) (h1 : Good A1) (h2 : Good A2) (h3 : Good A3) :
    kerVal A0 A1 A2 A3 I4 I5 I6 I7 = refVal A0 A1 A2 A3 I4 I5 I6 I7 := by
  unfold kerVal refVal
  exact congrArg₂ (· + ·)
    (mean_eq (fun i => kerRow (tileOf A0 A3 A2 I4 I7 I6 I4 i))
      (fun b n => refRow (refX A0 A3 A2 I4 I6 b n) (refLb I4 I7 b n) (refArea I4 b n))
      (fun i => row_eq A0 A3 A2 I4 I7 I6 h0 h3 h2 i))
    (mean_eq (fun i => kerRow (tileOf A1 A2 A3 I5 I6 I7 I5 i))
      (fun b n => refRow (refX A1 A2 A3 I5 I7 b n) (refLb I5 I6 b n) (refArea I5 b n))
      (fun i => row_eq A1 A2 A3 I5 I6 I7 h1 h2 h3 i))

end Cert.RowLoss
end
-- ==== Proof.PreFacts.lean ====
/- What the printed precondition says of the four float arguments: real entries, no zero feature vector. -/
import proofs.«168933_j69020124447445_1_alg».proof.Pre_finite_inputs
import proofs.«168933_j69020124447445_1_alg».proof.Proof.RowData
import Idealize.ShloMosaic.Lib.ValueIdx
import Idealize.ShloMosaic.Lib.ReduceAll
import Idealize.ShloMosaic.PureOps.Ideal.Laws
noncomputable section
namespace Cert.RowLoss
open Idealize.ShloMosaic Idealize.ShloMosaic.ValueIdx

/-- A one-bit word made from a truth value is 1 exactly when the value is true. -/
private theorem ofBool_eq_one (b : Bool) : BitVec.ofBool b = 1#1 ↔ b = true := by cases b <;> decide

/-- An extended real whose absolute value `max a (-a)` is below `+inf` is a real number: at either infinity the absolute
    value is `+inf` itself, which is not below `+inf`. -/
private theorem real_of_abs_lt (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  unfold Ideal.cmp at h
  simp only [ofBool_eq_one, decide_eq_true_eq] at h
  induction a using EReal.rec with
  | bot => simp at h
  | top => simp at h
  | coe r => exact ⟨r, rfl⟩

/-- The comparison "greater than the zero word" read back: the zero word is 0. -/
private theorem pos_of_cmp (a : EReal) (h : Ideal.cmp .ogt a (Ideal.ofBits .f32 0x00000000#32) = 1#1) : (0 : EReal) < a := by
  unfold Ideal.cmp at h
  simp only [ofBool_eq_one, decide_eq_true_eq] at h
  rwa [Ideal.ofBits_zero_f32] at h

open Cert.Pre_finite_inputs in
/-- `all(|x| < +inf)` for one float argument: the conjunction over every index being 1, each element's comparison is 1,
    so each entry is a real number. -/
private theorem real_of_all [Facts] (x : Feat) (init : IVec S_ 1)
    (e : Host.reduce IntOp.andi (cmpf .olt (Host.absf (F := Ideal) (φ := .f32) x)
          (broadcastInDim S256x16x256 ![] Facts.bcast_S_S256x16x256 (constant (F := Ideal) S_ .f32 0x7F800000#32)))
        init Facts.reducesTo_S256x16x256_S_d0_1_2 Facts.h_S_ ix0 = 1#1) :
    ∀ y, ∃ r : ℝ, x y = (r : EReal) := fun y =>
  haveI : Subsingleton S_.Idx := ⟨fun a b => funext fun d => d.elim0⟩
  real_of_abs_lt (x y) (Host.reduce_andi_all _ init _ _ ix0 e y)

open Cert.Pre_finite_inputs in
/-- `all(sum(x * x, axis = -1) > 0)` for one float argument: at each (image, region) the compared value is the zero word
    plus the sum over the feature axis of the squares (the sum over one axis read at an index, whose inserted index is
    (image, region, feature)), and its comparison with the zero word being 1 says it is positive. -/
private theorem pos_of_all [Facts] (x : Feat) (init : IVec S_ 1)
    (e : Host.reduce IntOp.andi (cmpf .ogt
          (Host.reduceAdd (F := Ideal) (φ := .f32) (mulf x x) (constant (F := Ideal) S_ .f32 0x00000000#32)
            Facts.reducesTo_S256x16x256_S256x16_d2 Facts.h_S_)
          (broadcastInDim S256x16 ![] Facts.bcast_S_S256x16 (constant (F := Ideal) S_ .f32 0x00000000#32)))
        init Facts.reducesTo_S256x16_S_d0_1 Facts.h_S_ ix0 = 1#1) :
    ∀ (b : Fin 256) (n : Fin 16), (0 : EReal) < zeroW + ∑ k : Fin 256, x (ix3 b n k) * x (ix3 b n k) := fun b n => by
  haveI : Subsingleton S_.Idx := ⟨fun a b => funext fun d => d.elim0⟩
  have h1 := pos_of_cmp _ (Host.reduce_andi_all _ init _ _ ix0 e (ix2 b n))
  have hR : S256x16x256.Reduces [2] S256x16 := by decide
  have hl : ∀ k : Fin 256, hR.lift (ix2 b n) k = ix3 b n k := fun k => by
    funext a; fin_cases a <;> rfl
  have h2 : Host.reduceAdd (F := Ideal) (φ := .f32) (mulf x x) (constant (F := Ideal) S_ .f32 0x00000000#32)
            Facts.reducesTo_S256x16x256_S256x16_d2 Facts.h_S_ (ix2 b n)
      = zeroW + ∑ k : Fin 256, x (ix3 b n k) * x (ix3 b n k) := by
    refine (Ideal.hostReduceAdd_single Facts.reducesTo_S256x16x256_S256x16_d2 hR (mulf (F := Ideal) (φ := .f32) x x) zeroW (ix2 b n)).trans ?_
    show zeroW + ∑ k : Fin 256, (mulf (F := Ideal) (φ := .f32) x x) (hR.lift (ix2 b n) k) = _
    refine congrArg _ (Finset.sum_congr rfl fun k _ => ?_)
    rw [hl k]; rfl
  rw [h2] at h1; exact h1

/-- The printed precondition is the conjunction of eight `all`s, two for each float argument: read at its one index it
    splits into the eight, and each pair gives one argument's two facts. -/
theorem good_of_pre [Cert.Pre_finite_inputs.Facts] (A0 A1 A2 A3 : Feat) (I4 I5 I6 I7 : Ids)
    (h : Cert.Pre_finite_inputs.fn (F := Ideal) A0 A1 A2 A3 I4 I5 I6 I7 = fun _ => 1#1) :
    Good A0 ∧ Good A1 ∧ Good A2 ∧ Good A3 := by
  have e := congrFun h ix0
  dsimp only [Cert.Pre_finite_inputs.fn, Cert.Pre_finite_inputs.fn_part1, Cert.Pre_finite_inputs.fn_part2, andi] at e
  simp only [IntOp.andi_eq_one] at e
  obtain ⟨⟨⟨⟨⟨⟨⟨h0, h1⟩, h2⟩, h3⟩, g0⟩, g1⟩, g2⟩, g3⟩ := e
  exact ⟨⟨real_of_all A0 _ h0, pos_of_all A0 _ g0⟩, ⟨real_of_all A1 _ h1, pos_of_all A1 _ g1⟩,
    ⟨real_of_all A2 _ h2, pos_of_all A2 _ g2⟩, ⟨real_of_all A3 _ h3, pos_of_all A3 _ g3⟩⟩
end Cert.RowLoss
end
-- ==== Proof.lean ====
/-
  The certificate of a two-channel contrastive loss: a fused Pallas kernel against its jnp reference, over the
  extended reals.

  Both programs divide each of the 4·4096 feature vectors by its Euclidean norm, form for every query row the logits
  against all 4096 keys of the other view (positives) and of the same view (negatives, with 1e9 taken off the keys of the
  query's own object), and return the mean over the rows of  -w · (Σ labels·logits / max(n,1) − logsumexp(all logits))
  for the two channels, added. The kernel never forms the 4096 × 8192 logits: it walks the keys in eight tiles of 512 and
  keeps, per row, a running maximum and a running sum of exponentials rescaled whenever the maximum moves; the reference
  applies log-softmax to the concatenated logits. On arguments whose entries are real and whose feature vectors are not
  zero — which is what the precondition says; a zero vector would make the quotient by its norm 0/0 in both programs —
  every logit is real, the rescaling law exp(m − m')·exp(x − m) = exp(x − m') holds, and the two arrangements give each
  row the same loss (Proof/RowMath.lean, Proof/Bridge.lean).

  The three frames: the word-level kernel's and the idealized kernel's are the generated class-R frame certificates
  (taken from copies whose per-case run definitions have a larger elaboration budget and whose body obligation is cut into its three cases); the reference's is its run
  (stated over its stages, Proof/RefRunHand.lean) with the result dropped. `preserves`: the ideal pass rewrote nothing. `algebraic`: the idealized kernel's run read
  as a value (Proof/KPieces.lean, KStep.lean, KHost.lean, KRun.lean) and the reference's run read one operation
  at a time (Proof/RefRows.lean, RefValue.lean) end at the two arrangements of one number.
-/
import proofs.«168933_j69020124447445_1_alg».proof.Defs
import proofs.«168933_j69020124447445_1_alg».proof.Proof.Gen.Kernel
import proofs.«168933_j69020124447445_1_alg».proof.Proof.Gen.KernelIdeal
import proofs.«168933_j69020124447445_1_alg».proof.Proof.Gen.ReferenceIdeal
import proofs.«168933_j69020124447445_1_alg».proof.Proof.Gen.Pre_finite_inputs
import proofs.«168933_j69020124447445_1_alg».proof.Proof.KFrameS
import proofs.«168933_j69020124447445_1_alg».proof.Proof.KIFrameS
import proofs.«168933_j69020124447445_1_alg».proof.Proof.RefGathered
import proofs.«168933_j69020124447445_1_alg».proof.Proof.KRun
import proofs.«168933_j69020124447445_1_alg».proof.Proof.RefValue
import proofs.«168933_j69020124447445_1_alg».proof.Proof.Bridge
import proofs.«168933_j69020124447445_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs and leaves its arguments alone: the generated frame certificate. -/
theorem frame_k : Cert.frame_Kernel := fun m ρ _ => Cert.Kernel.GenP.frame m ρ

/-- The idealized kernel likewise. -/
theorem frame_ki : Cert.frame_KernelIdeal := fun m ρ _ => Cert.KernelIdeal.GenP.frame m ρ

/-- The reference runs and leaves its arguments alone: its generated run, the result forgotten. -/
theorem frame_ri : Cert.frame_ReferenceIdeal := fun m ρ _ =>
  (θ_run Cert.ReferenceIdeal.defs _ _).mono (fun _ h c => (h c).2) (Cert.ReferenceIdeal.RunHand.run (F := Ideal) m ρ)

/-- From memories that agree on the eight arguments and satisfy the precondition, the idealized kernel ends at the mean
    row loss in the tiled arrangement and the reference at the same number in the concatenated arrangement. -/
theorem algebraic : Cert.algebraic_KernelIdeal_ReferenceIdeal := by
  intro m ρ m' ρ' hpre hagree
  refine ⟨fun c => fun _ => Cert.RowLoss.kerVal (Cert.KernelIdeal.KValue.A0 m c) (Cert.KernelIdeal.KValue.A1 m c)
      (Cert.KernelIdeal.KValue.A2 m c) (Cert.KernelIdeal.KValue.A3 m c) (Cert.KernelIdeal.KValue.I4 m c)
      (Cert.KernelIdeal.KValue.I5 m c) (Cert.KernelIdeal.KValue.I6 m c) (Cert.KernelIdeal.KValue.I7 m c),
    Cert.KernelIdeal.KValue.run m ρ, ?_⟩
  refine (θ_run Cert.ReferenceIdeal.defs _ _).mono (fun _ h c => ⟨(h c).1.trans ?_, (h c).2⟩)
    (Cert.ReferenceIdeal.RunHand.run (F := Ideal) m' ρ')
  obtain ⟨g0, g1, g2, g3⟩ := Cert.RowLoss.good_of_pre _ _ _ _ _ _ _ _ (hpre c)
  rw [Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  funext _
  exact (Cert.RowLoss.kerVal_eq_refVal _ _ _ _ _ _ _ _ g0 g1 g2 g3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
